-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x275 : Shape := ⟨2, ![1024, 275]⟩
abbrev S1024x64 : Shape := ⟨2, ![1024, 64]⟩
abbrev S1024x1024 : Shape := ⟨2, ![1024, 1024]⟩
abbrev S275x64 : Shape := ⟨2, ![275, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S1024x275 : S_.BroadcastsInDim S1024x275 (![] : Fin 0 → Fin S1024x275.rank)
  reducesTo_S1024x275_S_d0_1 : S1024x275.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S275x64 : S_.BroadcastsInDim S275x64 (![] : Fin 0 → Fin S275x64.rank)
  reducesTo_S275x64_S_d0_1 : S275x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg2 : FVec F S1024x1024 .f32) (main_arg14 : FVec F S16 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_cst_28 : FVec F S_ .f32 := constant S_ .f32 0x00000000#32
  let main_v74 : FVec F S1024x1024 .f32 := broadcastInDim S1024x1024 ![] bcast_S_S1024x1024 main_cst_28
  let main_v75 : IVec S1024x1024 1 := cmpf .oeq main_arg2 main_v74
  let main_cst_29 : FVec F S_ .f32 := constant S_ .f32 0x3F800000#32
  let main_v76 : FVec F S1024x1024 .f32 := broadcastInDim S1024x1024 ![] bcast_S_S1024x1024 main_cst_29
  let main_v77 : IVec S1024x1024 1 := cmpf .oeq main_arg2 main_v76
  let main_v78 : IVec S1024x1024 1 := ori main_v75 main_v77
  let main_c_30 : IVec S_ 1 := constantI S_ 1 1#1
  let main_v79 : IVec S_ 1 := (fun x v => Host.reduce IntOp.andi x v reducesTo_S1024x1024_S_d0_1 h_S_) main_v78 main_c_30
  let main_v80 : IVec S_ 1 := andi main_v73 main_v79
  main_v80

def fn_part3 {F : FTy → Type} [FloatOps F] (main_arg2 : FVec F S1024x1024 .f32) (main_arg11 : FVec F S64x64 .f32) (main_arg12 : FVec F S64 .f32) (main_arg13 : FVec F S64x16 .f32) (main_arg14 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x16 .f32 := Host.absf main_arg13
  let main_cst_24 : FVec F S_ .f32 := constant S_ .f32 0x7F800000#32
  let main_v65 : FVec F S64x16 .f32 := broadcastInDim S64x16 ![] bcast_S_S64x16 main_cst_24
  let main_v66 : IVec S64x16 1 := cmpf .olt main_v64 main_v65
  let main_c_25 : IVec S_ 1 := constantI S_ 1 1#1
  let main_v67 : IVec S_ 1 := (fun x v => Host.reduce IntOp.andi x v reducesTo_S64x16_S_d0_1 h_S_) main_v66 main_c_25
  fn_part4 (F := F) main_arg2 main_arg14 main_v63 main_v67

def fn_part2 {F : FTy → Type} [FloatOps F] (main_arg2 : FVec F S1024x1024 .f32) (main_arg7 : FVec F S192 .f32) (main_arg8 : FVec F S192 .f32) (main_arg9 : FVec F S64x64 .f32) (main_arg10 : FVec F S64 .f32) (main_arg11 : FVec F S64x64 .f32) (main_arg12 : FVec F S64 .f32) (main_arg13 : FVec F S64x16 .f32) (main_arg14 : FVec F S16 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg2 main_arg11 main_arg12 main_arg13 main_arg14 main_v48 main_v49 main_v50

def fn_part1 {F : FTy → Type} [FloatOps F] (main_arg2 : FVec F S1024x1024 .f32) (main_arg4 : FVec F S64 .f32) (main_arg5 : FVec F S192x64 .f32) (main_arg6 : FVec F S192x64 .f32) (main_arg7 : FVec F S192 .f32) (main_arg8 : FVec F S192 .f32) (main_arg9 : FVec F S64x64 .f32) (main_arg10 : FVec F S64 .f32) (main_arg11 : FVec F S64x64 .f32) (main_arg12 : FVec F S64 .f32) (main_arg13 : FVec F S64x16 .f32) (main_arg14 : FVec F S16 .f32) (main_v13 : IVec S_ 1) (main_v16 : IVec S275x64 1) : IVec S_ 1 :=
  let main_c_5 : IVec S_ 1 := constantI S_ 1 1#1
  let main_v17 : IVec S_ 1 := (fun x v => Host.reduce IntOp.andi x v reducesTo_S275x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg5
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg2 main_arg7 main_arg8 main_arg9 main_arg10 main_arg11 main_arg12 main_arg13 main_arg14 main_v33

def fn {F : FTy → Type} [FloatOps F] (main_arg0 : FVec F S1024x275 .f32) (main_arg1 : FVec F S1024x64 .f32) (main_arg2 : FVec F S1024x1024 .f32) (main_arg3 : FVec F S275x64 .f32) (main_arg4 : FVec F S64 .f32) (main_arg5 : FVec F S192x64 .f32) (main_arg6 : FVec F S192x64 .f32) (main_arg7 : FVec F S192 .f32) (main_arg8 : FVec F S192 .f32) (main_arg9 : FVec F S64x64 .f32) (main_arg10 : FVec F S64 .f32) (main_arg11 : FVec F S64x64 .f32) (main_arg12 : FVec F S64 .f32) (main_arg13 : FVec F S64x16 .f32) (main_arg14 : FVec F S16 .f32) : IVec S_ 1 :=
  let main_v0 : FVec F S1024x275 .f32 := Host.absf main_arg0
  let main_cst : FVec F S_ .f32 := constant S_ .f32 0x7F800000#32
  let main_v1 : FVec F S1024x275 .f32 := broadcastInDim S1024x275 ![] bcast_S_S1024x275 main_cst
  let main_v2 : IVec S1024x275 1 := cmpf .olt main_v0 main_v1
  let main_c : IVec S_ 1 := constantI S_ 1 1#1
  let main_v3 : IVec S_ 1 := (fun x v => Host.reduce IntOp.andi x v reducesTo_S1024x275_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S275x64 .f32 := Host.absf main_arg3
  let main_cst_4 : FVec F S_ .f32 := constant S_ .f32 0x7F800000#32
  let main_v15 : FVec F S275x64 .f32 := broadcastInDim S275x64 ![] bcast_S_S275x64 main_cst_4
  let main_v16 : IVec S275x64 1 := cmpf .olt main_v14 main_v15
  fn_part1 (F := F) main_arg2 main_arg4 main_arg5 main_arg6 main_arg7 main_arg8 main_arg9 main_arg10 main_arg11 main_arg12 main_arg13 main_arg14 main_v13 main_v16
-- ==== Kernel.lean ====
abbrev S1024x275 : Shape := ⟨2, ![1024, 275]⟩
abbrev S1024x64 : Shape := ⟨2, ![1024, 64]⟩
abbrev S1024x1024 : Shape := ⟨2, ![1024, 1024]⟩
abbrev S275x64 : Shape := ⟨2, ![275, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S64x16 : Shape := ⟨2, ![64, 16]⟩
abbrev S16 : Shape := ⟨1, ![16]⟩
abbrev S16x64 : Shape := ⟨2, ![16, 64]⟩
abbrev S1x64 : Shape := ⟨2, ![1, 64]⟩
abbrev S3x64 : Shape := ⟨2, ![3, 64]⟩
abbrev S_ : Shape := ⟨0, ![]⟩
abbrev S48 : Shape := ⟨1, ![48]⟩
abbrev S6x64 : Shape := ⟨2, ![6, 64]⟩
abbrev S819x64 : Shape := ⟨2, ![819, 64]⟩
abbrev S1024x16 : Shape := ⟨2, ![1024, 16]⟩
abbrev S1024x1 : Shape := ⟨2, ![1024, 1]⟩
abbrev S1x16 : Shape := ⟨2, ![1, 16]⟩

abbrev nBuf : Space → Nat
  | .hbm => 30
  | .vmem => 6
  | .smem => 0
  | _ => 0

abbrev bufTy : (tb : Table) → Fin (tcTables nBuf tb) → BufTy
  | .hbm, ⟨0, _⟩ => ⟨S1024x275, .f32⟩
  | .hbm, ⟨1, _⟩ => ⟨S1024x64, .f32⟩
  | .hbm, ⟨2, _⟩ => ⟨S1024x1024, .f32⟩
  | .hbm, ⟨3, _⟩ => ⟨S275x64, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x16, .f32⟩
  | .hbm, ⟨14, _⟩ => ⟨S16, .f32⟩
  | .hbm, ⟨15, _⟩ => ⟨S16x64, .f32⟩
  | .hbm, ⟨16, _⟩ => ⟨S1x64, .f32⟩
  | .hbm, ⟨17, _⟩ => ⟨S3x64, .f32⟩
  | .hbm, ⟨18, _⟩ => ⟨S3x64, .f32⟩
  | .hbm, ⟨19, _⟩ => ⟨S1x64, .f32⟩
  | .hbm, ⟨20, _⟩ => ⟨S1x64, .f32⟩
  | .hbm, ⟨21, _⟩ => ⟨S_, .f32⟩
  | .hbm, ⟨22, _⟩ => ⟨S48, .f32⟩
  | .hbm, ⟨23, _⟩ => ⟨S64, .f32⟩
  | .hbm, ⟨24, _⟩ => ⟨S1x64, .f32⟩
  | .hbm, ⟨25, _⟩ => ⟨S_, .f32⟩
  | .hbm, ⟨26, _⟩ => ⟨S6x64, .f32⟩
  | .hbm, ⟨27, _⟩ => ⟨S819x64, .f32⟩
  | .hbm, ⟨28, _⟩ => ⟨S1024x16, .f32⟩
  | .hbm, ⟨29, _⟩ => ⟨S1024x64, .f32⟩
  | .local _ .vmem, ⟨0, _⟩ => ⟨S1024x275, .f32⟩
  | .local _ .vmem, ⟨1, _⟩ => ⟨S1024x64, .f32⟩
  | .local _ .vmem, ⟨2, _⟩ => ⟨S1024x1024, .f32⟩
  | .local _ .vmem, ⟨3, _⟩ => ⟨S819x64, .f32⟩
  | .local _ .vmem, ⟨4, _⟩ => ⟨S1024x16, .f32⟩
  | .local _ .vmem, ⟨5, _⟩ => ⟨S1024x64, .f32⟩
  | _, _ => ⟨S1024x275, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x275 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S819x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  transposes_S64x16_S16x64_1_0 : S64x16.Transposes [1, 0] S16x64
  bcast_S64_S1x64_1 : S64.BroadcastsInDim S1x64 (![1] : Fin 1 → Fin S1x64.rank)
  shapeCasts_S192_S3x64 : S192.ShapeCasts S3x64
  bcast_S_S48 : S_.BroadcastsInDim S48 (![] : Fin 0 → Fin S48.rank)
  concatenates_S16_S48_S64_d0 : Shape.Concatenates [S16, S48] S64 0
  bcast_S_S6x64 : S_.BroadcastsInDim S6x64 (![] : Fin 0 → Fin S6x64.rank)
  concatenates_S192x64_S192x64_S64x64_S64x64_S16x64_S1x64_S3x64_S3x64_S1x64_S1x64_S1x64_S6x64_S275x64_S819x64_d0 : Shape.Concatenates [S192x64, S192x64, S64x64, S64x64, S16x64, S1x64, S3x64, S3x64, S1x64, S1x64, S1x64, S6x64, S275x64] S819x64 0
  inb_S1024x275_S1024x275_0_0 : ∀ a, (![0, 0] : Fin 2 → Nat) a + S1024x275.size a ≤ S1024x275.size a
  h_S1024x275 : 0 < S1024x275.numel
  inb_S819x64_S275x64_544_0 : ∀ a, (![544, 0] : Fin 2 → Nat) a + S275x64.size a ≤ S819x64.size a
  h_S275x64 : 0 < S275x64.numel
  shapeCasts_S275x64_S275x64 : S275x64.ShapeCasts S275x64
  inb_S819x64_S1x64_528_0 : ∀ a, (![528, 0] : Fin 2 → Nat) a + S1x64.size a ≤ S819x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  inb_S819x64_S64x64_0_0 : ∀ a, (![0, 0] : Fin 2 → Nat) a + S64x64.size a ≤ S819x64.size a
  h_S64x64 : 0 < S64x64.numel
  shapeCasts_S64x64_S64x64 : S64x64.ShapeCasts S64x64
  inb_S819x64_S1x64_529_0 : ∀ a, (![529, 0] : Fin 2 → Nat) a + S1x64.size a ≤ S819x64.size a
  inb_S819x64_S64x64_64_0 : ∀ a, (![64, 0] : Fin 2 → Nat) a + S64x64.size a ≤ S819x64.size a
  inb_S819x64_S1x64_530_0 : ∀ a, (![530, 0] : Fin 2 → Nat) a + S1x64.size a ≤ S819x64.size a
  inb_S819x64_S64x64_128_0 : ∀ a, (![128, 0] : Fin 2 → Nat) a + S64x64.size a ≤ S819x64.size a
  inb_S819x64_S1x64_531_0 : ∀ a, (![531, 0] : Fin 2 → Nat) a + S1x64.size a ≤ S819x64.size a
  inb_S819x64_S64x64_192_0 : ∀ a, (![192, 0] : Fin 2 → Nat) a + S64x64.size a ≤ S819x64.size a
  inb_S819x64_S1x64_532_0 : ∀ a, (![532, 0] : Fin 2 → Nat) a + S1x64.size a ≤ S819x64.size a
  inb_S819x64_S64x64_256_0 : ∀ a, (![256, 0] : Fin 2 → Nat) a + S64x64.size a ≤ S819x64.size a
  inb_S819x64_S1x64_533_0 : ∀ a, (![533, 0] : Fin 2 → Nat) a + S1x64.size a ≤ S819x64.size a
  inb_S819x64_S64x64_320_0 : ∀ a, (![320, 0] : Fin 2 → Nat) a + S64x64.size a ≤ S819x64.size a
  inb_S819x64_S1x64_534_0 : ∀ a, (![534, 0] : Fin 2 → Nat) a + S1x64.size a ≤ S819x64.size a
  inb_S1024x1024_S1024x1024_0_0 : ∀ a, (![0, 0] : Fin 2 → Nat) a + S1024x1024.size a ≤ S1024x1024.size a
  h_S1024x1024 : 0 < S1024x1024.numel
  inb_S819x64_S64x64_384_0 : ∀ a, (![384, 0] : Fin 2 → Nat) a + S64x64.size a ≤ S819x64.size a
  broadcasts_S1024x1_S1024x64 : S1024x1.Broadcasts S1024x64
  inb_S819x64_S1x64_535_0 : ∀ a, (![535, 0] : Fin 2 → Nat) a + S1x64.size a ≤ S819x64.size a
  inb_S819x64_S64x64_448_0 : ∀ a, (![448, 0] : Fin 2 → Nat) a + S64x64.size a ≤ S819x64.size a
  inb_S819x64_S1x64_536_0 : ∀ a, (![536, 0] : Fin 2 → Nat) a + S1x64.size a ≤ S819x64.size a
  inb_S819x64_S16x64_512_0 : ∀ a, (![512, 0] : Fin 2 → Nat) a + S16x64.size a ≤ S819x64.size a
  h_S16x64 : 0 < S16x64.numel
  shapeCasts_S16x64_S16x64 : S16x64.ShapeCasts S16x64
  inb_S819x64_S1x16_537_0 : ∀ a, (![537, 0] : Fin 2 → Nat) a + S1x16.size a ≤ S819x64.size a
  h_S1x16 : 0 < S1x16.numel
  shapeCasts_S1x16_S1x16 : S1x16.ShapeCasts S1x16
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  dot_S1024x275_S275x64_S1024x64_1_0_0_1_n_n_wf : DotDims.WF S1024x275 S275x64 S1024x64 [1] [0] [0] [1] [] []
  dot_S1024x64_S64x64_S1024x64_1_1_0_0_n_n_wf : DotDims.WF S1024x64 S64x64 S1024x64 [1] [1] [0] [0] [] []
  dot_S1024x1024_S1024x1_S1024x1_0_0_1_1_n_n_wf : DotDims.WF S1024x1024 S1024x1 S1024x1 [0] [0] [1] [1] [] []
  dot_S1024x64_S64x64_S1024x64_1_0_0_1_n_n_wf : DotDims.WF S1024x64 S64x64 S1024x64 [1] [0] [0] [1] [] []
  dot_S1024x1024_S1024x64_S1024x64_0_0_1_1_n_n_wf : DotDims.WF S1024x1024 S1024x64 S1024x64 [0] [0] [1] [1] [] []
  dot_S1024x64_S16x64_S1024x16_1_1_0_0_n_n_wf : DotDims.WF S1024x64 S16x64 S1024x16 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

def dot_S1024x275_S275x64_S1024x64_1_0_0_1_n_n : DotDims S1024x275 S275x64 S1024x64 where
  lhsContracting := [1]
  rhsContracting := [0]
  lhsNonContracting := [0]
  rhsNonContracting := [1]
  lhsBatch := []
  rhsBatch := []
  wf := dot_S1024x275_S275x64_S1024x64_1_0_0_1_n_n_wf
def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf
def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x64_S1024x64_0_0_1_1_n_n : DotDims S1024x1024 S1024x64 S1024x64 where
  lhsContracting := [0]
  rhsContracting := [0]
  lhsNonContracting := [1]
  rhsNonContracting := [1]
  lhsBatch := []
  rhsBatch := []
  wf := dot_S1024x1024_S1024x64_S1024x64_0_0_1_1_n_n_wf
def dot_S1024x64_S16x64_S1024x16_1_1_0_0_n_n : DotDims S1024x64 S16x64 S1024x16 where
  lhsContracting := [1]
  rhsContracting := [1]
  lhsNonContracting := [0]
  rhsNonContracting := [0]
  lhsBatch := []
  rhsBatch := []
  wf := dot_S1024x64_S16x64_S1024x16_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v10) false false (stage0_3 0) (sem0_3 0) (Memref.isWhole_whole _) (hstage0_3 0)

abbrev win0_4 : Pipeline.Window sig grid0 :=
  Pipeline.Window.whole (Memref.whole main_v11_0) true false (stage0_4 0) (sem0_4 0) (Memref.isWhole_whole _) (hstage0_4 0)

abbrev win0_5 : Pipeline.Window sig grid0 :=
  Pipeline.Window.whole (Memref.whole main_v11_1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x275 : Shape := ⟨2, ![1024, 275]⟩
abbrev S1024x64 : Shape := ⟨2, ![1024, 64]⟩
abbrev S1024x1024 : Shape := ⟨2, ![1024, 1024]⟩
abbrev S275x64 : Shape := ⟨2, ![275, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S64x16 : Shape := ⟨2, ![64, 16]⟩
abbrev S16 : Shape := ⟨1, ![16]⟩
abbrev S1x64 : Shape := ⟨2, ![1, 64]⟩
abbrev S_ : Shape := ⟨0, ![]⟩
abbrev S64x192 : Shape := ⟨2, ![64, 192]⟩
abbrev S1024x192 : Shape := ⟨2, ![1024, 192]⟩
abbrev S1x192 : Shape := ⟨2, ![1, 192]⟩
abbrev S1048576 : Shape := ⟨1, ![1048576]⟩
abbrev S1024 : Shape := ⟨1, ![1024]⟩
abbrev S1049600 : Shape := ⟨1, ![1049600]⟩
abbrev S1049600x1 : Shape := ⟨2, ![1049600, 1]⟩
abbrev S1 : Shape := ⟨1, ![1]⟩
abbrev S1x1 : Shape := ⟨2, ![1, 1]⟩
abbrev S1049600x64 : Shape := ⟨2, ![1049600, 64]⟩
abbrev S1024x16 : Shape := ⟨2, ![1024, 16]⟩
abbrev S1x16 : Shape := ⟨2, ![1, 16]⟩

abbrev nBuf : Space → Nat
  | .hbm => 287
  | .vmem => 0
  | .smem => 0
  | _ => 0

abbrev hbmTy0_0 (i : Nat) : BufTy := match i % 128 with
  | 0 => ⟨S1024x275, .f32⟩
  | 1 => ⟨S1024x64, .f32⟩
  | 2 => ⟨S1024x1024, .f32⟩
  | 3 => ⟨S275x64, .f32⟩
  | 4 => ⟨S64, .f32⟩
  | 5 => ⟨S192x64, .f32⟩
  | 6 => ⟨S192x64, .f32⟩
  | 7 => ⟨S192, .f32⟩
  | 8 => ⟨S192, .f32⟩
  | 9 => ⟨S64x64, .f32⟩
  | 10 => ⟨S64, .f32⟩
  | 11 => ⟨S64x64, .f32⟩
  | 12 => ⟨S64, .f32⟩
  | 13 => ⟨S64x16, .f32⟩
  | 14 => ⟨S16, .f32⟩
  | 15 => ⟨S1024x64, .f32⟩
  | 16 => ⟨S1x64, .f32⟩
  | 17 => ⟨S1024x64, .f32⟩
  | 18 => ⟨S1024x64, .f32⟩
  | 19 => ⟨S_, .f32⟩
  | 20 => ⟨S1024x64, .f32⟩
  | 21 => ⟨S1024x64, .f32⟩
  | 22 => ⟨S64x192, .f32⟩
  | 23 => ⟨S1024x192, .f32⟩
  | 24 => ⟨S1x192, .f32⟩
  | 25 => ⟨S1024x192, .f32⟩
  | 26 => ⟨S1024x192, .f32⟩
  | 27 => ⟨S64x192, .f32⟩
  | 28 => ⟨S1024x192, .f32⟩
  | 29 => ⟨S1x192, .f32⟩
  | 30 => ⟨S1024x192, .f32⟩
  | 31 => ⟨S1024x192, .f32⟩
  | 32 => ⟨S1024x64, .f32⟩
  | 33 => ⟨S1024x64, .f32⟩
  | 34 => ⟨S1024x64, .f32⟩
  | 35 => ⟨S1024x64, .f32⟩
  | 36 => ⟨S1024x64, .f32⟩
  | 37 => ⟨S1024x64, .f32⟩
  | 38 => ⟨S1024x64, .f32⟩
  | 39 => ⟨S1024x64, .f32⟩
  | 40 => ⟨S1024x64, .f32⟩
  | 41 => ⟨S_, .f32⟩
  | 42 => ⟨S1024x64, .f32⟩
  | 43 => ⟨S1024x64, .f32⟩
  | 44 => ⟨S_, .f32⟩
  | 45 => ⟨S1024x64, .f32⟩
  | 46 => ⟨S1024x64, .f32⟩
  | 47 => ⟨S1024x64, .f32⟩
  | 48 => ⟨S1024x64, .f32⟩
  | 49 => ⟨S1024x64, .f32⟩
  | 50 => ⟨S_, .f32⟩
  | 51 => ⟨S1024x64, .f32⟩
  | 52 => ⟨S1024x64, .f32⟩
  | 53 => ⟨S_, .f32⟩
  | 54 => ⟨S1024x64, .f32⟩
  | 55 => ⟨S1024x64, .f32⟩
  | 56 => ⟨S1024x64, .f32⟩
  | 57 => ⟨S1024x64, .f32⟩
  | 58 => ⟨S1024x64, .f32⟩
  | 59 => ⟨S_, .f32⟩
  | 60 => ⟨S1024x64, .f32⟩
  | 61 => ⟨S1024x64, .f32⟩
  | 62 => ⟨S1024x64, .f32⟩
  | 63 => ⟨S1024x64, .f32⟩
  | 64 => ⟨S1024x64, .f32⟩
  | 65 => ⟨S1048576, .i32⟩
  | 66 => ⟨S_, .i32⟩
  | 67 => ⟨S_, .i32⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i1⟩
  | 74 => ⟨S1048576, .i32⟩
  | 75 => ⟨S1048576, .i32⟩
  | 76 => ⟨S_, .i32⟩
  | 77 => ⟨S1048576, .i32⟩
  | 78 => ⟨S1048576, .i1⟩
  | 79 => ⟨S1048576, .i1⟩
  | 80 => ⟨S_, .i32⟩
  | 81 => ⟨S1048576, .i32⟩
  | 82 => ⟨S1048576, .i32⟩
  | 83 => ⟨S1048576, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i1⟩
  | 98 => ⟨S_, .i32⟩
  | 99 => ⟨S_, .i1⟩
  | 100 => ⟨S1048576, .i1⟩
  | 101 => ⟨S1048576, .i1⟩
  | 102 => ⟨S1048576, .i1⟩
  | 103 => ⟨S1048576, .i32⟩
  | 104 => ⟨S1048576, .i32⟩
  | 105 => ⟨S1048576, .i32⟩
  | 106 => ⟨S1048576, .f32⟩
  | 107 => ⟨S_, .f32⟩
  | 108 => ⟨S1048576, .f32⟩
  | 109 => ⟨S1048576, .i1⟩
  | 110 => ⟨S_, .f32⟩
  | 111 => ⟨S_, .f32⟩
  | 112 => ⟨S1048576, .f32⟩
  | 113 => ⟨S1048576, .f32⟩
  | 114 => ⟨S1048576, .f32⟩
  | 115 => ⟨S1048576, .f32⟩
  | 116 => ⟨S1024, .i32⟩
  | 117 => ⟨S1049600, .i32⟩
  | 118 => ⟨S1049600, .i32⟩
  | 119 => ⟨S_, .f32⟩
  | 120 => ⟨S1024, .f32⟩
  | 121 => ⟨S1049600, .f32⟩
  | 122 => ⟨S_, .f32⟩
  | 123 => ⟨S1024, .f32⟩
  | 124 => ⟨S_, .i32⟩
  | 125 => ⟨S1049600, .i32⟩
  | 126 => ⟨S1049600, .i1⟩
  | 127 => ⟨S_, .i32⟩
  | _ => ⟨S1024x275, .f32⟩

abbrev hbmTy0_1 (i : Nat) : BufTy := match i % 128 with
  | 0 => ⟨S1049600, .i32⟩
  | 1 => ⟨S1049600, .i32⟩
  | 2 => ⟨S1049600, .i32⟩
  | 3 => ⟨S1049600x1, .i32⟩
  | 4 => ⟨S1024, .f32⟩
  | 5 => ⟨S_, .f32⟩
  | 6 => ⟨S1024, .f32⟩
  | 7 => ⟨S1024, .i1⟩
  | 8 => ⟨S1024, .f32⟩
  | 9 => ⟨S_, .f32⟩
  | 10 => ⟨S1024, .f32⟩
  | 11 => ⟨S1024, .f32⟩
  | 12 => ⟨S_, .f32⟩
  | 13 => ⟨S_, .f32⟩
  | 14 => ⟨S1024, .f32⟩
  | 15 => ⟨S1024, .f32⟩
  | 16 => ⟨S_, .i32⟩
  | 17 => ⟨S1049600, .i32⟩
  | 18 => ⟨S1049600, .i1⟩
  | 19 => ⟨S_, .i32⟩
  | 20 => ⟨S1049600, .i32⟩
  | 21 => ⟨S1049600, .i32⟩
  | 22 => ⟨S1049600, .i32⟩
  | 23 => ⟨S1049600x1, .i32⟩
  | 24 => ⟨S1049600, .f32⟩
  | 25 => ⟨S_, .i32⟩
  | 26 => ⟨S1049600, .i32⟩
  | 27 => ⟨S1049600, .i1⟩
  | 28 => ⟨S_, .i32⟩
  | 29 => ⟨S1049600, .i32⟩
  | 30 => ⟨S1049600, .i32⟩
  | 31 => ⟨S1049600, .i32⟩
  | 32 => ⟨S1049600x1, .i32⟩
  | 33 => ⟨S1049600, .f32⟩
  | 34 => ⟨S1049600, .f32⟩
  | 35 => ⟨S1049600, .f32⟩
  | 36 => ⟨S1024x64, .f32⟩
  | 37 => ⟨S_, .i32⟩
  | 38 => ⟨S1049600, .i32⟩
  | 39 => ⟨S1049600, .i1⟩
  | 40 => ⟨S_, .i32⟩
  | 41 => ⟨S1049600, .i32⟩
  | 42 => ⟨S1049600, .i32⟩
  | 43 => ⟨S1049600, .i32⟩
  | 44 => ⟨S1049600x1, .i32⟩
  | 45 => ⟨S1, .i32⟩
  | 46 => ⟨S_, .i32⟩
  | 47 => ⟨S1049600x1, .i32⟩
  | 48 => ⟨S1049600x1, .i1⟩
  | 49 => ⟨S1x1, .i32⟩
  | 50 => ⟨S1049600x1, .i32⟩
  | 51 => ⟨S1049600x1, .i1⟩
  | 52 => ⟨S1049600x1, .i1⟩
  | 53 => ⟨S_, .i1⟩
  | 54 => ⟨S1049600, .i1⟩
  | 55 => ⟨S1049600x64, .f32⟩
  | 56 => ⟨S1049600x64, .i1⟩
  | 57 => ⟨S_, .f32⟩
  | 58 => ⟨S1049600x64, .f32⟩
  | 59 => ⟨S1049600x64, .f32⟩
  | 60 => ⟨S1049600x1, .f32⟩
  | 61 => ⟨S1049600x64, .f32⟩
  | 62 => ⟨S1049600x64, .f32⟩
  | 63 => ⟨S_, .f32⟩
  | 64 => ⟨S1024x64, .f32⟩
  | 65 => ⟨S1049600x1, .i32⟩
  | 66 => ⟨S1024x64, .f32⟩
  | 67 => ⟨S1x64, .f32⟩
  | 68 => ⟨S1024x64, .f32⟩
  | 69 => ⟨S1024x64, .f32⟩
  | 70 => ⟨S_, .f32⟩
  | 71 => ⟨S1024x64, .f32⟩
  | 72 => ⟨S1024x64, .f32⟩
  | 73 => ⟨S1024, .i32⟩
  | 74 => ⟨S1049600, .i32⟩
  | 75 => ⟨S1049600, .i32⟩
  | 76 => ⟨S_, .f32⟩
  | 77 => ⟨S1024, .f32⟩
  | 78 => ⟨S1049600, .f32⟩
  | 79 => ⟨S_, .f32⟩
  | 80 => ⟨S1024, .f32⟩
  | 81 => ⟨S_, .i32⟩
  | 82 => ⟨S1049600, .i32⟩
  | 83 => ⟨S1049600, .i1⟩
  | 84 => ⟨S_, .i32⟩
  | 85 => ⟨S1049600, .i32⟩
  | 86 => ⟨S1049600, .i32⟩
  | 87 => ⟨S1049600, .i32⟩
  | 88 => ⟨S1049600x1, .i32⟩
  | 89 => ⟨S1024, .f32⟩
  | 90 => ⟨S_, .f32⟩
  | 91 => ⟨S1024, .f32⟩
  | 92 => ⟨S1024, .i1⟩
  | 93 => ⟨S1024, .f32⟩
  | 94 => ⟨S_, .f32⟩
  | 95 => ⟨S1024, .f32⟩
  | 96 => ⟨S1024, .f32⟩
  | 97 => ⟨S_, .f32⟩
  | 98 => ⟨S_, .f32⟩
  | 99 => ⟨S1024, .f32⟩
  | 100 => ⟨S1024, .f32⟩
  | 101 => ⟨S_, .i32⟩
  | 102 => ⟨S1049600, .i32⟩
  | 103 => ⟨S1049600, .i1⟩
  | 104 => ⟨S_, .i32⟩
  | 105 => ⟨S1049600, .i32⟩
  | 106 => ⟨S1049600, .i32⟩
  | 107 => ⟨S1049600, .i32⟩
  | 108 => ⟨S1049600x1, .i32⟩
  | 109 => ⟨S1049600, .f32⟩
  | 110 => ⟨S_, .i32⟩
  | 111 => ⟨S1049600, .i32⟩
  | 112 => ⟨S1049600, .i1⟩
  | 113 => ⟨S_, .i32⟩
  | 114 => ⟨S1049600, .i32⟩
  | 115 => ⟨S1049600, .i32⟩
  | 116 => ⟨S1049600, .i32⟩
  | 117 => ⟨S1049600x1, .i32⟩
  | 118 => ⟨S1049600, .f32⟩
  | 119 => ⟨S1049600, .f32⟩
  | 120 => ⟨S1049600, .f32⟩
  | 121 => ⟨S1024x64, .f32⟩
  | 122 => ⟨S_, .i32⟩
  | 123 => ⟨S1049600, .i32⟩
  | 124 => ⟨S1049600, .i1⟩
  | 125 => ⟨S_, .i32⟩
  | 126 => ⟨S1049600, .i32⟩
  | 127 => ⟨S1049600, .i32⟩
  | _ => ⟨S1024x275, .f32⟩

abbrev hbmTy0_2 (i : Nat) : BufTy := match i % 128 with
  | 0 => ⟨S1049600, .i32⟩
  | 1 => ⟨S1049600x1, .i32⟩
  | 2 => ⟨S1, .i32⟩
  | 3 => ⟨S_, .i32⟩
  | 4 => ⟨S1049600x1, .i32⟩
  | 5 => ⟨S1049600x1, .i1⟩
  | 6 => ⟨S1x1, .i32⟩
  | 7 => ⟨S1049600x1, .i32⟩
  | 8 => ⟨S1049600x1, .i1⟩
  | 9 => ⟨S1049600x1, .i1⟩
  | 10 => ⟨S_, .i1⟩
  | 11 => ⟨S1049600, .i1⟩
  | 12 => ⟨S1049600x64, .f32⟩
  | 13 => ⟨S1049600x64, .i1⟩
  | 14 => ⟨S_, .f32⟩
  | 15 => ⟨S1049600x64, .f32⟩
  | 16 => ⟨S1049600x64, .f32⟩
  | 17 => ⟨S1049600x1, .f32⟩
  | 18 => ⟨S1049600x64, .f32⟩
  | 19 => ⟨S1049600x64, .f32⟩
  | 20 => ⟨S_, .f32⟩
  | 21 => ⟨S1024x64, .f32⟩
  | 22 => ⟨S1049600x1, .i32⟩
  | 23 => ⟨S1024x64, .f32⟩
  | 24 => ⟨S1x64, .f32⟩
  | 25 => ⟨S1024x64, .f32⟩
  | 26 => ⟨S1024x64, .f32⟩
  | 27 => ⟨S1024x16, .f32⟩
  | 28 => ⟨S1x16, .f32⟩
  | 29 => ⟨S1024x16, .f32⟩
  | 30 => ⟨S1024x16, .f32⟩
  | _ => ⟨S1024x275, .f32⟩

abbrev hbmTy (i : Nat) : BufTy := match i / 128 with
  | 0 => hbmTy0_0 i
  | 1 => hbmTy0_1 i
  | 2 => hbmTy0_2 i
  | _ => ⟨S1024x275, .f32⟩

abbrev bufTy : (tb : Table) → Fin (tcTables nBuf tb) → BufTy
  | .hbm, ⟨i, _⟩ => hbmTy i
  | _, _ => ⟨S1024x275, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v44 : Ref sig .tc := ⟨.hbm, 83, rfl⟩
abbrev main_c_4 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v45 : Ref sig .tc := ⟨.hbm, 105, rfl⟩
abbrev main_v46 : Ref sig .tc := ⟨.hbm, 106, rfl⟩
abbrev main_cst_5 : Ref sig .tc := ⟨.hbm, 107, rfl⟩
abbrev main_v47 : Ref sig .tc := ⟨.hbm, 108, rfl⟩
abbrev main_v48 : Ref sig .tc := ⟨.hbm, 109, rfl⟩
abbrev main_cst_6 : Ref sig .tc := ⟨.hbm, 110, rfl⟩
abbrev main_cst_7 : Ref sig .tc := ⟨.hbm, 111, rfl⟩
abbrev main_call3_v0 : Ref sig .tc := ⟨.hbm, 112, rfl⟩
abbrev main_call3_v1 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_8 : Ref sig .tc := ⟨.hbm, 119, rfl⟩
abbrev main_v54 : Ref sig .tc := ⟨.hbm, 120, rfl⟩
abbrev main_v55 : Ref sig .tc := ⟨.hbm, 121, rfl⟩
abbrev main_cst_9 : Ref sig .tc := ⟨.hbm, 122, rfl⟩
abbrev main_v56 : Ref sig .tc := ⟨.hbm, 123, rfl⟩
abbrev main_c_10 : Ref sig .tc := ⟨.hbm, 124, rfl⟩
abbrev main_v57 : Ref sig .tc := ⟨.hbm, 125, rfl⟩
abbrev main_v58 : Ref sig .tc := ⟨.hbm, 126, rfl⟩
abbrev main_c_11 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_cst_12 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_cst_13 : Ref sig .tc := ⟨.hbm, 137, rfl⟩
abbrev main_v67 : Ref sig .tc := ⟨.hbm, 138, rfl⟩
abbrev main_v68 : Ref sig .tc := ⟨.hbm, 139, rfl⟩
abbrev main_cst_14 : Ref sig .tc := ⟨.hbm, 140, rfl⟩
abbrev main_call4_v0 : Ref sig .tc := ⟨.hbm, 141, rfl⟩
abbrev main_call4_v1 : Ref sig .tc := ⟨.hbm, 142, rfl⟩
abbrev main_v69 : Ref sig .tc := ⟨.hbm, 143, rfl⟩
abbrev main_c_15 : Ref sig .tc := ⟨.hbm, 144, rfl⟩
abbrev main_v70 : Ref sig .tc := ⟨.hbm, 145, rfl⟩
abbrev main_v71 : Ref sig .tc := ⟨.hbm, 146, rfl⟩
abbrev main_c_16 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_c_17 : Ref sig .tc := ⟨.hbm, 153, rfl⟩
abbrev main_v77 : Ref sig .tc := ⟨.hbm, 154, rfl⟩
abbrev main_v78 : Ref sig .tc := ⟨.hbm, 155, rfl⟩
abbrev main_c_18 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_call5_c : Ref sig .tc := ⟨.hbm, 165, rfl⟩
abbrev main_call5_v0 : Ref sig .tc := ⟨.hbm, 166, rfl⟩
abbrev main_call5_v1 : Ref sig .tc := ⟨.hbm, 167, rfl⟩
abbrev main_call5_c_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_c_1 : Ref sig .tc := ⟨.hbm, 173, rfl⟩
abbrev main_call5_c_2 : Ref sig .tc := ⟨.hbm, 174, rfl⟩
abbrev main_call5_v6 : Ref sig .tc := ⟨.hbm, 175, rfl⟩
abbrev main_call5_v7 : Ref sig .tc := ⟨.hbm, 176, rfl⟩
abbrev main_call5_v8 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_c_3 : Ref sig .tc := ⟨.hbm, 181, rfl⟩
abbrev main_call5_v12 : Ref sig .tc := ⟨.hbm, 182, rfl⟩
abbrev main_call5_v13 : Ref sig .tc := ⟨.hbm, 183, rfl⟩
abbrev main_call5_v14 : Ref sig .tc := ⟨.hbm, 184, rfl⟩
abbrev main_call5_cst : Ref sig .tc := ⟨.hbm, 185, rfl⟩
abbrev main_call5_v15 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_cst_19 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_call6_cst : Ref sig .tc := ⟨.hbm, 198, rfl⟩
abbrev main_call6_v0 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_cst_20 : Ref sig .tc := ⟨.hbm, 204, rfl⟩
abbrev main_v101 : Ref sig .tc := ⟨.hbm, 205, rfl⟩
abbrev main_v102 : Ref sig .tc := ⟨.hbm, 206, rfl⟩
abbrev main_cst_21 : Ref sig .tc := ⟨.hbm, 207, rfl⟩
abbrev main_v103 : Ref sig .tc := ⟨.hbm, 208, rfl⟩
abbrev main_c_22 : Ref sig .tc := ⟨.hbm, 209, rfl⟩
abbrev main_v104 : Ref sig .tc := ⟨.hbm, 210, rfl⟩
abbrev main_v105 : Ref sig .tc := ⟨.hbm, 211, rfl⟩
abbrev main_c_23 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_cst_24 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_cst_25 : Ref sig .tc := ⟨.hbm, 222, rfl⟩
abbrev main_v114 : Ref sig .tc := ⟨.hbm, 223, rfl⟩
abbrev main_v115 : Ref sig .tc := ⟨.hbm, 224, rfl⟩
abbrev main_cst_26 : Ref sig .tc := ⟨.hbm, 225, rfl⟩
abbrev main_call7_v0 : Ref sig .tc := ⟨.hbm, 226, rfl⟩
abbrev main_call7_v1 : Ref sig .tc := ⟨.hbm, 227, rfl⟩
abbrev main_v116 : Ref sig .tc := ⟨.hbm, 228, rfl⟩
abbrev main_c_27 : Ref sig .tc := ⟨.hbm, 229, rfl⟩
abbrev main_v117 : Ref sig .tc := ⟨.hbm, 230, rfl⟩
abbrev main_v118 : Ref sig .tc := ⟨.hbm, 231, rfl⟩
abbrev main_c_28 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_c_29 : Ref sig .tc := ⟨.hbm, 238, rfl⟩
abbrev main_v124 : Ref sig .tc := ⟨.hbm, 239, rfl⟩
abbrev main_v125 : Ref sig .tc := ⟨.hbm, 240, rfl⟩
abbrev main_c_30 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_call8_c : Ref sig .tc := ⟨.hbm, 250, rfl⟩
abbrev main_call8_v0 : Ref sig .tc := ⟨.hbm, 251, rfl⟩
abbrev main_call8_v1 : Ref sig .tc := ⟨.hbm, 252, rfl⟩
abbrev main_call8_c_0 : Ref sig .tc := ⟨.hbm, 253, rfl⟩
abbrev main_call8_v2 : Ref sig .tc := ⟨.hbm, 254, rfl⟩
abbrev main_call8_v3 : Ref sig .tc := ⟨.hbm, 255, rfl⟩
abbrev main_call8_v4 : Ref sig .tc := ⟨.hbm, 256, rfl⟩
abbrev main_call8_v5 : Ref sig .tc := ⟨.hbm, 257, rfl⟩
abbrev main_call8_c_1 : Ref sig .tc := ⟨.hbm, 258, rfl⟩
abbrev main_call8_c_2 : Ref sig .tc := ⟨.hbm, 259, rfl⟩
abbrev main_call8_v6 : Ref sig .tc := ⟨.hbm, 260, rfl⟩
abbrev main_call8_v7 : Ref sig .tc := ⟨.hbm, 261, rfl⟩
abbrev main_call8_v8 : Ref sig .tc := ⟨.hbm, 262, rfl⟩
abbrev main_call8_v9 : Ref sig .tc := ⟨.hbm, 263, rfl⟩
abbrev main_call8_v10 : Ref sig .tc := ⟨.hbm, 264, rfl⟩
abbrev main_call8_v11 : Ref sig .tc := ⟨.hbm, 265, rfl⟩
abbrev main_call8_c_3 : Ref sig .tc := ⟨.hbm, 266, rfl⟩
abbrev main_call8_v12 : Ref sig .tc := ⟨.hbm, 267, rfl⟩
abbrev main_call8_v13 : Ref sig .tc := ⟨.hbm, 268, rfl⟩
abbrev main_call8_v14 : Ref sig .tc := ⟨.hbm, 269, rfl⟩
abbrev main_call8_cst : Ref sig .tc := ⟨.hbm, 270, rfl⟩
abbrev main_call8_v15 : Ref sig .tc := ⟨.hbm, 271, rfl⟩
abbrev main_v134 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_cst_31 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_v143 : Ref sig .tc := ⟨.hbm, 282, rfl⟩
abbrev main_v144 : Ref sig .tc := ⟨.hbm, 283, rfl⟩
abbrev main_v145 : Ref sig .tc := ⟨.hbm, 284, rfl⟩
abbrev main_v146 : Ref sig .tc := ⟨.hbm, 285, rfl⟩
abbrev main_v147 : Ref sig .tc := ⟨.hbm, 286, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S192x64_S64x192_1_0 : S192x64.Transposes [1, 0] S64x192
  bcast_S192_S1x192_1 : S192.BroadcastsInDim S1x192 (![1] : Fin 1 → Fin S1x192.rank)
  bcast_S1x192_S1024x192_0_1 : S1x192.BroadcastsInDim S1024x192 (![0, 1] : Fin 2 → Fin S1024x192.rank)
  slices_S1024x192_S1024x64_0_0 : S1024x192.Slices ![0, 0] S1024x64
  slices_S1024x192_S1024x64_0_64 : S1024x192.Slices ![0, 64] S1024x64
  slices_S1024x192_S1024x64_0_128 : S1024x192.Slices ![0, 128] S1024x64
  bcast_S_S1048576 : S_.BroadcastsInDim S1048576 (![] : Fin 0 → Fin S1048576.rank)
  shapeCasts_S1024x1024_S1048576 : S1024x1024.ShapeCasts S1048576
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S_S1049600x1 : S_.BroadcastsInDim S1049600x1 (![] : Fin 0 → Fin S1049600x1.rank)
  bcast_S1_S1x1_1 : S1.BroadcastsInDim S1x1 (![1] : Fin 1 → Fin S1x1.rank)
  bcast_S1x1_S1049600x1_0_1 : S1x1.BroadcastsInDim S1049600x1 (![0, 1] : Fin 2 → Fin S1049600x1.rank)
  reducesTo_S1049600x1_S1049600_d1 : S1049600x1.ReducesTo [1] S1049600
  h_S_ : 0 < S_.numel
  bcast_S1049600_S1049600x64_0 : S1049600.BroadcastsInDim S1049600x64 (![0] : Fin 1 → Fin S1049600x64.rank)
  bcast_S_S1049600x64 : S_.BroadcastsInDim S1049600x64 (![] : Fin 0 → Fin S1049600x64.rank)
  bcast_S1049600x1_S1049600x64_0_1 : S1049600x1.BroadcastsInDim S1049600x64 (![0, 1] : Fin 2 → Fin S1049600x64.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  dot_S1024x275_S275x64_S1024x64_1_0_0_1_n_n_wf : DotDims.WF S1024x275 S275x64 S1024x64 [1] [0] [0] [1] [] []
  dot_S1024x64_S64x192_S1024x192_1_0_0_1_n_n_wf : DotDims.WF S1024x64 S64x192 S1024x192 [1] [0] [0] [1] [] []
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  dot_S1024x64_S64x64_S1024x64_1_0_0_1_n_n_wf : DotDims.WF S1024x64 S64x64 S1024x64 [1] [0] [0] [1] [] []
  gather_S1024x64_S1049600x1_S1049600x64_1_0_n_n_0_1_164_wf : GatherDims.WF S1024x64 S1049600x1 S1049600x64 [1] [0] [] [0] [] 1 ![1, 64]
  scatter_S1024x64_S1049600x1_S1049600x64_1_0_0_1_wf : ScatterDims.WF S1024x64 S1049600x1 S1049600x64 [1] [0] [0] 1
  dot_S1024x64_S64x16_S1024x16_1_0_0_1_n_n_wf : DotDims.WF S1024x64 S64x16 S1024x16 [1] [0] [0] [1] [] []

variable [Facts₀]

def dot_S1024x275_S275x64_S1024x64_1_0_0_1_n_n : DotDims S1024x275 S275x64 S1024x64 where
  lhsContracting := [1]
  rhsContracting := [0]
  lhsNonContracting := [0]
  rhsNonContracting := [1]
  lhsBatch := []
  rhsBatch := []
  wf := dot_S1024x275_S275x64_S1024x64_1_0_0_1_n_n_wf
def dot_S1024x64_S64x192_S1024x192_1_0_0_1_n_n : DotDims S1024x64 S64x192 S1024x192 where
  lhsContracting := [1]
  rhsContracting := [0]
  lhsNonContracting := [0]
  rhsNonContracting := [1]
  lhsBatch := []
  rhsBatch := []
  wf := dot_S1024x64_S64x192_S1024x192_1_0_0_1_n_n_wf
def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def gather_S1024x64_S1049600x1_S1049600x64_1_0_n_n_0_1_164 : GatherDims S1024x64 S1049600x1 S1049600x64 where
  offsetDims := [1]
  collapsedSliceDims := [0]
  operandBatchingDims := []
  startIndicesBatchingDims := []
  startIndexMap := [0]
  indexVectorDim := 1
  sliceSizes := ![1, 64]
  wf := gather_S1024x64_S1049600x1_S1049600x64_1_0_n_n_0_1_164_wf
def scatter_S1024x64_S1049600x1_S1049600x64_1_0_0_1 : ScatterDims S1024x64 S1049600x1 S1049600x64 where
  updateWindowDims := [1]
  insertedWindowDims := [0]
  scatterDimsToOperandDims := [0]
  indexVectorDim := 1
  wf := scatter_S1024x64_S1049600x1_S1049600x64_1_0_0_1_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

class Facts : Prop extends Facts₀ where

variable [Facts]
-- ==== Proof.KDefs.lean ====
/-
  The kernel's one region, as values: what its two result buffers hold after the body, as functions of the four
  input blocks (the inputs, the hidden state, the adjacency matrix and the packed parameter block).

  The body loads every operand through literal rectangles: the three data arrays whole, and eighteen row ranges of
  the packed block (each weight matrix and each bias row). It stores the new hidden state whole into the second result
  and the head's values whole into the first; each is one store, so each result buffer ends as that one piece.
-/
import proofs.«138646_g48533130445277_cont_sun_m_870_17_alg».proof.Proof.Gen.KernelIdeal.Launch
import proofs.«138646_g48533130445277_cont_sun_m_870_17_alg».proof.Proof.Gen.KernelIdeal.Skeleton
import proofs.«138646_g48533130445277_cont_sun_m_870_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core c's buffers when the region is entered: the launch contents after the thirteen host operations that
    build the packed parameter block. -/
abbrev V (c : Dev nD) (b : Ref sig .tc) : Buf (Elt F) ((c : Thread nD τ).loc b) :=
  StableHlo.after hostOps0 (fun b => m (c, b)) b

/-- Window w's block at the (only) grid point, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body reads and writes -/

abbrev rX : Rect S1024x275 := Rect.unit (s := S1024x275) ![0, 0] S1024x275.size inb_S1024x275_S1024x275_0_0
abbrev rH : Rect S1024x64 := Rect.unit (s := S1024x64) ![0, 0] S1024x64.size inb_S1024x64_S1024x64_0_0
abbrev rA : Rect S1024x1024 := Rect.unit (s := S1024x1024) ![0, 0] S1024x1024.size inb_S1024x1024_S1024x1024_0_0
abbrev rQ : Rect S1024x16 := Rect.unit (s := S1024x16) ![0, 0] S1024x16.size inb_S1024x16_S1024x16_0_0
abbrev rP544 : Rect S819x64 := Rect.unit (s := S819x64) ![544, 0] S275x64.size inb_S819x64_S275x64_544_0
abbrev rP528 : Rect S819x64 := Rect.unit (s := S819x64) ![528, 0] S1x64.size inb_S819x64_S1x64_528_0
abbrev rP529 : Rect S819x64 := Rect.unit (s := S819x64) ![529, 0] S1x64.size inb_S819x64_S1x64_529_0
abbrev rP530 : Rect S819x64 := Rect.unit (s := S819x64) ![530, 0] S1x64.size inb_S819x64_S1x64_530_0
abbrev rP531 : Rect S819x64 := Rect.unit (s := S819x64) ![531, 0] S1x64.size inb_S819x64_S1x64_531_0
abbrev rP532 : Rect S819x64 := Rect.unit (s := S819x64) ![532, 0] S1x64.size inb_S819x64_S1x64_532_0
abbrev rP533 : Rect S819x64 := Rect.unit (s := S819x64) ![533, 0] S1x64.size inb_S819x64_S1x64_533_0
abbrev rP534 : Rect S819x64 := Rect.unit (s := S819x64) ![534, 0] S1x64.size inb_S819x64_S1x64_534_0
abbrev rP535 : Rect S819x64 := Rect.unit (s := S819x64) ![535, 0] S1x64.size inb_S819x64_S1x64_535_0
abbrev rP536 : Rect S819x64 := Rect.unit (s := S819x64) ![536, 0] S1x64.size inb_S819x64_S1x64_536_0
abbrev rP537 : Rect S819x64 := Rect.unit (s := S819x64) ![537, 0] S1x16.size inb_S819x64_S1x16_537_0
abbrev rP0 : Rect S819x64 := Rect.unit (s := S819x64) ![0, 0] S64x64.size inb_S819x64_S64x64_0_0
abbrev rP64 : Rect S819x64 := Rect.unit (s := S819x64) ![64, 0] S64x64.size inb_S819x64_S64x64_64_0
abbrev rP128 : Rect S819x64 := Rect.unit (s := S819x64) ![128, 0] S64x64.size inb_S819x64_S64x64_128_0
abbrev rP192 : Rect S819x64 := Rect.unit (s := S819x64) ![192, 0] S64x64.size inb_S819x64_S64x64_192_0
abbrev rP256 : Rect S819x64 := Rect.unit (s := S819x64) ![256, 0] S64x64.size inb_S819x64_S64x64_256_0
abbrev rP320 : Rect S819x64 := Rect.unit (s := S819x64) ![320, 0] S64x64.size inb_S819x64_S64x64_320_0
abbrev rP384 : Rect S819x64 := Rect.unit (s := S819x64) ![384, 0] S64x64.size inb_S819x64_S64x64_384_0
abbrev rP448 : Rect S819x64 := Rect.unit (s := S819x64) ![448, 0] S64x64.size inb_S819x64_S64x64_448_0
abbrev rP512 : Rect S819x64 := Rect.unit (s := S819x64) ![512, 0] S16x64.size inb_S819x64_S16x64_512_0

/-! ## What the body computes -/

/-- The new hidden state, from the inputs x0, the hidden state x1 and the packed block x3: the three input-side gates
    read the encoder's output, the three hidden-side gates the hidden state. -/
def h2v (x0 : Vec F S1024x275 .f32) (x1 : Vec F S1024x64 .f32) (x3 : Vec F S819x64 .f32) : FVec F S1024x64 .f32 :=
  k0_pay5 (View.ld x1 rH)
    (k0_pay2 (View.ld x0 rX) (View.ld x3 rP544) (View.ld x3 rP528) (View.ld x3 rP0) (View.ld x3 rP529))
    (k0_pay3 (View.ld x0 rX) (View.ld x3 rP544) (View.ld x3 rP528) (View.ld x3 rP64) (View.ld x3 rP530))
    (k0_pay4 (View.ld x0 rX) (View.ld x3 rP544) (View.ld x3 rP528) (View.ld x3 rP128) (View.ld x3 rP531))
    (View.ld x3 rP192) (View.ld x3 rP532) (View.ld x3 rP256) (View.ld x3 rP533) (View.ld x3 rP320) (View.ld x3 rP534)

/-- The head's values from node features H, the adjacency matrix x2 and the packed block x3: two convolutions and
    the output layer. -/
def qvOf (H : FVec F S1024x64 .f32) (x2 : Vec F S1024x1024 .f32) (x3 : Vec F S819x64 .f32) : FVec F S1024x16 .f32 :=
  k0_pay7 H (View.ld x2 rA) (k0_pay6 (View.ld x2 rA)) (View.ld x3 rP384) (View.ld x3 rP535) (View.ld x3 rP448)
    (View.ld x3 rP536) (View.ld x3 rP512) (View.ld x3 rP537)

/-- The head's values from the four input blocks. -/
def qv (x0 : Vec F S1024x275 .f32) (x1 : Vec F S1024x64 .f32) (x2 : Vec F S1024x1024 .f32) (x3 : Vec F S819x64 .f32) :
    FVec F S1024x16 .f32 :=
  qvOf (h2v x0 x1 x3) x2 x3

/-- The first result's staging buffer after the body: its one store, whole. -/
def out0_4 (x0 : Vec F S1024x275 .f32) (x1 : Vec F S1024x64 .f32) (x2 : Vec F S1024x1024 .f32) (x3 : Vec F S819x64 .f32) :
    Vec F S1024x16 .f32 :=
  View.canon [⟨rQ, qv x0 x1 x2 x3⟩]

/-- The second result's staging buffer after the body: its one store, whole. -/
def out0_5 (x0 : Vec F S1024x275 .f32) (x1 : Vec F S1024x64 .f32) (x3 : Vec F S819x64 .f32) : Vec F S1024x64 .f32 :=
  View.canon [⟨rH, h2v x0 x1 x3⟩]

end Cert.KernelIdeal.Hand

end
-- ==== Proof.KFrame.lean ====
/-
  The frame of the kernel program: @main is thirteen host operations, which build the packed parameter block, then one
  region with a single grid point. Four windows are fetched whole (the inputs, the hidden state, the adjacency matrix,
  the packed block) and two are written back whole (the head's values, the new hidden state).

  Here: @main up to the region; that no host operation touches an argument array; the body's triple on whole staging
  buffers; the region's proof data and body obligation; the run; the frame claim's post; and the two result arrays
  after the run as the body's two whole stores over the launch contents.
-/
import proofs.«138646_g48533130445277_cont_sun_m_870_17_alg».proof.Proof.KDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Every host operation writes a buffer of its own: none allocates. -/
theorem hostOps0_fresh : (hostOps0 : List (HloOp τ sig (Elt F))).Forall fun op => op.fresh = ∅ := by
  simp only [List.Forall]; repeat' constructor

/-- @main is the host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The input windows' staging buffers -/

/-- Input window 0's staging buffer holds its block at the point, for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at the point, for any proof data over the region-entry arrays whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at the point, for any proof data over the region-entry arrays whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at the point, for any proof data over the region-entry arrays whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

/-- The two zero offsets, as a function. -/
theorem hz2 : (![0, 0] : Fin 2 → Nat) = fun _ => 0 := funext fun a => by fin_cases a <;> rfl

/-- The one store into the first result covers its buffer. -/
theorem cover_Q (p0 : Vec F S1024x16 .f32) (y : S1024x16.Idx) :
    ∃ pc ∈ ([⟨rQ, p0⟩] : List (View.Piece (Elt F) S1024x16 .f32)), y ∈ pc.1.set :=
  ⟨⟨rQ, p0⟩, List.mem_singleton_self _, View.mem_set_unit_zero hz2 inb_S1024x16_S1024x16_0_0 y⟩

/-- The one store into the second result covers its buffer. -/
theorem cover_H (p0 : Vec F S1024x64 .f32) (y : S1024x64.Idx) :
    ∃ pc ∈ ([⟨rH, p0⟩] : List (View.Piece (Elt F) S1024x64 .f32)), y ∈ pc.1.set :=
  ⟨⟨rH, p0⟩, List.mem_singleton_self _, View.mem_set_unit_zero hz2 inb_S1024x64_S1024x64_0_0 y⟩
set_option maxHeartbeats 1000000 in
/-- The body on whole staging buffers, the four inputs' at contents x0 … x3 and the two results' at anything, runs to
    the continuation with the inputs' as they were, the first result's at the head's values and the second's at the new
    hidden state: thirty-one loads (two of them of the result buffers, read and dropped) and two whole stores. -/
theorem sound_kernel (c : Dev nD) (E : Set ℕ) (arg0 : Memref sig .tc .vmem S1024x275 .f32) (harg0 : arg0.IsWhole) (arg1 : Memref sig .tc .vmem S1024x64 .f32) (harg1 : arg1.IsWhole) (arg2 : Memref sig .tc .vmem S1024x1024 .f32) (harg2 : arg2.IsWhole) (arg3 : Memref sig .tc .vmem S819x64 .f32) (harg3 : arg3.IsWhole) (arg4 : Memref sig .tc .vmem S1024x16 .f32) (harg4 : arg4.IsWhole) (arg5 : Memref sig .tc .vmem S1024x64 .f32) (harg5 : arg5.IsWhole)
    (x0 : Vec F S1024x275 .f32) (x1 : Vec F S1024x64 .f32) (x2 : Vec F S1024x1024 .f32) (x3 : Vec F S819x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1 x2 x3) ∗ owns (c : Thread nD τ) arg5 fullShare (out0_5 x0 x1 x3)) -∗ K ⟨⟩))
      ⊢ wp frame (wpE (defs₀ (F := F)) Variants.none c none) E (cc0__fused_body arg0 harg0 arg1 harg1 arg2 harg2 arg3 harg3 arg4 harg4 arg5 harg5) K := by
  simp only [cc0__fused_body_eq_skeleton]; unfold cc0__fused_body_skel
  simp only [k0_part3_eq_skeleton]; unfold k0_part3_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_Q _)
  iexists _; isplitr
  swap; · iexact H5
  ipureintro
  exact View.read_writes_eq_canon _ _ _ (cover_H _)

/-! ## The region's proof data -/

/-- The proof data of the region on core c: the arrays as the region finds them; after the body each input's buffer at
    its block, the first result's at the head's values and the second's at the new hidden state, both of the input
    blocks; nothing carried between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]
theorem after0_5 (c : Dev nD) (t : Fin cfg0.N) :
    (dats m 0 c).after 5 t = out0_5 (iblk m c 0 t) (iblk m c 1 t) (iblk m c 3 t) := by dsimp only [dats]

/-- Each input's staging buffer holds its block at the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at the point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at the point: the inputs' buffers hold their blocks, so the body's triple applies; the invariant and the
    core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has each of the region's arrays at what its write-backs leave and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run argument 0 is as launched: input window 0 stages it and never writes it back. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- After the run argument 1 is as launched: input window 1 stages it and never writes it back. -/
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- After the run argument 2 is as launched: input window 2 stages it and never writes it back. -/
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- After the run argument 3 is as launched: no window stages it and no host operation writes it. -/
theorem kept_main_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
/-- After the run argument 4 is as launched: no window stages it and no host operation writes it. -/
theorem kept_main_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
/-- After the run argument 5 is as launched: no window stages it and no host operation writes it. -/
theorem kept_main_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
/-- After the run argument 6 is as launched: no window stages it and no host operation writes it. -/
theorem kept_main_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
/-- After the run argument 7 is as launched: no window stages it and no host operation writes it. -/
theorem kept_main_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
/-- After the run argument 8 is as launched: no window stages it and no host operation writes it. -/
theorem kept_main_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
/-- After the run argument 9 is as launched: no window stages it and no host operation writes it. -/
theorem kept_main_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
/-- After the run argument 10 is as launched: no window stages it and no host operation writes it. -/
theorem kept_main_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
/-- After the run argument 11 is as launched: no window stages it and no host operation writes it. -/
theorem kept_main_arg11 (r : PUnit × MemSt nD τ sig (Elt F)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
/-- After the run argument 12 is as launched: no window stages it and no host operation writes it. -/
theorem kept_main_arg12 (r : PUnit × MemSt nD τ sig (Elt F)) (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)
/-- After the run argument 13 is as launched: no window stages it and no host operation writes it. -/
theorem kept_main_arg13 (r : PUnit × MemSt nD τ sig (Elt F)) (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)
/-- After the run argument 14 is as launched: no window stages it and no host operation writes it. -/
theorem kept_main_arg14 (r : PUnit × MemSt nD τ sig (Elt F)) (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)

/-- The fifteen argument arrays after the run, as launched. -/
theorem kept_all (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c⟩

/-- THE FRAME: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_all m r h c) (run_main m ρ)

/-! ## The arrays after the run

Every window's block is its whole array: the block index is zero on both axes and the block has the array's extents, so
reading an array through a window's block at the point reads the array. -/

/-- Window 0's block, read off contents of its array, is those contents. -/
theorem read_blk0 (t : Fin cfg0.N) (X : Vec F S1024x275 .f32) : ((cfg0.win 0).blk t).view.read (Elt F) X = X := by
  funext j
  show X (((cfg0.win 0).blk t).view.emb j) = X j
  refine congrArg X ?_
  funext a; apply Fin.ext
  exact (cfg0.win 0).rect_emb_val_of_index_zero t a rfl j
/-- Window 1's block, read off contents of its array, is those contents. -/
theorem read_blk1 (t : Fin cfg0.N) (X : Vec F S1024x64 .f32) : ((cfg0.win 1).blk t).view.read (Elt F) X = X := by
  funext j
  show X (((cfg0.win 1).blk t).view.emb j) = X j
  refine congrArg X ?_
  funext a; apply Fin.ext
  exact (cfg0.win 1).rect_emb_val_of_index_zero t a rfl j
/-- Window 2's block, read off contents of its array, is those contents. -/
theorem read_blk2 (t : Fin cfg0.N) (X : Vec F S1024x1024 .f32) : ((cfg0.win 2).blk t).view.read (Elt F) X = X := by
  funext j
  show X (((cfg0.win 2).blk t).view.emb j) = X j
  refine congrArg X ?_
  funext a; apply Fin.ext
  exact (cfg0.win 2).rect_emb_val_of_index_zero t a rfl j
/-- Window 3's block, read off contents of its array, is those contents. -/
theorem read_blk3 (t : Fin cfg0.N) (X : Vec F S819x64 .f32) : ((cfg0.win 3).blk t).view.read (Elt F) X = X := by
  funext j
  show X (((cfg0.win 3).blk t).view.emb j) = X j
  refine congrArg X ?_
  funext a; apply Fin.ext
  exact (cfg0.win 3).rect_emb_val_of_index_zero t a rfl j
/-- Window 4's block, read off contents of its array, is those contents. -/
theorem read_blk4 (t : Fin cfg0.N) (X : Vec F S1024x16 .f32) : ((cfg0.win 4).blk t).view.read (Elt F) X = X := by
  funext j
  show X (((cfg0.win 4).blk t).view.emb j) = X j
  refine congrArg X ?_
  funext a; apply Fin.ext
  exact (cfg0.win 4).rect_emb_val_of_index_zero t a rfl j
/-- Window 5's block, read off contents of its array, is those contents. -/
theorem read_blk5 (t : Fin cfg0.N) (X : Vec F S1024x64 .f32) : ((cfg0.win 5).blk t).view.read (Elt F) X = X := by
  funext j
  show X (((cfg0.win 5).blk t).view.emb j) = X j
  refine congrArg X ?_
  funext a; apply Fin.ext
  exact (cfg0.win 5).rect_emb_val_of_index_zero t a rfl j

/-- The region has one point, so no two distinct points write a result back. -/
theorem no_two_points (w : Fin cfg0.W) : ∀ t t' : Fin cfg0.N, (cfg0.win w).flush t = true → (cfg0.win w).flush t' = true → t ≠ t' →
    Disjoint ((cfg0.win w).blk t).view.set ((cfg0.win w).blk t').view.set :=
  fun t t' _ _ hne => absurd ((fin_N0 t).trans (fin_N0 t').symm) hne

/-- Each input block is its whole array as launched (the packed block: as the host operations built it). -/
theorem iblk0_eq (c : Dev nD) (t : Fin cfg0.N) : iblk m c 0 t = m ((c.tc : Thread nD τ).loc main_arg0) :=
  (read_blk0 t (V m c main_arg0)).trans (V_main_arg0 m c)
theorem iblk1_eq (c : Dev nD) (t : Fin cfg0.N) : iblk m c 1 t = m ((c.tc : Thread nD τ).loc main_arg1) :=
  (read_blk1 t (V m c main_arg1)).trans (V_main_arg1 m c)
theorem iblk2_eq (c : Dev nD) (t : Fin cfg0.N) : iblk m c 2 t = m ((c.tc : Thread nD τ).loc main_arg2) :=
  (read_blk2 t (V m c main_arg2)).trans (V_main_arg2 m c)
theorem iblk3_eq (c : Dev nD) (t : Fin cfg0.N) : iblk m c 3 t = V m c main_v10 :=
  read_blk3 t (V m c main_v10)

/-- What the point writes back to the first result's array: the body's one store, whole. -/
theorem flushed4 (c : Dev nD) (t : Fin cfg0.N) :
    (dats m 0 c).flushed 4 t = qv (iblk m c 0 t) (iblk m c 1 t) (iblk m c 2 t) (iblk m c 3 t) := by
  show (cfg0.win 4).cut (grid0.coords t) ((dats m 0 c).after 4 t) = _
  rw [after0_4]
  unfold out0_4
  rw [View.canon_unit_zero hz2]
  rfl

/-- What the point writes back to the second result's array: the body's one store, whole. -/
theorem flushed5 (c : Dev nD) (t : Fin cfg0.N) :
    (dats m 0 c).flushed 5 t = h2v (iblk m c 0 t) (iblk m c 1 t) (iblk m c 3 t) := by
  show (cfg0.win 5).cut (grid0.coords t) ((dats m 0 c).after 5 t) = _
  rw [after0_5]
  unfold out0_5
  rw [View.canon_unit_zero hz2]
  rfl

/-- The first result's array after the run: the head's values of the launch contents and the packed block. -/
theorem final4 (c : Dev nD) : (dats m 0 c).arrAt 4 cfg0.N
    = qv (m ((c.tc : Thread nD τ).loc main_arg0)) (m ((c.tc : Thread nD τ).loc main_arg1)) (m ((c.tc : Thread nD τ).loc main_arg2)) (V m c main_v10) := by
  refine (read_blk4 t0_0 _).symm.trans (((dats m 0 c).read_blk_arrAt_eq_flushed 4 (no_two_points 4) cfg0.N t0_0 t0_0.isLt (flush0_4 t0_0)).trans ?_)
  rw [flushed4, iblk0_eq, iblk1_eq, iblk2_eq, iblk3_eq]

/-- The second result's array after the run: the new hidden state of the launch contents and the packed block. -/
theorem final5 (c : Dev nD) : (dats m 0 c).arrAt 5 cfg0.N
    = h2v (m ((c.tc : Thread nD τ).loc main_arg0)) (m ((c.tc : Thread nD τ).loc main_arg1)) (V m c main_v10) := by
  refine (read_blk5 t0_0 _).symm.trans (((dats m 0 c).read_blk_arrAt_eq_flushed 5 (no_two_points 5) cfg0.N t0_0 t0_0.isLt (flush0_5 t0_0)).trans ?_)
  rw [flushed5, iblk0_eq, iblk1_eq, iblk3_eq]

/-- THE RUN, READ: @main runs; the first result ends at the head's values and the second at the new hidden state, both of
    the launch contents of the first three arguments and of the packed block the host operations build; the argument
    arrays end unchanged. -/
theorem run_vals : θ_run defs (onTc (τ := τ) (main (F := F))) ⟨m, fun _ => 0, ρ⟩ (fun r => ∀ c : Dev nD,
      r.2.mem ((c.tc : Thread nD τ).loc main_v11_0) = qv (m ((c.tc : Thread nD τ).loc main_arg0)) (m ((c.tc : Thread nD τ).loc main_arg1)) (m ((c.tc : Thread nD τ).loc main_arg2)) (V m c main_v10)
      ∧ r.2.mem ((c.tc : Thread nD τ).loc main_v11_1) = h2v (m ((c.tc : Thread nD τ).loc main_arg0)) (m ((c.tc : Thread nD τ).loc main_arg1)) (V m c main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 4).trans (final4 m c), ((h c).1 5).trans (final5 m c), kept_all m r h c⟩) (run_main m ρ)

end Cert.KernelIdeal.Hand

end
-- ==== Proof.KDefsBits.lean ====
/-
  The kernel's one region, as values: what its two result buffers hold after the body, as functions of the four
  input blocks (the inputs, the hidden state, the adjacency matrix and the packed parameter block).

  The body loads every operand through literal rectangles: the three data arrays whole, and eighteen row ranges of
  the packed block (each weight matrix and each bias row). It stores the new hidden state whole into the second result
  and the head's values whole into the first; each is one store, so each result buffer ends as that one piece.
-/
import proofs.«138646_g48533130445277_cont_sun_m_870_17_alg».proof.Proof.Gen.Kernel.Launch
import proofs.«138646_g48533130445277_cont_sun_m_870_17_alg».proof.Proof.Gen.Kernel.Skeleton
import proofs.«138646_g48533130445277_cont_sun_m_870_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core c's buffers when the region is entered: the launch contents after the thirteen host operations that
    build the packed parameter block. -/
abbrev V (c : Dev nD) (b : Ref sig .tc) : Buf (Elt F) ((c : Thread nD τ).loc b) :=
  StableHlo.after hostOps0 (fun b => m (c, b)) b

/-- Window w's block at the (only) grid point, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body reads and writes -/

abbrev rX : Rect S1024x275 := Rect.unit (s := S1024x275) ![0, 0] S1024x275.size inb_S1024x275_S1024x275_0_0
abbrev rH : Rect S1024x64 := Rect.unit (s := S1024x64) ![0, 0] S1024x64.size inb_S1024x64_S1024x64_0_0
abbrev rA : Rect S1024x1024 := Rect.unit (s := S1024x1024) ![0, 0] S1024x1024.size inb_S1024x1024_S1024x1024_0_0
abbrev rQ : Rect S1024x16 := Rect.unit (s := S1024x16) ![0, 0] S1024x16.size inb_S1024x16_S1024x16_0_0
abbrev rP544 : Rect S819x64 := Rect.unit (s := S819x64) ![544, 0] S275x64.size inb_S819x64_S275x64_544_0
abbrev rP528 : Rect S819x64 := Rect.unit (s := S819x64) ![528, 0] S1x64.size inb_S819x64_S1x64_528_0
abbrev rP529 : Rect S819x64 := Rect.unit (s := S819x64) ![529, 0] S1x64.size inb_S819x64_S1x64_529_0
abbrev rP530 : Rect S819x64 := Rect.unit (s := S819x64) ![530, 0] S1x64.size inb_S819x64_S1x64_530_0
abbrev rP531 : Rect S819x64 := Rect.unit (s := S819x64) ![531, 0] S1x64.size inb_S819x64_S1x64_531_0
abbrev rP532 : Rect S819x64 := Rect.unit (s := S819x64) ![532, 0] S1x64.size inb_S819x64_S1x64_532_0
abbrev rP533 : Rect S819x64 := Rect.unit (s := S819x64) ![533, 0] S1x64.size inb_S819x64_S1x64_533_0
abbrev rP534 : Rect S819x64 := Rect.unit (s := S819x64) ![534, 0] S1x64.size inb_S819x64_S1x64_534_0
abbrev rP535 : Rect S819x64 := Rect.unit (s := S819x64) ![535, 0] S1x64.size inb_S819x64_S1x64_535_0
abbrev rP536 : Rect S819x64 := Rect.unit (s := S819x64) ![536, 0] S1x64.size inb_S819x64_S1x64_536_0
abbrev rP537 : Rect S819x64 := Rect.unit (s := S819x64) ![537, 0] S1x16.size inb_S819x64_S1x16_537_0
abbrev rP0 : Rect S819x64 := Rect.unit (s := S819x64) ![0, 0] S64x64.size inb_S819x64_S64x64_0_0
abbrev rP64 : Rect S819x64 := Rect.unit (s := S819x64) ![64, 0] S64x64.size inb_S819x64_S64x64_64_0
abbrev rP128 : Rect S819x64 := Rect.unit (s := S819x64) ![128, 0] S64x64.size inb_S819x64_S64x64_128_0
abbrev rP192 : Rect S819x64 := Rect.unit (s := S819x64) ![192, 0] S64x64.size inb_S819x64_S64x64_192_0
abbrev rP256 : Rect S819x64 := Rect.unit (s := S819x64) ![256, 0] S64x64.size inb_S819x64_S64x64_256_0
abbrev rP320 : Rect S819x64 := Rect.unit (s := S819x64) ![320, 0] S64x64.size inb_S819x64_S64x64_320_0
abbrev rP384 : Rect S819x64 := Rect.unit (s := S819x64) ![384, 0] S64x64.size inb_S819x64_S64x64_384_0
abbrev rP448 : Rect S819x64 := Rect.unit (s := S819x64) ![448, 0] S64x64.size inb_S819x64_S64x64_448_0
abbrev rP512 : Rect S819x64 := Rect.unit (s := S819x64) ![512, 0] S16x64.size inb_S819x64_S16x64_512_0

/-! ## What the body computes -/

/-- The new hidden state, from the inputs x0, the hidden state x1 and the packed block x3: the three input-side gates
    read the encoder's output, the three hidden-side gates the hidden state. -/
def h2v (x0 : Vec F S1024x275 .f32) (x1 : Vec F S1024x64 .f32) (x3 : Vec F S819x64 .f32) : FVec F S1024x64 .f32 :=
  k0_pay5 (View.ld x1 rH)
    (k0_pay2 (View.ld x0 rX) (View.ld x3 rP544) (View.ld x3 rP528) (View.ld x3 rP0) (View.ld x3 rP529))
    (k0_pay3 (View.ld x0 rX) (View.ld x3 rP544) (View.ld x3 rP528) (View.ld x3 rP64) (View.ld x3 rP530))
    (k0_pay4 (View.ld x0 rX) (View.ld x3 rP544) (View.ld x3 rP528) (View.ld x3 rP128) (View.ld x3 rP531))
    (View.ld x3 rP192) (View.ld x3 rP532) (View.ld x3 rP256) (View.ld x3 rP533) (View.ld x3 rP320) (View.ld x3 rP534)

/-- The head's values from node features H, the adjacency matrix x2 and the packed block x3: two convolutions and
    the output layer. -/
def qvOf (H : FVec F S1024x64 .f32) (x2 : Vec F S1024x1024 .f32) (x3 : Vec F S819x64 .f32) : FVec F S1024x16 .f32 :=
  k0_pay7 H (View.ld x2 rA) (k0_pay6 (View.ld x2 rA)) (View.ld x3 rP384) (View.ld x3 rP535) (View.ld x3 rP448)
    (View.ld x3 rP536) (View.ld x3 rP512) (View.ld x3 rP537)

/-- The head's values from the four input blocks. -/
def qv (x0 : Vec F S1024x275 .f32) (x1 : Vec F S1024x64 .f32) (x2 : Vec F S1024x1024 .f32) (x3 : Vec F S819x64 .f32) :
    FVec F S1024x16 .f32 :=
  qvOf (h2v x0 x1 x3) x2 x3

/-- The first result's staging buffer after the body: its one store, whole. -/
def out0_4 (x0 : Vec F S1024x275 .f32) (x1 : Vec F S1024x64 .f32) (x2 : Vec F S1024x1024 .f32) (x3 : Vec F S819x64 .f32) :
    Vec F S1024x16 .f32 :=
  View.canon [⟨rQ, qv x0 x1 x2 x3⟩]

/-- The second result's staging buffer after the body: its one store, whole. -/
def out0_5 (x0 : Vec F S1024x275 .f32) (x1 : Vec F S1024x64 .f32) (x3 : Vec F S819x64 .f32) : Vec F S1024x64 .f32 :=
  View.canon [⟨rH, h2v x0 x1 x3⟩]

end Cert.Kernel.Hand

end
-- ==== Proof.KFrameBits.lean ====
/-
  The frame of the kernel program: @main is thirteen host operations, which build the packed parameter block, then one
  region with a single grid point. Four windows are fetched whole (the inputs, the hidden state, the adjacency matrix,
  the packed block) and two are written back whole (the head's values, the new hidden state).

  Here: @main up to the region; that no host operation touches an argument array; the body's triple on whole staging
  buffers; the region's proof data and body obligation; the run; the frame claim's post; and the two result arrays
  after the run as the body's two whole stores over the launch contents.
-/
import proofs.«138646_g48533130445277_cont_sun_m_870_17_alg».proof.Proof.KDefsBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Every host operation writes a buffer of its own: none allocates. -/
theorem hostOps0_fresh : (hostOps0 : List (HloOp τ sig (Elt F))).Forall fun op => op.fresh = ∅ := by
  simp only [List.Forall]; repeat' constructor

/-- @main is the host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The input windows' staging buffers -/

/-- Input window 0's staging buffer holds its block at the point, for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at the point, for any proof data over the region-entry arrays whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at the point, for any proof data over the region-entry arrays whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at the point, for any proof data over the region-entry arrays whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

/-- The two zero offsets, as a function. -/
theorem hz2 : (![0, 0] : Fin 2 → Nat) = fun _ => 0 := funext fun a => by fin_cases a <;> rfl

/-- The one store into the first result covers its buffer. -/
theorem cover_Q (p0 : Vec F S1024x16 .f32) (y : S1024x16.Idx) :
    ∃ pc ∈ ([⟨rQ, p0⟩] : List (View.Piece (Elt F) S1024x16 .f32)), y ∈ pc.1.set :=
  ⟨⟨rQ, p0⟩, List.mem_singleton_self _, View.mem_set_unit_zero hz2 inb_S1024x16_S1024x16_0_0 y⟩

/-- The one store into the second result covers its buffer. -/
theorem cover_H (p0 : Vec F S1024x64 .f32) (y : S1024x64.Idx) :
    ∃ pc ∈ ([⟨rH, p0⟩] : List (View.Piece (Elt F) S1024x64 .f32)), y ∈ pc.1.set :=
  ⟨⟨rH, p0⟩, List.mem_singleton_self _, View.mem_set_unit_zero hz2 inb_S1024x64_S1024x64_0_0 y⟩
set_option maxHeartbeats 1000000 in
/-- The body on whole staging buffers, the four inputs' at contents x0 … x3 and the two results' at anything, runs to
    the continuation with the inputs' as they were, the first result's at the head's values and the second's at the new
    hidden state: thirty-one loads (two of them of the result buffers, read and dropped) and two whole stores. -/
theorem sound_kernel (c : Dev nD) (E : Set ℕ) (arg0 : Memref sig .tc .vmem S1024x275 .f32) (harg0 : arg0.IsWhole) (arg1 : Memref sig .tc .vmem S1024x64 .f32) (harg1 : arg1.IsWhole) (arg2 : Memref sig .tc .vmem S1024x1024 .f32) (harg2 : arg2.IsWhole) (arg3 : Memref sig .tc .vmem S819x64 .f32) (harg3 : arg3.IsWhole) (arg4 : Memref sig .tc .vmem S1024x16 .f32) (harg4 : arg4.IsWhole) (arg5 : Memref sig .tc .vmem S1024x64 .f32) (harg5 : arg5.IsWhole)
    (x0 : Vec F S1024x275 .f32) (x1 : Vec F S1024x64 .f32) (x2 : Vec F S1024x1024 .f32) (x3 : Vec F S819x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1 x2 x3) ∗ owns (c : Thread nD τ) arg5 fullShare (out0_5 x0 x1 x3)) -∗ K ⟨⟩))
      ⊢ wp frame (wpE (defs₀ (F := F)) Variants.none c none) E (cc0__fused_body arg0 harg0 arg1 harg1 arg2 harg2 arg3 harg3 arg4 harg4 arg5 harg5) K := by
  simp only [cc0__fused_body_eq_skeleton]; unfold cc0__fused_body_skel
  simp only [k0_part3_eq_skeleton]; unfold k0_part3_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_Q _)
  iexists _; isplitr
  swap; · iexact H5
  ipureintro
  exact View.read_writes_eq_canon _ _ _ (cover_H _)

/-! ## The region's proof data -/

/-- The proof data of the region on core c: the arrays as the region finds them; after the body each input's buffer at
    its block, the first result's at the head's values and the second's at the new hidden state, both of the input
    blocks; nothing carried between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]
theorem after0_5 (c : Dev nD) (t : Fin cfg0.N) :
    (dats m 0 c).after 5 t = out0_5 (iblk m c 0 t) (iblk m c 1 t) (iblk m c 3 t) := by dsimp only [dats]

/-- Each input's staging buffer holds its block at the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at the point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at the point: the inputs' buffers hold their blocks, so the body's triple applies; the invariant and the
    core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has each of the region's arrays at what its write-backs leave and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run argument 0 is as launched: input window 0 stages it and never writes it back. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- After the run argument 1 is as launched: input window 1 stages it and never writes it back. -/
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- After the run argument 2 is as launched: input window 2 stages it and never writes it back. -/
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- After the run argument 3 is as launched: no window stages it and no host operation writes it. -/
theorem kept_main_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
/-- After the run argument 4 is as launched: no window stages it and no host operation writes it. -/
theorem kept_main_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
/-- After the run argument 5 is as launched: no window stages it and no host operation writes it. -/
theorem kept_main_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
/-- After the run argument 6 is as launched: no window stages it and no host operation writes it. -/
theorem kept_main_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
/-- After the run argument 7 is as launched: no window stages it and no host operation writes it. -/
theorem kept_main_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
/-- After the run argument 8 is as launched: no window stages it and no host operation writes it. -/
theorem kept_main_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
/-- After the run argument 9 is as launched: no window stages it and no host operation writes it. -/
theorem kept_main_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
/-- After the run argument 10 is as launched: no window stages it and no host operation writes it. -/
theorem kept_main_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
/-- After the run argument 11 is as launched: no window stages it and no host operation writes it. -/
theorem kept_main_arg11 (r : PUnit × MemSt nD τ sig (Elt F)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
/-- After the run argument 12 is as launched: no window stages it and no host operation writes it. -/
theorem kept_main_arg12 (r : PUnit × MemSt nD τ sig (Elt F)) (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)
/-- After the run argument 13 is as launched: no window stages it and no host operation writes it. -/
theorem kept_main_arg13 (r : PUnit × MemSt nD τ sig (Elt F)) (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)
/-- After the run argument 14 is as launched: no window stages it and no host operation writes it. -/
theorem kept_main_arg14 (r : PUnit × MemSt nD τ sig (Elt F)) (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)

/-- The fifteen argument arrays after the run, as launched. -/
theorem kept_all (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c⟩

/-- THE FRAME: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_all m r h c) (run_main m ρ)

/-! ## The arrays after the run

Every window's block is its whole array: the block index is zero on both axes and the block has the array's extents, so
reading an array through a window's block at the point reads the array. -/

/-- Window 0's block, read off contents of its array, is those contents. -/
theorem read_blk0 (t : Fin cfg0.N) (X : Vec F S1024x275 .f32) : ((cfg0.win 0).blk t).view.read (Elt F) X = X := by
  funext j
  show X (((cfg0.win 0).blk t).view.emb j) = X j
  refine congrArg X ?_
  funext a; apply Fin.ext
  exact (cfg0.win 0).rect_emb_val_of_index_zero t a rfl j
/-- Window 1's block, read off contents of its array, is those contents. -/
theorem read_blk1 (t : Fin cfg0.N) (X : Vec F S1024x64 .f32) : ((cfg0.win 1).blk t).view.read (Elt F) X = X := by
  funext j
  show X (((cfg0.win 1).blk t).view.emb j) = X j
  refine congrArg X ?_
  funext a; apply Fin.ext
  exact (cfg0.win 1).rect_emb_val_of_index_zero t a rfl j
/-- Window 2's block, read off contents of its array, is those contents. -/
theorem read_blk2 (t : Fin cfg0.N) (X : Vec F S1024x1024 .f32) : ((cfg0.win 2).blk t).view.read (Elt F) X = X := by
  funext j
  show X (((cfg0.win 2).blk t).view.emb j) = X j
  refine congrArg X ?_
  funext a; apply Fin.ext
  exact (cfg0.win 2).rect_emb_val_of_index_zero t a rfl j
/-- Window 3's block, read off contents of its array, is those contents. -/
theorem read_blk3 (t : Fin cfg0.N) (X : Vec F S819x64 .f32) : ((cfg0.win 3).blk t).view.read (Elt F) X = X := by
  funext j
  show X (((cfg0.win 3).blk t).view.emb j) = X j
  refine congrArg X ?_
  funext a; apply Fin.ext
  exact (cfg0.win 3).rect_emb_val_of_index_zero t a rfl j
/-- Window 4's block, read off contents of its array, is those contents. -/
theorem read_blk4 (t : Fin cfg0.N) (X : Vec F S1024x16 .f32) : ((cfg0.win 4).blk t).view.read (Elt F) X = X := by
  funext j
  show X (((cfg0.win 4).blk t).view.emb j) = X j
  refine congrArg X ?_
  funext a; apply Fin.ext
  exact (cfg0.win 4).rect_emb_val_of_index_zero t a rfl j
/-- Window 5's block, read off contents of its array, is those contents. -/
theorem read_blk5 (t : Fin cfg0.N) (X : Vec F S1024x64 .f32) : ((cfg0.win 5).blk t).view.read (Elt F) X = X := by
  funext j
  show X (((cfg0.win 5).blk t).view.emb j) = X j
  refine congrArg X ?_
  funext a; apply Fin.ext
  exact (cfg0.win 5).rect_emb_val_of_index_zero t a rfl j

/-- The region has one point, so no two distinct points write a result back. -/
theorem no_two_points (w : Fin cfg0.W) : ∀ t t' : Fin cfg0.N, (cfg0.win w).flush t = true → (cfg0.win w).flush t' = true → t ≠ t' →
    Disjoint ((cfg0.win w).blk t).view.set ((cfg0.win w).blk t').view.set :=
  fun t t' _ _ hne => absurd ((fin_N0 t).trans (fin_N0 t').symm) hne

/-- Each input block is its whole array as launched (the packed block: as the host operations built it). -/
theorem iblk0_eq (c : Dev nD) (t : Fin cfg0.N) : iblk m c 0 t = m ((c.tc : Thread nD τ).loc main_arg0) :=
  (read_blk0 t (V m c main_arg0)).trans (V_main_arg0 m c)
theorem iblk1_eq (c : Dev nD) (t : Fin cfg0.N) : iblk m c 1 t = m ((c.tc : Thread nD τ).loc main_arg1) :=
  (read_blk1 t (V m c main_arg1)).trans (V_main_arg1 m c)
theorem iblk2_eq (c : Dev nD) (t : Fin cfg0.N) : iblk m c 2 t = m ((c.tc : Thread nD τ).loc main_arg2) :=
  (read_blk2 t (V m c main_arg2)).trans (V_main_arg2 m c)
theorem iblk3_eq (c : Dev nD) (t : Fin cfg0.N) : iblk m c 3 t = V m c main_v10 :=
  read_blk3 t (V m c main_v10)

/-- What the point writes back to the first result's array: the body's one store, whole. -/
theorem flushed4 (c : Dev nD) (t : Fin cfg0.N) :
    (dats m 0 c).flushed 4 t = qv (iblk m c 0 t) (iblk m c 1 t) (iblk m c 2 t) (iblk m c 3 t) := by
  show (cfg0.win 4).cut (grid0.coords t) ((dats m 0 c).after 4 t) = _
  rw [after0_4]
  unfold out0_4
  rw [View.canon_unit_zero hz2]
  rfl

/-- What the point writes back to the second result's array: the body's one store, whole. -/
theorem flushed5 (c : Dev nD) (t : Fin cfg0.N) :
    (dats m 0 c).flushed 5 t = h2v (iblk m c 0 t) (iblk m c 1 t) (iblk m c 3 t) := by
  show (cfg0.win 5).cut (grid0.coords t) ((dats m 0 c).after 5 t) = _
  rw [after0_5]
  unfold out0_5
  rw [View.canon_unit_zero hz2]
  rfl

/-- The first result's array after the run: the head's values of the launch contents and the packed block. -/
theorem final4 (c : Dev nD) : (dats m 0 c).arrAt 4 cfg0.N
    = qv (m ((c.tc : Thread nD τ).loc main_arg0)) (m ((c.tc : Thread nD τ).loc main_arg1)) (m ((c.tc : Thread nD τ).loc main_arg2)) (V m c main_v10) := by
  refine (read_blk4 t0_0 _).symm.trans (((dats m 0 c).read_blk_arrAt_eq_flushed 4 (no_two_points 4) cfg0.N t0_0 t0_0.isLt (flush0_4 t0_0)).trans ?_)
  rw [flushed4, iblk0_eq, iblk1_eq, iblk2_eq, iblk3_eq]

/-- The second result's array after the run: the new hidden state of the launch contents and the packed block. -/
theorem final5 (c : Dev nD) : (dats m 0 c).arrAt 5 cfg0.N
    = h2v (m ((c.tc : Thread nD τ).loc main_arg0)) (m ((c.tc : Thread nD τ).loc main_arg1)) (V m c main_v10) := by
  refine (read_blk5 t0_0 _).symm.trans (((dats m 0 c).read_blk_arrAt_eq_flushed 5 (no_two_points 5) cfg0.N t0_0 t0_0.isLt (flush0_5 t0_0)).trans ?_)
  rw [flushed5, iblk0_eq, iblk1_eq, iblk3_eq]

/-- THE RUN, READ: @main runs; the first result ends at the head's values and the second at the new hidden state, both of
    the launch contents of the first three arguments and of the packed block the host operations build; the argument
    arrays end unchanged. -/
theorem run_vals : θ_run defs (onTc (τ := τ) (main (F := F))) ⟨m, fun _ => 0, ρ⟩ (fun r => ∀ c : Dev nD,
      r.2.mem ((c.tc : Thread nD τ).loc main_v11_0) = qv (m ((c.tc : Thread nD τ).loc main_arg0)) (m ((c.tc : Thread nD τ).loc main_arg1)) (m ((c.tc : Thread nD τ).loc main_arg2)) (V m c main_v10)
      ∧ r.2.mem ((c.tc : Thread nD τ).loc main_v11_1) = h2v (m ((c.tc : Thread nD τ).loc main_arg0)) (m ((c.tc : Thread nD τ).loc main_arg1)) (V m c main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 4).trans (final4 m c), ((h c).1 5).trans (final5 m c), kept_all m r h c⟩) (run_main m ρ)

end Cert.Kernel.Hand

end
-- ==== Proof.RefOps.lean ====
/- The reference program's @main as lists of its host operations, in order: 100 + 86 + 84 + 2 operations in its four windows,
   the operations of the functions it calls (the rectifier, jnp's where, floor_divide, remainder and take) written at their call sites over the calls' buffer records.
   That @main is the sequence of these lists is checked by unfolding; the run then ends with every buffer at the fold of the operations over the launch contents. -/
import proofs.«138646_g48533130445277_cont_sun_m_870_17_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 1 to 50 of window 0. -/
abbrev ops_p0a : List (HloOp τ sig (Elt F)) :=
  [ StableHlo.binary main_arg0 main_arg3 main_v0 ((fun l r => Host.dotGeneral dot_S1024x275_S275x64_S1024x64_1_0_0_1_n_n none l r) : (⟨S1024x275, .f32⟩ : BufTy).Contents (Elt F) → (⟨S275x64, .f32⟩ : BufTy).Contents (Elt F) → (⟨S1024x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S1024x64 ![0, 1] bcast_S1x64_S1024x64_0_1 : (⟨S1x64, .f32⟩ : BufTy).Contents (Elt F) → (⟨S1024x64, .f32⟩ : BufTy).Contents (Elt F)),
    StableHlo.binary main_v0 main_v2 main_v3 (addf : (⟨S1024x64, .f32⟩ : BufTy).Contents (Elt F) → (⟨S1024x64, .f32⟩ : BufTy).Contents (Elt F) → (⟨S1024x64, .f32⟩ : BufTy).Contents (Elt F)),
    StableHlo.TRef.nullary main_call0.cst (constant S_ .f32 0x00000000#32),
    StableHlo.TRef.unary main_call0.cst main_call0.v0 (broadcastInDim S1024x64 ![] bcast_S_S1024x64),
    StableHlo.TRef.binary ((.of main_v3) : StableHlo.TRef sig ⟨S1024x64, .f32⟩) main_call0.v0 main_call0.v1 maximumf,
    StableHlo.unary main_arg5 main_v5 ((transpose S64x192 [1, 0] · transposes_S192x64_S64x192_1_0) : (⟨S192x64, .f32⟩ : BufTy).Contents (Elt F) → (⟨S64x192, .f32⟩ : BufTy).Contents (Elt F)),
    StableHlo.binary main_v4 main_v5 main_v6 ((fun l r => Host.dotGeneral dot_S1024x64_S64x192_S1024x192_1_0_0_1_n_n none l r) : (⟨S1024x64, .f32⟩ : BufTy).Contents (Elt F) → (⟨S64x192, .f32⟩ : BufTy).Contents (Elt F) → (⟨S1024x192, .f32⟩ : BufTy).Contents (Elt F)),
    StableHlo.unary main_arg7 main_v7 (broadcastInDim S1x192 ![1] bcast_S192_S1x192_1 : (⟨S192, .f32⟩ : BufTy).Contents (Elt F) → (⟨S1x192, .f32⟩ : BufTy).Contents (Elt F)),
    StableHlo.unary main_v7 main_v8 (broadcastInDim S1024x192 ![0, 1] bcast_S1x192_S1024x192_0_1 : (⟨S1x192, .f32⟩ : BufTy).Contents (Elt F) → (⟨S1024x192, .f32⟩ : BufTy).Contents (Elt F)),
    StableHlo.binary main_v6 main_v8 main_v9 (addf : (⟨S1024x192, .f32⟩ : BufTy).Contents (Elt F) → (⟨S1024x192, .f32⟩ : BufTy).Contents (Elt F) → (⟨S1024x192, .f32⟩ : BufTy).Contents (Elt F)),
    StableHlo.unary main_arg6 main_v10 ((transpose S64x192 [1, 0] · transposes_S192x64_S64x192_1_0) : (⟨S192x64, .f32⟩ : BufTy).Contents (Elt F) → (⟨S64x192, .f32⟩ : BufTy).Contents (Elt F)),
    StableHlo.binary main_arg1 main_v10 main_v11 ((fun l r => Host.dotGeneral dot_S1024x64_S64x192_S1024x192_1_0_0_1_n_n none l r) : (⟨S1024x64, .f32⟩ : BufTy).Contents (Elt F) → (⟨S64x192, .f32⟩ : BufTy).Contents (Elt F) → (⟨S1024x192, .f32⟩ : BufTy).Contents (Elt F)),
    StableHlo.unary main_arg8 main_v12 (broadcastInDim S1x192 ![1] bcast_S192_S1x192_1 : (⟨S192, .f32⟩ : BufTy).Contents (Elt F) → (⟨S1x192, .f32⟩ : BufTy).Contents (Elt F)),
    StableHlo.unary main_v12 main_v13 (broadcastInDim S1024x192 ![0, 1] bcast_S1x192_S1024x192_0_1 : (⟨S1x192, .f32⟩ : BufTy).Contents (Elt F) → (⟨S1024x192, .f32⟩ : BufTy).Contents (Elt F)),
    StableHlo.binary main_v11 main_v13 main_v14 (addf : (⟨S1024x192, .f32⟩ : BufTy).Contents (Elt F) → (⟨S1024x192, .f32⟩ : BufTy).Contents (Elt F) → (⟨S1024x192, .f32⟩ : BufTy).Contents (Elt F)),
    StableHlo.unary main_v9 main_v15 ((extractStridedSlice S1024x64 ![0, 0] · slices_S1024x192_S1024x64_0_0) : (⟨S1024x192, .f32⟩ : BufTy).Contents (Elt F) → (⟨S1024x64, .f32⟩ : BufTy).Contents (Elt F)),
    StableHlo.unary main_v9 main_v16 ((extractStridedSlice S1024x64 ![0, 64] · slices_S1024x192_S1024x64_0_64) : (⟨S1024x192, .f32⟩ : BufTy).Contents (Elt F) → (⟨S1024x64, .f32⟩ : BufTy).Contents (Elt F)),
    StableHlo.unary main_v9 main_v17 ((extractStridedSlice S1024x64 ![0, 128] · slices_S1024x192_S1024x64_0_128) : (⟨S1024x192, .f32⟩ : BufTy).Contents (Elt F) → (⟨S1024x64, .f32⟩ : BufTy).Contents (Elt F)),
    StableHlo.unary main_v14 main_v18 ((extractStridedSlice S1024x64 ![0, 0] · slices_S1024x192_S1024x64_0_0) : (⟨S1024x192, .f32⟩ : BufTy).Contents (Elt F) → (⟨S1024x64, .f32⟩ : BufTy).Contents (Elt F)),
    StableHlo.unary main_v14 main_v19 ((extractStridedSlice S1024x64 ![0, 64] · slices_S1024x192_S1024x64_0_64) : (⟨S1024x192, .f32⟩ : BufTy).Contents (Elt F) → (⟨S1024x64, .f32⟩ : BufTy).Contents (Elt F)),
    StableHlo.unary main_v14 main_v20 ((extractStridedSlice S1024x64 ![0, 128] · slices_S1024x192_S1024x64_0_128) : (⟨S1024x192, .f32⟩ : BufTy).Contents (Elt F) → (⟨S1024x64, .f32⟩ : BufTy).Contents (Elt F)),
    StableHlo.binary main_v15 main_v18 main_v21 (addf : (⟨S1024x64, .f32⟩ : BufTy).Contents (Elt F) → (⟨S1024x64, .f32⟩ : BufTy).Contents (Elt F) → (⟨S1024x64, .f32⟩ : BufTy).Contents (Elt F)),
    StableHlo.unary main_v21 main_v22 (Host.negf : (⟨S1024x64, .f32⟩ : BufTy).Contents (Elt F) → (⟨S1024x64, .f32⟩ : BufTy).Contents (Elt F)),
    StableHlo.unary main_v22 main_v23 (Host.exp : (⟨S1024x64, .f32⟩ : BufTy).Contents (Elt F) → (⟨S1024x64, .f32⟩ : BufTy).Contents (Elt F)),
    StableHlo.nullary main_cst (constant S_ .f32 0x3F800000#32),
    StableHlo.unary main_cst main_v24 (broadcastInDim S1024x64 ![] bcast_S_S1024x64 : (⟨S_, .f32⟩ : BufTy).Contents (Elt F) → (⟨S1024x64, .f32⟩ : BufTy).Contents (Elt F)),
    StableHlo.binary main_v24 main_v23 main_v25 (addf : (⟨S1024x64, .f32⟩ : BufTy).Contents (Elt F) → (⟨S1024x64, .f32⟩ : BufTy).Contents (Elt F) → (⟨S1024x64, .f32⟩ : BufTy).Contents (Elt F)),
    StableHlo.nullary main_cst_0 (constant S_ .f32 0x3F800000#32),
    StableHlo.unary main_cst_0 main_v26 (broadcastInDim S1024x64 ![] bcast_S_S1024x64 : (⟨S_, .f32⟩ : BufTy).Contents (Elt F) → (⟨S1024x64, .f32⟩ : BufTy).Contents (Elt F)),
    StableHlo.binary main_v26 main_v25 main_v27 (Host.divf : (⟨S1024x64, .f32⟩ : BufTy).Contents (Elt F) → (⟨S1024x64, .f32⟩ : BufTy).Contents (Elt F) → (⟨S1024x64, .f32⟩ : BufTy).Contents (Elt F)),
    StableHlo.binary main_v16 main_v19 main_v28 (addf : (⟨S1024x64, .f32⟩ : BufTy).Contents (Elt F) → (⟨S1024x64, .f32⟩ : BufTy).Contents (Elt F) → (⟨S1024x64, .f32⟩ : BufTy).Contents (Elt F)),
    StableHlo.unary main_v28 main_v29 (Host.negf : (⟨S1024x64, .f32⟩ : BufTy).Contents (Elt F) → (⟨S1024x64, .f32⟩ : BufTy).Contents (Elt F)),
    StableHlo.unary main_v29 main_v30 (Host.exp : (⟨S1024x64, .f32⟩ : BufTy).Contents (Elt F) → (⟨S1024x64, .f32⟩ : BufTy).Contents (Elt F)),
    StableHlo.nullary main_cst_1 (constant S_ .f32 0x3F800000#32),
    StableHlo.unary main_cst_1 main_v31 (broadcastInDim S1024x64 ![] bcast_S_S1024x64 : (⟨S_, .f32⟩ : BufTy).Contents (Elt F) → (⟨S1024x64, .f32⟩ : BufTy).Contents (Elt F)),
    StableHlo.binary main_v31 main_v30 main_v32 (addf : (⟨S1024x64, .f32⟩ : BufTy).Contents (Elt F) → (⟨S1024x64, .f32⟩ : BufTy).Contents (Elt F) → (⟨S1024x64, .f32⟩ : BufTy).Contents (Elt F)),
    StableHlo.nullary main_cst_2 (constant S_ .f32 0x3F800000#32),
    StableHlo.unary main_cst_2 main_v33 (broadcastInDim S1024x64 ![] bcast_S_S1024x64 : (⟨S_, .f32⟩ : BufTy).Contents (Elt F) → (⟨S1024x64, .f32⟩ : BufTy).Contents (Elt F)),
    StableHlo.binary main_v33 main_v32 main_v34 (Host.divf : (⟨S1024x64, .f32⟩ : BufTy).Contents (Elt F) → (⟨S1024x64, .f32⟩ : BufTy).Contents (Elt F) → (⟨S1024x64, .f32⟩ : BufTy).Contents (Elt F)),
    StableHlo.binary main_v27 main_v20 main_v35 (mulf : (⟨S1024x64, .f32⟩ : BufTy).Contents (Elt F) → (⟨S1024x64, .f32⟩ : BufTy).Contents (Elt F) → (⟨S1024x64, .f32⟩ : BufTy).Contents (Elt F)),
    StableHlo.binary main_v17 main_v35 main_v36 (addf : (⟨S1024x64, .f32⟩ : BufTy).Contents (Elt F) → (⟨S1024x64, .f32⟩ : BufTy).Contents (Elt F) → (⟨S1024x64, .f32⟩ : BufTy).Contents (Elt F)),
    StableHlo.unary main_v36 main_v37 (Host.tanh : (⟨S1024x64, .f32⟩ : BufTy).Contents (Elt F) → (⟨S1024x64, .f32⟩ : BufTy).Contents (Elt F)),
    StableHlo.nullary main_cst_3 (constant S_ .f32 0x3F800000#32),
    StableHlo.unary main_cst_3 main_v38 (broadcastInDim S1024x64 ![] bcast_S_S1024x64 : (⟨S_, .f32⟩ : BufTy).Contents (Elt F) → (⟨S1024x64, .f32⟩ : BufTy).Contents (Elt F)),
    StableHlo.binary main_v38 main_v34 main_v39 (subf : (⟨S1024x64, .f32⟩ : BufTy).Contents (Elt F) → (⟨S1024x64, .f32⟩ : BufTy).Contents (Elt F) → (⟨S1024x64, .f32⟩ : BufTy).Contents (Elt F)),
    StableHlo.binary main_v39 main_v37 main_v40 (mulf : (⟨S1024x64, .f32⟩ : BufTy).Contents (Elt F) → (⟨S1024x64, .f32⟩ : BufTy).Contents (Elt F) → (⟨S1024x64, .f32⟩ : BufTy).Contents (Elt F)),
    StableHlo.binary main_v34 main_arg1 main_v41 (mulf : (⟨S1024x64, .f32⟩ : BufTy).Contents (Elt F) → (⟨S1024x64, .f32⟩ : BufTy).Contents (Elt F) → (⟨S1024x64, .f32⟩ : BufTy).Contents (Elt F)),
    StableHlo.binary main_v40 main_v41 main_v42 (addf : (⟨S1024x64, .f32⟩ : BufTy).Contents (Elt F) → (⟨S1024x64, .f32⟩ : BufTy).Contents (Elt F) → (⟨S1024x64, .f32⟩ : BufTy).Contents (Elt F)) ]
theorem ops_p0a_sub : (ops_p0a : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

/-- Operations 51 to 100 of window 0. -/
abbrev ops_p0b : List (HloOp τ sig (Elt F)) :=
  [ StableHlo.nullary main_v43 (iotaInDim S1048576 32 0),
    StableHlo.nullary main_c (constantI S_ 32 1024#32),
    StableHlo.TRef.unary ((.of main_c) : StableHlo.TRef sig ⟨S_, .i32⟩) main_call1.v0 id,
    StableHlo.TRef.unary main_call1.v0 main_call1.v1 (broadcastInDim S1048576 ![] bcast_S_S1048576),
    StableHlo.TRef.binary ((.of main_v43) : StableHlo.TRef sig ⟨S1048576, .i32⟩) main_call1.v1 main_call1.v2 Host.divsi,
    StableHlo.TRef.unary ((.of main_v43) : StableHlo.TRef sig ⟨S1048576, .i32⟩) main_call1.v3 signi,
    StableHlo.TRef.unary main_call1.v0 main_call1.v4 signi,
    StableHlo.TRef.unary main_call1.v4 main_call1.v5 (broadcastInDim S1048576 ![] bcast_S_S1048576),
    StableHlo.TRef.binary main_call1.v3 main_call1.v5 main_call1.v6 (cmpi .ne),
    StableHlo.TRef.unary main_call1.v0 main_call1.v7 (broadcastInDim S1048576 ![] bcast_S_S1048576),
    StableHlo.TRef.binary ((.of main_v43) : StableHlo.TRef sig ⟨S1048576, .i32⟩) main_call1.v7 main_call1.v8 Host.remsi,
    StableHlo.TRef.nullary main_call1.c (constantI S_ 32 0#32),
    StableHlo.TRef.unary main_call1.c main_call1.v9 (broadcastInDim S1048576 ![] bcast_S_S1048576),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1048576 ![] bcast_S_S1048576),
    StableHlo.TRef.binary main_call1.v2 main_call1.v12 main_call1.v13 subi,
    StableHlo.TRef.ternary (main_call1.v11 : StableHlo.TRef sig ⟨S1048576, .i1⟩) (main_call1.v13 : StableHlo.TRef sig ⟨S1048576, .i32⟩) (main_call1.v2 : StableHlo.TRef sig ⟨S1048576, .i32⟩) main_call1.call0.v0 select,
    StableHlo.nullary main_c_4 (constantI S_ 32 1024#32),
    StableHlo.TRef.unary ((.of main_c_4) : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary (main_call2.v1 : StableHlo.TRef sig ⟨S_, .i1⟩) (main_call2.c_0 : StableHlo.TRef sig ⟨S_, .i32⟩) (main_call2.v0 : StableHlo.TRef sig ⟨S_, .i32⟩) main_call2.call0.v0 select,
    StableHlo.TRef.unary main_call2.call0.v0 main_call2.v3 (broadcastInDim S1048576 ![] bcast_S_S1048576),
    StableHlo.TRef.binary ((.of main_v43) : StableHlo.TRef sig ⟨S1048576, .i32⟩) main_call2.v3 main_call2.v4 Host.remsi,
    StableHlo.TRef.nullary main_call2.c_1 (constantI S_ 32 0#32),
    StableHlo.TRef.unary main_call2.c_1 main_call2.v5 (broadcastInDim S1048576 ![] bcast_S_S1048576),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1048576 ![] bcast_S_S1048576),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1048576 ![] bcast_S_S1048576),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1048576 ![] bcast_S_S1048576),
    StableHlo.TRef.binary main_call2.v4 main_call2.v13 main_call2.v14 addi,
    StableHlo.TRef.ternary main_call2.v12 main_call2.v14 main_call2.v4 main_call2.v15 select,
    StableHlo.reshape main_arg2 main_v46 rfl shapeCasts_S1024x1024_S1048576,
    StableHlo.nullary main_cst_5 (constant S_ .f32 0x00000000#32),
    StableHlo.unary main_cst_5 main_v47 (broadcastInDim S1048576 ![] bcast_S_S1048576 : (⟨S_, .f32⟩ : BufTy).Contents (Elt F) → (⟨S1048576, .f32⟩ : BufTy).Contents (Elt F)),
    StableHlo.binary main_v46 main_v47 main_v48 (cmpf .une : (⟨S1048576, .f32⟩ : BufTy).Contents (Elt F) → (⟨S1048576, .f32⟩ : BufTy).Contents (Elt F) → (⟨S1048576, .i1⟩ : BufTy).Contents (Elt F)),
    StableHlo.nullary main_cst_6 (constant S_ .f32 0x3F800000#32),
    StableHlo.nullary main_cst_7 (constant S_ .f32 0x00000000#32),
    StableHlo.TRef.unary ((.of main_cst_6) : StableHlo.TRef sig ⟨S_, .f32⟩) main_call3.v0 (broadcastInDim S1048576 ![] bcast_S_S1048576),
    StableHlo.TRef.unary ((.of main_cst_7) : StableHlo.TRef sig ⟨S_, .f32⟩) main_call3.v1 (broadcastInDim S1048576 ![] bcast_S_S1048576),
    StableHlo.TRef.ternary ((.of main_v48) : StableHlo.TRef sig ⟨S1048576, .i1⟩) main_call3.v0 main_call3.v1 main_call3.v2 select ]
theorem ops_p0b_sub : (ops_p0b : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., reshape_bufs_sub .., nullary_bufs_sub .., unary_bufs_sub .., binary_bufs_sub .., nullary_bufs_sub .., nullary_bufs_sub .., unary_bufs_sub .., unary_bufs_sub .., ternary_bufs_sub ..⟩

/-- Window 0's operations. -/
abbrev ops_part0 : List (HloOp τ sig (Elt F)) := ops_p0a ++ ops_p0b

/-- Operations 1 to 43 of window 1. -/
abbrev ops_p1a : List (HloOp τ sig (Elt F)) :=
  [ StableHlo.unary main_v49 main_v50 (id : (⟨S1048576, .f32⟩ : BufTy).Contents (Elt F) → (⟨S1048576, .f32⟩ : BufTy).Contents (Elt F)),
    StableHlo.nullary main_v51 (iotaInDim S1024 32 0),
    StableHlo.binary main_v44 main_v51 main_v52 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v45 main_v51 main_v53 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_8 (constant S_ .f32 0x3F800000#32),
    StableHlo.unary main_cst_8 main_v54 (broadcastInDim S1024 ![] bcast_S_S1024 : (⟨S_, .f32⟩ : BufTy).Contents (Elt F) → (⟨S1024, .f32⟩ : BufTy).Contents (Elt F)),
    StableHlo.binary main_v50 main_v54 main_v55 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_9 (constant S_ .f32 0x00000000#32),
    StableHlo.unary main_cst_9 main_v56 (broadcastInDim S1024 ![] bcast_S_S1024 : (⟨S_, .f32⟩ : BufTy).Contents (Elt F) → (⟨S1024, .f32⟩ : BufTy).Contents (Elt F)),
    StableHlo.nullary main_c_10 (constantI S_ 32 0#32),
    StableHlo.unary main_c_10 main_v57 (broadcastInDim S1049600 ![] bcast_S_S1049600 : (⟨S_, .i32⟩ : BufTy).Contents (Elt F) → (⟨S1049600, .i32⟩ : BufTy).Contents (Elt F)),
    StableHlo.binary main_v53 main_v57 main_v58 (cmpi .slt : (⟨S1049600, .i32⟩ : BufTy).Contents (Elt F) → (⟨S1049600, .i32⟩ : BufTy).Contents (Elt F) → (⟨S1049600, .i1⟩ : BufTy).Contents (Elt F)),
    StableHlo.nullary main_c_11 (constantI S_ 32 1024#32),
    StableHlo.unary main_c_11 main_v59 (broadcastInDim S1049600 ![] bcast_S_S1049600 : (⟨S_, .i32⟩ : BufTy).Contents (Elt F) → (⟨S1049600, .i32⟩ : BufTy).Contents (Elt F)),
    StableHlo.binary main_v53 main_v59 main_v60 (addi : (⟨S1049600, .i32⟩ : BufTy).Contents (Elt F) → (⟨S1049600, .i32⟩ : BufTy).Contents (Elt F) → (⟨S1049600, .i32⟩ : BufTy).Contents (Elt F)),
    StableHlo.ternary main_v58 main_v60 main_v53 main_v61 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v61 main_v62 (broadcastInDim S1049600x1 ![0] bcast_S1049600_S1049600x1_0 : (⟨S1049600, .i32⟩ : BufTy).Contents (Elt F) → (⟨S1049600x1, .i32⟩ : BufTy).Contents (Elt F)),
    StableHlo.ternary main_v56 main_v62 main_v55 main_v63 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_12 (constant S_ .f32 0x00000000#32),
    StableHlo.unary main_cst_12 main_v64 (broadcastInDim S1024 ![] bcast_S_S1024 : (⟨S_, .f32⟩ : BufTy).Contents (Elt F) → (⟨S1024, .f32⟩ : BufTy).Contents (Elt F)),
    StableHlo.binary main_v63 main_v64 main_v65 (cmpf .ogt : (⟨S1024, .f32⟩ : BufTy).Contents (Elt F) → (⟨S1024, .f32⟩ : BufTy).Contents (Elt F) → (⟨S1024, .i1⟩ : BufTy).Contents (Elt F)),
    StableHlo.unary main_v63 main_v66 (Host.sqrt : (⟨S1024, .f32⟩ : BufTy).Contents (Elt F) → (⟨S1024, .f32⟩ : BufTy).Contents (Elt F)),
    StableHlo.nullary main_cst_13 (constant S_ .f32 0x3F800000#32),
    StableHlo.unary main_cst_13 main_v67 (broadcastInDim S1024 ![] bcast_S_S1024 : (⟨S_, .f32⟩ : BufTy).Contents (Elt F) → (⟨S1024, .f32⟩ : BufTy).Contents (Elt F)),
    StableHlo.binary main_v67 main_v66 main_v68 (Host.divf : (⟨S1024, .f32⟩ : BufTy).Contents (Elt F) → (⟨S1024, .f32⟩ : BufTy).Contents (Elt F) → (⟨S1024, .f32⟩ : BufTy).Contents (Elt F)),
    StableHlo.nullary main_cst_14 (constant S_ .f32 0x00000000#32),
    StableHlo.TRef.unary ((.of main_cst_14) : StableHlo.TRef sig ⟨S_, .f32⟩) main_call4.v0 id,
    StableHlo.TRef.unary main_call4.v0 main_call4.v1 (broadcastInDim S1024 ![] bcast_S_S1024),
    StableHlo.TRef.ternary ((.of main_v65) : StableHlo.TRef sig ⟨S1024, .i1⟩) ((.of main_v68) : StableHlo.TRef sig ⟨S1024, .f32⟩) main_call4.v1 main_call4.v2 select,
    StableHlo.nullary main_c_15 (constantI S_ 32 0#32),
    StableHlo.unary main_c_15 main_v70 (broadcastInDim S1049600 ![] bcast_S_S1049600 : (⟨S_, .i32⟩ : BufTy).Contents (Elt F) → (⟨S1049600, .i32⟩ : BufTy).Contents (Elt F)),
    StableHlo.binary main_v52 main_v70 main_v71 (cmpi .slt : (⟨S1049600, .i32⟩ : BufTy).Contents (Elt F) → (⟨S1049600, .i32⟩ : BufTy).Contents (Elt F) → (⟨S1049600, .i1⟩ : BufTy).Contents (Elt F)),
    StableHlo.nullary main_c_16 (constantI S_ 32 1024#32),
    StableHlo.unary main_c_16 main_v72 (broadcastInDim S1049600 ![] bcast_S_S1049600 : (⟨S_, .i32⟩ : BufTy).Contents (Elt F) → (⟨S1049600, .i32⟩ : BufTy).Contents (Elt F)),
    StableHlo.binary main_v52 main_v72 main_v73 (addi : (⟨S1049600, .i32⟩ : BufTy).Contents (Elt F) → (⟨S1049600, .i32⟩ : BufTy).Contents (Elt F) → (⟨S1049600, .i32⟩ : BufTy).Contents (Elt F)),
    StableHlo.ternary main_v71 main_v73 main_v52 main_v74 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v74 main_v75 (broadcastInDim S1049600x1 ![0] bcast_S1049600_S1049600x1_0 : (⟨S1049600, .i32⟩ : BufTy).Contents (Elt F) → (⟨S1049600x1, .i32⟩ : BufTy).Contents (Elt F)),
    StableHlo.binary main_v69 main_v75 main_v76 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_17 (constantI S_ 32 0#32),
    StableHlo.unary main_c_17 main_v77 (broadcastInDim S1049600 ![] bcast_S_S1049600 : (⟨S_, .i32⟩ : BufTy).Contents (Elt F) → (⟨S1049600, .i32⟩ : BufTy).Contents (Elt F)),
    StableHlo.binary main_v53 main_v77 main_v78 (cmpi .slt : (⟨S1049600, .i32⟩ : BufTy).Contents (Elt F) → (⟨S1049600, .i32⟩ : BufTy).Contents (Elt F) → (⟨S1049600, .i1⟩ : BufTy).Contents (Elt F)),
    StableHlo.nullary main_c_18 (constantI S_ 32 1024#32),
    StableHlo.unary main_c_18 main_v79 (broadcastInDim S1049600 ![] bcast_S_S1049600 : (⟨S_, .i32⟩ : BufTy).Contents (Elt F) → (⟨S1049600, .i32⟩ : BufTy).Contents (Elt F)) ]
theorem ops_p1a_sub : (ops_p1a : List (HloOp τ sig (Elt F))).Forall fun op => op.bufs ⊆ tcRefs τ sig :=
  ⟨unary_bufs_sub .., nullary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩

/-- Operations 44 to 86 of window 1. -/
abbrev ops_p1b : List (HloOp τ sig (Elt F)) :=
  [ StableHlo.binary main_v53 main_v79 main_v80 (addi : (⟨S1049600, .i32⟩ : BufTy).Contents (Elt F) → (⟨S1049600, .i32⟩ : BufTy).Contents (Elt F) → (⟨S1049600, .i32⟩ : BufTy).Contents (Elt F)),
    StableHlo.ternary main_v78 main_v80 main_v53 main_v81 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v81 main_v82 (broadcastInDim S1049600x1 ![0] bcast_S1049600_S1049600x1_0 : (⟨S1049600, .i32⟩ : BufTy).Contents (Elt F) → (⟨S1049600x1, .i32⟩ : BufTy).Contents (Elt F)),
    StableHlo.binary main_v69 main_v82 main_v83 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v76 main_v83 main_v84 (mulf : (⟨S1049600, .f32⟩ : BufTy).Contents (Elt F) → (⟨S1049600, .f32⟩ : BufTy).Contents (Elt F) → (⟨S1049600, .f32⟩ : BufTy).Contents (Elt F)),
    StableHlo.binary main_v84 main_v55 main_v85 (mulf : (⟨S1049600, .f32⟩ : BufTy).Contents (Elt F) → (⟨S1049600, .f32⟩ : BufTy).Contents (Elt F) → (⟨S1049600, .f32⟩ : BufTy).Contents (Elt F)),
    StableHlo.binary main_v42 main_arg9 main_v86 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    StableHlo.TRef.nullary main_call5.c (constantI S_ 32 0#32),
    StableHlo.TRef.unary main_call5.c main_call5.v0 (broadcastInDim S1049600 ![] bcast_S_S1049600),
    StableHlo.TRef.binary ((.of main_v52) : StableHlo.TRef sig ⟨S1049600, .i32⟩) main_call5.v0 main_call5.v1 (cmpi .slt),
    StableHlo.TRef.nullary main_call5.c_0 (constantI S_ 32 1024#32),
    StableHlo.TRef.unary main_call5.c_0 main_call5.v2 (broadcastInDim S1049600 ![] bcast_S_S1049600),
    StableHlo.TRef.binary ((.of main_v52) : StableHlo.TRef sig ⟨S1049600, .i32⟩) main_call5.v2 main_call5.v3 addi,
    StableHlo.TRef.ternary (main_call5.v1 : StableHlo.TRef sig ⟨S1049600, .i1⟩) (main_call5.v3 : StableHlo.TRef sig ⟨S1049600, .i32⟩) (((.of main_v52) : StableHlo.TRef sig ⟨S1049600, .i32⟩) : StableHlo.TRef sig ⟨S1049600, .i32⟩) main_call5.call0.v0 select,
    StableHlo.TRef.unary main_call5.call0.v0 main_call5.v5 (broadcastInDim S1049600x1 ![0] bcast_S1049600_S1049600x1_0),
    StableHlo.TRef.nullary main_call5.c_1 (constantI S1 32 1023#32),
    StableHlo.TRef.nullary main_call5.c_2 (constantI S_ 32 0#32),
    StableHlo.TRef.unary main_call5.c_2 main_call5.v6 (broadcastInDim S1049600x1 ![] bcast_S_S1049600x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S1049600x1 ![0, 1] bcast_S1x1_S1049600x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1049600x1_S1049600_d1 h_S_),
    StableHlo.TRef.binary ((.of main_v86) : StableHlo.TRef sig ⟨S1024x64, .f32⟩) main_call5.v5 main_call5.v13 (fun x i => Host.gather gather_S1024x64_S1049600x1_S1049600x64_1_0_n_n_0_1_164 x i),
    StableHlo.TRef.unary main_call5.v12 main_call5.v14 (broadcastInDim S1049600x64 ![0] bcast_S1049600_S1049600x64_0),
    StableHlo.TRef.nullary main_call5.cst (constant S_ .f32 0x7FC00000#32),
    StableHlo.TRef.unary main_call5.cst main_call5.v15 (broadcastInDim S1049600x64 ![] bcast_S_S1049600x64),
    StableHlo.TRef.ternary main_call5.v14 main_call5.v13 main_call5.v15 main_call5.v16 select,
    StableHlo.unary main_v85 main_v88 (broadcastInDim S1049600x1 ![0] bcast_S1049600_S1049600x1_0 : (⟨S1049600, .f32⟩ : BufTy).Contents (Elt F) → (⟨S1049600x1, .f32⟩ : BufTy).Contents (Elt F)),
    StableHlo.unary main_v88 main_v89 (broadcastInDim S1049600x64 ![0, 1] bcast_S1049600x1_S1049600x64_0_1 : (⟨S1049600x1, .f32⟩ : BufTy).Contents (Elt F) → (⟨S1049600x64, .f32⟩ : BufTy).Contents (Elt F)),
    StableHlo.binary main_v87 main_v89 main_v90 (mulf : (⟨S1049600x64, .f32⟩ : BufTy).Contents (Elt F) → (⟨S1049600x64, .f32⟩ : BufTy).Contents (Elt F) → (⟨S1049600x64, .f32⟩ : BufTy).Contents (Elt F)),
    StableHlo.nullary main_cst_19 (constant S_ .f32 0x00000000#32),
    StableHlo.unary main_cst_19 main_v91 (broadcastInDim S1024x64 ![] bcast_S_S1024x64 : (⟨S_, .f32⟩ : BufTy).Contents (Elt F) → (⟨S1024x64, .f32⟩ : BufTy).Contents (Elt F)),
    StableHlo.unary main_v53 main_v92 (broadcastInDim S1049600x1 ![0] bcast_S1049600_S1049600x1_0 : (⟨S1049600, .i32⟩ : BufTy).Contents (Elt F) → (⟨S1049600x1, .i32⟩ : BufTy).Contents (Elt F)),
    StableHlo.ternary main_v91 main_v92 main_v90 main_v93 ((fun x i u => Host.scatterAdd scatter_S1024x64_S1049600x1_S1049600x64_1_0_0_1 x i u) : (⟨S1024x64, .f32⟩ : BufTy).Contents (Elt F) → (⟨S1049600x1, .i32⟩ : BufTy).Contents (Elt F) → (⟨S1049600x64, .f32⟩ : BufTy).Contents (Elt F) → (⟨S1024x64, .f32⟩ : BufTy).Contents (Elt F)),
    StableHlo.unary main_arg10 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S1024x64 ![0, 1] bcast_S1x64_S1024x64_0_1 : (⟨S1x64, .f32⟩ : BufTy).Contents (Elt F) → (⟨S1024x64, .f32⟩ : BufTy).Contents (Elt F)),
    StableHlo.binary main_v93 main_v95 main_v96 (addf : (⟨S1024x64, .f32⟩ : BufTy).Contents (Elt F) → (⟨S1024x64, .f32⟩ : BufTy).Contents (Elt F) → (⟨S1024x64, .f32⟩ : BufTy).Contents (Elt F)),
    StableHlo.TRef.nullary main_call6.cst (constant S_ .f32 0x00000000#32),
    StableHlo.TRef.unary main_call6.cst main_call6.v0 (broadcastInDim S1024x64 ![] bcast_S_S1024x64),
    StableHlo.TRef.binary ((.of main_v96) : StableHlo.TRef sig ⟨S1024x64, .f32⟩) main_call6.v0 main_call6.v1 maximumf ]
theorem ops_p1b_sub : (ops_p1b : List (HloOp τ sig (Elt F))).Forall fun op => op.bufs ⊆ tcRefs τ sig :=
  ⟨binary_bufs_sub .., ternary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- Window 1's operations. -/
abbrev ops_part1 : List (HloOp τ sig (Elt F)) := ops_p1a ++ ops_p1b

/-- Operations 1 to 42 of window 2. -/
abbrev ops_p2a : List (HloOp τ sig (Elt F)) :=
  [ StableHlo.nullary main_v98 (iotaInDim S1024 32 0),
    StableHlo.binary main_v44 main_v98 main_v99 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v45 main_v98 main_v100 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_20 (constant S_ .f32 0x3F800000#32),
    StableHlo.unary main_cst_20 main_v101 (broadcastInDim S1024 ![] bcast_S_S1024 : (⟨S_, .f32⟩ : BufTy).Contents (Elt F) → (⟨S1024, .f32⟩ : BufTy).Contents (Elt F)),
    StableHlo.binary main_v50 main_v101 main_v102 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_21 (constant S_ .f32 0x00000000#32),
    StableHlo.unary main_cst_21 main_v103 (broadcastInDim S1024 ![] bcast_S_S1024 : (⟨S_, .f32⟩ : BufTy).Contents (Elt F) → (⟨S1024, .f32⟩ : BufTy).Contents (Elt F)),
    StableHlo.nullary main_c_22 (constantI S_ 32 0#32),
    StableHlo.unary main_c_22 main_v104 (broadcastInDim S1049600 ![] bcast_S_S1049600 : (⟨S_, .i32⟩ : BufTy).Contents (Elt F) → (⟨S1049600, .i32⟩ : BufTy).Contents (Elt F)),
    StableHlo.binary main_v100 main_v104 main_v105 (cmpi .slt : (⟨S1049600, .i32⟩ : BufTy).Contents (Elt F) → (⟨S1049600, .i32⟩ : BufTy).Contents (Elt F) → (⟨S1049600, .i1⟩ : BufTy).Contents (Elt F)),
    StableHlo.nullary main_c_23 (constantI S_ 32 1024#32),
    StableHlo.unary main_c_23 main_v106 (broadcastInDim S1049600 ![] bcast_S_S1049600 : (⟨S_, .i32⟩ : BufTy).Contents (Elt F) → (⟨S1049600, .i32⟩ : BufTy).Contents (Elt F)),
    StableHlo.binary main_v100 main_v106 main_v107 (addi : (⟨S1049600, .i32⟩ : BufTy).Contents (Elt F) → (⟨S1049600, .i32⟩ : BufTy).Contents (Elt F) → (⟨S1049600, .i32⟩ : BufTy).Contents (Elt F)),
    StableHlo.ternary main_v105 main_v107 main_v100 main_v108 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v108 main_v109 (broadcastInDim S1049600x1 ![0] bcast_S1049600_S1049600x1_0 : (⟨S1049600, .i32⟩ : BufTy).Contents (Elt F) → (⟨S1049600x1, .i32⟩ : BufTy).Contents (Elt F)),
    StableHlo.ternary main_v103 main_v109 main_v102 main_v110 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_24 (constant S_ .f32 0x00000000#32),
    StableHlo.unary main_cst_24 main_v111 (broadcastInDim S1024 ![] bcast_S_S1024 : (⟨S_, .f32⟩ : BufTy).Contents (Elt F) → (⟨S1024, .f32⟩ : BufTy).Contents (Elt F)),
    StableHlo.binary main_v110 main_v111 main_v112 (cmpf .ogt : (⟨S1024, .f32⟩ : BufTy).Contents (Elt F) → (⟨S1024, .f32⟩ : BufTy).Contents (Elt F) → (⟨S1024, .i1⟩ : BufTy).Contents (Elt F)),
    StableHlo.unary main_v110 main_v113 (Host.sqrt : (⟨S1024, .f32⟩ : BufTy).Contents (Elt F) → (⟨S1024, .f32⟩ : BufTy).Contents (Elt F)),
    StableHlo.nullary main_cst_25 (constant S_ .f32 0x3F800000#32),
    StableHlo.unary main_cst_25 main_v114 (broadcastInDim S1024 ![] bcast_S_S1024 : (⟨S_, .f32⟩ : BufTy).Contents (Elt F) → (⟨S1024, .f32⟩ : BufTy).Contents (Elt F)),
    StableHlo.binary main_v114 main_v113 main_v115 (Host.divf : (⟨S1024, .f32⟩ : BufTy).Contents (Elt F) → (⟨S1024, .f32⟩ : BufTy).Contents (Elt F) → (⟨S1024, .f32⟩ : BufTy).Contents (Elt F)),
    StableHlo.nullary main_cst_26 (constant S_ .f32 0x00000000#32),
    StableHlo.TRef.unary ((.of main_cst_26) : StableHlo.TRef sig ⟨S_, .f32⟩) main_call7.v0 id,
    StableHlo.TRef.unary main_call7.v0 main_call7.v1 (broadcastInDim S1024 ![] bcast_S_S1024),
    StableHlo.TRef.ternary ((.of main_v112) : StableHlo.TRef sig ⟨S1024, .i1⟩) ((.of main_v115) : StableHlo.TRef sig ⟨S1024, .f32⟩) main_call7.v1 main_call7.v2 select,
    StableHlo.nullary main_c_27 (constantI S_ 32 0#32),
    StableHlo.unary main_c_27 main_v117 (broadcastInDim S1049600 ![] bcast_S_S1049600 : (⟨S_, .i32⟩ : BufTy).Contents (Elt F) → (⟨S1049600, .i32⟩ : BufTy).Contents (Elt F)),
    StableHlo.binary main_v99 main_v117 main_v118 (cmpi .slt : (⟨S1049600, .i32⟩ : BufTy).Contents (Elt F) → (⟨S1049600, .i32⟩ : BufTy).Contents (Elt F) → (⟨S1049600, .i1⟩ : BufTy).Contents (Elt F)),
    StableHlo.nullary main_c_28 (constantI S_ 32 1024#32),
    StableHlo.unary main_c_28 main_v119 (broadcastInDim S1049600 ![] bcast_S_S1049600 : (⟨S_, .i32⟩ : BufTy).Contents (Elt F) → (⟨S1049600, .i32⟩ : BufTy).Contents (Elt F)),
    StableHlo.binary main_v99 main_v119 main_v120 (addi : (⟨S1049600, .i32⟩ : BufTy).Contents (Elt F) → (⟨S1049600, .i32⟩ : BufTy).Contents (Elt F) → (⟨S1049600, .i32⟩ : BufTy).Contents (Elt F)),
    StableHlo.ternary main_v118 main_v120 main_v99 main_v121 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v121 main_v122 (broadcastInDim S1049600x1 ![0] bcast_S1049600_S1049600x1_0 : (⟨S1049600, .i32⟩ : BufTy).Contents (Elt F) → (⟨S1049600x1, .i32⟩ : BufTy).Contents (Elt F)),
    StableHlo.binary main_v116 main_v122 main_v123 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_29 (constantI S_ 32 0#32),
    StableHlo.unary main_c_29 main_v124 (broadcastInDim S1049600 ![] bcast_S_S1049600 : (⟨S_, .i32⟩ : BufTy).Contents (Elt F) → (⟨S1049600, .i32⟩ : BufTy).Contents (Elt F)),
    StableHlo.binary main_v100 main_v124 main_v125 (cmpi .slt : (⟨S1049600, .i32⟩ : BufTy).Contents (Elt F) → (⟨S1049600, .i32⟩ : BufTy).Contents (Elt F) → (⟨S1049600, .i1⟩ : BufTy).Contents (Elt F)),
    StableHlo.nullary main_c_30 (constantI S_ 32 1024#32),
    StableHlo.unary main_c_30 main_v126 (broadcastInDim S1049600 ![] bcast_S_S1049600 : (⟨S_, .i32⟩ : BufTy).Contents (Elt F) → (⟨S1049600, .i32⟩ : BufTy).Contents (Elt F)) ]
theorem ops_p2a_sub : (ops_p2a : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩

/-- Operations 43 to 84 of window 2. -/
abbrev ops_p2b : List (HloOp τ sig (Elt F)) :=
  [ StableHlo.binary main_v100 main_v126 main_v127 (addi : (⟨S1049600, .i32⟩ : BufTy).Contents (Elt F) → (⟨S1049600, .i32⟩ : BufTy).Contents (Elt F) → (⟨S1049600, .i32⟩ : BufTy).Contents (Elt F)),
    StableHlo.ternary main_v125 main_v127 main_v100 main_v128 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v128 main_v129 (broadcastInDim S1049600x1 ![0] bcast_S1049600_S1049600x1_0 : (⟨S1049600, .i32⟩ : BufTy).Contents (Elt F) → (⟨S1049600x1, .i32⟩ : BufTy).Contents (Elt F)),
    StableHlo.binary main_v116 main_v129 main_v130 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v123 main_v130 main_v131 (mulf : (⟨S1049600, .f32⟩ : BufTy).Contents (Elt F) → (⟨S1049600, .f32⟩ : BufTy).Contents (Elt F) → (⟨S1049600, .f32⟩ : BufTy).Contents (Elt F)),
    StableHlo.binary main_v131 main_v102 main_v132 (mulf : (⟨S1049600, .f32⟩ : BufTy).Contents (Elt F) → (⟨S1049600, .f32⟩ : BufTy).Contents (Elt F) → (⟨S1049600, .f32⟩ : BufTy).Contents (Elt F)),
    StableHlo.binary main_v97 main_arg11 main_v133 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    StableHlo.TRef.nullary main_call8.c (constantI S_ 32 0#32),
    StableHlo.TRef.unary main_call8.c main_call8.v0 (broadcastInDim S1049600 ![] bcast_S_S1049600),
    StableHlo.TRef.binary ((.of main_v99) : StableHlo.TRef sig ⟨S1049600, .i32⟩) main_call8.v0 main_call8.v1 (cmpi .slt),
    StableHlo.TRef.nullary main_call8.c_0 (constantI S_ 32 1024#32),
    StableHlo.TRef.unary main_call8.c_0 main_call8.v2 (broadcastInDim S1049600 ![] bcast_S_S1049600),
    StableHlo.TRef.binary ((.of main_v99) : StableHlo.TRef sig ⟨S1049600, .i32⟩) main_call8.v2 main_call8.v3 addi,
    StableHlo.TRef.ternary (main_call8.v1 : StableHlo.TRef sig ⟨S1049600, .i1⟩) (main_call8.v3 : StableHlo.TRef sig ⟨S1049600, .i32⟩) (((.of main_v99) : StableHlo.TRef sig ⟨S1049600, .i32⟩) : StableHlo.TRef sig ⟨S1049600, .i32⟩) main_call8.call0.v0 select,
    StableHlo.TRef.unary main_call8.call0.v0 main_call8.v5 (broadcastInDim S1049600x1 ![0] bcast_S1049600_S1049600x1_0),
    StableHlo.TRef.nullary main_call8.c_1 (constantI S1 32 1023#32),
    StableHlo.TRef.nullary main_call8.c_2 (constantI S_ 32 0#32),
    StableHlo.TRef.unary main_call8.c_2 main_call8.v6 (broadcastInDim S1049600x1 ![] bcast_S_S1049600x1),
    StableHlo.TRef.binary main_call8.v5 main_call8.v6 main_call8.v7 (cmpi .sge),
    StableHlo.TRef.unary main_call8.c_1 main_call8.v8 (broadcastInDim S1x1 ![1] bcast_S1_S1x1_1),
    StableHlo.TRef.unary main_call8.v8 main_call8.v9 (broadcastInDim S1049600x1 ![0, 1] bcast_S1x1_S1049600x1_0_1),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1049600x1_S1049600_d1 h_S_),
    StableHlo.TRef.binary ((.of main_v133) : StableHlo.TRef sig ⟨S1024x64, .f32⟩) main_call8.v5 main_call8.v13 (fun x i => Host.gather gather_S1024x64_S1049600x1_S1049600x64_1_0_n_n_0_1_164 x i),
    StableHlo.TRef.unary main_call8.v12 main_call8.v14 (broadcastInDim S1049600x64 ![0] bcast_S1049600_S1049600x64_0),
    StableHlo.TRef.nullary main_call8.cst (constant S_ .f32 0x7FC00000#32),
    StableHlo.TRef.unary main_call8.cst main_call8.v15 (broadcastInDim S1049600x64 ![] bcast_S_S1049600x64),
    StableHlo.TRef.ternary main_call8.v14 main_call8.v13 main_call8.v15 main_call8.v16 select,
    StableHlo.unary main_v132 main_v135 (broadcastInDim S1049600x1 ![0] bcast_S1049600_S1049600x1_0 : (⟨S1049600, .f32⟩ : BufTy).Contents (Elt F) → (⟨S1049600x1, .f32⟩ : BufTy).Contents (Elt F)),
    StableHlo.unary main_v135 main_v136 (broadcastInDim S1049600x64 ![0, 1] bcast_S1049600x1_S1049600x64_0_1 : (⟨S1049600x1, .f32⟩ : BufTy).Contents (Elt F) → (⟨S1049600x64, .f32⟩ : BufTy).Contents (Elt F)),
    StableHlo.binary main_v134 main_v136 main_v137 (mulf : (⟨S1049600x64, .f32⟩ : BufTy).Contents (Elt F) → (⟨S1049600x64, .f32⟩ : BufTy).Contents (Elt F) → (⟨S1049600x64, .f32⟩ : BufTy).Contents (Elt F)),
    StableHlo.nullary main_cst_31 (constant S_ .f32 0x00000000#32),
    StableHlo.unary main_cst_31 main_v138 (broadcastInDim S1024x64 ![] bcast_S_S1024x64 : (⟨S_, .f32⟩ : BufTy).Contents (Elt F) → (⟨S1024x64, .f32⟩ : BufTy).Contents (Elt F)),
    StableHlo.unary main_v100 main_v139 (broadcastInDim S1049600x1 ![0] bcast_S1049600_S1049600x1_0 : (⟨S1049600, .i32⟩ : BufTy).Contents (Elt F) → (⟨S1049600x1, .i32⟩ : BufTy).Contents (Elt F)),
    StableHlo.ternary main_v138 main_v139 main_v137 main_v140 ((fun x i u => Host.scatterAdd scatter_S1024x64_S1049600x1_S1049600x64_1_0_0_1 x i u) : (⟨S1024x64, .f32⟩ : BufTy).Contents (Elt F) → (⟨S1049600x1, .i32⟩ : BufTy).Contents (Elt F) → (⟨S1049600x64, .f32⟩ : BufTy).Contents (Elt F) → (⟨S1024x64, .f32⟩ : BufTy).Contents (Elt F)),
    StableHlo.unary main_arg12 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S1024x64 ![0, 1] bcast_S1x64_S1024x64_0_1 : (⟨S1x64, .f32⟩ : BufTy).Contents (Elt F) → (⟨S1024x64, .f32⟩ : BufTy).Contents (Elt F)),
    StableHlo.binary main_v140 main_v142 main_v143 (addf : (⟨S1024x64, .f32⟩ : BufTy).Contents (Elt F) → (⟨S1024x64, .f32⟩ : BufTy).Contents (Elt F) → (⟨S1024x64, .f32⟩ : BufTy).Contents (Elt F)),
    StableHlo.binary main_v143 main_arg13 main_v144 ((fun l r => Host.dotGeneral dot_S1024x64_S64x16_S1024x16_1_0_0_1_n_n none l r) : (⟨S1024x64, .f32⟩ : BufTy).Contents (Elt F) → (⟨S64x16, .f32⟩ : BufTy).Contents (Elt F) → (⟨S1024x16, .f32⟩ : BufTy).Contents (Elt F)),
    StableHlo.unary main_arg14 main_v145 (broadcastInDim S1x16 ![1] bcast_S16_S1x16_1 : (⟨S16, .f32⟩ : BufTy).Contents (Elt F) → (⟨S1x16, .f32⟩ : BufTy).Contents (Elt F)) ]
theorem ops_p2b_sub : (ops_p2b : List (HloOp τ sig (Elt F))).Forall fun op => op.bufs ⊆ tcRefs τ sig :=
  ⟨binary_bufs_sub .., ternary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub ..⟩

/-- Window 2's operations. -/
abbrev ops_part2 : List (HloOp τ sig (Elt F)) := ops_p2a ++ ops_p2b

/-- Operations 1 to 2 of window 3. -/
abbrev ops_p3a : List (HloOp τ sig (Elt F)) :=
  [ StableHlo.unary main_v145 main_v146 (broadcastInDim S1024x16 ![0, 1] bcast_S1x16_S1024x16_0_1 : (⟨S1x16, .f32⟩ : BufTy).Contents (Elt F) → (⟨S1024x16, .f32⟩ : BufTy).Contents (Elt F)),
    StableHlo.binary main_v144 main_v146 main_v147 (addf : (⟨S1024x16, .f32⟩ : BufTy).Contents (Elt F) → (⟨S1024x16, .f32⟩ : BufTy).Contents (Elt F) → (⟨S1024x16, .f32⟩ : BufTy).Contents (Elt F)) ]
theorem ops_p3a_sub : (ops_p3a : List (HloOp τ sig (Elt F))).Forall fun op => op.bufs ⊆ tcRefs τ sig :=
  ⟨unary_bufs_sub .., binary_bufs_sub ..⟩

/-- Window 3's operations. -/
abbrev ops_part3 : List (HloOp τ sig (Elt F)) := ops_p3a

/-- @main's 272 operations, in order. -/
abbrev ops : List (HloOp τ sig (Elt F)) := ops_part0 ++ (ops_part1 ++ (ops_part2 ++ ops_part3))

set_option maxRecDepth 65536 in
set_option maxHeartbeats 4000000 in
theorem main_part0_eq (c : Dev nD) : main_part0 (F := F) c = seq ops_part0 := by
  simp only [main_part0, fn_relu.body, fn_floor_divide.body, fn_where.body, fn_remainder.body, fn_where_0.body, fn_where_1.body, fn_where_2.body, fn_take.body, fn_where_3.body, seq, List.cons_append, List.nil_append, bind_assoc, pure_bind] <;> rfl
set_option maxRecDepth 65536 in
set_option maxHeartbeats 4000000 in
theorem main_part1_eq (c : Dev nD) : main_part1 (F := F) c = seq ops_part1 := by
  simp only [main_part1, fn_relu.body, fn_floor_divide.body, fn_where.body, fn_remainder.body, fn_where_0.body, fn_where_1.body, fn_where_2.body, fn_take.body, fn_where_3.body, seq, List.cons_append, List.nil_append, bind_assoc, pure_bind] <;> rfl
set_option maxRecDepth 65536 in
set_option maxHeartbeats 4000000 in
theorem main_part2_eq (c : Dev nD) : main_part2 (F := F) c = seq ops_part2 := by
  simp only [main_part2, fn_relu.body, fn_floor_divide.body, fn_where.body, fn_remainder.body, fn_where_0.body, fn_where_1.body, fn_where_2.body, fn_take.body, fn_where_3.body, seq, List.cons_append, List.nil_append, bind_assoc, pure_bind] <;> rfl
set_option maxRecDepth 65536 in
set_option maxHeartbeats 4000000 in
theorem main_part3_eq (c : Dev nD) : main_part3 (F := F) c = seq ops_part3 := by
  simp only [main_part3, fn_relu.body, fn_floor_divide.body, fn_where.body, fn_remainder.body, fn_where_0.body, fn_where_1.body, fn_where_2.body, fn_take.body, fn_where_3.body, seq, List.cons_append, List.nil_append, bind_assoc, pure_bind] <;> rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, ops_part0, ops_part1, ops_part2, ops_part3, List.mem_append, or_assoc] at h
    rcases h with h | h | h | h | h | h | h
    exacts [List.forall_iff_forall_mem.mp ops_p0a_sub op h, List.forall_iff_forall_mem.mp ops_p0b_sub op h, List.forall_iff_forall_mem.mp ops_p1a_sub op h, List.forall_iff_forall_mem.mp ops_p1b_sub op h, List.forall_iff_forall_mem.mp ops_p2a_sub op h, List.forall_iff_forall_mem.mp ops_p2b_sub op h, List.forall_iff_forall_mem.mp ops_p3a_sub op h]

/-- Every weakly fair execution of @main ends, without a fault, with each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefOpsPlain.lean ====
/- The lists ops_p1b, ops_p2a, ops_p2b of RefOps.lean once more, each operation of a called function spelt over the buffers themselves instead of
   over the call's typed references: the function it applies is the same, stated at the buffers' types. One equation per such operation, and one per list. -/
import proofs.«138646_g48533130445277_cont_sun_m_870_17_alg».proof.Proof.RefOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

-- the operations' functions are compared argument by argument, never opened
attribute [local irreducible] Host.reduce Host.gather Host.scatterAdd

set_option maxRecDepth 200000 in
theorem ops_p1b_op7 : (StableHlo.TRef.nullary main_call5.c (constantI S_ 32 0#32) : HloOp τ sig (Elt F)) = StableHlo.nullary main_call5_c (((constantI S_ 32 0#32)) : (⟨S_, .i32⟩ : BufTy).Contents (Elt F)) := rfl
set_option maxRecDepth 200000 in
theorem ops_p1b_op8 : (StableHlo.TRef.unary main_call5.c main_call5.v0 (broadcastInDim S1049600 ![] bcast_S_S1049600) : HloOp τ sig (Elt F)) = StableHlo.unary main_call5_c main_call5_v0 (((broadcastInDim S1049600 ![] bcast_S_S1049600)) : (⟨S_, .i32⟩ : BufTy).Contents (Elt F) → (⟨S1049600, .i32⟩ : BufTy).Contents (Elt F)) := rfl
set_option maxRecDepth 200000 in
theorem ops_p1b_op9 : (StableHlo.TRef.binary ((.of main_v52) : StableHlo.TRef sig ⟨S1049600, .i32⟩) main_call5.v0 main_call5.v1 (cmpi .slt) : HloOp τ sig (Elt F)) = StableHlo.binary main_v52 main_call5_v0 main_call5_v1 (((cmpi .slt)) : (⟨S1049600, .i32⟩ : BufTy).Contents (Elt F) → (⟨S1049600, .i32⟩ : BufTy).Contents (Elt F) → (⟨S1049600, .i1⟩ : BufTy).Contents (Elt F)) := rfl
set_option maxRecDepth 200000 in
theorem ops_p1b_op10 : (StableHlo.TRef.nullary main_call5.c_0 (constantI S_ 32 1024#32) : HloOp τ sig (Elt F)) = StableHlo.nullary main_call5_c_0 (((constantI S_ 32 1024#32)) : (⟨S_, .i32⟩ : BufTy).Contents (Elt F)) := rfl
set_option maxRecDepth 200000 in
theorem ops_p1b_op11 : (StableHlo.TRef.unary main_call5.c_0 main_call5.v2 (broadcastInDim S1049600 ![] bcast_S_S1049600) : HloOp τ sig (Elt F)) = StableHlo.unary main_call5_c_0 main_call5_v2 (((broadcastInDim S1049600 ![] bcast_S_S1049600)) : (⟨S_, .i32⟩ : BufTy).Contents (Elt F) → (⟨S1049600, .i32⟩ : BufTy).Contents (Elt F)) := rfl
set_option maxRecDepth 200000 in
theorem ops_p1b_op12 : (StableHlo.TRef.binary ((.of main_v52) : StableHlo.TRef sig ⟨S1049600, .i32⟩) main_call5.v2 main_call5.v3 addi : HloOp τ sig (Elt F)) = StableHlo.binary main_v52 main_call5_v2 main_call5_v3 ((addi) : (⟨S1049600, .i32⟩ : BufTy).Contents (Elt F) → (⟨S1049600, .i32⟩ : BufTy).Contents (Elt F) → (⟨S1049600, .i32⟩ : BufTy).Contents (Elt F)) := rfl
set_option maxRecDepth 200000 in
theorem ops_p1b_op13 : (StableHlo.TRef.ternary (main_call5.v1 : StableHlo.TRef sig ⟨S1049600, .i1⟩) (main_call5.v3 : StableHlo.TRef sig ⟨S1049600, .i32⟩) (((.of main_v52) : StableHlo.TRef sig ⟨S1049600, .i32⟩) : StableHlo.TRef sig ⟨S1049600, .i32⟩) main_call5.call0.v0 select : HloOp τ sig (Elt F)) = StableHlo.ternary main_call5_v1 main_call5_v3 main_v52 main_call5_v4 ((select) : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) := rfl
set_option maxRecDepth 200000 in
theorem ops_p1b_op14 : (StableHlo.TRef.unary main_call5.call0.v0 main_call5.v5 (broadcastInDim S1049600x1 ![0] bcast_S1049600_S1049600x1_0) : HloOp τ sig (Elt F)) = StableHlo.unary main_call5_v4 main_call5_v5 (((broadcastInDim S1049600x1 ![0] bcast_S1049600_S1049600x1_0)) : (⟨S1049600, .i32⟩ : BufTy).Contents (Elt F) → (⟨S1049600x1, .i32⟩ : BufTy).Contents (Elt F)) := rfl
set_option maxRecDepth 200000 in
theorem ops_p1b_op15 : (StableHlo.TRef.nullary main_call5.c_1 (constantI S1 32 1023#32) : HloOp τ sig (Elt F)) = StableHlo.nullary main_call5_c_1 (((constantI S1 32 1023#32)) : (⟨S1, .i32⟩ : BufTy).Contents (Elt F)) := rfl
set_option maxRecDepth 200000 in
theorem ops_p1b_op16 : (StableHlo.TRef.nullary main_call5.c_2 (constantI S_ 32 0#32) : HloOp τ sig (Elt F)) = StableHlo.nullary main_call5_c_2 (((constantI S_ 32 0#32)) : (⟨S_, .i32⟩ : BufTy).Contents (Elt F)) := rfl
set_option maxRecDepth 200000 in
theorem ops_p1b_op17 : (StableHlo.TRef.unary main_call5.c_2 main_call5.v6 (broadcastInDim S1049600x1 ![] bcast_S_S1049600x1) : HloOp τ sig (Elt F)) = StableHlo.unary main_call5_c_2 main_call5_v6 (((broadcastInDim S1049600x1 ![] bcast_S_S1049600x1)) : (⟨S_, .i32⟩ : BufTy).Contents (Elt F) → (⟨S1049600x1, .i32⟩ : BufTy).Contents (Elt F)) := rfl
set_option maxRecDepth 200000 in
theorem ops_p1b_op18 : (StableHlo.TRef.binary main_call5.v5 main_call5.v6 main_call5.v7 (cmpi .sge) : HloOp τ sig (Elt F)) = StableHlo.binary main_call5_v5 main_call5_v6 main_call5_v7 (((cmpi .sge)) : (⟨S1049600x1, .i32⟩ : BufTy).Contents (Elt F) → (⟨S1049600x1, .i32⟩ : BufTy).Contents (Elt F) → (⟨S1049600x1, .i1⟩ : BufTy).Contents (Elt F)) := rfl
set_option maxRecDepth 200000 in
theorem ops_p1b_op19 : (StableHlo.TRef.unary main_call5.c_1 main_call5.v8 (broadcastInDim S1x1 ![1] bcast_S1_S1x1_1) : HloOp τ sig (Elt F)) = StableHlo.unary main_call5_c_1 main_call5_v8 (((broadcastInDim S1x1 ![1] bcast_S1_S1x1_1)) : (⟨S1, .i32⟩ : BufTy).Contents (Elt F) → (⟨S1x1, .i32⟩ : BufTy).Contents (Elt F)) := rfl
set_option maxRecDepth 200000 in
theorem ops_p1b_op20 : (StableHlo.TRef.unary main_call5.v8 main_call5.v9 (broadcastInDim S1049600x1 ![0, 1] bcast_S1x1_S1049600x1_0_1) : HloOp τ sig (Elt F)) = StableHlo.unary main_call5_v8 main_call5_v9 (((broadcastInDim S1049600x1 ![0, 1] bcast_S1x1_S1049600x1_0_1)) : (⟨S1x1, .i32⟩ : BufTy).Contents (Elt F) → (⟨S1049600x1, .i32⟩ : BufTy).Contents (Elt F)) := rfl
set_option maxRecDepth 200000 in
theorem ops_p1b_op21 : (StableHlo.TRef.binary main_call5.v5 main_call5.v9 main_call5.v10 (cmpi .sle) : HloOp τ sig (Elt F)) = StableHlo.binary main_call5_v5 main_call5_v9 main_call5_v10 (((cmpi .sle)) : (⟨S1049600x1, .i32⟩ : BufTy).Contents (Elt F) → (⟨S1049600x1, .i32⟩ : BufTy).Contents (Elt F) → (⟨S1049600x1, .i1⟩ : BufTy).Contents (Elt F)) := rfl
set_option maxRecDepth 200000 in
theorem ops_p1b_op22 : (StableHlo.TRef.binary main_call5.v7 main_call5.v10 main_call5.v11 andi : HloOp τ sig (Elt F)) = StableHlo.binary main_call5_v7 main_call5_v10 main_call5_v11 ((andi) : (⟨S1049600x1, .i1⟩ : BufTy).Contents (Elt F) → (⟨S1049600x1, .i1⟩ : BufTy).Contents (Elt F) → (⟨S1049600x1, .i1⟩ : BufTy).Contents (Elt F)) := rfl
set_option maxRecDepth 200000 in
theorem ops_p1b_op23 : (StableHlo.TRef.nullary main_call5.c_3 (constantI S_ 1 1#1) : HloOp τ sig (Elt F)) = StableHlo.nullary main_call5_c_3 (((constantI S_ 1 1#1)) : (⟨S_, .i1⟩ : BufTy).Contents (Elt F)) := rfl
set_option maxRecDepth 200000 in
theorem ops_p1b_op24 : (StableHlo.TRef.binary main_call5.v11 main_call5.c_3 main_call5.v12 (fun x v => Host.reduce IntOp.andi x v reducesTo_S1049600x1_S1049600_d1 h_S_) : HloOp τ sig (Elt F)) = StableHlo.binary main_call5_v11 main_call5_c_3 main_call5_v12 (((fun x v => Host.reduce IntOp.andi x v reducesTo_S1049600x1_S1049600_d1 h_S_)) : (⟨S1049600x1, .i1⟩ : BufTy).Contents (Elt F) → (⟨S_, .i1⟩ : BufTy).Contents (Elt F) → (⟨S1049600, .i1⟩ : BufTy).Contents (Elt F)) := rfl
set_option maxRecDepth 200000 in
theorem ops_p1b_op25 : (StableHlo.TRef.binary ((.of main_v86) : StableHlo.TRef sig ⟨S1024x64, .f32⟩) main_call5.v5 main_call5.v13 (fun x i => Host.gather gather_S1024x64_S1049600x1_S1049600x64_1_0_n_n_0_1_164 x i) : HloOp τ sig (Elt F)) = StableHlo.binary main_v86 main_call5_v5 main_call5_v13 (((fun x i => Host.gather gather_S1024x64_S1049600x1_S1049600x64_1_0_n_n_0_1_164 x i)) : (⟨S1024x64, .f32⟩ : BufTy).Contents (Elt F) → (⟨S1049600x1, .i32⟩ : BufTy).Contents (Elt F) → (⟨S1049600x64, .f32⟩ : BufTy).Contents (Elt F)) := rfl
set_option maxRecDepth 200000 in
theorem ops_p1b_op26 : (StableHlo.TRef.unary main_call5.v12 main_call5.v14 (broadcastInDim S1049600x64 ![0] bcast_S1049600_S1049600x64_0) : HloOp τ sig (Elt F)) = StableHlo.unary main_call5_v12 main_call5_v14 (((broadcastInDim S1049600x64 ![0] bcast_S1049600_S1049600x64_0)) : (⟨S1049600, .i1⟩ : BufTy).Contents (Elt F) → (⟨S1049600x64, .i1⟩ : BufTy).Contents (Elt F)) := rfl
set_option maxRecDepth 200000 in
theorem ops_p1b_op27 : (StableHlo.TRef.nullary main_call5.cst (constant S_ .f32 0x7FC00000#32) : HloOp τ sig (Elt F)) = StableHlo.nullary main_call5_cst (((constant S_ .f32 0x7FC00000#32)) : (⟨S_, .f32⟩ : BufTy).Contents (Elt F)) := rfl
set_option maxRecDepth 200000 in
theorem ops_p1b_op28 : (StableHlo.TRef.unary main_call5.cst main_call5.v15 (broadcastInDim S1049600x64 ![] bcast_S_S1049600x64) : HloOp τ sig (Elt F)) = StableHlo.unary main_call5_cst main_call5_v15 (((broadcastInDim S1049600x64 ![] bcast_S_S1049600x64)) : (⟨S_, .f32⟩ : BufTy).Contents (Elt F) → (⟨S1049600x64, .f32⟩ : BufTy).Contents (Elt F)) := rfl
set_option maxRecDepth 200000 in
theorem ops_p1b_op29 : (StableHlo.TRef.ternary main_call5.v14 main_call5.v13 main_call5.v15 main_call5.v16 select : HloOp τ sig (Elt F)) = StableHlo.ternary main_call5_v14 main_call5_v13 main_call5_v15 main_v87 ((select) : (⟨S1049600x64, .i1⟩ : BufTy).Contents (Elt F) → (⟨S1049600x64, .f32⟩ : BufTy).Contents (Elt F) → (⟨S1049600x64, .f32⟩ : BufTy).Contents (Elt F) → (⟨S1049600x64, .f32⟩ : BufTy).Contents (Elt F)) := rfl
set_option maxRecDepth 200000 in
theorem ops_p1b_op40 : (StableHlo.TRef.nullary main_call6.cst (constant S_ .f32 0x00000000#32) : HloOp τ sig (Elt F)) = StableHlo.nullary main_call6_cst (((constant S_ .f32 0x00000000#32)) : (⟨S_, .f32⟩ : BufTy).Contents (Elt F)) := rfl
set_option maxRecDepth 200000 in
theorem ops_p1b_op41 : (StableHlo.TRef.unary main_call6.cst main_call6.v0 (broadcastInDim S1024x64 ![] bcast_S_S1024x64) : HloOp τ sig (Elt F)) = StableHlo.unary main_call6_cst main_call6_v0 (((broadcastInDim S1024x64 ![] bcast_S_S1024x64)) : (⟨S_, .f32⟩ : BufTy).Contents (Elt F) → (⟨S1024x64, .f32⟩ : BufTy).Contents (Elt F)) := rfl
set_option maxRecDepth 200000 in
theorem ops_p1b_op42 : (StableHlo.TRef.binary ((.of main_v96) : StableHlo.TRef sig ⟨S1024x64, .f32⟩) main_call6.v0 main_call6.v1 maximumf : HloOp τ sig (Elt F)) = StableHlo.binary main_v96 main_call6_v0 main_v97 ((maximumf) : (⟨S1024x64, .f32⟩ : BufTy).Contents (Elt F) → (⟨S1024x64, .f32⟩ : BufTy).Contents (Elt F) → (⟨S1024x64, .f32⟩ : BufTy).Contents (Elt F)) := rfl

/-- ops_p1b over the buffers. -/
abbrev ops_p1b_plain : List (HloOp τ sig (Elt F)) :=
  [ StableHlo.binary main_v53 main_v79 main_v80 (addi : (⟨S1049600, .i32⟩ : BufTy).Contents (Elt F) → (⟨S1049600, .i32⟩ : BufTy).Contents (Elt F) → (⟨S1049600, .i32⟩ : BufTy).Contents (Elt F)),
    StableHlo.ternary main_v78 main_v80 main_v53 main_v81 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v81 main_v82 (broadcastInDim S1049600x1 ![0] bcast_S1049600_S1049600x1_0 : (⟨S1049600, .i32⟩ : BufTy).Contents (Elt F) → (⟨S1049600x1, .i32⟩ : BufTy).Contents (Elt F)),
    StableHlo.binary main_v69 main_v82 main_v83 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v76 main_v83 main_v84 (mulf : (⟨S1049600, .f32⟩ : BufTy).Contents (Elt F) → (⟨S1049600, .f32⟩ : BufTy).Contents (Elt F) → (⟨S1049600, .f32⟩ : BufTy).Contents (Elt F)),
    StableHlo.binary main_v84 main_v55 main_v85 (mulf : (⟨S1049600, .f32⟩ : BufTy).Contents (Elt F) → (⟨S1049600, .f32⟩ : BufTy).Contents (Elt F) → (⟨S1049600, .f32⟩ : BufTy).Contents (Elt F)),
    StableHlo.binary main_v42 main_arg9 main_v86 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    StableHlo.nullary main_call5_c (((constantI S_ 32 0#32)) : (⟨S_, .i32⟩ : BufTy).Contents (Elt F)),
    StableHlo.unary main_call5_c main_call5_v0 (((broadcastInDim S1049600 ![] bcast_S_S1049600)) : (⟨S_, .i32⟩ : BufTy).Contents (Elt F) → (⟨S1049600, .i32⟩ : BufTy).Contents (Elt F)),
    StableHlo.binary main_v52 main_call5_v0 main_call5_v1 (((cmpi .slt)) : (⟨S1049600, .i32⟩ : BufTy).Contents (Elt F) → (⟨S1049600, .i32⟩ : BufTy).Contents (Elt F) → (⟨S1049600, .i1⟩ : BufTy).Contents (Elt F)),
    StableHlo.nullary main_call5_c_0 (((constantI S_ 32 1024#32)) : (⟨S_, .i32⟩ : BufTy).Contents (Elt F)),
    StableHlo.unary main_call5_c_0 main_call5_v2 (((broadcastInDim S1049600 ![] bcast_S_S1049600)) : (⟨S_, .i32⟩ : BufTy).Contents (Elt F) → (⟨S1049600, .i32⟩ : BufTy).Contents (Elt F)),
    StableHlo.binary main_v52 main_call5_v2 main_call5_v3 ((addi) : (⟨S1049600, .i32⟩ : BufTy).Contents (Elt F) → (⟨S1049600, .i32⟩ : BufTy).Contents (Elt F) → (⟨S1049600, .i32⟩ : BufTy).Contents (Elt F)),
    StableHlo.ternary main_call5_v1 main_call5_v3 main_v52 main_call5_v4 ((select) : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_call5_v4 main_call5_v5 (((broadcastInDim S1049600x1 ![0] bcast_S1049600_S1049600x1_0)) : (⟨S1049600, .i32⟩ : BufTy).Contents (Elt F) → (⟨S1049600x1, .i32⟩ : BufTy).Contents (Elt F)),
    StableHlo.nullary main_call5_c_1 (((constantI S1 32 1023#32)) : (⟨S1, .i32⟩ : BufTy).Contents (Elt F)),
    StableHlo.nullary main_call5_c_2 (((constantI S_ 32 0#32)) : (⟨S_, .i32⟩ : BufTy).Contents (Elt F)),
    StableHlo.unary main_call5_c_2 main_call5_v6 (((broadcastInDim S1049600x1 ![] bcast_S_S1049600x1)) : (⟨S_, .i32⟩ : BufTy).Contents (Elt F) → (⟨S1049600x1, .i32⟩ : BufTy).Contents (Elt F)),
    StableHlo.binary main_call5_v5 main_call5_v6 main_call5_v7 (((cmpi .sge)) : (⟨S1049600x1, .i32⟩ : BufTy).Contents (Elt F) → (⟨S1049600x1, .i32⟩ : BufTy).Contents (Elt F) → (⟨S1049600x1, .i1⟩ : BufTy).Contents (Elt F)),
    StableHlo.unary main_call5_c_1 main_call5_v8 (((broadcastInDim S1x1 ![1] bcast_S1_S1x1_1)) : (⟨S1, .i32⟩ : BufTy).Contents (Elt F) → (⟨S1x1, .i32⟩ : BufTy).Contents (Elt F)),
    StableHlo.unary main_call5_v8 main_call5_v9 (((broadcastInDim S1049600x1 ![0, 1] bcast_S1x1_S1049600x1_0_1)) : (⟨S1x1, .i32⟩ : BufTy).Contents (Elt F) → (⟨S1049600x1, .i32⟩ : BufTy).Contents (Elt F)),
    StableHlo.binary main_call5_v5 main_call5_v9 main_call5_v10 (((cmpi .sle)) : (⟨S1049600x1, .i32⟩ : BufTy).Contents (Elt F) → (⟨S1049600x1, .i32⟩ : BufTy).Contents (Elt F) → (⟨S1049600x1, .i1⟩ : BufTy).Contents (Elt F)),
    StableHlo.binary main_call5_v7 main_call5_v10 main_call5_v11 ((andi) : (⟨S1049600x1, .i1⟩ : BufTy).Contents (Elt F) → (⟨S1049600x1, .i1⟩ : BufTy).Contents (Elt F) → (⟨S1049600x1, .i1⟩ : BufTy).Contents (Elt F)),
    StableHlo.nullary main_call5_c_3 (((constantI S_ 1 1#1)) : (⟨S_, .i1⟩ : BufTy).Contents (Elt F)),
    StableHlo.binary main_call5_v11 main_call5_c_3 main_call5_v12 (((fun x v => Host.reduce IntOp.andi x v reducesTo_S1049600x1_S1049600_d1 h_S_)) : (⟨S1049600x1, .i1⟩ : BufTy).Contents (Elt F) → (⟨S_, .i1⟩ : BufTy).Contents (Elt F) → (⟨S1049600, .i1⟩ : BufTy).Contents (Elt F)),
    StableHlo.binary main_v86 main_call5_v5 main_call5_v13 (((fun x i => Host.gather gather_S1024x64_S1049600x1_S1049600x64_1_0_n_n_0_1_164 x i)) : (⟨S1024x64, .f32⟩ : BufTy).Contents (Elt F) → (⟨S1049600x1, .i32⟩ : BufTy).Contents (Elt F) → (⟨S1049600x64, .f32⟩ : BufTy).Contents (Elt F)),
    StableHlo.unary main_call5_v12 main_call5_v14 (((broadcastInDim S1049600x64 ![0] bcast_S1049600_S1049600x64_0)) : (⟨S1049600, .i1⟩ : BufTy).Contents (Elt F) → (⟨S1049600x64, .i1⟩ : BufTy).Contents (Elt F)),
    StableHlo.nullary main_call5_cst (((constant S_ .f32 0x7FC00000#32)) : (⟨S_, .f32⟩ : BufTy).Contents (Elt F)),
    StableHlo.unary main_call5_cst main_call5_v15 (((broadcastInDim S1049600x64 ![] bcast_S_S1049600x64)) : (⟨S_, .f32⟩ : BufTy).Contents (Elt F) → (⟨S1049600x64, .f32⟩ : BufTy).Contents (Elt F)),
    StableHlo.ternary main_call5_v14 main_call5_v13 main_call5_v15 main_v87 ((select) : (⟨S1049600x64, .i1⟩ : BufTy).Contents (Elt F) → (⟨S1049600x64, .f32⟩ : BufTy).Contents (Elt F) → (⟨S1049600x64, .f32⟩ : BufTy).Contents (Elt F) → (⟨S1049600x64, .f32⟩ : BufTy).Contents (Elt F)),
    StableHlo.unary main_v85 main_v88 (broadcastInDim S1049600x1 ![0] bcast_S1049600_S1049600x1_0 : (⟨S1049600, .f32⟩ : BufTy).Contents (Elt F) → (⟨S1049600x1, .f32⟩ : BufTy).Contents (Elt F)),
    StableHlo.unary main_v88 main_v89 (broadcastInDim S1049600x64 ![0, 1] bcast_S1049600x1_S1049600x64_0_1 : (⟨S1049600x1, .f32⟩ : BufTy).Contents (Elt F) → (⟨S1049600x64, .f32⟩ : BufTy).Contents (Elt F)),
    StableHlo.binary main_v87 main_v89 main_v90 (mulf : (⟨S1049600x64, .f32⟩ : BufTy).Contents (Elt F) → (⟨S1049600x64, .f32⟩ : BufTy).Contents (Elt F) → (⟨S1049600x64, .f32⟩ : BufTy).Contents (Elt F)),
    StableHlo.nullary main_cst_19 (constant S_ .f32 0x00000000#32),
    StableHlo.unary main_cst_19 main_v91 (broadcastInDim S1024x64 ![] bcast_S_S1024x64 : (⟨S_, .f32⟩ : BufTy).Contents (Elt F) → (⟨S1024x64, .f32⟩ : BufTy).Contents (Elt F)),
    StableHlo.unary main_v53 main_v92 (broadcastInDim S1049600x1 ![0] bcast_S1049600_S1049600x1_0 : (⟨S1049600, .i32⟩ : BufTy).Contents (Elt F) → (⟨S1049600x1, .i32⟩ : BufTy).Contents (Elt F)),
    StableHlo.ternary main_v91 main_v92 main_v90 main_v93 ((fun x i u => Host.scatterAdd scatter_S1024x64_S1049600x1_S1049600x64_1_0_0_1 x i u) : (⟨S1024x64, .f32⟩ : BufTy).Contents (Elt F) → (⟨S1049600x1, .i32⟩ : BufTy).Contents (Elt F) → (⟨S1049600x64, .f32⟩ : BufTy).Contents (Elt F) → (⟨S1024x64, .f32⟩ : BufTy).Contents (Elt F)),
    StableHlo.unary main_arg10 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S1024x64 ![0, 1] bcast_S1x64_S1024x64_0_1 : (⟨S1x64, .f32⟩ : BufTy).Contents (Elt F) → (⟨S1024x64, .f32⟩ : BufTy).Contents (Elt F)),
    StableHlo.binary main_v93 main_v95 main_v96 (addf : (⟨S1024x64, .f32⟩ : BufTy).Contents (Elt F) → (⟨S1024x64, .f32⟩ : BufTy).Contents (Elt F) → (⟨S1024x64, .f32⟩ : BufTy).Contents (Elt F)),
    StableHlo.nullary main_call6_cst (((constant S_ .f32 0x00000000#32)) : (⟨S_, .f32⟩ : BufTy).Contents (Elt F)),
    StableHlo.unary main_call6_cst main_call6_v0 (((broadcastInDim S1024x64 ![] bcast_S_S1024x64)) : (⟨S_, .f32⟩ : BufTy).Contents (Elt F) → (⟨S1024x64, .f32⟩ : BufTy).Contents (Elt F)),
    StableHlo.binary main_v96 main_call6_v0 main_v97 ((maximumf) : (⟨S1024x64, .f32⟩ : BufTy).Contents (Elt F) → (⟨S1024x64, .f32⟩ : BufTy).Contents (Elt F) → (⟨S1024x64, .f32⟩ : BufTy).Contents (Elt F)) ]
set_option maxRecDepth 65536 in
set_option maxHeartbeats 4000000 in
theorem ops_p1b_eq_plain : (ops_p1b : List (HloOp τ sig (Elt F))) = ops_p1b_plain := by
  unfold ops_p1b ops_p1b_plain
  exact congr (congrArg List.cons rfl) (congr (congrArg List.cons rfl) (congr (congrArg List.cons rfl) (congr (congrArg List.cons rfl) (congr (congrArg List.cons rfl) (congr (congrArg List.cons rfl) (congr (congrArg List.cons rfl) (congr (congrArg List.cons ops_p1b_op7) (congr (congrArg List.cons ops_p1b_op8) (congr (congrArg List.cons ops_p1b_op9) (congr (congrArg List.cons ops_p1b_op10) (congr (congrArg List.cons ops_p1b_op11) (congr (congrArg List.cons ops_p1b_op12) (congr (congrArg List.cons ops_p1b_op13) (congr (congrArg List.cons ops_p1b_op14) (congr (congrArg List.cons ops_p1b_op15) (congr (congrArg List.cons ops_p1b_op16) (congr (congrArg List.cons ops_p1b_op17) (congr (congrArg List.cons ops_p1b_op18) (congr (congrArg List.cons ops_p1b_op19) (congr (congrArg List.cons ops_p1b_op20) (congr (congrArg List.cons ops_p1b_op21) (congr (congrArg List.cons ops_p1b_op22) (congr (congrArg List.cons ops_p1b_op23) (congr (congrArg List.cons ops_p1b_op24) (congr (congrArg List.cons ops_p1b_op25) (congr (congrArg List.cons ops_p1b_op26) (congr (congrArg List.cons ops_p1b_op27) (congr (congrArg List.cons ops_p1b_op28) (congr (congrArg List.cons ops_p1b_op29) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons ops_p1b_op40) (congr (congrArg List.cons ops_p1b_op41) (congr (congrArg List.cons ops_p1b_op42) (rfl)))))))))))))))))))))))))))))))))))))))))))

set_option maxRecDepth 200000 in
theorem ops_p2a_op25 : (StableHlo.TRef.unary ((.of main_cst_26) : StableHlo.TRef sig ⟨S_, .f32⟩) main_call7.v0 id : HloOp τ sig (Elt F)) = StableHlo.unary main_cst_26 main_call7_v0 ((id) : (⟨S_, .f32⟩ : BufTy).Contents (Elt F) → (⟨S_, .f32⟩ : BufTy).Contents (Elt F)) := rfl
set_option maxRecDepth 200000 in
theorem ops_p2a_op26 : (StableHlo.TRef.unary main_call7.v0 main_call7.v1 (broadcastInDim S1024 ![] bcast_S_S1024) : HloOp τ sig (Elt F)) = StableHlo.unary main_call7_v0 main_call7_v1 (((broadcastInDim S1024 ![] bcast_S_S1024)) : (⟨S_, .f32⟩ : BufTy).Contents (Elt F) → (⟨S1024, .f32⟩ : BufTy).Contents (Elt F)) := rfl
set_option maxRecDepth 200000 in
theorem ops_p2a_op27 : (StableHlo.TRef.ternary ((.of main_v112) : StableHlo.TRef sig ⟨S1024, .i1⟩) ((.of main_v115) : StableHlo.TRef sig ⟨S1024, .f32⟩) main_call7.v1 main_call7.v2 select : HloOp τ sig (Elt F)) = StableHlo.ternary main_v112 main_v115 main_call7_v1 main_v116 ((select) : (⟨S1024, .i1⟩ : BufTy).Contents (Elt F) → (⟨S1024, .f32⟩ : BufTy).Contents (Elt F) → (⟨S1024, .f32⟩ : BufTy).Contents (Elt F) → (⟨S1024, .f32⟩ : BufTy).Contents (Elt F)) := rfl

/-- ops_p2a over the buffers. -/
abbrev ops_p2a_plain : List (HloOp τ sig (Elt F)) :=
  [ StableHlo.nullary main_v98 (iotaInDim S1024 32 0),
    StableHlo.binary main_v44 main_v98 main_v99 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v45 main_v98 main_v100 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_20 (constant S_ .f32 0x3F800000#32),
    StableHlo.unary main_cst_20 main_v101 (broadcastInDim S1024 ![] bcast_S_S1024 : (⟨S_, .f32⟩ : BufTy).Contents (Elt F) → (⟨S1024, .f32⟩ : BufTy).Contents (Elt F)),
    StableHlo.binary main_v50 main_v101 main_v102 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_21 (constant S_ .f32 0x00000000#32),
    StableHlo.unary main_cst_21 main_v103 (broadcastInDim S1024 ![] bcast_S_S1024 : (⟨S_, .f32⟩ : BufTy).Contents (Elt F) → (⟨S1024, .f32⟩ : BufTy).Contents (Elt F)),
    StableHlo.nullary main_c_22 (constantI S_ 32 0#32),
    StableHlo.unary main_c_22 main_v104 (broadcastInDim S1049600 ![] bcast_S_S1049600 : (⟨S_, .i32⟩ : BufTy).Contents (Elt F) → (⟨S1049600, .i32⟩ : BufTy).Contents (Elt F)),
    StableHlo.binary main_v100 main_v104 main_v105 (cmpi .slt : (⟨S1049600, .i32⟩ : BufTy).Contents (Elt F) → (⟨S1049600, .i32⟩ : BufTy).Contents (Elt F) → (⟨S1049600, .i1⟩ : BufTy).Contents (Elt F)),
    StableHlo.nullary main_c_23 (constantI S_ 32 1024#32),
    StableHlo.unary main_c_23 main_v106 (broadcastInDim S1049600 ![] bcast_S_S1049600 : (⟨S_, .i32⟩ : BufTy).Contents (Elt F) → (⟨S1049600, .i32⟩ : BufTy).Contents (Elt F)),
    StableHlo.binary main_v100 main_v106 main_v107 (addi : (⟨S1049600, .i32⟩ : BufTy).Contents (Elt F) → (⟨S1049600, .i32⟩ : BufTy).Contents (Elt F) → (⟨S1049600, .i32⟩ : BufTy).Contents (Elt F)),
    StableHlo.ternary main_v105 main_v107 main_v100 main_v108 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v108 main_v109 (broadcastInDim S1049600x1 ![0] bcast_S1049600_S1049600x1_0 : (⟨S1049600, .i32⟩ : BufTy).Contents (Elt F) → (⟨S1049600x1, .i32⟩ : BufTy).Contents (Elt F)),
    StableHlo.ternary main_v103 main_v109 main_v102 main_v110 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_24 (constant S_ .f32 0x00000000#32),
    StableHlo.unary main_cst_24 main_v111 (broadcastInDim S1024 ![] bcast_S_S1024 : (⟨S_, .f32⟩ : BufTy).Contents (Elt F) → (⟨S1024, .f32⟩ : BufTy).Contents (Elt F)),
    StableHlo.binary main_v110 main_v111 main_v112 (cmpf .ogt : (⟨S1024, .f32⟩ : BufTy).Contents (Elt F) → (⟨S1024, .f32⟩ : BufTy).Contents (Elt F) → (⟨S1024, .i1⟩ : BufTy).Contents (Elt F)),
    StableHlo.unary main_v110 main_v113 (Host.sqrt : (⟨S1024, .f32⟩ : BufTy).Contents (Elt F) → (⟨S1024, .f32⟩ : BufTy).Contents (Elt F)),
    StableHlo.nullary main_cst_25 (constant S_ .f32 0x3F800000#32),
    StableHlo.unary main_cst_25 main_v114 (broadcastInDim S1024 ![] bcast_S_S1024 : (⟨S_, .f32⟩ : BufTy).Contents (Elt F) → (⟨S1024, .f32⟩ : BufTy).Contents (Elt F)),
    StableHlo.binary main_v114 main_v113 main_v115 (Host.divf : (⟨S1024, .f32⟩ : BufTy).Contents (Elt F) → (⟨S1024, .f32⟩ : BufTy).Contents (Elt F) → (⟨S1024, .f32⟩ : BufTy).Contents (Elt F)),
    StableHlo.nullary main_cst_26 (constant S_ .f32 0x00000000#32),
    StableHlo.unary main_cst_26 main_call7_v0 ((id) : (⟨S_, .f32⟩ : BufTy).Contents (Elt F) → (⟨S_, .f32⟩ : BufTy).Contents (Elt F)),
    StableHlo.unary main_call7_v0 main_call7_v1 (((broadcastInDim S1024 ![] bcast_S_S1024)) : (⟨S_, .f32⟩ : BufTy).Contents (Elt F) → (⟨S1024, .f32⟩ : BufTy).Contents (Elt F)),
    StableHlo.ternary main_v112 main_v115 main_call7_v1 main_v116 ((select) : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    StableHlo.nullary main_c_27 (constantI S_ 32 0#32),
    StableHlo.unary main_c_27 main_v117 (broadcastInDim S1049600 ![] bcast_S_S1049600 : (⟨S_, .i32⟩ : BufTy).Contents (Elt F) → (⟨S1049600, .i32⟩ : BufTy).Contents (Elt F)),
    StableHlo.binary main_v99 main_v117 main_v118 (cmpi .slt : (⟨S1049600, .i32⟩ : BufTy).Contents (Elt F) → (⟨S1049600, .i32⟩ : BufTy).Contents (Elt F) → (⟨S1049600, .i1⟩ : BufTy).Contents (Elt F)),
    StableHlo.nullary main_c_28 (constantI S_ 32 1024#32),
    StableHlo.unary main_c_28 main_v119 (broadcastInDim S1049600 ![] bcast_S_S1049600 : (⟨S_, .i32⟩ : BufTy).Contents (Elt F) → (⟨S1049600, .i32⟩ : BufTy).Contents (Elt F)),
    StableHlo.binary main_v99 main_v119 main_v120 (addi : (⟨S1049600, .i32⟩ : BufTy).Contents (Elt F) → (⟨S1049600, .i32⟩ : BufTy).Contents (Elt F) → (⟨S1049600, .i32⟩ : BufTy).Contents (Elt F)),
    StableHlo.ternary main_v118 main_v120 main_v99 main_v121 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v121 main_v122 (broadcastInDim S1049600x1 ![0] bcast_S1049600_S1049600x1_0 : (⟨S1049600, .i32⟩ : BufTy).Contents (Elt F) → (⟨S1049600x1, .i32⟩ : BufTy).Contents (Elt F)),
    StableHlo.binary main_v116 main_v122 main_v123 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_29 (constantI S_ 32 0#32),
    StableHlo.unary main_c_29 main_v124 (broadcastInDim S1049600 ![] bcast_S_S1049600 : (⟨S_, .i32⟩ : BufTy).Contents (Elt F) → (⟨S1049600, .i32⟩ : BufTy).Contents (Elt F)),
    StableHlo.binary main_v100 main_v124 main_v125 (cmpi .slt : (⟨S1049600, .i32⟩ : BufTy).Contents (Elt F) → (⟨S1049600, .i32⟩ : BufTy).Contents (Elt F) → (⟨S1049600, .i1⟩ : BufTy).Contents (Elt F)),
    StableHlo.nullary main_c_30 (constantI S_ 32 1024#32),
    StableHlo.unary main_c_30 main_v126 (broadcastInDim S1049600 ![] bcast_S_S1049600 : (⟨S_, .i32⟩ : BufTy).Contents (Elt F) → (⟨S1049600, .i32⟩ : BufTy).Contents (Elt F)) ]
set_option maxRecDepth 65536 in
set_option maxHeartbeats 4000000 in
theorem ops_p2a_eq_plain : (ops_p2a : List (HloOp τ sig (Elt F))) = ops_p2a_plain := by
  unfold ops_p2a ops_p2a_plain
  exact congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons ops_p2a_op25) (congr (congrArg List.cons ops_p2a_op26) (congr (congrArg List.cons ops_p2a_op27) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (rfl))))))))))))))))))))))))))))))))))))))))))

set_option maxRecDepth 200000 in
theorem ops_p2b_op7 : (StableHlo.TRef.nullary main_call8.c (constantI S_ 32 0#32) : HloOp τ sig (Elt F)) = StableHlo.nullary main_call8_c (((constantI S_ 32 0#32)) : (⟨S_, .i32⟩ : BufTy).Contents (Elt F)) := rfl
set_option maxRecDepth 200000 in
theorem ops_p2b_op8 : (StableHlo.TRef.unary main_call8.c main_call8.v0 (broadcastInDim S1049600 ![] bcast_S_S1049600) : HloOp τ sig (Elt F)) = StableHlo.unary main_call8_c main_call8_v0 (((broadcastInDim S1049600 ![] bcast_S_S1049600)) : (⟨S_, .i32⟩ : BufTy).Contents (Elt F) → (⟨S1049600, .i32⟩ : BufTy).Contents (Elt F)) := rfl
set_option maxRecDepth 200000 in
theorem ops_p2b_op9 : (StableHlo.TRef.binary ((.of main_v99) : StableHlo.TRef sig ⟨S1049600, .i32⟩) main_call8.v0 main_call8.v1 (cmpi .slt) : HloOp τ sig (Elt F)) = StableHlo.binary main_v99 main_call8_v0 main_call8_v1 (((cmpi .slt)) : (⟨S1049600, .i32⟩ : BufTy).Contents (Elt F) → (⟨S1049600, .i32⟩ : BufTy).Contents (Elt F) → (⟨S1049600, .i1⟩ : BufTy).Contents (Elt F)) := rfl
set_option maxRecDepth 200000 in
theorem ops_p2b_op10 : (StableHlo.TRef.nullary main_call8.c_0 (constantI S_ 32 1024#32) : HloOp τ sig (Elt F)) = StableHlo.nullary main_call8_c_0 (((constantI S_ 32 1024#32)) : (⟨S_, .i32⟩ : BufTy).Contents (Elt F)) := rfl
set_option maxRecDepth 200000 in
theorem ops_p2b_op11 : (StableHlo.TRef.unary main_call8.c_0 main_call8.v2 (broadcastInDim S1049600 ![] bcast_S_S1049600) : HloOp τ sig (Elt F)) = StableHlo.unary main_call8_c_0 main_call8_v2 (((broadcastInDim S1049600 ![] bcast_S_S1049600)) : (⟨S_, .i32⟩ : BufTy).Contents (Elt F) → (⟨S1049600, .i32⟩ : BufTy).Contents (Elt F)) := rfl
set_option maxRecDepth 200000 in
theorem ops_p2b_op12 : (StableHlo.TRef.binary ((.of main_v99) : StableHlo.TRef sig ⟨S1049600, .i32⟩) main_call8.v2 main_call8.v3 addi : HloOp τ sig (Elt F)) = StableHlo.binary main_v99 main_call8_v2 main_call8_v3 ((addi) : (⟨S1049600, .i32⟩ : BufTy).Contents (Elt F) → (⟨S1049600, .i32⟩ : BufTy).Contents (Elt F) → (⟨S1049600, .i32⟩ : BufTy).Contents (Elt F)) := rfl
set_option maxRecDepth 200000 in
theorem ops_p2b_op13 : (StableHlo.TRef.ternary (main_call8.v1 : StableHlo.TRef sig ⟨S1049600, .i1⟩) (main_call8.v3 : StableHlo.TRef sig ⟨S1049600, .i32⟩) (((.of main_v99) : StableHlo.TRef sig ⟨S1049600, .i32⟩) : StableHlo.TRef sig ⟨S1049600, .i32⟩) main_call8.call0.v0 select : HloOp τ sig (Elt F)) = StableHlo.ternary main_call8_v1 main_call8_v3 main_v99 main_call8_v4 ((select) : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) := rfl
set_option maxRecDepth 200000 in
theorem ops_p2b_op14 : (StableHlo.TRef.unary main_call8.call0.v0 main_call8.v5 (broadcastInDim S1049600x1 ![0] bcast_S1049600_S1049600x1_0) : HloOp τ sig (Elt F)) = StableHlo.unary main_call8_v4 main_call8_v5 (((broadcastInDim S1049600x1 ![0] bcast_S1049600_S1049600x1_0)) : (⟨S1049600, .i32⟩ : BufTy).Contents (Elt F) → (⟨S1049600x1, .i32⟩ : BufTy).Contents (Elt F)) := rfl
set_option maxRecDepth 200000 in
theorem ops_p2b_op15 : (StableHlo.TRef.nullary main_call8.c_1 (constantI S1 32 1023#32) : HloOp τ sig (Elt F)) = StableHlo.nullary main_call8_c_1 (((constantI S1 32 1023#32)) : (⟨S1, .i32⟩ : BufTy).Contents (Elt F)) := rfl
set_option maxRecDepth 200000 in
theorem ops_p2b_op16 : (StableHlo.TRef.nullary main_call8.c_2 (constantI S_ 32 0#32) : HloOp τ sig (Elt F)) = StableHlo.nullary main_call8_c_2 (((constantI S_ 32 0#32)) : (⟨S_, .i32⟩ : BufTy).Contents (Elt F)) := rfl
set_option maxRecDepth 200000 in
theorem ops_p2b_op17 : (StableHlo.TRef.unary main_call8.c_2 main_call8.v6 (broadcastInDim S1049600x1 ![] bcast_S_S1049600x1) : HloOp τ sig (Elt F)) = StableHlo.unary main_call8_c_2 main_call8_v6 (((broadcastInDim S1049600x1 ![] bcast_S_S1049600x1)) : (⟨S_, .i32⟩ : BufTy).Contents (Elt F) → (⟨S1049600x1, .i32⟩ : BufTy).Contents (Elt F)) := rfl
set_option maxRecDepth 200000 in
theorem ops_p2b_op18 : (StableHlo.TRef.binary main_call8.v5 main_call8.v6 main_call8.v7 (cmpi .sge) : HloOp τ sig (Elt F)) = StableHlo.binary main_call8_v5 main_call8_v6 main_call8_v7 (((cmpi .sge)) : (⟨S1049600x1, .i32⟩ : BufTy).Contents (Elt F) → (⟨S1049600x1, .i32⟩ : BufTy).Contents (Elt F) → (⟨S1049600x1, .i1⟩ : BufTy).Contents (Elt F)) := rfl
set_option maxRecDepth 200000 in
theorem ops_p2b_op19 : (StableHlo.TRef.unary main_call8.c_1 main_call8.v8 (broadcastInDim S1x1 ![1] bcast_S1_S1x1_1) : HloOp τ sig (Elt F)) = StableHlo.unary main_call8_c_1 main_call8_v8 (((broadcastInDim S1x1 ![1] bcast_S1_S1x1_1)) : (⟨S1, .i32⟩ : BufTy).Contents (Elt F) → (⟨S1x1, .i32⟩ : BufTy).Contents (Elt F)) := rfl
set_option maxRecDepth 200000 in
theorem ops_p2b_op20 : (StableHlo.TRef.unary main_call8.v8 main_call8.v9 (broadcastInDim S1049600x1 ![0, 1] bcast_S1x1_S1049600x1_0_1) : HloOp τ sig (Elt F)) = StableHlo.unary main_call8_v8 main_call8_v9 (((broadcastInDim S1049600x1 ![0, 1] bcast_S1x1_S1049600x1_0_1)) : (⟨S1x1, .i32⟩ : BufTy).Contents (Elt F) → (⟨S1049600x1, .i32⟩ : BufTy).Contents (Elt F)) := rfl
set_option maxRecDepth 200000 in
theorem ops_p2b_op21 : (StableHlo.TRef.binary main_call8.v5 main_call8.v9 main_call8.v10 (cmpi .sle) : HloOp τ sig (Elt F)) = StableHlo.binary main_call8_v5 main_call8_v9 main_call8_v10 (((cmpi .sle)) : (⟨S1049600x1, .i32⟩ : BufTy).Contents (Elt F) → (⟨S1049600x1, .i32⟩ : BufTy).Contents (Elt F) → (⟨S1049600x1, .i1⟩ : BufTy).Contents (Elt F)) := rfl
set_option maxRecDepth 200000 in
theorem ops_p2b_op22 : (StableHlo.TRef.binary main_call8.v7 main_call8.v10 main_call8.v11 andi : HloOp τ sig (Elt F)) = StableHlo.binary main_call8_v7 main_call8_v10 main_call8_v11 ((andi) : (⟨S1049600x1, .i1⟩ : BufTy).Contents (Elt F) → (⟨S1049600x1, .i1⟩ : BufTy).Contents (Elt F) → (⟨S1049600x1, .i1⟩ : BufTy).Contents (Elt F)) := rfl
set_option maxRecDepth 200000 in
theorem ops_p2b_op23 : (StableHlo.TRef.nullary main_call8.c_3 (constantI S_ 1 1#1) : HloOp τ sig (Elt F)) = StableHlo.nullary main_call8_c_3 (((constantI S_ 1 1#1)) : (⟨S_, .i1⟩ : BufTy).Contents (Elt F)) := rfl
set_option maxRecDepth 200000 in
theorem ops_p2b_op24 : (StableHlo.TRef.binary main_call8.v11 main_call8.c_3 main_call8.v12 (fun x v => Host.reduce IntOp.andi x v reducesTo_S1049600x1_S1049600_d1 h_S_) : HloOp τ sig (Elt F)) = StableHlo.binary main_call8_v11 main_call8_c_3 main_call8_v12 (((fun x v => Host.reduce IntOp.andi x v reducesTo_S1049600x1_S1049600_d1 h_S_)) : (⟨S1049600x1, .i1⟩ : BufTy).Contents (Elt F) → (⟨S_, .i1⟩ : BufTy).Contents (Elt F) → (⟨S1049600, .i1⟩ : BufTy).Contents (Elt F)) := rfl
set_option maxRecDepth 200000 in
theorem ops_p2b_op25 : (StableHlo.TRef.binary ((.of main_v133) : StableHlo.TRef sig ⟨S1024x64, .f32⟩) main_call8.v5 main_call8.v13 (fun x i => Host.gather gather_S1024x64_S1049600x1_S1049600x64_1_0_n_n_0_1_164 x i) : HloOp τ sig (Elt F)) = StableHlo.binary main_v133 main_call8_v5 main_call8_v13 (((fun x i => Host.gather gather_S1024x64_S1049600x1_S1049600x64_1_0_n_n_0_1_164 x i)) : (⟨S1024x64, .f32⟩ : BufTy).Contents (Elt F) → (⟨S1049600x1, .i32⟩ : BufTy).Contents (Elt F) → (⟨S1049600x64, .f32⟩ : BufTy).Contents (Elt F)) := rfl
set_option maxRecDepth 200000 in
theorem ops_p2b_op26 : (StableHlo.TRef.unary main_call8.v12 main_call8.v14 (broadcastInDim S1049600x64 ![0] bcast_S1049600_S1049600x64_0) : HloOp τ sig (Elt F)) = StableHlo.unary main_call8_v12 main_call8_v14 (((broadcastInDim S1049600x64 ![0] bcast_S1049600_S1049600x64_0)) : (⟨S1049600, .i1⟩ : BufTy).Contents (Elt F) → (⟨S1049600x64, .i1⟩ : BufTy).Contents (Elt F)) := rfl
set_option maxRecDepth 200000 in
theorem ops_p2b_op27 : (StableHlo.TRef.nullary main_call8.cst (constant S_ .f32 0x7FC00000#32) : HloOp τ sig (Elt F)) = StableHlo.nullary main_call8_cst (((constant S_ .f32 0x7FC00000#32)) : (⟨S_, .f32⟩ : BufTy).Contents (Elt F)) := rfl
set_option maxRecDepth 200000 in
theorem ops_p2b_op28 : (StableHlo.TRef.unary main_call8.cst main_call8.v15 (broadcastInDim S1049600x64 ![] bcast_S_S1049600x64) : HloOp τ sig (Elt F)) = StableHlo.unary main_call8_cst main_call8_v15 (((broadcastInDim S1049600x64 ![] bcast_S_S1049600x64)) : (⟨S_, .f32⟩ : BufTy).Contents (Elt F) → (⟨S1049600x64, .f32⟩ : BufTy).Contents (Elt F)) := rfl
set_option maxRecDepth 200000 in
theorem ops_p2b_op29 : (StableHlo.TRef.ternary main_call8.v14 main_call8.v13 main_call8.v15 main_call8.v16 select : HloOp τ sig (Elt F)) = StableHlo.ternary main_call8_v14 main_call8_v13 main_call8_v15 main_v134 ((select) : (⟨S1049600x64, .i1⟩ : BufTy).Contents (Elt F) → (⟨S1049600x64, .f32⟩ : BufTy).Contents (Elt F) → (⟨S1049600x64, .f32⟩ : BufTy).Contents (Elt F) → (⟨S1049600x64, .f32⟩ : BufTy).Contents (Elt F)) := rfl

/-- ops_p2b over the buffers. -/
abbrev ops_p2b_plain : List (HloOp τ sig (Elt F)) :=
  [ StableHlo.binary main_v100 main_v126 main_v127 (addi : (⟨S1049600, .i32⟩ : BufTy).Contents (Elt F) → (⟨S1049600, .i32⟩ : BufTy).Contents (Elt F) → (⟨S1049600, .i32⟩ : BufTy).Contents (Elt F)),
    StableHlo.ternary main_v125 main_v127 main_v100 main_v128 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v128 main_v129 (broadcastInDim S1049600x1 ![0] bcast_S1049600_S1049600x1_0 : (⟨S1049600, .i32⟩ : BufTy).Contents (Elt F) → (⟨S1049600x1, .i32⟩ : BufTy).Contents (Elt F)),
    StableHlo.binary main_v116 main_v129 main_v130 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v123 main_v130 main_v131 (mulf : (⟨S1049600, .f32⟩ : BufTy).Contents (Elt F) → (⟨S1049600, .f32⟩ : BufTy).Contents (Elt F) → (⟨S1049600, .f32⟩ : BufTy).Contents (Elt F)),
    StableHlo.binary main_v131 main_v102 main_v132 (mulf : (⟨S1049600, .f32⟩ : BufTy).Contents (Elt F) → (⟨S1049600, .f32⟩ : BufTy).Contents (Elt F) → (⟨S1049600, .f32⟩ : BufTy).Contents (Elt F)),
    StableHlo.binary main_v97 main_arg11 main_v133 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    StableHlo.nullary main_call8_c (((constantI S_ 32 0#32)) : (⟨S_, .i32⟩ : BufTy).Contents (Elt F)),
    StableHlo.unary main_call8_c main_call8_v0 (((broadcastInDim S1049600 ![] bcast_S_S1049600)) : (⟨S_, .i32⟩ : BufTy).Contents (Elt F) → (⟨S1049600, .i32⟩ : BufTy).Contents (Elt F)),
    StableHlo.binary main_v99 main_call8_v0 main_call8_v1 (((cmpi .slt)) : (⟨S1049600, .i32⟩ : BufTy).Contents (Elt F) → (⟨S1049600, .i32⟩ : BufTy).Contents (Elt F) → (⟨S1049600, .i1⟩ : BufTy).Contents (Elt F)),
    StableHlo.nullary main_call8_c_0 (((constantI S_ 32 1024#32)) : (⟨S_, .i32⟩ : BufTy).Contents (Elt F)),
    StableHlo.unary main_call8_c_0 main_call8_v2 (((broadcastInDim S1049600 ![] bcast_S_S1049600)) : (⟨S_, .i32⟩ : BufTy).Contents (Elt F) → (⟨S1049600, .i32⟩ : BufTy).Contents (Elt F)),
    StableHlo.binary main_v99 main_call8_v2 main_call8_v3 ((addi) : (⟨S1049600, .i32⟩ : BufTy).Contents (Elt F) → (⟨S1049600, .i32⟩ : BufTy).Contents (Elt F) → (⟨S1049600, .i32⟩ : BufTy).Contents (Elt F)),
    StableHlo.ternary main_call8_v1 main_call8_v3 main_v99 main_call8_v4 ((select) : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_call8_v4 main_call8_v5 (((broadcastInDim S1049600x1 ![0] bcast_S1049600_S1049600x1_0)) : (⟨S1049600, .i32⟩ : BufTy).Contents (Elt F) → (⟨S1049600x1, .i32⟩ : BufTy).Contents (Elt F)),
    StableHlo.nullary main_call8_c_1 (((constantI S1 32 1023#32)) : (⟨S1, .i32⟩ : BufTy).Contents (Elt F)),
    StableHlo.nullary main_call8_c_2 (((constantI S_ 32 0#32)) : (⟨S_, .i32⟩ : BufTy).Contents (Elt F)),
    StableHlo.unary main_call8_c_2 main_call8_v6 (((broadcastInDim S1049600x1 ![] bcast_S_S1049600x1)) : (⟨S_, .i32⟩ : BufTy).Contents (Elt F) → (⟨S1049600x1, .i32⟩ : BufTy).Contents (Elt F)),
    StableHlo.binary main_call8_v5 main_call8_v6 main_call8_v7 (((cmpi .sge)) : (⟨S1049600x1, .i32⟩ : BufTy).Contents (Elt F) → (⟨S1049600x1, .i32⟩ : BufTy).Contents (Elt F) → (⟨S1049600x1, .i1⟩ : BufTy).Contents (Elt F)),
    StableHlo.unary main_call8_c_1 main_call8_v8 (((broadcastInDim S1x1 ![1] bcast_S1_S1x1_1)) : (⟨S1, .i32⟩ : BufTy).Contents (Elt F) → (⟨S1x1, .i32⟩ : BufTy).Contents (Elt F)),
    StableHlo.unary main_call8_v8 main_call8_v9 (((broadcastInDim S1049600x1 ![0, 1] bcast_S1x1_S1049600x1_0_1)) : (⟨S1x1, .i32⟩ : BufTy).Contents (Elt F) → (⟨S1049600x1, .i32⟩ : BufTy).Contents (Elt F)),
    StableHlo.binary main_call8_v5 main_call8_v9 main_call8_v10 (((cmpi .sle)) : (⟨S1049600x1, .i32⟩ : BufTy).Contents (Elt F) → (⟨S1049600x1, .i32⟩ : BufTy).Contents (Elt F) → (⟨S1049600x1, .i1⟩ : BufTy).Contents (Elt F)),
    StableHlo.binary main_call8_v7 main_call8_v10 main_call8_v11 ((andi) : (⟨S1049600x1, .i1⟩ : BufTy).Contents (Elt F) → (⟨S1049600x1, .i1⟩ : BufTy).Contents (Elt F) → (⟨S1049600x1, .i1⟩ : BufTy).Contents (Elt F)),
    StableHlo.nullary main_call8_c_3 (((constantI S_ 1 1#1)) : (⟨S_, .i1⟩ : BufTy).Contents (Elt F)),
    StableHlo.binary main_call8_v11 main_call8_c_3 main_call8_v12 (((fun x v => Host.reduce IntOp.andi x v reducesTo_S1049600x1_S1049600_d1 h_S_)) : (⟨S1049600x1, .i1⟩ : BufTy).Contents (Elt F) → (⟨S_, .i1⟩ : BufTy).Contents (Elt F) → (⟨S1049600, .i1⟩ : BufTy).Contents (Elt F)),
    StableHlo.binary main_v133 main_call8_v5 main_call8_v13 (((fun x i => Host.gather gather_S1024x64_S1049600x1_S1049600x64_1_0_n_n_0_1_164 x i)) : (⟨S1024x64, .f32⟩ : BufTy).Contents (Elt F) → (⟨S1049600x1, .i32⟩ : BufTy).Contents (Elt F) → (⟨S1049600x64, .f32⟩ : BufTy).Contents (Elt F)),
    StableHlo.unary main_call8_v12 main_call8_v14 (((broadcastInDim S1049600x64 ![0] bcast_S1049600_S1049600x64_0)) : (⟨S1049600, .i1⟩ : BufTy).Contents (Elt F) → (⟨S1049600x64, .i1⟩ : BufTy).Contents (Elt F)),
    StableHlo.nullary main_call8_cst (((constant S_ .f32 0x7FC00000#32)) : (⟨S_, .f32⟩ : BufTy).Contents (Elt F)),
    StableHlo.unary main_call8_cst main_call8_v15 (((broadcastInDim S1049600x64 ![] bcast_S_S1049600x64)) : (⟨S_, .f32⟩ : BufTy).Contents (Elt F) → (⟨S1049600x64, .f32⟩ : BufTy).Contents (Elt F)),
    StableHlo.ternary main_call8_v14 main_call8_v13 main_call8_v15 main_v134 ((select) : (⟨S1049600x64, .i1⟩ : BufTy).Contents (Elt F) → (⟨S1049600x64, .f32⟩ : BufTy).Contents (Elt F) → (⟨S1049600x64, .f32⟩ : BufTy).Contents (Elt F) → (⟨S1049600x64, .f32⟩ : BufTy).Contents (Elt F)),
    StableHlo.unary main_v132 main_v135 (broadcastInDim S1049600x1 ![0] bcast_S1049600_S1049600x1_0 : (⟨S1049600, .f32⟩ : BufTy).Contents (Elt F) → (⟨S1049600x1, .f32⟩ : BufTy).Contents (Elt F)),
    StableHlo.unary main_v135 main_v136 (broadcastInDim S1049600x64 ![0, 1] bcast_S1049600x1_S1049600x64_0_1 : (⟨S1049600x1, .f32⟩ : BufTy).Contents (Elt F) → (⟨S1049600x64, .f32⟩ : BufTy).Contents (Elt F)),
    StableHlo.binary main_v134 main_v136 main_v137 (mulf : (⟨S1049600x64, .f32⟩ : BufTy).Contents (Elt F) → (⟨S1049600x64, .f32⟩ : BufTy).Contents (Elt F) → (⟨S1049600x64, .f32⟩ : BufTy).Contents (Elt F)),
    StableHlo.nullary main_cst_31 (constant S_ .f32 0x00000000#32),
    StableHlo.unary main_cst_31 main_v138 (broadcastInDim S1024x64 ![] bcast_S_S1024x64 : (⟨S_, .f32⟩ : BufTy).Contents (Elt F) → (⟨S1024x64, .f32⟩ : BufTy).Contents (Elt F)),
    StableHlo.unary main_v100 main_v139 (broadcastInDim S1049600x1 ![0] bcast_S1049600_S1049600x1_0 : (⟨S1049600, .i32⟩ : BufTy).Contents (Elt F) → (⟨S1049600x1, .i32⟩ : BufTy).Contents (Elt F)),
    StableHlo.ternary main_v138 main_v139 main_v137 main_v140 ((fun x i u => Host.scatterAdd scatter_S1024x64_S1049600x1_S1049600x64_1_0_0_1 x i u) : (⟨S1024x64, .f32⟩ : BufTy).Contents (Elt F) → (⟨S1049600x1, .i32⟩ : BufTy).Contents (Elt F) → (⟨S1049600x64, .f32⟩ : BufTy).Contents (Elt F) → (⟨S1024x64, .f32⟩ : BufTy).Contents (Elt F)),
    StableHlo.unary main_arg12 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S1024x64 ![0, 1] bcast_S1x64_S1024x64_0_1 : (⟨S1x64, .f32⟩ : BufTy).Contents (Elt F) → (⟨S1024x64, .f32⟩ : BufTy).Contents (Elt F)),
    StableHlo.binary main_v140 main_v142 main_v143 (addf : (⟨S1024x64, .f32⟩ : BufTy).Contents (Elt F) → (⟨S1024x64, .f32⟩ : BufTy).Contents (Elt F) → (⟨S1024x64, .f32⟩ : BufTy).Contents (Elt F)),
    StableHlo.binary main_v143 main_arg13 main_v144 ((fun l r => Host.dotGeneral dot_S1024x64_S64x16_S1024x16_1_0_0_1_n_n none l r) : (⟨S1024x64, .f32⟩ : BufTy).Contents (Elt F) → (⟨S64x16, .f32⟩ : BufTy).Contents (Elt F) → (⟨S1024x16, .f32⟩ : BufTy).Contents (Elt F)),
    StableHlo.unary main_arg14 main_v145 (broadcastInDim S1x16 ![1] bcast_S16_S1x16_1 : (⟨S16, .f32⟩ : BufTy).Contents (Elt F) → (⟨S1x16, .f32⟩ : BufTy).Contents (Elt F)) ]
set_option maxRecDepth 65536 in
set_option maxHeartbeats 4000000 in
theorem ops_p2b_eq_plain : (ops_p2b : List (HloOp τ sig (Elt F))) = ops_p2b_plain := by
  unfold ops_p2b ops_p2b_plain
  exact congr (congrArg List.cons rfl) (congr (congrArg List.cons rfl) (congr (congrArg List.cons rfl) (congr (congrArg List.cons rfl) (congr (congrArg List.cons rfl) (congr (congrArg List.cons rfl) (congr (congrArg List.cons rfl) (congr (congrArg List.cons ops_p2b_op7) (congr (congrArg List.cons ops_p2b_op8) (congr (congrArg List.cons ops_p2b_op9) (congr (congrArg List.cons ops_p2b_op10) (congr (congrArg List.cons ops_p2b_op11) (congr (congrArg List.cons ops_p2b_op12) (congr (congrArg List.cons ops_p2b_op13) (congr (congrArg List.cons ops_p2b_op14) (congr (congrArg List.cons ops_p2b_op15) (congr (congrArg List.cons ops_p2b_op16) (congr (congrArg List.cons ops_p2b_op17) (congr (congrArg List.cons ops_p2b_op18) (congr (congrArg List.cons ops_p2b_op19) (congr (congrArg List.cons ops_p2b_op20) (congr (congrArg List.cons ops_p2b_op21) (congr (congrArg List.cons ops_p2b_op22) (congr (congrArg List.cons ops_p2b_op23) (congr (congrArg List.cons ops_p2b_op24) (congr (congrArg List.cons ops_p2b_op25) (congr (congrArg List.cons ops_p2b_op26) (congr (congrArg List.cons ops_p2b_op27) (congr (congrArg List.cons ops_p2b_op28) (congr (congrArg List.cons ops_p2b_op29) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (congr (congrArg List.cons rfl) (rfl))))))))))))))))))))))))))))))))))))))))))

end Cert.ReferenceIdeal.Hand

end
-- ==== Proof.RefStages.lean ====
/-
  The reference's value, stage by stage: the operations of its program composed into named functions of the
  argument arrays, each spelt with the program's own operations.

  The program computes, in order: the encoder and the GRU cell (the second result); the edge list of the complete
  directed graph on 1024 nodes with its 1024 self-loops appended (sources, destinations, and weights 1 where the
  adjacency entry is nonzero); per convolution the in-degrees by a scatter-add of the weights, their inverse square
  roots, the edge normalisers, the gathered and scaled messages and their segment sum; and the output layer.
-/
import proofs.«138646_g48533130445277_cont_sun_m_870_17_alg».proof.Proof.Gen.ReferenceIdeal

noncomputable section

namespace Cert.ReferenceIdeal.Hand

open Cert.ReferenceIdeal
open Idealize.ShloMosaic
open Cert.ReferenceIdeal.Facts₀ Cert.ReferenceIdeal.Facts

variable {F : FTy → Type} [FloatOps F]

/-! ## Encoder and GRU cell -/

/-- A scalar float constant spread over [1024, 64]. -/
def splat64 (w : BitVec 32) : FVec F S1024x64 .f32 :=
  broadcastInDim S1024x64 ![] bcast_S_S1024x64 (constant S_ .f32 w)

/-- The rectifier: the maximum with zero. -/
def relu (v : FVec F S1024x64 .f32) : FVec F S1024x64 .f32 := maximumf v (splat64 0x00000000#32)

/-- The encoder: relu (inputs · enc_W + enc_b). -/
def st_h1 (a0 : FVec F S1024x275 .f32) (a3 : FVec F S275x64 .f32) (a4 : FVec F S64 .f32) : FVec F S1024x64 .f32 :=
  relu (addf (Host.dotGeneral dot_S1024x275_S275x64_S1024x64_1_0_0_1_n_n none a0 a3)
    (broadcastInDim S1024x64 ![0, 1] bcast_S1x64_S1024x64_0_1 (broadcastInDim S1x64 ![1] bcast_S64_S1x64_1 a4)))

/-- The three gates' pre-activations side by side: X · wᵀ + b, of shape [1024, 192]. -/
def st_gates (X : FVec F S1024x64 .f32) (w : FVec F S192x64 .f32) (b : FVec F S192 .f32) : FVec F S1024x192 .f32 :=
  addf (Host.dotGeneral dot_S1024x64_S64x192_S1024x192_1_0_0_1_n_n none X (transpose S64x192 [1, 0] w transposes_S192x64_S64x192_1_0))
    (broadcastInDim S1024x192 ![0, 1] bcast_S1x192_S1024x192_0_1 (broadcastInDim S1x192 ![1] bcast_S192_S1x192_1 b))

/-- The logistic function as the program spells it: 1 / (1 + exp (-v)). -/
def st_sig (v : FVec F S1024x64 .f32) : FVec F S1024x64 .f32 :=
  Host.divf (splat64 0x3F800000#32) (addf (splat64 0x3F800000#32) (Host.exp (Host.negf v)))

/-- Columns 0 to 63, 64 to 127, 128 to 191 of a [1024, 192] array. -/
def sl0 (v : FVec F S1024x192 .f32) : FVec F S1024x64 .f32 := extractStridedSlice S1024x64 ![0, 0] v slices_S1024x192_S1024x64_0_0
def sl1 (v : FVec F S1024x192 .f32) : FVec F S1024x64 .f32 := extractStridedSlice S1024x64 ![0, 64] v slices_S1024x192_S1024x64_0_64
def sl2 (v : FVec F S1024x192 .f32) : FVec F S1024x64 .f32 := extractStridedSlice S1024x64 ![0, 128] v slices_S1024x192_S1024x64_0_128

/-- The GRU cell from the two gate arrays and the hidden state. -/
def st_gru (gi gh : FVec F S1024x192 .f32) (a1 : FVec F S1024x64 .f32) : FVec F S1024x64 .f32 :=
  addf (mulf (subf (splat64 0x3F800000#32) (st_sig (addf (sl1 gi) (sl1 gh))))
      (Host.tanh (addf (sl2 gi) (mulf (st_sig (addf (sl0 gi) (sl0 gh))) (sl2 gh)))))
    (mulf (st_sig (addf (sl1 gi) (sl1 gh))) a1)

/-- The new hidden state: the program's second result. -/
def st_h2 (a0 : FVec F S1024x275 .f32) (a1 : FVec F S1024x64 .f32) (a3 : FVec F S275x64 .f32) (a4 : FVec F S64 .f32)
    (a5 a6 : FVec F S192x64 .f32) (a7 a8 : FVec F S192 .f32) : FVec F S1024x64 .f32 :=
  st_gru (st_gates (st_h1 a0 a3 a4) a5 a7) (st_gates a1 a6 a8) a1

/-! ## The edge list -/

/-- The flat pair index 0 … 1048575. -/
def st_iota : IVec S1048576 32 := iotaInDim S1048576 32 0

/-- A word spread over the flat pair index. -/
def splatP (w : BitVec 32) : IVec S1048576 32 := broadcastInDim S1048576 ![] bcast_S_S1048576 (constantI S_ 32 w)

/-- The source of pair e: e floor-divided by 1024, as jnp spells floor division (the truncated quotient, less one
    where the signs differ and the remainder is nonzero). -/
def st_src : IVec S1048576 32 :=
  select
    (andi (cmpi .ne (signi st_iota) (broadcastInDim S1048576 ![] bcast_S_S1048576 (signi (id (constantI S_ 32 1024#32)))))
      (cmpi .ne (Host.remsi st_iota (broadcastInDim S1048576 ![] bcast_S_S1048576 (id (constantI S_ 32 1024#32)))) (splatP 0#32)))
    (subi (Host.divsi st_iota (broadcastInDim S1048576 ![] bcast_S_S1048576 (id (constantI S_ 32 1024#32)))) (splatP 1#32))
    (Host.divsi st_iota (broadcastInDim S1048576 ![] bcast_S_S1048576 (id (constantI S_ 32 1024#32))))

/-- The divisor jnp's remainder uses: 1 where the given one is 0, else the given one. -/
def st_mod : IVec S_ 32 :=
  select (cmpi .eq (id (constantI S_ 32 1024#32)) (constantI S_ 32 0#32)) (constantI S_ 32 1#32) (id (constantI S_ 32 1024#32))

/-- The destination of pair e: e modulo 1024, as jnp spells the remainder (the truncated one, plus the divisor where
    its sign differs from the divisor's and it is nonzero). -/
def st_dst : IVec S1048576 32 :=
  select
    (andi
      (cmpi .ne (cmpi .slt (Host.remsi st_iota (broadcastInDim S1048576 ![] bcast_S_S1048576 st_mod)) (splatP 0#32))
        (broadcastInDim S1048576 ![] bcast_S_S1048576 (cmpi .slt st_mod (constantI S_ 32 0#32))))
      (cmpi .ne (Host.remsi st_iota (broadcastInDim S1048576 ![] bcast_S_S1048576 st_mod)) (splatP 0#32)))
    (addi (Host.remsi st_iota (broadcastInDim S1048576 ![] bcast_S_S1048576 st_mod)) (broadcastInDim S1048576 ![] bcast_S_S1048576 st_mod))
    (Host.remsi st_iota (broadcastInDim S1048576 ![] bcast_S_S1048576 st_mod))

/-- The node index 0 … 1023 (the self-loops). -/
def st_loop : IVec S1024 32 := iotaInDim S1024 32 0

/-- All edges' sources: the pairs' then the self-loops'. -/
def st_s : IVec S1049600 32 := concatenate S1049600 0 [⟨S1048576, st_src⟩, ⟨S1024, st_loop⟩] concatenates_S1048576_S1024_S1049600_d0
/-- All edges' destinations. -/
def st_d : IVec S1049600 32 := concatenate S1049600 0 [⟨S1048576, st_dst⟩, ⟨S1024, st_loop⟩] concatenates_S1048576_S1024_S1049600_d0

/-- The pairs' weights: 1 where the adjacency entry is not zero, else 0. -/
def st_ew (a2 : FVec F S1024x1024 .f32) : FVec F S1048576 .f32 :=
  id (select (cmpf .une (shapeCast S1048576 a2 shapeCasts_S1024x1024_S1048576)
        (broadcastInDim S1048576 ![] bcast_S_S1048576 (constant S_ .f32 0x00000000#32)))
      (broadcastInDim S1048576 ![] bcast_S_S1048576 (constant S_ .f32 0x3F800000#32))
      (broadcastInDim S1048576 ![] bcast_S_S1048576 (constant S_ .f32 0x00000000#32)))

/-- All edges' weights: the pairs' then 1 for every self-loop. -/
def st_w (a2 : FVec F S1024x1024 .f32) : FVec F S1049600 .f32 :=
  concatenate S1049600 0 [⟨S1048576, st_ew a2⟩, ⟨S1024, broadcastInDim S1024 ![] bcast_S_S1024 (constant S_ .f32 0x3F800000#32)⟩]
    concatenates_S1048576_S1024_S1049600_d0

/-- A word spread over the edge index. -/
def splatE (w : BitVec 32) : IVec S1049600 32 := broadcastInDim S1049600 ![] bcast_S_S1049600 (constantI S_ 32 w)

/-- jnp's index normalisation: a negative index counts from the end. -/
def st_wrap (v : IVec S1049600 32) : IVec S1049600 32 := select (cmpi .slt v (splatE 0#32)) (addi v (splatE 1024#32)) v

/-- An edge-indexed array as a one-column array. -/
def st_col {w : Nat} (v : IVec S1049600 w) : IVec S1049600x1 w := broadcastInDim S1049600x1 ![0] bcast_S1049600_S1049600x1_0 v

/-! ## Degrees and normalisers -/

/-- A float constant spread over the nodes. -/
def splatN (w : BitVec 32) : FVec F S1024 .f32 := broadcastInDim S1024 ![] bcast_S_S1024 (constant S_ .f32 w)

/-- The in-degrees: the weights summed by destination. -/
def st_deg (a2 : FVec F S1024x1024 .f32) : FVec F S1024 .f32 :=
  Host.scatterAdd scatter_S1024_S1049600x1_S1049600_n_0_0_1 (splatN 0x00000000#32) (st_col (st_wrap st_d)) (st_w a2)

/-- Their inverse square roots, 0 where the degree is not positive. -/
def st_dinv (a2 : FVec F S1024x1024 .f32) : FVec F S1024 .f32 :=
  select (cmpf .ogt (st_deg a2) (splatN 0x00000000#32))
    (Host.divf (splatN 0x3F800000#32) (Host.sqrt (st_deg a2)))
    (broadcastInDim S1024 ![] bcast_S_S1024 (id (constant S_ .f32 0x00000000#32)))

/-- The edge normalisers: dinv[src] · dinv[dst] · weight. -/
def st_norm (a2 : FVec F S1024x1024 .f32) : FVec F S1049600 .f32 :=
  mulf (mulf (Host.gather gather_S1024_S1049600x1_S1049600_n_0_n_n_0_1_1 (st_dinv a2) (st_col (st_wrap st_s)))
      (Host.gather gather_S1024_S1049600x1_S1049600_n_0_n_n_0_1_1 (st_dinv a2) (st_col (st_wrap st_d))))
    (st_w a2)

/-! ## Messages and their sum -/

/-- jnp.take along axis 0: the rows of xw at the (normalised) indices; a row whose index is out of range is filled
    with the not-a-number pattern. -/
def st_take (xw : FVec F S1024x64 .f32) (ix : IVec S1049600 32) : FVec F S1049600x64 .f32 :=
  select
    (broadcastInDim S1049600x64 ![0] bcast_S1049600_S1049600x64_0
      (Host.reduce IntOp.andi
        (andi (cmpi .sge (st_col (st_wrap ix)) (broadcastInDim S1049600x1 ![] bcast_S_S1049600x1 (constantI S_ 32 0#32)))
          (cmpi .sle (st_col (st_wrap ix))
            (broadcastInDim S1049600x1 ![0, 1] bcast_S1x1_S1049600x1_0_1 (broadcastInDim S1x1 ![1] bcast_S1_S1x1_1 (constantI S1 32 1023#32)))))
        (constantI S_ 1 1#1) reducesTo_S1049600x1_S1049600_d1 h_S_))
    (Host.gather gather_S1024x64_S1049600x1_S1049600x64_1_0_n_n_0_1_164 xw (st_col (st_wrap ix)))
    (broadcastInDim S1049600x64 ![] bcast_S_S1049600x64 (constant S_ .f32 0x7FC00000#32))

/-- One graph convolution of node features X: the messages (X · W)[src] · norm summed by destination, plus the bias. -/
def st_conv (a2 : FVec F S1024x1024 .f32) (X : FVec F S1024x64 .f32) (W : FVec F S64x64 .f32) (b : FVec F S64 .f32) :
    FVec F S1024x64 .f32 :=
  addf
    (Host.scatterAdd scatter_S1024x64_S1049600x1_S1049600x64_1_0_0_1 (splat64 0x00000000#32) (st_col st_d)
      (mulf (st_take (Host.dotGeneral dot_S1024x64_S64x64_S1024x64_1_0_0_1_n_n none X W) st_s)
        (broadcastInDim S1049600x64 ![0, 1] bcast_S1049600x1_S1049600x64_0_1
          (broadcastInDim S1049600x1 ![0] bcast_S1049600_S1049600x1_0 (st_norm a2)))))
    (broadcastInDim S1024x64 ![0, 1] bcast_S1x64_S1024x64_0_1 (broadcastInDim S1x64 ![1] bcast_S64_S1x64_1 b))

/-- The head over node features X: two convolutions (the first rectified) and the output layer. -/
def st_qOf (a2 : FVec F S1024x1024 .f32) (X : FVec F S1024x64 .f32) (a9 : FVec F S64x64 .f32) (a10 : FVec F S64 .f32)
    (a11 : FVec F S64x64 .f32) (a12 : FVec F S64 .f32) (a13 : FVec F S64x16 .f32) (a14 : FVec F S16 .f32) : FVec F S1024x16 .f32 :=
  addf (Host.dotGeneral dot_S1024x64_S64x16_S1024x16_1_0_0_1_n_n none (st_conv a2 (relu (st_conv a2 X a9 a10)) a11 a12) a13)
    (broadcastInDim S1024x16 ![0, 1] bcast_S1x16_S1024x16_0_1 (broadcastInDim S1x16 ![1] bcast_S16_S1x16_1 a14))

end Cert.ReferenceIdeal.Hand

end
-- ==== Proof.RefVals.lean ====
/-
  The reference program's run read back stage by stage.

  The program's operations are folded over the launch contents in eleven consecutive stretches. After each stretch
  every buffer that a later stretch still reads is named as the stage of the computation it holds: the new hidden
  state, the pairs' sources and destinations, the edge list with its self-loops, the weights, the inverse square
  roots of the degrees, the edge normalisers' first factor, each convolution, the output product. Every buffer a
  stretch does not write keeps its contents, so the fifteen argument arrays are at their launch contents throughout.
  The run then ends with the first result at the head applied to the new hidden state, the second result at the new
  hidden state, and the arguments unchanged.
-/
import proofs.«138646_g48533130445277_cont_sun_m_870_17_alg».proof.Proof.RefOpsPlain
import proofs.«138646_g48533130445277_cont_sun_m_870_17_alg».proof.Proof.RefStages

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Folding two lists of operations one after the other is folding their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The argument arrays and the recurring stages, read off a valuation -/

/-- Argument 0 in a valuation. -/
abbrev in0 (V0 : Valuation τ sig (Elt F)) := V0 (Proc.devRef .tc main_arg0)
/-- Argument 1 in a valuation. -/
abbrev in1 (V0 : Valuation τ sig (Elt F)) := V0 (Proc.devRef .tc main_arg1)
/-- Argument 2 in a valuation. -/
abbrev in2 (V0 : Valuation τ sig (Elt F)) := V0 (Proc.devRef .tc main_arg2)
/-- Argument 3 in a valuation. -/
abbrev in3 (V0 : Valuation τ sig (Elt F)) := V0 (Proc.devRef .tc main_arg3)
/-- Argument 4 in a valuation. -/
abbrev in4 (V0 : Valuation τ sig (Elt F)) := V0 (Proc.devRef .tc main_arg4)
/-- Argument 5 in a valuation. -/
abbrev in5 (V0 : Valuation τ sig (Elt F)) := V0 (Proc.devRef .tc main_arg5)
/-- Argument 6 in a valuation. -/
abbrev in6 (V0 : Valuation τ sig (Elt F)) := V0 (Proc.devRef .tc main_arg6)
/-- Argument 7 in a valuation. -/
abbrev in7 (V0 : Valuation τ sig (Elt F)) := V0 (Proc.devRef .tc main_arg7)
/-- Argument 8 in a valuation. -/
abbrev in8 (V0 : Valuation τ sig (Elt F)) := V0 (Proc.devRef .tc main_arg8)
/-- Argument 9 in a valuation. -/
abbrev in9 (V0 : Valuation τ sig (Elt F)) := V0 (Proc.devRef .tc main_arg9)
/-- Argument 10 in a valuation. -/
abbrev in10 (V0 : Valuation τ sig (Elt F)) := V0 (Proc.devRef .tc main_arg10)
/-- Argument 11 in a valuation. -/
abbrev in11 (V0 : Valuation τ sig (Elt F)) := V0 (Proc.devRef .tc main_arg11)
/-- Argument 12 in a valuation. -/
abbrev in12 (V0 : Valuation τ sig (Elt F)) := V0 (Proc.devRef .tc main_arg12)
/-- Argument 13 in a valuation. -/
abbrev in13 (V0 : Valuation τ sig (Elt F)) := V0 (Proc.devRef .tc main_arg13)
/-- Argument 14 in a valuation. -/
abbrev in14 (V0 : Valuation τ sig (Elt F)) := V0 (Proc.devRef .tc main_arg14)

/-- The new hidden state of the launch contents. -/
abbrev h2Of (V0 : Valuation τ sig (Elt F)) : FVec F S1024x64 .f32 :=
  st_h2 (in0 V0) (in1 V0) (in3 V0) (in4 V0) (in5 V0) (in6 V0) (in7 V0) (in8 V0)

/-- The first convolution of the new hidden state, rectified. -/
abbrev c1Of (V0 : Valuation τ sig (Elt F)) : FVec F S1024x64 .f32 := relu (st_conv (in2 V0) (h2Of V0) (in9 V0) (in10 V0))

/-- The pairs' weights as the selection the program makes, before its identity conversion. -/
abbrev ewSel (a2 : FVec F S1024x1024 .f32) : FVec F S1048576 .f32 :=
  select (cmpf .une (shapeCast S1048576 a2 shapeCasts_S1024x1024_S1048576)
      (broadcastInDim S1048576 ![] bcast_S_S1048576 (constant S_ .f32 0x00000000#32)))
    (broadcastInDim S1048576 ![] bcast_S_S1048576 (constant S_ .f32 0x3F800000#32))
    (broadcastInDim S1048576 ![] bcast_S_S1048576 (constant S_ .f32 0x00000000#32))

/-- The normalisers' first factor: the inverse square roots of the degrees at the edges' sources. -/
abbrev dinvSrc (a2 : FVec F S1024x1024 .f32) : FVec F S1049600 .f32 :=
  Host.gather gather_S1024_S1049600x1_S1049600_n_0_n_n_0_1_1 (st_dinv a2) (st_col (st_wrap st_s))

/-- The node products of the two convolutions. -/
abbrev xw1Of (V0 : Valuation τ sig (Elt F)) : FVec F S1024x64 .f32 :=
  Host.dotGeneral dot_S1024x64_S64x64_S1024x64_1_0_0_1_n_n none (h2Of V0) (in9 V0)
abbrev xw2Of (V0 : Valuation τ sig (Elt F)) : FVec F S1024x64 .f32 :=
  Host.dotGeneral dot_S1024x64_S64x64_S1024x64_1_0_0_1_n_n none (c1Of V0) (in11 V0)

/-- Two arrays over the pairs and over the nodes as one array over the edges (integer words). -/
def catI : (⟨S1048576, .i32⟩ : BufTy).Contents (Elt F) → (⟨S1024, .i32⟩ : BufTy).Contents (Elt F) → (⟨S1049600, .i32⟩ : BufTy).Contents (Elt F) :=
  fun a b => concatenate S1049600 0 [⟨S1048576, a⟩, ⟨S1024, b⟩] concatenates_S1048576_S1024_S1049600_d0
/-- Two arrays over the pairs and over the nodes as one array over the edges (floats). -/
def catF : (⟨S1048576, .f32⟩ : BufTy).Contents (Elt F) → (⟨S1024, .f32⟩ : BufTy).Contents (Elt F) → (⟨S1049600, .f32⟩ : BufTy).Contents (Elt F) :=
  fun a b => concatenate S1049600 0 [⟨S1048576, a⟩, ⟨S1024, b⟩] concatenates_S1048576_S1024_S1049600_d0
/-- The program's concatenation of two integer arrays is `catI`. -/
theorem cat_fold_i : ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) = catI (F := F) := rfl
/-- The program's concatenation of two float arrays is `catF`. -/
theorem cat_fold_f : ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)) = catF (F := F) := rfl
/-- The edges' sources, destinations and weights as such concatenations. -/
theorem st_s_cat : st_s = catI (F := F) st_src st_loop := rfl
theorem st_d_cat : st_d = catI (F := F) st_dst st_loop := rfl
theorem st_w_cat (a2 : FVec F S1024x1024 .f32) :
    st_w a2 = catF (st_ew a2) (broadcastInDim S1024 ![] bcast_S_S1024 (constant S_ .f32 0x3F800000#32)) := rfl

/-! ## Stretch 1: the encoder and the recurrent cell -/

/-- The device's buffer contents after the first stretch. -/
def val1 (V0 : Valuation τ sig (Elt F)) : Valuation τ sig (Elt F) := after ops_p0a V0
/-- The buffers that stretch 1 writes. -/
abbrev W1 : List (Ref sig .tc) := [main_v0, main_v1, main_v2, main_v3, main_call0_cst, main_call0_v0, main_v4, main_v5, main_v6, main_v7, main_v8, main_v9, main_v10, main_v11, main_v12, main_v13, main_v14, main_v15, main_v16, main_v17, main_v18, main_v19, main_v20, main_v21, main_v22, main_v23, main_cst, main_v24, main_v25, main_cst_0, main_v26, main_v27, main_v28, main_v29, main_v30, main_cst_1, main_v31, main_v32, main_cst_2, main_v33, main_v34, main_v35, main_v36, main_v37, main_cst_3, main_v38, main_v39, main_v40, main_v41, main_v42]
set_option maxRecDepth 8192 in
set_option maxHeartbeats 2000000 in
theorem ops_p0a_writes : (ops_p0a : List (HloOp τ sig (Elt F))).Forall fun op => op.writes ⊆ (W1.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer that stretch 1 does not write keeps its contents through it. -/
theorem val1_keep (V0 : Valuation τ sig (Elt F)) (r : Ref sig .tc) (h : r ∉ W1) :
    val1 V0 (Proc.devRef .tc r) = V0 (Proc.devRef .tc r) :=
  after_of_writes_sub ops_p0a _ ops_p0a_writes h
/-- A buffer that the first stretch does not write is still at its launch contents. -/
theorem val1_arg (V0 : Valuation τ sig (Elt F)) (r : Ref sig .tc) (h1 : r ∉ W1) :
    val1 V0 (Proc.devRef .tc r) = V0 (Proc.devRef .tc r) :=
  val1_keep V0 r h1
set_option maxRecDepth 8192 in
set_option maxHeartbeats 2000000 in
theorem val1_main_v42 (V0 : Valuation τ sig (Elt F)) : val1 V0 (no_index (Proc.devRef .tc main_v42)) = h2Of V0 := by
  unfold val1
  simp only [ops_p0a]
  after_results_simp
  try simp only [TRef.ofBuf, TRef.toBuf, cast_eq]
  simp only [h2Of, in0, in1, in3, in4, in5, in6, in7, in8, st_h2, st_gru, st_gates, st_h1, st_sig, relu, splat64, sl0, sl1, sl2] <;> rfl

/-! ## Stretch 2: the pair indices and the pairs' weights -/

/-- The device's buffer contents after the first 2 stretches. -/
def val2 (V0 : Valuation τ sig (Elt F)) : Valuation τ sig (Elt F) := after ops_p0b (val1 V0)
/-- The buffers that stretch 2 writes. -/
abbrev W2 : List (Ref sig .tc) := [main_v43, main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v44, main_c_4, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v45, main_v46, main_cst_5, main_v47, main_v48, main_cst_6, main_cst_7, main_call3_v0, main_call3_v1, main_v49]
set_option maxRecDepth 8192 in
set_option maxHeartbeats 2000000 in
theorem ops_p0b_writes : (ops_p0b : List (HloOp τ sig (Elt F))).Forall fun op => op.writes ⊆ (W2.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer that stretch 2 does not write keeps its contents through it. -/
theorem val2_keep (V0 : Valuation τ sig (Elt F)) (r : Ref sig .tc) (h : r ∉ W2) :
    val2 V0 (Proc.devRef .tc r) = val1 V0 (Proc.devRef .tc r) :=
  after_of_writes_sub ops_p0b _ ops_p0b_writes h
/-- A buffer that none of the first 2 stretches writes is still at its launch contents. -/
theorem val2_arg (V0 : Valuation τ sig (Elt F)) (r : Ref sig .tc) (h1 : r ∉ W1) (h2 : r ∉ W2) :
    val2 V0 (Proc.devRef .tc r) = V0 (Proc.devRef .tc r) :=
  (val2_keep V0 r h2).trans (val1_arg V0 r h1)
theorem val2_main_v42 (V0 : Valuation τ sig (Elt F)) : val2 V0 (no_index (Proc.devRef .tc main_v42)) = h2Of V0 :=
  (val2_keep V0 main_v42 (by decide)).trans (val1_main_v42 V0)
set_option maxRecDepth 8192 in
set_option maxHeartbeats 2000000 in
theorem val2_main_v44 (V0 : Valuation τ sig (Elt F)) : val2 V0 (no_index (Proc.devRef .tc main_v44)) = st_src := by
  unfold val2
  simp only [ops_p0b]
  after_results_simp
  try simp only [TRef.ofBuf, TRef.toBuf, cast_eq]
  simp only [st_src, st_iota, splatP] <;> rfl
set_option maxRecDepth 8192 in
set_option maxHeartbeats 2000000 in
theorem val2_main_v45 (V0 : Valuation τ sig (Elt F)) : val2 V0 (no_index (Proc.devRef .tc main_v45)) = st_dst := by
  unfold val2
  simp only [ops_p0b]
  after_results_simp
  try simp only [TRef.ofBuf, TRef.toBuf, cast_eq]
  simp only [st_dst, st_mod, st_iota, splatP] <;> rfl
set_option maxRecDepth 8192 in
set_option maxHeartbeats 2000000 in
theorem val2_main_v49 (V0 : Valuation τ sig (Elt F)) : val2 V0 (no_index (Proc.devRef .tc main_v49)) = ewSel (in2 V0) := by
  unfold val2
  simp only [ops_p0b]
  after_results_simp
  try simp only [TRef.ofBuf, TRef.toBuf, cast_eq]
  simp only [val1_arg V0 main_arg2 (by decide), ewSel, in2] <;> rfl

/-! ## Stretch 3: the edge list, the degrees and the first factor of the first convolution's normalisers -/

/-- The device's buffer contents after the first 3 stretches. -/
def val3 (V0 : Valuation τ sig (Elt F)) : Valuation τ sig (Elt F) := after ops_p1a (val2 V0)
/-- The buffers that stretch 3 writes. -/
abbrev W3 : List (Ref sig .tc) := [main_v50, main_v51, main_v52, main_v53, main_cst_8, main_v54, main_v55, main_cst_9, main_v56, main_c_10, main_v57, main_v58, main_c_11, main_v59, main_v60, main_v61, main_v62, main_v63, main_cst_12, main_v64, main_v65, main_v66, main_cst_13, main_v67, main_v68, main_cst_14, main_call4_v0, main_call4_v1, main_v69, main_c_15, main_v70, main_v71, main_c_16, main_v72, main_v73, main_v74, main_v75, main_v76, main_c_17, main_v77, main_v78, main_c_18, main_v79]
set_option maxRecDepth 8192 in
set_option maxHeartbeats 2000000 in
theorem ops_p1a_writes : (ops_p1a : List (HloOp τ sig (Elt F))).Forall fun op => op.writes ⊆ (W3.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer that stretch 3 does not write keeps its contents through it. -/
theorem val3_keep (V0 : Valuation τ sig (Elt F)) (r : Ref sig .tc) (h : r ∉ W3) :
    val3 V0 (Proc.devRef .tc r) = val2 V0 (Proc.devRef .tc r) :=
  after_of_writes_sub ops_p1a _ ops_p1a_writes h
/-- A buffer that none of the first 3 stretches writes is still at its launch contents. -/
theorem val3_arg (V0 : Valuation τ sig (Elt F)) (r : Ref sig .tc) (h1 : r ∉ W1) (h2 : r ∉ W2) (h3 : r ∉ W3) :
    val3 V0 (Proc.devRef .tc r) = V0 (Proc.devRef .tc r) :=
  (val3_keep V0 r h3).trans (val2_arg V0 r h1 h2)
theorem val3_main_v42 (V0 : Valuation τ sig (Elt F)) : val3 V0 (no_index (Proc.devRef .tc main_v42)) = h2Of V0 :=
  (val3_keep V0 main_v42 (by decide)).trans (val2_main_v42 V0)
theorem val3_main_v44 (V0 : Valuation τ sig (Elt F)) : val3 V0 (no_index (Proc.devRef .tc main_v44)) = st_src :=
  (val3_keep V0 main_v44 (by decide)).trans (val2_main_v44 V0)
theorem val3_main_v45 (V0 : Valuation τ sig (Elt F)) : val3 V0 (no_index (Proc.devRef .tc main_v45)) = st_dst :=
  (val3_keep V0 main_v45 (by decide)).trans (val2_main_v45 V0)
set_option maxRecDepth 8192 in
set_option maxHeartbeats 2000000 in
theorem val3_main_v50 (V0 : Valuation τ sig (Elt F)) : val3 V0 (no_index (Proc.devRef .tc main_v50)) = st_ew (in2 V0) := by
  unfold val3
  simp only [ops_p1a, cat_fold_i, cat_fold_f]
  after_results_simp
  try simp only [TRef.ofBuf, TRef.toBuf, cast_eq]
  simp only [val2_main_v49, st_ew, ewSel, in2] <;> rfl
set_option maxRecDepth 8192 in
set_option maxHeartbeats 2000000 in
theorem val3_main_v52 (V0 : Valuation τ sig (Elt F)) : val3 V0 (no_index (Proc.devRef .tc main_v52)) = st_s := by
  unfold val3
  simp only [ops_p1a, cat_fold_i, cat_fold_f]
  after_results_simp
  try simp only [TRef.ofBuf, TRef.toBuf, cast_eq]
  simp only [val2_main_v44, st_s_cat, st_loop] <;> rfl
set_option maxRecDepth 8192 in
set_option maxHeartbeats 2000000 in
theorem val3_main_v53 (V0 : Valuation τ sig (Elt F)) : val3 V0 (no_index (Proc.devRef .tc main_v53)) = st_d := by
  unfold val3
  simp only [ops_p1a, cat_fold_i, cat_fold_f]
  after_results_simp
  try simp only [TRef.ofBuf, TRef.toBuf, cast_eq]
  simp only [val2_main_v45, st_d_cat, st_loop] <;> rfl
set_option maxRecDepth 8192 in
set_option maxHeartbeats 2000000 in
theorem val3_main_v55 (V0 : Valuation τ sig (Elt F)) : val3 V0 (no_index (Proc.devRef .tc main_v55)) = st_w (in2 V0) := by
  unfold val3
  simp only [ops_p1a, cat_fold_i, cat_fold_f]
  after_results_simp
  try simp only [TRef.ofBuf, TRef.toBuf, cast_eq]
  simp only [val2_main_v49, st_w_cat, st_ew, ewSel, in2] <;> rfl
set_option maxRecDepth 8192 in
set_option maxHeartbeats 2000000 in
theorem val3_main_v69 (V0 : Valuation τ sig (Elt F)) : val3 V0 (no_index (Proc.devRef .tc main_v69)) = st_dinv (in2 V0) := by
  unfold val3
  simp only [ops_p1a, cat_fold_i, cat_fold_f]
  after_results_simp
  try simp only [TRef.ofBuf, TRef.toBuf, cast_eq]
  simp only [val2_main_v49, val2_main_v45, st_dinv, st_deg, splatN, st_col, st_wrap, splatE, st_w_cat, st_ew, ewSel, in2, st_d_cat, st_loop] <;> rfl
set_option maxRecDepth 8192 in
set_option maxHeartbeats 2000000 in
theorem val3_main_v76 (V0 : Valuation τ sig (Elt F)) : val3 V0 (no_index (Proc.devRef .tc main_v76)) = dinvSrc (in2 V0) := by
  unfold val3
  simp only [ops_p1a, cat_fold_i, cat_fold_f]
  after_results_simp
  try simp only [TRef.ofBuf, TRef.toBuf, cast_eq]
  simp only [val2_main_v49, val2_main_v44, val2_main_v45, dinvSrc, st_dinv, st_deg, splatN, st_col, st_wrap, splatE, st_w_cat, st_ew, ewSel, in2, st_d_cat, st_s_cat, st_loop] <;> rfl
set_option maxRecDepth 8192 in
set_option maxHeartbeats 2000000 in
theorem val3_main_v78 (V0 : Valuation τ sig (Elt F)) : val3 V0 (no_index (Proc.devRef .tc main_v78)) = cmpi .slt st_d (splatE 0#32) := by
  unfold val3
  simp only [ops_p1a, cat_fold_i, cat_fold_f]
  after_results_simp
  try simp only [TRef.ofBuf, TRef.toBuf, cast_eq]
  simp only [val2_main_v45, st_d_cat, st_loop, splatE] <;> rfl
set_option maxRecDepth 8192 in
set_option maxHeartbeats 2000000 in
theorem val3_main_v79 (V0 : Valuation τ sig (Elt F)) : val3 V0 (no_index (Proc.devRef .tc main_v79)) = splatE 1024#32 := by
  unfold val3
  simp only [ops_p1a, cat_fold_i, cat_fold_f]
  after_results_simp
  try simp only [TRef.ofBuf, TRef.toBuf, cast_eq]
  simp only [splatE] <;> rfl

/- From here on the large array operations are compared argument by argument, never opened. -/
attribute [local irreducible] Host.reduce Host.gather Host.scatterAdd

/-- The first convolution's operations, spelt over the plain buffers, in three runs: to the node product, the gathered rows, the rest. -/
def p1b_A : List (HloOp τ sig (Elt F)) := ops_p1b_plain.take 7
def p1b_B : List (HloOp τ sig (Elt F)) := (ops_p1b_plain.drop 7).take 23
def p1b_C : List (HloOp τ sig (Elt F)) := (ops_p1b_plain.drop 7).drop 23
theorem p1b_split : (ops_p1b : List (HloOp τ sig (Elt F))) = p1b_A ++ (p1b_B ++ p1b_C) := by
  rw [ops_p1b_eq_plain]
  unfold p1b_A p1b_B p1b_C
  rw [List.take_append_drop, List.take_append_drop]

/-! ## Stretch 4: the first convolution's normalisers and node product -/

/-- The device's buffer contents after the first 4 stretches. -/
def val4 (V0 : Valuation τ sig (Elt F)) : Valuation τ sig (Elt F) := after p1b_A (val3 V0)
/-- The buffers that stretch 4 writes. -/
abbrev W4 : List (Ref sig .tc) := [main_v80, main_v81, main_v82, main_v83, main_v84, main_v85, main_v86]
set_option maxRecDepth 8192 in
set_option maxHeartbeats 2000000 in
theorem p1b_A_writes : (p1b_A : List (HloOp τ sig (Elt F))).Forall fun op => op.writes ⊆ (W4.map (Proc.devRef (τ := τ) .tc)).toFinset := by
  simp only [p1b_A, ops_p1b_plain, List.take_succ_cons, List.take_zero, List.drop_succ_cons, List.drop_zero]
  simp only [List.Forall]
  repeat' apply And.intro
  all_goals (simp only [nullary_writes, unary_writes, binary_writes, ternary_writes, reshape_writes, Finset.singleton_subset_iff, List.mem_toFinset]; exact List.mem_map_of_mem (by decide))
/-- A buffer that stretch 4 does not write keeps its contents through it. -/
theorem val4_keep (V0 : Valuation τ sig (Elt F)) (r : Ref sig .tc) (h : r ∉ W4) :
    val4 V0 (Proc.devRef .tc r) = val3 V0 (Proc.devRef .tc r) :=
  after_of_writes_sub p1b_A _ p1b_A_writes h
/-- A buffer that none of the first 4 stretches writes is still at its launch contents. -/
theorem val4_arg (V0 : Valuation τ sig (Elt F)) (r : Ref sig .tc) (h1 : r ∉ W1) (h2 : r ∉ W2) (h3 : r ∉ W3) (h4 : r ∉ W4) :
    val4 V0 (Proc.devRef .tc r) = V0 (Proc.devRef .tc r) :=
  (val4_keep V0 r h4).trans (val3_arg V0 r h1 h2 h3)
theorem val4_main_v52 (V0 : Valuation τ sig (Elt F)) : val4 V0 (no_index (Proc.devRef .tc main_v52)) = st_s :=
  (val4_keep V0 main_v52 (by decide)).trans (val3_main_v52 V0)
theorem val4_main_v53 (V0 : Valuation τ sig (Elt F)) : val4 V0 (no_index (Proc.devRef .tc main_v53)) = st_d :=
  (val4_keep V0 main_v53 (by decide)).trans (val3_main_v53 V0)
theorem val4_main_v42 (V0 : Valuation τ sig (Elt F)) : val4 V0 (no_index (Proc.devRef .tc main_v42)) = h2Of V0 :=
  (val4_keep V0 main_v42 (by decide)).trans (val3_main_v42 V0)
theorem val4_main_v44 (V0 : Valuation τ sig (Elt F)) : val4 V0 (no_index (Proc.devRef .tc main_v44)) = st_src :=
  (val4_keep V0 main_v44 (by decide)).trans (val3_main_v44 V0)
theorem val4_main_v45 (V0 : Valuation τ sig (Elt F)) : val4 V0 (no_index (Proc.devRef .tc main_v45)) = st_dst :=
  (val4_keep V0 main_v45 (by decide)).trans (val3_main_v45 V0)
theorem val4_main_v50 (V0 : Valuation τ sig (Elt F)) : val4 V0 (no_index (Proc.devRef .tc main_v50)) = st_ew (in2 V0) :=
  (val4_keep V0 main_v50 (by decide)).trans (val3_main_v50 V0)
set_option maxRecDepth 8192 in
set_option maxHeartbeats 2000000 in
theorem val4_main_v85 (V0 : Valuation τ sig (Elt F)) : val4 V0 (no_index (Proc.devRef .tc main_v85)) = st_norm (in2 V0) := by
  unfold val4
  simp only [p1b_A, ops_p1b_plain, List.take_succ_cons, List.take_zero, List.drop_succ_cons, List.drop_zero]
  after_results_simp
  try simp only [TRef.ofBuf, TRef.toBuf, cast_eq]
  simp only [val3_main_v53, val3_main_v79, val3_main_v78, val3_main_v69, val3_main_v76, val3_main_v55, st_norm, st_col, st_wrap, splatE, dinvSrc, in2] <;> with_reducible rfl
set_option maxRecDepth 8192 in
set_option maxHeartbeats 2000000 in
theorem val4_main_v86 (V0 : Valuation τ sig (Elt F)) : val4 V0 (no_index (Proc.devRef .tc main_v86)) = xw1Of V0 := by
  unfold val4
  simp only [p1b_A, ops_p1b_plain, List.take_succ_cons, List.take_zero, List.drop_succ_cons, List.drop_zero]
  after_results_simp
  try simp only [TRef.ofBuf, TRef.toBuf, cast_eq]
  simp only [val3_main_v42, val3_arg V0 main_arg9 (by decide) (by decide) (by decide), xw1Of, in9] <;> with_reducible rfl

/-! ## Stretch 5: the first convolution's gathered rows -/

/-- The device's buffer contents after the first 5 stretches. -/
def val5 (V0 : Valuation τ sig (Elt F)) : Valuation τ sig (Elt F) := after p1b_B (val4 V0)
/-- The buffers that stretch 5 writes. -/
abbrev W5 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v87]
set_option maxRecDepth 8192 in
set_option maxHeartbeats 2000000 in
theorem p1b_B_writes : (p1b_B : List (HloOp τ sig (Elt F))).Forall fun op => op.writes ⊆ (W5.map (Proc.devRef (τ := τ) .tc)).toFinset := by
  simp only [p1b_B, ops_p1b_plain, List.take_succ_cons, List.take_zero, List.drop_succ_cons, List.drop_zero]
  simp only [List.Forall]
  repeat' apply And.intro
  all_goals (simp only [nullary_writes, unary_writes, binary_writes, ternary_writes, reshape_writes, Finset.singleton_subset_iff, List.mem_toFinset]; exact List.mem_map_of_mem (by decide))
/-- A buffer that stretch 5 does not write keeps its contents through it. -/
theorem val5_keep (V0 : Valuation τ sig (Elt F)) (r : Ref sig .tc) (h : r ∉ W5) :
    val5 V0 (Proc.devRef .tc r) = val4 V0 (Proc.devRef .tc r) :=
  after_of_writes_sub p1b_B _ p1b_B_writes h
/-- A buffer that none of the first 5 stretches writes is still at its launch contents. -/
theorem val5_arg (V0 : Valuation τ sig (Elt F)) (r : Ref sig .tc) (h1 : r ∉ W1) (h2 : r ∉ W2) (h3 : r ∉ W3) (h4 : r ∉ W4) (h5 : r ∉ W5) :
    val5 V0 (Proc.devRef .tc r) = V0 (Proc.devRef .tc r) :=
  (val5_keep V0 r h5).trans (val4_arg V0 r h1 h2 h3 h4)
theorem val5_main_v85 (V0 : Valuation τ sig (Elt F)) : val5 V0 (no_index (Proc.devRef .tc main_v85)) = st_norm (in2 V0) :=
  (val5_keep V0 main_v85 (by decide)).trans (val4_main_v85 V0)
theorem val5_main_v53 (V0 : Valuation τ sig (Elt F)) : val5 V0 (no_index (Proc.devRef .tc main_v53)) = st_d :=
  (val5_keep V0 main_v53 (by decide)).trans (val4_main_v53 V0)
theorem val5_main_v42 (V0 : Valuation τ sig (Elt F)) : val5 V0 (no_index (Proc.devRef .tc main_v42)) = h2Of V0 :=
  (val5_keep V0 main_v42 (by decide)).trans (val4_main_v42 V0)
theorem val5_main_v44 (V0 : Valuation τ sig (Elt F)) : val5 V0 (no_index (Proc.devRef .tc main_v44)) = st_src :=
  (val5_keep V0 main_v44 (by decide)).trans (val4_main_v44 V0)
theorem val5_main_v45 (V0 : Valuation τ sig (Elt F)) : val5 V0 (no_index (Proc.devRef .tc main_v45)) = st_dst :=
  (val5_keep V0 main_v45 (by decide)).trans (val4_main_v45 V0)
theorem val5_main_v50 (V0 : Valuation τ sig (Elt F)) : val5 V0 (no_index (Proc.devRef .tc main_v50)) = st_ew (in2 V0) :=
  (val5_keep V0 main_v50 (by decide)).trans (val4_main_v50 V0)
set_option maxRecDepth 8192 in
set_option maxHeartbeats 2000000 in
theorem val5_main_v87 (V0 : Valuation τ sig (Elt F)) : val5 V0 (no_index (Proc.devRef .tc main_v87)) = st_take (xw1Of V0) st_s := by
  unfold val5
  simp only [p1b_B, ops_p1b_plain, List.take_succ_cons, List.take_zero, List.drop_succ_cons, List.drop_zero]
  after_results_simp
  try simp only [TRef.ofBuf, TRef.toBuf, cast_eq]
  simp only [val4_main_v52, val4_main_v86, st_take, st_col, st_wrap, splatE, xw1Of, in9] <;> with_reducible rfl

/-! ## Stretch 6: the first convolution's segment sum, bias and rectifier -/

/-- The device's buffer contents after the first 6 stretches. -/
def val6 (V0 : Valuation τ sig (Elt F)) : Valuation τ sig (Elt F) := after p1b_C (val5 V0)
/-- The buffers that stretch 6 writes. -/
abbrev W6 : List (Ref sig .tc) := [main_v88, main_v89, main_v90, main_cst_19, main_v91, main_v92, main_v93, main_v94, main_v95, main_v96, main_call6_cst, main_call6_v0, main_v97]
set_option maxRecDepth 8192 in
set_option maxHeartbeats 2000000 in
theorem p1b_C_writes : (p1b_C : List (HloOp τ sig (Elt F))).Forall fun op => op.writes ⊆ (W6.map (Proc.devRef (τ := τ) .tc)).toFinset := by
  simp only [p1b_C, ops_p1b_plain, List.take_succ_cons, List.take_zero, List.drop_succ_cons, List.drop_zero]
  simp only [List.Forall]
  repeat' apply And.intro
  all_goals (simp only [nullary_writes, unary_writes, binary_writes, ternary_writes, reshape_writes, Finset.singleton_subset_iff, List.mem_toFinset]; exact List.mem_map_of_mem (by decide))
/-- A buffer that stretch 6 does not write keeps its contents through it. -/
theorem val6_keep (V0 : Valuation τ sig (Elt F)) (r : Ref sig .tc) (h : r ∉ W6) :
    val6 V0 (Proc.devRef .tc r) = val5 V0 (Proc.devRef .tc r) :=
  after_of_writes_sub p1b_C _ p1b_C_writes h
/-- A buffer that none of the first 6 stretches writes is still at its launch contents. -/
theorem val6_arg (V0 : Valuation τ sig (Elt F)) (r : Ref sig .tc) (h1 : r ∉ W1) (h2 : r ∉ W2) (h3 : r ∉ W3) (h4 : r ∉ W4) (h5 : r ∉ W5) (h6 : r ∉ W6) :
    val6 V0 (Proc.devRef .tc r) = V0 (Proc.devRef .tc r) :=
  (val6_keep V0 r h6).trans (val5_arg V0 r h1 h2 h3 h4 h5)
theorem val6_main_v42 (V0 : Valuation τ sig (Elt F)) : val6 V0 (no_index (Proc.devRef .tc main_v42)) = h2Of V0 :=
  (val6_keep V0 main_v42 (by decide)).trans (val5_main_v42 V0)
theorem val6_main_v44 (V0 : Valuation τ sig (Elt F)) : val6 V0 (no_index (Proc.devRef .tc main_v44)) = st_src :=
  (val6_keep V0 main_v44 (by decide)).trans (val5_main_v44 V0)
theorem val6_main_v45 (V0 : Valuation τ sig (Elt F)) : val6 V0 (no_index (Proc.devRef .tc main_v45)) = st_dst :=
  (val6_keep V0 main_v45 (by decide)).trans (val5_main_v45 V0)
theorem val6_main_v50 (V0 : Valuation τ sig (Elt F)) : val6 V0 (no_index (Proc.devRef .tc main_v50)) = st_ew (in2 V0) :=
  (val6_keep V0 main_v50 (by decide)).trans (val5_main_v50 V0)
set_option maxRecDepth 8192 in
set_option maxHeartbeats 2000000 in
theorem val6_main_v97 (V0 : Valuation τ sig (Elt F)) : val6 V0 (no_index (Proc.devRef .tc main_v97)) = c1Of V0 := by
  unfold val6
  simp only [p1b_C, ops_p1b_plain, List.take_succ_cons, List.take_zero, List.drop_succ_cons, List.drop_zero]
  after_results_simp
  try simp only [TRef.ofBuf, TRef.toBuf, cast_eq]
  simp only [val5_main_v85, val5_main_v87, val5_main_v53, val5_arg V0 main_arg10 (by decide) (by decide) (by decide) (by decide) (by decide), c1Of, relu, st_conv, st_col, splat64, xw1Of, in2, in9, in10] <;> with_reducible rfl

/-! ## Stretch 7: the edge list, the degrees and the first factor of the second convolution's normalisers -/

/-- The device's buffer contents after the first 7 stretches. -/
def val7 (V0 : Valuation τ sig (Elt F)) : Valuation τ sig (Elt F) := after ops_p2a (val6 V0)
/-- The buffers that stretch 7 writes. -/
abbrev W7 : List (Ref sig .tc) := [main_v98, main_v99, main_v100, main_cst_20, main_v101, main_v102, main_cst_21, main_v103, main_c_22, main_v104, main_v105, main_c_23, main_v106, main_v107, main_v108, main_v109, main_v110, main_cst_24, main_v111, main_v112, main_v113, main_cst_25, main_v114, main_v115, main_cst_26, main_call7_v0, main_call7_v1, main_v116, main_c_27, main_v117, main_v118, main_c_28, main_v119, main_v120, main_v121, main_v122, main_v123, main_c_29, main_v124, main_v125, main_c_30, main_v126]
set_option maxRecDepth 8192 in
set_option maxHeartbeats 2000000 in
theorem ops_p2a_writes : (ops_p2a : List (HloOp τ sig (Elt F))).Forall fun op => op.writes ⊆ (W7.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer that stretch 7 does not write keeps its contents through it. -/
theorem val7_keep (V0 : Valuation τ sig (Elt F)) (r : Ref sig .tc) (h : r ∉ W7) :
    val7 V0 (Proc.devRef .tc r) = val6 V0 (Proc.devRef .tc r) :=
  after_of_writes_sub ops_p2a _ ops_p2a_writes h
/-- A buffer that none of the first 7 stretches writes is still at its launch contents. -/
theorem val7_arg (V0 : Valuation τ sig (Elt F)) (r : Ref sig .tc) (h1 : r ∉ W1) (h2 : r ∉ W2) (h3 : r ∉ W3) (h4 : r ∉ W4) (h5 : r ∉ W5) (h6 : r ∉ W6) (h7 : r ∉ W7) :
    val7 V0 (Proc.devRef .tc r) = V0 (Proc.devRef .tc r) :=
  (val7_keep V0 r h7).trans (val6_arg V0 r h1 h2 h3 h4 h5 h6)
theorem val7_main_v42 (V0 : Valuation τ sig (Elt F)) : val7 V0 (no_index (Proc.devRef .tc main_v42)) = h2Of V0 :=
  (val7_keep V0 main_v42 (by decide)).trans (val6_main_v42 V0)
theorem val7_main_v97 (V0 : Valuation τ sig (Elt F)) : val7 V0 (no_index (Proc.devRef .tc main_v97)) = c1Of V0 :=
  (val7_keep V0 main_v97 (by decide)).trans (val6_main_v97 V0)
set_option maxRecDepth 8192 in
set_option maxHeartbeats 2000000 in
theorem val7_main_v99 (V0 : Valuation τ sig (Elt F)) : val7 V0 (no_index (Proc.devRef .tc main_v99)) = st_s := by
  unfold val7
  simp only [ops_p2a, cat_fold_i, cat_fold_f]
  after_results_simp
  try simp only [TRef.ofBuf, TRef.toBuf, cast_eq]
  simp only [val6_main_v44, st_s_cat, st_loop] <;> rfl
set_option maxRecDepth 8192 in
set_option maxHeartbeats 2000000 in
theorem val7_main_v100 (V0 : Valuation τ sig (Elt F)) : val7 V0 (no_index (Proc.devRef .tc main_v100)) = st_d := by
  unfold val7
  simp only [ops_p2a, cat_fold_i, cat_fold_f]
  after_results_simp
  try simp only [TRef.ofBuf, TRef.toBuf, cast_eq]
  simp only [val6_main_v45, st_d_cat, st_loop] <;> rfl
set_option maxRecDepth 8192 in
set_option maxHeartbeats 2000000 in
theorem val7_main_v102 (V0 : Valuation τ sig (Elt F)) : val7 V0 (no_index (Proc.devRef .tc main_v102)) = st_w (in2 V0) := by
  unfold val7
  simp only [ops_p2a, cat_fold_i, cat_fold_f]
  after_results_simp
  try simp only [TRef.ofBuf, TRef.toBuf, cast_eq]
  simp only [val6_main_v50, st_w_cat] <;> rfl
set_option maxRecDepth 8192 in
set_option maxHeartbeats 2000000 in
theorem val7_main_v116 (V0 : Valuation τ sig (Elt F)) : val7 V0 (no_index (Proc.devRef .tc main_v116)) = st_dinv (in2 V0) := by
  unfold val7
  simp only [ops_p2a, cat_fold_i, cat_fold_f]
  after_results_simp
  try simp only [TRef.ofBuf, TRef.toBuf, cast_eq]
  simp only [val6_main_v50, val6_main_v45, st_dinv, st_deg, splatN, st_col, st_wrap, splatE, st_w_cat, st_d_cat, st_loop] <;> rfl
set_option maxRecDepth 8192 in
set_option maxHeartbeats 2000000 in
theorem val7_main_v123 (V0 : Valuation τ sig (Elt F)) : val7 V0 (no_index (Proc.devRef .tc main_v123)) = dinvSrc (in2 V0) := by
  unfold val7
  simp only [ops_p2a, cat_fold_i, cat_fold_f]
  after_results_simp
  try simp only [TRef.ofBuf, TRef.toBuf, cast_eq]
  simp only [val6_main_v50, val6_main_v44, val6_main_v45, dinvSrc, st_dinv, st_deg, splatN, st_col, st_wrap, splatE, st_w_cat, st_d_cat, st_s_cat, st_loop] <;> rfl
set_option maxRecDepth 8192 in
set_option maxHeartbeats 2000000 in
theorem val7_main_v125 (V0 : Valuation τ sig (Elt F)) : val7 V0 (no_index (Proc.devRef .tc main_v125)) = cmpi .slt st_d (splatE 0#32) := by
  unfold val7
  simp only [ops_p2a, cat_fold_i, cat_fold_f]
  after_results_simp
  try simp only [TRef.ofBuf, TRef.toBuf, cast_eq]
  simp only [val6_main_v45, st_d_cat, st_loop, splatE] <;> rfl
set_option maxRecDepth 8192 in
set_option maxHeartbeats 2000000 in
theorem val7_main_v126 (V0 : Valuation τ sig (Elt F)) : val7 V0 (no_index (Proc.devRef .tc main_v126)) = splatE 1024#32 := by
  unfold val7
  simp only [ops_p2a, cat_fold_i, cat_fold_f]
  after_results_simp
  try simp only [TRef.ofBuf, TRef.toBuf, cast_eq]
  simp only [splatE] <;> rfl

/-- The second convolution's operations, spelt over the plain buffers, in three runs: to the node product, the gathered rows, the rest. -/
def p2b_A : List (HloOp τ sig (Elt F)) := ops_p2b_plain.take 7
def p2b_B : List (HloOp τ sig (Elt F)) := (ops_p2b_plain.drop 7).take 23
def p2b_C : List (HloOp τ sig (Elt F)) := (ops_p2b_plain.drop 7).drop 23
theorem p2b_split : (ops_p2b : List (HloOp τ sig (Elt F))) = p2b_A ++ (p2b_B ++ p2b_C) := by
  rw [ops_p2b_eq_plain]
  unfold p2b_A p2b_B p2b_C
  rw [List.take_append_drop, List.take_append_drop]

/-! ## Stretch 8: the second convolution's normalisers and node product -/

/-- The device's buffer contents after the first 8 stretches. -/
def val8 (V0 : Valuation τ sig (Elt F)) : Valuation τ sig (Elt F) := after p2b_A (val7 V0)
/-- The buffers that stretch 8 writes. -/
abbrev W8 : List (Ref sig .tc) := [main_v127, main_v128, main_v129, main_v130, main_v131, main_v132, main_v133]
set_option maxRecDepth 8192 in
set_option maxHeartbeats 2000000 in
theorem p2b_A_writes : (p2b_A : List (HloOp τ sig (Elt F))).Forall fun op => op.writes ⊆ (W8.map (Proc.devRef (τ := τ) .tc)).toFinset := by
  simp only [p2b_A, ops_p2b_plain, List.take_succ_cons, List.take_zero, List.drop_succ_cons, List.drop_zero]
  simp only [List.Forall]
  repeat' apply And.intro
  all_goals (simp only [nullary_writes, unary_writes, binary_writes, ternary_writes, reshape_writes, Finset.singleton_subset_iff, List.mem_toFinset]; exact List.mem_map_of_mem (by decide))
/-- A buffer that stretch 8 does not write keeps its contents through it. -/
theorem val8_keep (V0 : Valuation τ sig (Elt F)) (r : Ref sig .tc) (h : r ∉ W8) :
    val8 V0 (Proc.devRef .tc r) = val7 V0 (Proc.devRef .tc r) :=
  after_of_writes_sub p2b_A _ p2b_A_writes h
/-- A buffer that none of the first 8 stretches writes is still at its launch contents. -/
theorem val8_arg (V0 : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) :
    val8 V0 (Proc.devRef .tc r) = V0 (Proc.devRef .tc r) :=
  (val8_keep V0 r h8).trans (val7_arg V0 r h1 h2 h3 h4 h5 h6 h7)
theorem val8_main_v99 (V0 : Valuation τ sig (Elt F)) : val8 V0 (no_index (Proc.devRef .tc main_v99)) = st_s :=
  (val8_keep V0 main_v99 (by decide)).trans (val7_main_v99 V0)
theorem val8_main_v100 (V0 : Valuation τ sig (Elt F)) : val8 V0 (no_index (Proc.devRef .tc main_v100)) = st_d :=
  (val8_keep V0 main_v100 (by decide)).trans (val7_main_v100 V0)
theorem val8_main_v42 (V0 : Valuation τ sig (Elt F)) : val8 V0 (no_index (Proc.devRef .tc main_v42)) = h2Of V0 :=
  (val8_keep V0 main_v42 (by decide)).trans (val7_main_v42 V0)
set_option maxRecDepth 8192 in
set_option maxHeartbeats 2000000 in
theorem val8_main_v132 (V0 : Valuation τ sig (Elt F)) : val8 V0 (no_index (Proc.devRef .tc main_v132)) = st_norm (in2 V0) := by
  unfold val8
  simp only [p2b_A, ops_p2b_plain, List.take_succ_cons, List.take_zero, List.drop_succ_cons, List.drop_zero]
  after_results_simp
  try simp only [TRef.ofBuf, TRef.toBuf, cast_eq]
  simp only [val7_main_v100, val7_main_v126, val7_main_v125, val7_main_v116, val7_main_v123, val7_main_v102, st_norm, st_col, st_wrap, splatE, dinvSrc, in2] <;> with_reducible rfl
set_option maxRecDepth 8192 in
set_option maxHeartbeats 2000000 in
theorem val8_main_v133 (V0 : Valuation τ sig (Elt F)) : val8 V0 (no_index (Proc.devRef .tc main_v133)) = xw2Of V0 := by
  unfold val8
  simp only [p2b_A, ops_p2b_plain, List.take_succ_cons, List.take_zero, List.drop_succ_cons, List.drop_zero]
  after_results_simp
  try simp only [TRef.ofBuf, TRef.toBuf, cast_eq]
  simp only [val7_main_v97, val7_arg V0 main_arg11 (by decide) (by decide) (by decide) (by decide) (by decide) (by decide) (by decide), xw2Of, in11] <;> with_reducible rfl

/-! ## Stretch 9: the second convolution's gathered rows -/

/-- The device's buffer contents after the first 9 stretches. -/
def val9 (V0 : Valuation τ sig (Elt F)) : Valuation τ sig (Elt F) := after p2b_B (val8 V0)
/-- The buffers that stretch 9 writes. -/
abbrev W9 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v134]
set_option maxRecDepth 8192 in
set_option maxHeartbeats 2000000 in
theorem p2b_B_writes : (p2b_B : List (HloOp τ sig (Elt F))).Forall fun op => op.writes ⊆ (W9.map (Proc.devRef (τ := τ) .tc)).toFinset := by
  simp only [p2b_B, ops_p2b_plain, List.take_succ_cons, List.take_zero, List.drop_succ_cons, List.drop_zero]
  simp only [List.Forall]
  repeat' apply And.intro
  all_goals (simp only [nullary_writes, unary_writes, binary_writes, ternary_writes, reshape_writes, Finset.singleton_subset_iff, List.mem_toFinset]; exact List.mem_map_of_mem (by decide))
/-- A buffer that stretch 9 does not write keeps its contents through it. -/
theorem val9_keep (V0 : Valuation τ sig (Elt F)) (r : Ref sig .tc) (h : r ∉ W9) :
    val9 V0 (Proc.devRef .tc r) = val8 V0 (Proc.devRef .tc r) :=
  after_of_writes_sub p2b_B _ p2b_B_writes h
/-- A buffer that none of the first 9 stretches writes is still at its launch contents. -/
theorem val9_arg (V0 : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) :
    val9 V0 (Proc.devRef .tc r) = V0 (Proc.devRef .tc r) :=
  (val9_keep V0 r h9).trans (val8_arg V0 r h1 h2 h3 h4 h5 h6 h7 h8)
theorem val9_main_v132 (V0 : Valuation τ sig (Elt F)) : val9 V0 (no_index (Proc.devRef .tc main_v132)) = st_norm (in2 V0) :=
  (val9_keep V0 main_v132 (by decide)).trans (val8_main_v132 V0)
theorem val9_main_v100 (V0 : Valuation τ sig (Elt F)) : val9 V0 (no_index (Proc.devRef .tc main_v100)) = st_d :=
  (val9_keep V0 main_v100 (by decide)).trans (val8_main_v100 V0)
theorem val9_main_v42 (V0 : Valuation τ sig (Elt F)) : val9 V0 (no_index (Proc.devRef .tc main_v42)) = h2Of V0 :=
  (val9_keep V0 main_v42 (by decide)).trans (val8_main_v42 V0)
set_option maxRecDepth 8192 in
set_option maxHeartbeats 2000000 in
theorem val9_main_v134 (V0 : Valuation τ sig (Elt F)) : val9 V0 (no_index (Proc.devRef .tc main_v134)) = st_take (xw2Of V0) st_s := by
  unfold val9
  simp only [p2b_B, ops_p2b_plain, List.take_succ_cons, List.take_zero, List.drop_succ_cons, List.drop_zero]
  after_results_simp
  try simp only [TRef.ofBuf, TRef.toBuf, cast_eq]
  simp only [val8_main_v99, val8_main_v133, st_take, st_col, st_wrap, splatE, xw2Of, in11] <;> with_reducible rfl

/-! ## Stretch 10: the second convolution's segment sum and bias, and the output product -/

/-- The device's buffer contents after the first 10 stretches. -/
def val10 (V0 : Valuation τ sig (Elt F)) : Valuation τ sig (Elt F) := after p2b_C (val9 V0)
/-- The buffers that stretch 10 writes. -/
abbrev W10 : List (Ref sig .tc) := [main_v135, main_v136, main_v137, main_cst_31, main_v138, main_v139, main_v140, main_v141, main_v142, main_v143, main_v144, main_v145]
set_option maxRecDepth 8192 in
set_option maxHeartbeats 2000000 in
theorem p2b_C_writes : (p2b_C : List (HloOp τ sig (Elt F))).Forall fun op => op.writes ⊆ (W10.map (Proc.devRef (τ := τ) .tc)).toFinset := by
  simp only [p2b_C, ops_p2b_plain, List.take_succ_cons, List.take_zero, List.drop_succ_cons, List.drop_zero]
  simp only [List.Forall]
  repeat' apply And.intro
  all_goals (simp only [nullary_writes, unary_writes, binary_writes, ternary_writes, reshape_writes, Finset.singleton_subset_iff, List.mem_toFinset]; exact List.mem_map_of_mem (by decide))
/-- A buffer that stretch 10 does not write keeps its contents through it. -/
theorem val10_keep (V0 : Valuation τ sig (Elt F)) (r : Ref sig .tc) (h : r ∉ W10) :
    val10 V0 (Proc.devRef .tc r) = val9 V0 (Proc.devRef .tc r) :=
  after_of_writes_sub p2b_C _ p2b_C_writes h
/-- A buffer that none of the first 10 stretches writes is still at its launch contents. -/
theorem val10_arg (V0 : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) :
    val10 V0 (Proc.devRef .tc r) = V0 (Proc.devRef .tc r) :=
  (val10_keep V0 r h10).trans (val9_arg V0 r h1 h2 h3 h4 h5 h6 h7 h8 h9)
theorem val10_main_v42 (V0 : Valuation τ sig (Elt F)) : val10 V0 (no_index (Proc.devRef .tc main_v42)) = h2Of V0 :=
  (val10_keep V0 main_v42 (by decide)).trans (val9_main_v42 V0)
set_option maxRecDepth 8192 in
set_option maxHeartbeats 2000000 in
theorem val10_main_v144 (V0 : Valuation τ sig (Elt F)) : val10 V0 (no_index (Proc.devRef .tc main_v144)) = Host.dotGeneral dot_S1024x64_S64x16_S1024x16_1_0_0_1_n_n none (st_conv (in2 V0) (c1Of V0) (in11 V0) (in12 V0)) (in13 V0) := by
  unfold val10
  simp only [p2b_C, ops_p2b_plain, List.take_succ_cons, List.take_zero, List.drop_succ_cons, List.drop_zero]
  after_results_simp
  try simp only [TRef.ofBuf, TRef.toBuf, cast_eq]
  simp only [val9_main_v132, val9_main_v134, val9_main_v100, val9_arg V0 main_arg12 (by decide) (by decide) (by decide) (by decide) (by decide) (by decide) (by decide) (by decide) (by decide), val9_arg V0 main_arg13 (by decide) (by decide) (by decide) (by decide) (by decide) (by decide) (by decide) (by decide) (by decide), st_conv, st_col, splat64, xw2Of, in2, in11, in12, in13] <;> with_reducible rfl
set_option maxRecDepth 8192 in
set_option maxHeartbeats 2000000 in
theorem val10_main_v145 (V0 : Valuation τ sig (Elt F)) : val10 V0 (no_index (Proc.devRef .tc main_v145)) = broadcastInDim S1x16 ![1] bcast_S16_S1x16_1 (in14 V0) := by
  unfold val10
  simp only [p2b_C, ops_p2b_plain, List.take_succ_cons, List.take_zero, List.drop_succ_cons, List.drop_zero]
  after_results_simp
  try simp only [TRef.ofBuf, TRef.toBuf, cast_eq]
  simp only [val9_arg V0 main_arg14 (by decide) (by decide) (by decide) (by decide) (by decide) (by decide) (by decide) (by decide) (by decide), in14] <;> with_reducible rfl

/-! ## Stretch 11: the output bias -/

/-- The device's buffer contents after the first 11 stretches. -/
def val11 (V0 : Valuation τ sig (Elt F)) : Valuation τ sig (Elt F) := after ops_p3a (val10 V0)
/-- The buffers that stretch 11 writes. -/
abbrev W11 : List (Ref sig .tc) := [main_v146, main_v147]
set_option maxRecDepth 8192 in
set_option maxHeartbeats 2000000 in
theorem ops_p3a_writes : (ops_p3a : List (HloOp τ sig (Elt F))).Forall fun op => op.writes ⊆ (W11.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer that stretch 11 does not write keeps its contents through it. -/
theorem val11_keep (V0 : Valuation τ sig (Elt F)) (r : Ref sig .tc) (h : r ∉ W11) :
    val11 V0 (Proc.devRef .tc r) = val10 V0 (Proc.devRef .tc r) :=
  after_of_writes_sub ops_p3a _ ops_p3a_writes h
/-- A buffer that none of the first 11 stretches writes is still at its launch contents. -/
theorem val11_arg (V0 : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) :
    val11 V0 (Proc.devRef .tc r) = V0 (Proc.devRef .tc r) :=
  (val11_keep V0 r h11).trans (val10_arg V0 r h1 h2 h3 h4 h5 h6 h7 h8 h9 h10)
theorem val11_main_v42 (V0 : Valuation τ sig (Elt F)) : val11 V0 (no_index (Proc.devRef .tc main_v42)) = h2Of V0 :=
  (val11_keep V0 main_v42 (by decide)).trans (val10_main_v42 V0)
set_option maxRecDepth 8192 in
set_option maxHeartbeats 2000000 in
theorem val11_main_v147 (V0 : Valuation τ sig (Elt F)) : val11 V0 (no_index (Proc.devRef .tc main_v147)) = st_qOf (in2 V0) (h2Of V0) (in9 V0) (in10 V0) (in11 V0) (in12 V0) (in13 V0) (in14 V0) := by
  unfold val11
  simp only [ops_p3a]
  after_results_simp
  try simp only [TRef.ofBuf, TRef.toBuf, cast_eq]
  simp only [val10_main_v144, val10_main_v145, st_qOf, c1Of] <;> with_reducible rfl

/-! ## The whole run -/

/-- The fold of all the operations is the last stretch's contents. -/
theorem after_ops (V0 : Valuation τ sig (Elt F)) : after ops V0 = val11 V0 := by
  have e1 := p1b_split (F := F)
  have e2 := p2b_split (F := F)
  simp only [ops, ops_part0, ops_part1, ops_part2, ops_part3, after_app]
  rw [e1, e2]
  simp only [after_app]
  rfl

set_option maxRecDepth 8192 in
/-- On every device, for any float values, from any memory with zero counters: every weakly fair execution of
    the reference program terminates with its first result at the head applied to the new hidden state, its
    second result at the new hidden state, and the fifteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = st_qOf (m ((c.tc : Thread nD τ).loc main_arg2)) (st_h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v42) = st_h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨(h c main_v147).trans ((congrFun (after_ops _) _).trans (val11_main_v147 (launchContents m c))),
     (h c main_v42).trans ((congrFun (after_ops _) _).trans (val11_main_v42 (launchContents m c))),
     (h c main_arg0).trans ((congrFun (after_ops _) _).trans (val11_arg (launchContents m c) main_arg0 (by decide) (by decide) (by decide) (by decide) (by decide) (by decide) (by decide) (by decide) (by decide) (by decide) (by decide))),
     (h c main_arg1).trans ((congrFun (after_ops _) _).trans (val11_arg (launchContents m c) main_arg1 (by decide) (by decide) (by decide) (by decide) (by decide) (by decide) (by decide) (by decide) (by decide) (by decide) (by decide))),
     (h c main_arg2).trans ((congrFun (after_ops _) _).trans (val11_arg (launchContents m c) main_arg2 (by decide) (by decide) (by decide) (by decide) (by decide) (by decide) (by decide) (by decide) (by decide) (by decide) (by decide))),
     (h c main_arg3).trans ((congrFun (after_ops _) _).trans (val11_arg (launchContents m c) main_arg3 (by decide) (by decide) (by decide) (by decide) (by decide) (by decide) (by decide) (by decide) (by decide) (by decide) (by decide))),
     (h c main_arg4).trans ((congrFun (after_ops _) _).trans (val11_arg (launchContents m c) main_arg4 (by decide) (by decide) (by decide) (by decide) (by decide) (by decide) (by decide) (by decide) (by decide) (by decide) (by decide))),
     (h c main_arg5).trans ((congrFun (after_ops _) _).trans (val11_arg (launchContents m c) main_arg5 (by decide) (by decide) (by decide) (by decide) (by decide) (by decide) (by decide) (by decide) (by decide) (by decide) (by decide))),
     (h c main_arg6).trans ((congrFun (after_ops _) _).trans (val11_arg (launchContents m c) main_arg6 (by decide) (by decide) (by decide) (by decide) (by decide) (by decide) (by decide) (by decide) (by decide) (by decide) (by decide))),
     (h c main_arg7).trans ((congrFun (after_ops _) _).trans (val11_arg (launchContents m c) main_arg7 (by decide) (by decide) (by decide) (by decide) (by decide) (by decide) (by decide) (by decide) (by decide) (by decide) (by decide))),
     (h c main_arg8).trans ((congrFun (after_ops _) _).trans (val11_arg (launchContents m c) main_arg8 (by decide) (by decide) (by decide) (by decide) (by decide) (by decide) (by decide) (by decide) (by decide) (by decide) (by decide))),
     (h c main_arg9).trans ((congrFun (after_ops _) _).trans (val11_arg (launchContents m c) main_arg9 (by decide) (by decide) (by decide) (by decide) (by decide) (by decide) (by decide) (by decide) (by decide) (by decide) (by decide))),
     (h c main_arg10).trans ((congrFun (after_ops _) _).trans (val11_arg (launchContents m c) main_arg10 (by decide) (by decide) (by decide) (by decide) (by decide) (by decide) (by decide) (by decide) (by decide) (by decide) (by decide))),
     (h c main_arg11).trans ((congrFun (after_ops _) _).trans (val11_arg (launchContents m c) main_arg11 (by decide) (by decide) (by decide) (by decide) (by decide) (by decide) (by decide) (by decide) (by decide) (by decide) (by decide))),
     (h c main_arg12).trans ((congrFun (after_ops _) _).trans (val11_arg (launchContents m c) main_arg12 (by decide) (by decide) (by decide) (by decide) (by decide) (by decide) (by decide) (by decide) (by decide) (by decide) (by decide))),
     (h c main_arg13).trans ((congrFun (after_ops _) _).trans (val11_arg (launchContents m c) main_arg13 (by decide) (by decide) (by decide) (by decide) (by decide) (by decide) (by decide) (by decide) (by decide) (by decide) (by decide))),
     (h c main_arg14).trans ((congrFun (after_ops _) _).trans (val11_arg (launchContents m c) main_arg14 (by decide) (by decide) (by decide) (by decide) (by decide) (by decide) (by decide) (by decide) (by decide) (by decide) (by decide)))⟩)
    (run_after m ρ)

end Cert.ReferenceIdeal.Hand

end
-- ==== Proof.Spec.lean ====
/-
  The mathematics both programs compute, as functions on the extended reals read entry by entry.

  A graph agent's step on N = 1024 nodes: a linear encoder with a rectifier, a GRU cell on the hidden state, two
  graph convolutions with self-loops and symmetric degree normalisation over a dense 0/1 adjacency matrix, and a linear
  head. Every array is read through its coordinates; every quantity below is a function of coordinates.

  For an adjacency matrix A with entries in {0, 1}:
    deg j   = 1 + sum_i A[i, j]                      (the in-degree with the self-loop)
    dinv j  = deg j ^ (-1/2)
    conv(X, W, b)[j, c] = dinv j * (sum_i A[i, j] * (dinv i * (X W)[i, c]) + dinv j * (X W)[j, c]) + b[c].
-/
import Idealize.ShloMosaic.PureOps.Ideal
import Idealize.ShloMosaic.Lib.ValueIdx

noncomputable section

open scoped BigOperators

namespace Cert.Spec

open Idealize.ShloMosaic Idealize.ShloMosaic.ValueIdx

/-- A matrix and a vector of extended reals, by coordinates. -/
abbrev Mat (a b : Nat) : Type := Fin a → Fin b → EReal
abbrev Vc (a : Nat) : Type := Fin a → EReal

/-- An array over a literal rank-2 shape read through its coordinates. -/
abbrev cur2 {a b : Nat} (v : (⟨2, ![a, b]⟩ : Shape).Idx → EReal) : Mat a b := fun i k => v (ix2 i k)
/-- An array over a literal rank-1 shape read through its coordinate. -/
abbrev cur1 {a : Nat} (v : (⟨1, ![a]⟩ : Shape).Idx → EReal) : Vc a := fun i => v (ix1 i)

/-- Row g * 64 + j of a 192-row array: gate g's j-th row. -/
def gateRow (g : Fin 3) (j : Fin 64) : Fin 192 := ⟨g.val * 64 + j.val, by have := g.isLt; have := j.isLt; omega⟩

section
variable (x : Mat 1024 275) (h : Mat 1024 64) (adj : Mat 1024 1024) (encW : Mat 275 64) (encB : Vc 64)
  (wih whh : Mat 192 64) (bih bhh : Vc 192) (g1W : Mat 64 64) (g1b : Vc 64) (g2W : Mat 64 64) (g2b : Vc 64)
  (qW : Mat 64 16) (qb : Vc 16)

/-- The encoder: the rectified affine image of the inputs. -/
def h1 (i : Fin 1024) (j : Fin 64) : EReal :=
  max ((∑ k : Fin 275, x i k * encW k j) + encB j) 0

/-- Gate g's pre-activation from the encoded input: h1 · w_ihᵀ + b_ih on the gate's 64 rows. -/
def gi (g : Fin 3) (i : Fin 1024) (j : Fin 64) : EReal :=
  (∑ k : Fin 64, h1 x encW encB i k * wih (gateRow g j) k) + bih (gateRow g j)

/-- Gate g's pre-activation from the hidden state: h · w_hhᵀ + b_hh on the gate's 64 rows. -/
def gh (g : Fin 3) (i : Fin 1024) (j : Fin 64) : EReal :=
  (∑ k : Fin 64, h i k * whh (gateRow g j) k) + bhh (gateRow g j)

/-- The reset gate. -/
def rg (i : Fin 1024) (j : Fin 64) : EReal :=
  Ideal.logistic (gi x encW encB wih bih 0 i j + gh h whh bhh 0 i j)
/-- The update gate. -/
def zg (i : Fin 1024) (j : Fin 64) : EReal :=
  Ideal.logistic (gi x encW encB wih bih 1 i j + gh h whh bhh 1 i j)
/-- The candidate state. -/
def ng (i : Fin 1024) (j : Fin 64) : EReal :=
  Ideal.tanh (gi x encW encB wih bih 2 i j + rg x h encW encB wih whh bih bhh i j * gh h whh bhh 2 i j)
/-- The new hidden state (the second result). -/
def h2 (i : Fin 1024) (j : Fin 64) : EReal :=
  (1 - zg x h encW encB wih whh bih bhh i j) * ng x h encW encB wih whh bih bhh i j
    + zg x h encW encB wih whh bih bhh i j * h i j

/-- Node j's in-degree with its self-loop. -/
def deg (j : Fin 1024) : EReal := 1 + ∑ i : Fin 1024, adj i j * 1
/-- Its inverse square root. -/
def dinv (j : Fin 1024) : EReal := Ideal.rsqrt (deg adj j)

/-- One graph convolution of node features X with weights W and bias b. -/
def conv (X : Mat 1024 64) (W : Mat 64 64) (b : Vc 64) (j : Fin 1024) (c : Fin 64) : EReal :=
  dinv adj j * ((∑ i : Fin 1024, adj i j * (dinv adj i * (∑ k : Fin 64, X i k * W k c)))
      + dinv adj j * (∑ k : Fin 64, X j k * W k c))
    + b c

/-- The first convolution of node features X, rectified. -/
def h3 (X : Mat 1024 64) (j : Fin 1024) (c : Fin 64) : EReal :=
  max (conv adj X g1W g1b j c) 0
/-- The second convolution. -/
def h4 (X : Mat 1024 64) (j : Fin 1024) (c : Fin 64) : EReal :=
  conv adj (h3 adj g1W g1b X) g2W g2b j c
/-- The head over node features X. -/
def qOf (X : Mat 1024 64) (i : Fin 1024) (a : Fin 16) : EReal :=
  (∑ k : Fin 64, h4 adj g1W g1b g2W g2b X i k * qW k a) + qb a
/-- The head over the new hidden state (the first result). -/
def q (i : Fin 1024) (a : Fin 16) : EReal :=
  qOf adj g1W g1b g2W g2b qW qb (h2 x h encW encB wih whh bih bhh) i a

end

/-- Every entry of the adjacency matrix is 0 or 1. -/
def Adj01 (adj : Mat 1024 1024) : Prop := ∀ (i j : Fin 1024), adj i j = 0 ∨ adj i j = 1

/-! ## The packed parameter block

The kernel reads all its weights and biases from one [819, 64] array p, the arguments stacked by rows:
w_ih (192 rows), w_hh (192), g1_W (64), g2_W (64), q_Wᵀ (16), enc_b (1), b_ih as [3, 64], b_hh as [3, 64], g1_b (1), g2_b (1),
q_b padded with zeros to 64 (1), six zero rows, enc_W (275). Each view below reads one argument back out of p. -/

section
variable (p : Mat 819 64)
def pkWih : Mat 192 64 := fun i k => p ⟨i.val, by have := i.isLt; omega⟩ k
def pkWhh : Mat 192 64 := fun i k => p ⟨192 + i.val, by have := i.isLt; omega⟩ k
def pkG1W : Mat 64 64 := fun i k => p ⟨384 + i.val, by have := i.isLt; omega⟩ k
def pkG2W : Mat 64 64 := fun i k => p ⟨448 + i.val, by have := i.isLt; omega⟩ k
/-- q_W, stored transposed in rows 512 to 527. -/
def pkQW : Mat 64 16 := fun k a => p ⟨512 + a.val, by have := a.isLt; omega⟩ k
def pkEncB : Vc 64 := fun j => p ⟨528, by omega⟩ j
/-- b_ih, entry r of 192 at row 529 + r / 64, column r mod 64. -/
def pkBih : Vc 192 := fun r => p ⟨529 + r.val / 64, by have := r.isLt; omega⟩ ⟨r.val % 64, Nat.mod_lt _ (by omega)⟩
def pkBhh : Vc 192 := fun r => p ⟨532 + r.val / 64, by have := r.isLt; omega⟩ ⟨r.val % 64, Nat.mod_lt _ (by omega)⟩
def pkG1b : Vc 64 := fun j => p ⟨535, by omega⟩ j
def pkG2b : Vc 64 := fun j => p ⟨536, by omega⟩ j
def pkQb : Vc 16 := fun a => p ⟨537, by omega⟩ ⟨a.val, by have := a.isLt; omega⟩
def pkEncW : Mat 275 64 := fun i k => p ⟨544 + i.val, by have := i.isLt; omega⟩ k
end

end Cert.Spec

end
-- ==== Proof.PreAdj.lean ====
/-
  The precondition read back at the adjacency matrix: every entry is 0 or 1.

  The printed precondition is a conjunction of conditions on the argument arrays; its last conjunct is the
  all-reduction, by "and" from the constant true, of the entrywise test (adj = 0) or (adj = 1). The whole being true,
  the last conjunct is true; an all-reduction by "and" that is true had a true at every entry; an "or" that is true has
  a true side; and an ordered equality test of extended reals that is true is an equality.
-/
import proofs.«138646_g48533130445277_cont_sun_m_870_17_alg».proof.Defs
import proofs.«138646_g48533130445277_cont_sun_m_870_17_alg».proof.Proof.Gen.Pre_finite_inputs
import proofs.«138646_g48533130445277_cont_sun_m_870_17_alg».proof.Proof.Spec
import Idealize.ShloMosaic.Lib.ReduceAll
import Idealize.ShloMosaic.Lib.IdealHost

noncomputable section

namespace Cert.Proof.PreAdj

open Idealize.ShloMosaic Idealize.ShloMosaic.ValueIdx Idealize.SL.Sem
open Cert.Pre_finite_inputs Cert.Pre_finite_inputs.Facts

/-- An ordered equality test of two extended reals that came out true: they are equal. -/
theorem eq_of_oeq {x y : EReal} (e : Ideal.cmp .oeq x y = 1#1) : x = y := by
  have e' : BitVec.ofBool (decide (x = y)) = 1#1 := e
  cases hd : decide (x = y) with
  | true => exact of_decide_eq_true hd
  | false => rw [hd] at e'; exact absurd e' (by decide)

/-- The precondition's function being true everywhere, every entry of its third argument is 0 or 1. -/
theorem adj01_of_fn (a0 : FVec Ideal S1024x275 .f32) (a1 : FVec Ideal S1024x64 .f32) (a2 : FVec Ideal S1024x1024 .f32)
    (a3 : FVec Ideal S275x64 .f32) (a4 : FVec Ideal S64 .f32) (a5 a6 : FVec Ideal S192x64 .f32) (a7 a8 : FVec Ideal S192 .f32)
    (a9 : FVec Ideal S64x64 .f32) (a10 : FVec Ideal S64 .f32) (a11 : FVec Ideal S64x64 .f32) (a12 : FVec Ideal S64 .f32)
    (a13 : FVec Ideal S64x16 .f32) (a14 : FVec Ideal S16 .f32)
    (h : Cert.Pre_finite_inputs.fn (F := Ideal) a0 a1 a2 a3 a4 a5 a6 a7 a8 a9 a10 a11 a12 a13 a14 = fun _ => 1#1) :
    Cert.Spec.Adj01 (Cert.Spec.cur2 a2) := by
  intro i j
  haveI : Subsingleton S_.Idx := ⟨fun a b => funext fun d => d.elim0⟩
  have h0 := congrFun h ix0
  dsimp only [Cert.Pre_finite_inputs.fn, fn_part1, fn_part2, fn_part3, fn_part4] at h0
  have h1 := (IntOp.andi_eq_one.1 h0).2
  have h2 := Host.reduce_andi_all _ _ _ _ _ h1 (ix2 i j)
  rcases IntOp.ori_eq_one.1 h2 with e | e
  · left
    have e0 : a2 (ix2 i j) = Ideal.ofBits .f32 0x00000000#32 := eq_of_oeq e
    rw [Ideal.ofBits_zero_f32] at e0
    exact e0
  · right
    have e1 : a2 (ix2 i j) = Ideal.ofBits .f32 0x3F800000#32 := eq_of_oeq e
    rw [Ideal.ofBits_one_f32] at e1
    exact e1

/-- Under the kernel's precondition, on every device, the adjacency matrix has entries in {0, 1}. -/
theorem adj01_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Adj01 (Cert.Spec.cur2 (m ((c.tc : Thread Cert.KernelIdeal.nD Cert.KernelIdeal.τ).loc Cert.KernelIdeal.main_arg2))) :=
  adj01_of_fn _ _ _ _ _ _ _ _ _ _ _ _ _ _ _ (h c)

end Cert.Proof.PreAdj

end
-- ==== Proof.KPacked.lean ====
/-
  The packed parameter block is its arguments.

  Before the region the host builds one [819, 64] array from the twelve parameter arrays, stacked by rows: w_ih and w_hh
  (192 rows each), g1_W and g2_W (64 each), q_W transposed (16), enc_b as a row, b_ih and b_hh as three rows of 64 each,
  g1_b and g2_b as rows, q_b padded with 48 zeros to a row, six rows of zeros, and enc_W (275). Read through the views
  of the specification, that array gives every parameter back, entry for entry.

  The proof names the array as the thirteen pieces stacked (each piece an argument's launch contents, moved by a
  transpose, a broadcast to a row or a reshape where it has one), reads the stack at a row (a row lies in exactly one
  piece, by its offset) and reads the piece's layout operation at an index.
-/
import proofs.«138646_g48533130445277_cont_sun_m_870_17_alg».proof.Proof.KDefs
import proofs.«138646_g48533130445277_cont_sun_m_870_17_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## A thirteen-operand operation's result

After an operation with thirteen operands, its result buffer holds the function's value at the operands' contents, each
named at its own reference; and since the operation writes only its result, the operands' contents may as well be read
after it. -/

section Nary13
variable {τ' : Topo} {sig' : RefSig} {Val : EltTy → Type}
variable {x0 x1 x2 x3 x4 x5 x6 x7 x8 x9 x10 x11 x12 y : Ref sig' .tc}

theorem nary13_result
    (f : ((k : Fin 13) → ((![x0, x1, x2, x3, x4, x5, x6, x7, x8, x9, x10, x11, x12] : Fin 13 → Ref sig' .tc) k).ty.Contents Val) → y.ty.Contents Val)
    (hxs hy) (F : Valuation τ' sig' Val) :
    (StableHlo.nary (τ := τ') ![x0, x1, x2, x3, x4, x5, x6, x7, x8, x9, x10, x11, x12] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (fun i => i.elim0)))))))))))))) := by
  rw [StableHlo.nary_result]; congr 1; funext k; fin_cases k <;> rfl

theorem nary13_result_self
    (f : ((k : Fin 13) → ((![x0, x1, x2, x3, x4, x5, x6, x7, x8, x9, x10, x11, x12] : Fin 13 → Ref sig' .tc) k).ty.Contents Val) → y.ty.Contents Val)
    (hxs hy) (F : Valuation τ' sig' Val)
    (h0 : x0 ≠ y) (h1 : x1 ≠ y) (h2 : x2 ≠ y) (h3 : x3 ≠ y) (h4 : x4 ≠ y) (h5 : x5 ≠ y) (h6 : x6 ≠ y) (h7 : x7 ≠ y) (h8 : x8 ≠ y) (h9 : x9 ≠ y) (h10 : x10 ≠ y) (h11 : x11 ≠ y) (h12 : x12 ≠ y) :
    (StableHlo.nary (τ := τ') ![x0, x1, x2, x3, x4, x5, x6, x7, x8, x9, x10, x11, x12] y f hxs hy).result F (Proc.devRef .tc y)
      = f (Fin.cons ((StableHlo.nary (τ := τ') ![x0, x1, x2, x3, x4, x5, x6, x7, x8, x9, x10, x11, x12] y f hxs hy).result F (Proc.devRef .tc x0)) (Fin.cons ((StableHlo.nary (τ := τ') ![x0, x1, x2, x3, x4, x5, x6, x7, x8, x9, x10, x11, x12] y f hxs hy).result F (Proc.devRef .tc x1)) (Fin.cons ((StableHlo.nary (τ := τ') ![x0, x1, x2, x3, x4, x5, x6, x7, x8, x9, x10, x11, x12] y f hxs hy).result F (Proc.devRef .tc x2)) (Fin.cons ((StableHlo.nary (τ := τ') ![x0, x1, x2, x3, x4, x5, x6, x7, x8, x9, x10, x11, x12] y f hxs hy).result F (Proc.devRef .tc x3)) (Fin.cons ((StableHlo.nary (τ := τ') ![x0, x1, x2, x3, x4, x5, x6, x7, x8, x9, x10, x11, x12] y f hxs hy).result F (Proc.devRef .tc x4)) (Fin.cons ((StableHlo.nary (τ := τ') ![x0, x1, x2, x3, x4, x5, x6, x7, x8, x9, x10, x11, x12] y f hxs hy).result F (Proc.devRef .tc x5)) (Fin.cons ((StableHlo.nary (τ := τ') ![x0, x1, x2, x3, x4, x5, x6, x7, x8, x9, x10, x11, x12] y f hxs hy).result F (Proc.devRef .tc x6)) (Fin.cons ((StableHlo.nary (τ := τ') ![x0, x1, x2, x3, x4, x5, x6, x7, x8, x9, x10, x11, x12] y f hxs hy).result F (Proc.devRef .tc x7)) (Fin.cons ((StableHlo.nary (τ := τ') ![x0, x1, x2, x3, x4, x5, x6, x7, x8, x9, x10, x11, x12] y f hxs hy).result F (Proc.devRef .tc x8)) (Fin.cons ((StableHlo.nary (τ := τ') ![x0, x1, x2, x3, x4, x5, x6, x7, x8, x9, x10, x11, x12] y f hxs hy).result F (Proc.devRef .tc x9)) (Fin.cons ((StableHlo.nary (τ := τ') ![x0, x1, x2, x3, x4, x5, x6, x7, x8, x9, x10, x11, x12] y f hxs hy).result F (Proc.devRef .tc x10)) (Fin.cons ((StableHlo.nary (τ := τ') ![x0, x1, x2, x3, x4, x5, x6, x7, x8, x9, x10, x11, x12] y f hxs hy).result F (Proc.devRef .tc x11)) (Fin.cons ((StableHlo.nary (τ := τ') ![x0, x1, x2, x3, x4, x5, x6, x7, x8, x9, x10, x11, x12] y f hxs hy).result F (Proc.devRef .tc x12)) (fun i => i.elim0)))))))))))))) := by
  rw [StableHlo.nary_result_ne y _ f hxs hy F h0,
    StableHlo.nary_result_ne y _ f hxs hy F h1,
    StableHlo.nary_result_ne y _ f hxs hy F h2,
    StableHlo.nary_result_ne y _ f hxs hy F h3,
    StableHlo.nary_result_ne y _ f hxs hy F h4,
    StableHlo.nary_result_ne y _ f hxs hy F h5,
    StableHlo.nary_result_ne y _ f hxs hy F h6,
    StableHlo.nary_result_ne y _ f hxs hy F h7,
    StableHlo.nary_result_ne y _ f hxs hy F h8,
    StableHlo.nary_result_ne y _ f hxs hy F h9,
    StableHlo.nary_result_ne y _ f hxs hy F h10,
    StableHlo.nary_result_ne y _ f hxs hy F h11,
    StableHlo.nary_result_ne y _ f hxs hy F h12]
  exact nary13_result f hxs hy F
end Nary13

/-! ## Thirteen pieces stacked by rows, read at a row

A row of the stack lies in exactly one piece: the piece whose rows start at offset o and which has n rows holds the
stack's rows o to o + n - 1, row o + r of the stack being the piece's row r. The offsets are
0, 192, 384, 448, 512, 528, 529, 532, 535, 536, 537, 538 and 544. -/

section Cat13
variable (p0 p1 : S192x64.Idx → EReal) (p2 p3 : S64x64.Idx → EReal) (p4 : S16x64.Idx → EReal) (p5 : S1x64.Idx → EReal)
  (p6 p7 : S3x64.Idx → EReal) (p8 p9 p10 : S1x64.Idx → EReal) (p11 : S6x64.Idx → EReal) (p12 : S275x64.Idx → EReal)

/-- The stack. -/
abbrev cat13 : S819x64.Idx → EReal :=
  concatenate S819x64 0 [⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩]
    concatenates_S192x64_S192x64_S64x64_S64x64_S16x64_S1x64_S3x64_S3x64_S1x64_S1x64_S1x64_S6x64_S275x64_S819x64_d0

theorem cat13_0 (R : Fin 819) (r : Fin 192) (q : Fin 64) (hR : 0 + r.val = R.val) :
    cat13 p0 p1 p2 p3 p4 p5 p6 p7 p8 p9 p10 p11 p12 (ix2 R q) = p0 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 0 (by show (0 : ℕ) < 13; omega) S192x64 p0 rfl rfl 0 rfl (ix2 r q)
    (fun b hb => match b, hb with | ⟨0, _⟩, hb => absurd rfl hb | ⟨1, _⟩, _ => rfl) hR
theorem cat13_1 (R : Fin 819) (r : Fin 192) (q : Fin 64) (hR : 192 + r.val = R.val) :
    cat13 p0 p1 p2 p3 p4 p5 p6 p7 p8 p9 p10 p11 p12 (ix2 R q) = p1 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 1 (by show (1 : ℕ) < 13; omega) S192x64 p1 rfl rfl 192 rfl (ix2 r q)
    (fun b hb => match b, hb with | ⟨0, _⟩, hb => absurd rfl hb | ⟨1, _⟩, _ => rfl) hR
theorem cat13_2 (R : Fin 819) (r : Fin 64) (q : Fin 64) (hR : 384 + r.val = R.val) :
    cat13 p0 p1 p2 p3 p4 p5 p6 p7 p8 p9 p10 p11 p12 (ix2 R q) = p2 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 2 (by show (2 : ℕ) < 13; omega) S64x64 p2 rfl rfl 384 rfl (ix2 r q)
    (fun b hb => match b, hb with | ⟨0, _⟩, hb => absurd rfl hb | ⟨1, _⟩, _ => rfl) hR
theorem cat13_3 (R : Fin 819) (r : Fin 64) (q : Fin 64) (hR : 448 + r.val = R.val) :
    cat13 p0 p1 p2 p3 p4 p5 p6 p7 p8 p9 p10 p11 p12 (ix2 R q) = p3 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 3 (by show (3 : ℕ) < 13; omega) S64x64 p3 rfl rfl 448 rfl (ix2 r q)
    (fun b hb => match b, hb with | ⟨0, _⟩, hb => absurd rfl hb | ⟨1, _⟩, _ => rfl) hR
theorem cat13_4 (R : Fin 819) (r : Fin 16) (q : Fin 64) (hR : 512 + r.val = R.val) :
    cat13 p0 p1 p2 p3 p4 p5 p6 p7 p8 p9 p10 p11 p12 (ix2 R q) = p4 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 4 (by show (4 : ℕ) < 13; omega) S16x64 p4 rfl rfl 512 rfl (ix2 r q)
    (fun b hb => match b, hb with | ⟨0, _⟩, hb => absurd rfl hb | ⟨1, _⟩, _ => rfl) hR
theorem cat13_5 (R : Fin 819) (r : Fin 1) (q : Fin 64) (hR : 528 + r.val = R.val) :
    cat13 p0 p1 p2 p3 p4 p5 p6 p7 p8 p9 p10 p11 p12 (ix2 R q) = p5 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 5 (by show (5 : ℕ) < 13; omega) S1x64 p5 rfl rfl 528 rfl (ix2 r q)
    (fun b hb => match b, hb with | ⟨0, _⟩, hb => absurd rfl hb | ⟨1, _⟩, _ => rfl) hR
theorem cat13_6 (R : Fin 819) (r : Fin 3) (q : Fin 64) (hR : 529 + r.val = R.val) :
    cat13 p0 p1 p2 p3 p4 p5 p6 p7 p8 p9 p10 p11 p12 (ix2 R q) = p6 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 6 (by show (6 : ℕ) < 13; omega) S3x64 p6 rfl rfl 529 rfl (ix2 r q)
    (fun b hb => match b, hb with | ⟨0, _⟩, hb => absurd rfl hb | ⟨1, _⟩, _ => rfl) hR
theorem cat13_7 (R : Fin 819) (r : Fin 3) (q : Fin 64) (hR : 532 + r.val = R.val) :
    cat13 p0 p1 p2 p3 p4 p5 p6 p7 p8 p9 p10 p11 p12 (ix2 R q) = p7 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 7 (by show (7 : ℕ) < 13; omega) S3x64 p7 rfl rfl 532 rfl (ix2 r q)
    (fun b hb => match b, hb with | ⟨0, _⟩, hb => absurd rfl hb | ⟨1, _⟩, _ => rfl) hR
theorem cat13_8 (R : Fin 819) (r : Fin 1) (q : Fin 64) (hR : 535 + r.val = R.val) :
    cat13 p0 p1 p2 p3 p4 p5 p6 p7 p8 p9 p10 p11 p12 (ix2 R q) = p8 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 8 (by show (8 : ℕ) < 13; omega) S1x64 p8 rfl rfl 535 rfl (ix2 r q)
    (fun b hb => match b, hb with | ⟨0, _⟩, hb => absurd rfl hb | ⟨1, _⟩, _ => rfl) hR
theorem cat13_9 (R : Fin 819) (r : Fin 1) (q : Fin 64) (hR : 536 + r.val = R.val) :
    cat13 p0 p1 p2 p3 p4 p5 p6 p7 p8 p9 p10 p11 p12 (ix2 R q) = p9 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 9 (by show (9 : ℕ) < 13; omega) S1x64 p9 rfl rfl 536 rfl (ix2 r q)
    (fun b hb => match b, hb with | ⟨0, _⟩, hb => absurd rfl hb | ⟨1, _⟩, _ => rfl) hR
theorem cat13_10 (R : Fin 819) (r : Fin 1) (q : Fin 64) (hR : 537 + r.val = R.val) :
    cat13 p0 p1 p2 p3 p4 p5 p6 p7 p8 p9 p10 p11 p12 (ix2 R q) = p10 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 10 (by show (10 : ℕ) < 13; omega) S1x64 p10 rfl rfl 537 rfl (ix2 r q)
    (fun b hb => match b, hb with | ⟨0, _⟩, hb => absurd rfl hb | ⟨1, _⟩, _ => rfl) hR
theorem cat13_12 (R : Fin 819) (r : Fin 275) (q : Fin 64) (hR : 544 + r.val = R.val) :
    cat13 p0 p1 p2 p3 p4 p5 p6 p7 p8 p9 p10 p11 p12 (ix2 R q) = p12 (ix2 r q) :=
  concatenate_apply_piece 0 ([⟨S192x64, p0⟩, ⟨S192x64, p1⟩, ⟨S64x64, p2⟩, ⟨S64x64, p3⟩, ⟨S16x64, p4⟩, ⟨S1x64, p5⟩, ⟨S3x64, p6⟩, ⟨S3x64, p7⟩, ⟨S1x64, p8⟩, ⟨S1x64, p9⟩, ⟨S1x64, p10⟩, ⟨S6x64, p11⟩, ⟨S275x64, p12⟩] : List ((s : Shape) × (s.Idx → EReal)))
    concatenates_S192x64_S192x64_S64x64_S64x64_S16x64_S1x64_S3x64_S3x64_S1x64_S1x64_S1x64_S6x64_S275x64_S819x64_d0 (ix2 R q) 12 (by show (12 : ℕ) < 13; omega) S275x64 p12 rfl rfl 544 rfl (ix2 r q)
    (fun b hb => match b, hb with | ⟨0, _⟩, hb => absurd rfl hb | ⟨1, _⟩, _ => rfl) hR
end Cat13

/-! ## The layout operations at an index -/

/-- A 64-vector broadcast to one row reads, in column q, the vector's entry q. -/
theorem row_apply (x : S64.Idx → EReal) (z : Fin 1) (q : Fin 64) :
    broadcastInDim S1x64 ![1] bcast_S64_S1x64_1 x (ix2 z q) = x (ix1 q) :=
  broadcastInDim_apply ![1] bcast_S64_S1x64_1 x (ix2 z q) (ix1 q) fun a => match a with
    | ⟨0, _⟩ => by
      show q.val = if (64 : ℕ) = 1 then 0 else q.val
      rw [if_neg (by decide)]

/-- A 192-vector reshaped to three rows of 64 reads, at (g, q), the vector's entry 64 g + q. -/
theorem rows3_apply (x : S192.Idx → EReal) (g : Fin 3) (q : Fin 64) (r : Fin 192) (hr : r.val = g.val * 64 + q.val) :
    shapeCast S3x64 x shapeCasts_S192_S3x64 (ix2 g q) = x (ix1 r) :=
  shapeCast_apply x shapeCasts_S192_S3x64 (ix2 g q) (ix1 r) (by
    rw [Shape.rowMajor_val_two, Shape.rowMajor_val_one]; exact hr)

/-- A 16-vector followed by 48 further entries reads, at a position below 16, the vector's entry there. -/
theorem padded_apply (x : S16.Idx → EReal) (zs : S48.Idx → EReal) (a : Fin 16) (J : Fin 64) (hJ : a.val = J.val) :
    concatenate S64 0 [⟨S16, x⟩, ⟨S48, zs⟩] concatenates_S16_S48_S64_d0 (ix1 J) = x (ix1 a) :=
  concatenate_pair_apply_left 0 x zs concatenates_S16_S48_S64_d0 (ix1 J) rfl (ix1 a) fun b => match b with
    | ⟨0, _⟩ => hJ

/-! ## The views of a stack

Each view of the packed block reads one argument back: a matrix piece row by row, the transposed piece with its
coordinates exchanged, a bias row at its column, a reshaped bias at its quotient and remainder by 64. -/

section Views
variable (p0 p1 : S192x64.Idx → EReal) (p2 p3 : S64x64.Idx → EReal) (p4 : S16x64.Idx → EReal) (p5 : S1x64.Idx → EReal)
  (p6 p7 : S3x64.Idx → EReal) (p8 p9 p10 : S1x64.Idx → EReal) (p11 : S6x64.Idx → EReal) (p12 : S275x64.Idx → EReal)
variable (P : S819x64.Idx → EReal)

theorem wih_of (hP : P = cat13 p0 p1 p2 p3 p4 p5 p6 p7 p8 p9 p10 p11 p12) : Spec.pkWih (Spec.cur2 P) = Spec.cur2 p0 := by
  subst hP; funext i k
  exact cat13_0 _ _ _ _ _ _ _ _ _ _ _ _ _ _ i k (Nat.zero_add _)
theorem whh_of (hP : P = cat13 p0 p1 p2 p3 p4 p5 p6 p7 p8 p9 p10 p11 p12) : Spec.pkWhh (Spec.cur2 P) = Spec.cur2 p1 := by
  subst hP; funext i k
  exact cat13_1 _ _ _ _ _ _ _ _ _ _ _ _ _ _ i k rfl
theorem g1W_of (hP : P = cat13 p0 p1 p2 p3 p4 p5 p6 p7 p8 p9 p10 p11 p12) : Spec.pkG1W (Spec.cur2 P) = Spec.cur2 p2 := by
  subst hP; funext i k
  exact cat13_2 _ _ _ _ _ _ _ _ _ _ _ _ _ _ i k rfl
theorem g2W_of (hP : P = cat13 p0 p1 p2 p3 p4 p5 p6 p7 p8 p9 p10 p11 p12) : Spec.pkG2W (Spec.cur2 P) = Spec.cur2 p3 := by
  subst hP; funext i k
  exact cat13_3 _ _ _ _ _ _ _ _ _ _ _ _ _ _ i k rfl
theorem encW_of (hP : P = cat13 p0 p1 p2 p3 p4 p5 p6 p7 p8 p9 p10 p11 p12) : Spec.pkEncW (Spec.cur2 P) = Spec.cur2 p12 := by
  subst hP; funext i k
  exact cat13_12 _ _ _ _ _ _ _ _ _ _ _ _ _ _ i k rfl
theorem qW_of (x : S64x16.Idx → EReal)
    (hP : P = cat13 p0 p1 p2 p3 (transpose S16x64 [1, 0] x transposes_S64x16_S16x64_1_0) p5 p6 p7 p8 p9 p10 p11 p12) :
    Spec.pkQW (Spec.cur2 P) = Spec.cur2 x := by
  subst hP; funext k a
  exact (cat13_4 _ _ _ _ _ _ _ _ _ _ _ _ _ _ a k rfl).trans (transpose_ix2_apply x _ a k)
theorem encB_of (x : S64.Idx → EReal)
    (hP : P = cat13 p0 p1 p2 p3 p4 (broadcastInDim S1x64 ![1] bcast_S64_S1x64_1 x) p6 p7 p8 p9 p10 p11 p12) :
    Spec.pkEncB (Spec.cur2 P) = Spec.cur1 x := by
  subst hP; funext j
  exact (cat13_5 _ _ _ _ _ _ _ _ _ _ _ _ _ _ 0 j rfl).trans (row_apply x 0 j)
theorem g1b_of (x : S64.Idx → EReal)
    (hP : P = cat13 p0 p1 p2 p3 p4 p5 p6 p7 (broadcastInDim S1x64 ![1] bcast_S64_S1x64_1 x) p9 p10 p11 p12) :
    Spec.pkG1b (Spec.cur2 P) = Spec.cur1 x := by
  subst hP; funext j
  exact (cat13_8 _ _ _ _ _ _ _ _ _ _ _ _ _ _ 0 j rfl).trans (row_apply x 0 j)
theorem g2b_of (x : S64.Idx → EReal)
    (hP : P = cat13 p0 p1 p2 p3 p4 p5 p6 p7 p8 (broadcastInDim S1x64 ![1] bcast_S64_S1x64_1 x) p10 p11 p12) :
    Spec.pkG2b (Spec.cur2 P) = Spec.cur1 x := by
  subst hP; funext j
  exact (cat13_9 _ _ _ _ _ _ _ _ _ _ _ _ _ _ 0 j rfl).trans (row_apply x 0 j)
theorem bih_of (x : S192.Idx → EReal)
    (hP : P = cat13 p0 p1 p2 p3 p4 p5 (shapeCast S3x64 x shapeCasts_S192_S3x64) p7 p8 p9 p10 p11 p12) :
    Spec.pkBih (Spec.cur2 P) = Spec.cur1 x := by
  subst hP; funext r
  have hg : r.val / 64 < 3 := by have := r.isLt; omega
  exact (cat13_6 _ _ _ _ _ _ _ _ _ _ _ _ _ _ ⟨r.val / 64, hg⟩ ⟨r.val % 64, Nat.mod_lt _ (by omega)⟩ rfl).trans
    (rows3_apply x _ _ r (by show r.val = r.val / 64 * 64 + r.val % 64; omega))
theorem bhh_of (x : S192.Idx → EReal)
    (hP : P = cat13 p0 p1 p2 p3 p4 p5 p6 (shapeCast S3x64 x shapeCasts_S192_S3x64) p8 p9 p10 p11 p12) :
    Spec.pkBhh (Spec.cur2 P) = Spec.cur1 x := by
  subst hP; funext r
  have hg : r.val / 64 < 3 := by have := r.isLt; omega
  exact (cat13_7 _ _ _ _ _ _ _ _ _ _ _ _ _ _ ⟨r.val / 64, hg⟩ ⟨r.val % 64, Nat.mod_lt _ (by omega)⟩ rfl).trans
    (rows3_apply x _ _ r (by show r.val = r.val / 64 * 64 + r.val % 64; omega))
theorem qb_of (x : S16.Idx → EReal) (zs : S48.Idx → EReal)
    (hP : P = cat13 p0 p1 p2 p3 p4 p5 p6 p7 p8 p9 (broadcastInDim S1x64 ![1] bcast_S64_S1x64_1
      (concatenate S64 0 [⟨S16, x⟩, ⟨S48, zs⟩] concatenates_S16_S48_S64_d0)) p11 p12) :
    Spec.pkQb (Spec.cur2 P) = Spec.cur1 x := by
  subst hP; funext a
  have ha : a.val < 64 := by have := a.isLt; omega
  exact ((cat13_10 _ _ _ _ _ _ _ _ _ _ _ _ _ _ 0 ⟨a.val, ha⟩ rfl).trans (row_apply _ 0 ⟨a.val, ha⟩)).trans
    (padded_apply x zs a ⟨a.val, ha⟩ rfl)
end Views

variable (m : (ℓ : Loc nD τ sig) → Buf (Elt Ideal) ℓ) (c : Dev nD)

/-! ## The packed block, piece by piece -/

/-- The packed block as the region finds it is its thirteen operands, as the region finds them, stacked by rows. -/
theorem packed_V :
    (V m c main_v10 : S819x64.Idx → EReal) =
      concatenate S819x64 0
        [⟨S192x64, V m c main_arg5⟩,
         ⟨S192x64, V m c main_arg6⟩,
         ⟨S64x64, V m c main_arg9⟩,
         ⟨S64x64, V m c main_arg11⟩,
         ⟨S16x64, V m c main_v0⟩,
         ⟨S1x64, V m c main_v1⟩,
         ⟨S3x64, V m c main_v2⟩,
         ⟨S3x64, V m c main_v3⟩,
         ⟨S1x64, V m c main_v4⟩,
         ⟨S1x64, V m c main_v5⟩,
         ⟨S1x64, V m c main_v8⟩,
         ⟨S6x64, V m c main_v9⟩,
         ⟨S275x64, V m c main_arg3⟩]
        concatenates_S192x64_S192x64_S64x64_S64x64_S16x64_S1x64_S3x64_S3x64_S1x64_S1x64_S1x64_S6x64_S275x64_S819x64_d0 := by
  dsimp only [V, hostOps0]
  simp only [StableHlo.after_cons, StableHlo.after_nil]
  exact nary13_result_self _ _ _ _ (by decide) (by decide) (by decide) (by decide) (by decide) (by decide) (by decide) (by decide) (by decide) (by decide) (by decide) (by decide) (by decide)

/-- Argument K's launch contents on core c. -/
abbrev a3 : FVec Ideal S275x64 .f32 := m ((c : Thread nD τ).loc main_arg3)
abbrev a4 : FVec Ideal S64 .f32 := m ((c : Thread nD τ).loc main_arg4)
abbrev a5 : FVec Ideal S192x64 .f32 := m ((c : Thread nD τ).loc main_arg5)
abbrev a6 : FVec Ideal S192x64 .f32 := m ((c : Thread nD τ).loc main_arg6)
abbrev a7 : FVec Ideal S192 .f32 := m ((c : Thread nD τ).loc main_arg7)
abbrev a8 : FVec Ideal S192 .f32 := m ((c : Thread nD τ).loc main_arg8)
abbrev a9 : FVec Ideal S64x64 .f32 := m ((c : Thread nD τ).loc main_arg9)
abbrev a10 : FVec Ideal S64 .f32 := m ((c : Thread nD τ).loc main_arg10)
abbrev a11 : FVec Ideal S64x64 .f32 := m ((c : Thread nD τ).loc main_arg11)
abbrev a12 : FVec Ideal S64 .f32 := m ((c : Thread nD τ).loc main_arg12)
abbrev a13 : FVec Ideal S64x16 .f32 := m ((c : Thread nD τ).loc main_arg13)
abbrev a14 : FVec Ideal S16 .f32 := m ((c : Thread nD τ).loc main_arg14)

/-! Each operand as the region finds it: an argument's launch contents, moved by its layout operation where it has one.
The thirteen operations run in order; read at a reference, each either wrote it or left it alone. -/

-- `leaveN r`: operation N of the thirteen leaves reference r, which is not its result, as it was
local macro "leave1 " r:term : tactic =>
  `(tactic| (rw [StableHlo.unary_result_ne (r := $r)]; rotate_left; decide))
local macro "leave2 " r:term : tactic =>
  `(tactic| (rw [StableHlo.unary_result_ne (r := $r)]; rotate_left; decide))
local macro "leave3 " r:term : tactic =>
  `(tactic| (rw [StableHlo.reshape_result_ne (r := $r)]; rotate_left; decide))
local macro "leave4 " r:term : tactic =>
  `(tactic| (rw [StableHlo.reshape_result_ne (r := $r)]; rotate_left; decide))
local macro "leave5 " r:term : tactic =>
  `(tactic| (rw [StableHlo.unary_result_ne (r := $r)]; rotate_left; decide))
local macro "leave6 " r:term : tactic =>
  `(tactic| (rw [StableHlo.unary_result_ne (r := $r)]; rotate_left; decide))
local macro "leave7 " r:term : tactic =>
  `(tactic| (rw [StableHlo.nullary_result_ne (r := $r)]; rotate_left; decide))
local macro "leave8 " r:term : tactic =>
  `(tactic| (rw [StableHlo.unary_result_ne (r := $r)]; rotate_left; decide))
local macro "leave9 " r:term : tactic =>
  `(tactic| (rw [StableHlo.binary_result_ne (r := $r)]; rotate_left; decide))
local macro "leave10 " r:term : tactic =>
  `(tactic| (rw [StableHlo.unary_result_ne (r := $r)]; rotate_left; decide))
local macro "leave11 " r:term : tactic =>
  `(tactic| (rw [StableHlo.nullary_result_ne (r := $r)]; rotate_left; decide))
local macro "leave12 " r:term : tactic =>
  `(tactic| (rw [StableHlo.unary_result_ne (r := $r)]; rotate_left; decide))
local macro "leave13 " r:term : tactic =>
  `(tactic| (rw [StableHlo.nary_result_ne (r := $r)]; rotate_left; decide))

theorem V_arg5 : (V m c main_arg5 : S192x64.Idx → EReal) = a5 m c := by
  dsimp only [V, hostOps0]; simp only [StableHlo.after_cons, StableHlo.after_nil]
  leave13 main_arg5; leave12 main_arg5; leave11 main_arg5; leave10 main_arg5; leave9 main_arg5; leave8 main_arg5; leave7 main_arg5
  leave6 main_arg5; leave5 main_arg5; leave4 main_arg5; leave3 main_arg5; leave2 main_arg5; leave1 main_arg5
  all_goals rfl
theorem V_arg6 : (V m c main_arg6 : S192x64.Idx → EReal) = a6 m c := by
  dsimp only [V, hostOps0]; simp only [StableHlo.after_cons, StableHlo.after_nil]
  leave13 main_arg6; leave12 main_arg6; leave11 main_arg6; leave10 main_arg6; leave9 main_arg6; leave8 main_arg6; leave7 main_arg6
  leave6 main_arg6; leave5 main_arg6; leave4 main_arg6; leave3 main_arg6; leave2 main_arg6; leave1 main_arg6
  all_goals rfl
theorem V_arg9 : (V m c main_arg9 : S64x64.Idx → EReal) = a9 m c := by
  dsimp only [V, hostOps0]; simp only [StableHlo.after_cons, StableHlo.after_nil]
  leave13 main_arg9; leave12 main_arg9; leave11 main_arg9; leave10 main_arg9; leave9 main_arg9; leave8 main_arg9; leave7 main_arg9
  leave6 main_arg9; leave5 main_arg9; leave4 main_arg9; leave3 main_arg9; leave2 main_arg9; leave1 main_arg9
  all_goals rfl
theorem V_arg11 : (V m c main_arg11 : S64x64.Idx → EReal) = a11 m c := by
  dsimp only [V, hostOps0]; simp only [StableHlo.after_cons, StableHlo.after_nil]
  leave13 main_arg11; leave12 main_arg11; leave11 main_arg11; leave10 main_arg11; leave9 main_arg11; leave8 main_arg11; leave7 main_arg11
  leave6 main_arg11; leave5 main_arg11; leave4 main_arg11; leave3 main_arg11; leave2 main_arg11; leave1 main_arg11
  all_goals rfl
theorem V_arg3 : (V m c main_arg3 : S275x64.Idx → EReal) = a3 m c := by
  dsimp only [V, hostOps0]; simp only [StableHlo.after_cons, StableHlo.after_nil]
  leave13 main_arg3; leave12 main_arg3; leave11 main_arg3; leave10 main_arg3; leave9 main_arg3; leave8 main_arg3; leave7 main_arg3
  leave6 main_arg3; leave5 main_arg3; leave4 main_arg3; leave3 main_arg3; leave2 main_arg3; leave1 main_arg3
  all_goals rfl
theorem V_v0 : (V m c main_v0 : S16x64.Idx → EReal) = transpose S16x64 [1, 0] (a13 m c) transposes_S64x16_S16x64_1_0 := by
  dsimp only [V, hostOps0]; simp only [StableHlo.after_cons, StableHlo.after_nil]
  leave13 main_v0; leave12 main_v0; leave11 main_v0; leave10 main_v0; leave9 main_v0; leave8 main_v0; leave7 main_v0; leave6 main_v0
  leave5 main_v0; leave4 main_v0; leave3 main_v0; leave2 main_v0; rw [StableHlo.unary_result]
  all_goals rfl
theorem V_v1 : (V m c main_v1 : S1x64.Idx → EReal) = broadcastInDim S1x64 ![1] bcast_S64_S1x64_1 (a4 m c) := by
  dsimp only [V, hostOps0]; simp only [StableHlo.after_cons, StableHlo.after_nil]
  leave13 main_v1; leave12 main_v1; leave11 main_v1; leave10 main_v1; leave9 main_v1; leave8 main_v1; leave7 main_v1; leave6 main_v1
  leave5 main_v1; leave4 main_v1; leave3 main_v1; rw [StableHlo.unary_result]; leave1 main_arg4
  all_goals rfl
theorem V_v2 : (V m c main_v2 : S3x64.Idx → EReal) = shapeCast S3x64 (a7 m c) shapeCasts_S192_S3x64 := by
  dsimp only [V, hostOps0]; simp only [StableHlo.after_cons, StableHlo.after_nil]
  leave13 main_v2; leave12 main_v2; leave11 main_v2; leave10 main_v2; leave9 main_v2; leave8 main_v2; leave7 main_v2; leave6 main_v2
  leave5 main_v2; leave4 main_v2; rw [StableHlo.reshape_result]; leave2 main_arg7; leave1 main_arg7
  all_goals rfl
theorem V_v3 : (V m c main_v3 : S3x64.Idx → EReal) = shapeCast S3x64 (a8 m c) shapeCasts_S192_S3x64 := by
  dsimp only [V, hostOps0]; simp only [StableHlo.after_cons, StableHlo.after_nil]
  leave13 main_v3; leave12 main_v3; leave11 main_v3; leave10 main_v3; leave9 main_v3; leave8 main_v3; leave7 main_v3; leave6 main_v3
  leave5 main_v3; rw [StableHlo.reshape_result]; leave3 main_arg8; leave2 main_arg8; leave1 main_arg8
  all_goals rfl
theorem V_v4 : (V m c main_v4 : S1x64.Idx → EReal) = broadcastInDim S1x64 ![1] bcast_S64_S1x64_1 (a10 m c) := by
  dsimp only [V, hostOps0]; simp only [StableHlo.after_cons, StableHlo.after_nil]
  leave13 main_v4; leave12 main_v4; leave11 main_v4; leave10 main_v4; leave9 main_v4; leave8 main_v4; leave7 main_v4; leave6 main_v4
  rw [StableHlo.unary_result]; leave4 main_arg10; leave3 main_arg10; leave2 main_arg10; leave1 main_arg10
  all_goals rfl
theorem V_v5 : (V m c main_v5 : S1x64.Idx → EReal) = broadcastInDim S1x64 ![1] bcast_S64_S1x64_1 (a12 m c) := by
  dsimp only [V, hostOps0]; simp only [StableHlo.after_cons, StableHlo.after_nil]
  leave13 main_v5; leave12 main_v5; leave11 main_v5; leave10 main_v5; leave9 main_v5; leave8 main_v5; leave7 main_v5
  rw [StableHlo.unary_result]; leave5 main_arg12; leave4 main_arg12; leave3 main_arg12; leave2 main_arg12; leave1 main_arg12
  all_goals rfl
theorem V_v8 : (V m c main_v8 : S1x64.Idx → EReal) = broadcastInDim S1x64 ![1] bcast_S64_S1x64_1
      (concatenate S64 0 [⟨S16, a14 m c⟩,
        ⟨S48, broadcastInDim S48 ![] bcast_S_S48 (constant (F := Ideal) S_ .f32 0x00000000#32)⟩] concatenates_S16_S48_S64_d0) := by
  dsimp only [V, hostOps0]; simp only [StableHlo.after_cons, StableHlo.after_nil]
  leave13 main_v8; leave12 main_v8; leave11 main_v8; rw [StableHlo.unary_result]; rw [StableHlo.binary_result]; leave8 main_arg14
  leave7 main_arg14; leave6 main_arg14; leave5 main_arg14; leave4 main_arg14; leave3 main_arg14; leave2 main_arg14; leave1 main_arg14
  rw [StableHlo.unary_result]; rw [StableHlo.nullary_result]
  all_goals rfl

/-! ## The packed block's views are the arguments -/

/-- Forty-eight zeros: what pads the head's bias to a row. -/
abbrev zeros48 : FVec Ideal S48 .f32 := broadcastInDim S48 ![] bcast_S_S48 (constant (F := Ideal) S_ .f32 0x00000000#32)

/-- The packed block as the region finds it, every piece named: an argument's launch contents, moved by its layout
    operation where it has one. (The block of six zero rows stays as the region finds it: no view reads it.) -/
theorem packed_eq :
    (V m c main_v10 : S819x64.Idx → EReal) =
      cat13 (a5 m c) (a6 m c) (a9 m c) (a11 m c)
        (transpose S16x64 [1, 0] (a13 m c) transposes_S64x16_S16x64_1_0)
        (broadcastInDim S1x64 ![1] bcast_S64_S1x64_1 (a4 m c))
        (shapeCast S3x64 (a7 m c) shapeCasts_S192_S3x64)
        (shapeCast S3x64 (a8 m c) shapeCasts_S192_S3x64)
        (broadcastInDim S1x64 ![1] bcast_S64_S1x64_1 (a10 m c))
        (broadcastInDim S1x64 ![1] bcast_S64_S1x64_1 (a12 m c))
        (broadcastInDim S1x64 ![1] bcast_S64_S1x64_1
          (concatenate S64 0 [⟨S16, a14 m c⟩, ⟨S48, zeros48⟩] concatenates_S16_S48_S64_d0))
        (V m c main_v9) (a3 m c) := by
  rw [packed_V m c, V_arg5 m c, V_arg6 m c, V_arg9 m c, V_arg11 m c, V_v0 m c, V_v1 m c, V_v2 m c, V_v3 m c, V_v4 m c,
    V_v5 m c, V_v8 m c, V_arg3 m c]

/-- w_ih: rows 0 to 191. -/
theorem pk_wih : Spec.pkWih (Spec.cur2 (V m c main_v10 : FVec Ideal S819x64 .f32)) = Spec.cur2 (m ((c : Thread nD τ).loc main_arg5) : FVec Ideal S192x64 .f32) :=
  wih_of (hP := packed_eq m c)
/-- w_hh: rows 192 to 383. -/
theorem pk_whh : Spec.pkWhh (Spec.cur2 (V m c main_v10 : FVec Ideal S819x64 .f32)) = Spec.cur2 (m ((c : Thread nD τ).loc main_arg6) : FVec Ideal S192x64 .f32) :=
  whh_of (hP := packed_eq m c)
/-- g1_W: rows 384 to 447. -/
theorem pk_g1W : Spec.pkG1W (Spec.cur2 (V m c main_v10 : FVec Ideal S819x64 .f32)) = Spec.cur2 (m ((c : Thread nD τ).loc main_arg9) : FVec Ideal S64x64 .f32) :=
  g1W_of (hP := packed_eq m c)
/-- g2_W: rows 448 to 511. -/
theorem pk_g2W : Spec.pkG2W (Spec.cur2 (V m c main_v10 : FVec Ideal S819x64 .f32)) = Spec.cur2 (m ((c : Thread nD τ).loc main_arg11) : FVec Ideal S64x64 .f32) :=
  g2W_of (hP := packed_eq m c)
/-- q_W: rows 512 to 527 hold its transpose. -/
theorem pk_qW : Spec.pkQW (Spec.cur2 (V m c main_v10 : FVec Ideal S819x64 .f32)) = Spec.cur2 (m ((c : Thread nD τ).loc main_arg13) : FVec Ideal S64x16 .f32) :=
  qW_of (hP := packed_eq m c)
/-- enc_b: row 528. -/
theorem pk_encB : Spec.pkEncB (Spec.cur2 (V m c main_v10 : FVec Ideal S819x64 .f32)) = Spec.cur1 (m ((c : Thread nD τ).loc main_arg4) : FVec Ideal S64 .f32) :=
  encB_of (hP := packed_eq m c)
/-- b_ih: rows 529 to 531, 64 entries a row. -/
theorem pk_bih : Spec.pkBih (Spec.cur2 (V m c main_v10 : FVec Ideal S819x64 .f32)) = Spec.cur1 (m ((c : Thread nD τ).loc main_arg7) : FVec Ideal S192 .f32) :=
  bih_of (hP := packed_eq m c)
/-- b_hh: rows 532 to 534, 64 entries a row. -/
theorem pk_bhh : Spec.pkBhh (Spec.cur2 (V m c main_v10 : FVec Ideal S819x64 .f32)) = Spec.cur1 (m ((c : Thread nD τ).loc main_arg8) : FVec Ideal S192 .f32) :=
  bhh_of (hP := packed_eq m c)
/-- g1_b: row 535. -/
theorem pk_g1b : Spec.pkG1b (Spec.cur2 (V m c main_v10 : FVec Ideal S819x64 .f32)) = Spec.cur1 (m ((c : Thread nD τ).loc main_arg10) : FVec Ideal S64 .f32) :=
  g1b_of (hP := packed_eq m c)
/-- g2_b: row 536. -/
theorem pk_g2b : Spec.pkG2b (Spec.cur2 (V m c main_v10 : FVec Ideal S819x64 .f32)) = Spec.cur1 (m ((c : Thread nD τ).loc main_arg12) : FVec Ideal S64 .f32) :=
  g2b_of (hP := packed_eq m c)
/-- q_b: the first 16 columns of row 537. -/
theorem pk_qb : Spec.pkQb (Spec.cur2 (V m c main_v10 : FVec Ideal S819x64 .f32)) = Spec.cur1 (m ((c : Thread nD τ).loc main_arg14) : FVec Ideal S16 .f32) :=
  qb_of (hP := packed_eq m c)
/-- enc_W: rows 544 to 818. -/
theorem pk_encW : Spec.pkEncW (Spec.cur2 (V m c main_v10 : FVec Ideal S819x64 .f32)) = Spec.cur2 (m ((c : Thread nD τ).loc main_arg3) : FVec Ideal S275x64 .f32) :=
  encW_of (hP := packed_eq m c)

end Cert.KernelIdeal.Hand

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.KPayH2.lean ====
/-
  The kernel's new hidden state read entry by entry: the encoder (a rectified affine map of the inputs), the three
  input-side and three hidden-side gate pre-activations (rows of the left operand against rows of the weights, plus a
  bias row), and the cell's update, each as a function of coordinates; the rows the body loads from the packed block are
  the rows the specification's views of that block read, so the whole is the specification's new hidden state.
-/
import proofs.«138646_g48533130445277_cont_sun_m_870_17_alg».proof.Proof.KDefs
import proofs.«138646_g48533130445277_cont_sun_m_870_17_alg».proof.Proof.Spec
import proofs.«138646_g48533130445277_cont_sun_m_870_17_alg».proof.Proof.LibDotRead
import proofs.«138646_g48533130445277_cont_sun_m_870_17_alg».proof.Proof.LibDotReadRhsT
import Idealize.ShloMosaic.Lib.ValueLayout
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.ValueIdx

/-! ## Loads through literal rectangles -/

/-- The zero offsets, however spelt, are the zero function. -/
theorem off00 : (![0, 0] : Fin 2 → Nat) = fun _ => 0 := by
  funext a; match a with | ⟨0, _⟩ => rfl | ⟨1, _⟩ => rfl

/-- A load of `m` rows from row `o` of a matrix, read at `(r, k)`, is the matrix at row `o + r`, column `k`. -/
theorem ld_rows {N m b : Nat} (o : Nat) (X : Vec Ideal ⟨2, ![N, b]⟩ .f32)
    (inb : ∀ a, (![o, 0] : Fin 2 → Nat) a + (⟨2, ![m, b]⟩ : Shape).size a ≤ (⟨2, ![N, b]⟩ : Shape).size a)
    (r : Fin m) (k : Fin b) (R : Fin N) (hR : R.val = o + r.val) :
    View.ld X (Rect.unit (s := ⟨2, ![N, b]⟩) ![o, 0] (⟨2, ![m, b]⟩ : Shape).size inb) (ix2 r k) = X (ix2 R k) := by
  show X _ = X _
  refine congrArg X (funext fun a => Fin.ext ?_)
  match a with
  | ⟨0, _⟩ => show o + 1 * r.val = R.val; omega
  | ⟨1, _⟩ => show 0 + 1 * k.val = k.val; omega

/-- The inputs, loaded whole. -/
theorem ld_X (x0 : Vec Ideal S1024x275 .f32) : View.ld x0 rX = x0 :=
  View.ld_unit_zero (S := S1024x275) off00 inb_S1024x275_S1024x275_0_0 x0

/-- The hidden state, loaded whole. -/
theorem ld_H (x1 : Vec Ideal S1024x64 .f32) : View.ld x1 rH = x1 :=
  View.ld_unit_zero (S := S1024x64) off00 inb_S1024x64_S1024x64_0_0 x1

/-! ## The two matrix products and the bias row -/

/-- The encoder's product into the zero accumulator: rows of the left operand against columns of the right. -/
theorem matmul_enc_apply (A : FVec Ideal S1024x275 .f32) (B : FVec Ideal S275x64 .f32) (i : Fin 1024) (j : Fin 64) :
    matmul dot_S1024x275_S275x64_S1024x64_1_0_0_1_n_n none A B (constant (F := Ideal) S1024x64 .f32 0x00000000#32) (ix2 i j)
      = ∑ c : Fin 275, A (ix2 i c) * B (ix2 c j) := by
  refine (Ideal.matmul_constant_zero_apply _ none A B (ix2 i j)).trans ?_
  exact Cert.DotRead.sum_contr_plain dot_S1024x275_S275x64_S1024x64_1_0_0_1_n_n_wf A B i j

/-- A gate's product into the zero accumulator: rows of the left operand against rows of the right. -/
theorem matmul_gate_apply (A : FVec Ideal S1024x64 .f32) (B : FVec Ideal S64x64 .f32) (i : Fin 1024) (j : Fin 64) :
    matmul dot_S1024x64_S64x64_S1024x64_1_1_0_0_n_n none A B (constant (F := Ideal) S1024x64 .f32 0x00000000#32) (ix2 i j)
      = ∑ c : Fin 64, A (ix2 i c) * B (ix2 j c) := by
  refine (Ideal.matmul_constant_zero_apply _ none A B (ix2 i j)).trans ?_
  exact Cert.DotReadRhsT.sum_contr_rhsT dot_S1024x64_S64x64_S1024x64_1_1_0_0_n_n_wf A B i j

/-- A bias row, cast to its own shape and broadcast over the 1024 rows, reads its one row. -/
theorem bias_apply (v : Vec Ideal S1x64 .f32) (i : Fin 1024) (j : Fin 64) :
    broadcastTo S1024x64 (shapeCast S1x64 v shapeCasts_S1x64_S1x64) broadcasts_S1x64_S1024x64 (ix2 i j)
      = v (ix2 (0 : Fin 1) j) := by
  rw [shapeCast_self]
  exact broadcastTo_1b_ab_apply v broadcasts_S1x64_S1024x64 i j

/-! ## The pointwise activations at an index -/

/-- The logistic function of a vector reads the logistic function of its entry. -/
theorem logistic_at {s : Shape} {φ : FTy} (v : FVec Ideal s φ) (i : s.Idx) : logistic v i = Ideal.logistic (v i) := rfl
/-- The hyperbolic tangent of a vector reads the hyperbolic tangent of its entry. -/
theorem tanh_at {s : Shape} {φ : FTy} (v : FVec Ideal s φ) (i : s.Idx) : tanh v i = Ideal.tanh (v i) := rfl

/-! ## The payloads at an index -/

/-- One gate's pre-activation from any left operand: its rows against the weight's rows, plus the bias row. -/
theorem gate_apply (A : FVec Ideal S1024x64 .f32) (W : FVec Ideal S64x64 .f32) (bv : FVec Ideal S1x64 .f32)
    (i : Fin 1024) (j : Fin 64) :
    addf (matmul dot_S1024x64_S64x64_S1024x64_1_1_0_0_n_n none A (shapeCast S64x64 W shapeCasts_S64x64_S64x64)
          (constant (F := Ideal) S1024x64 .f32 0x00000000#32))
        (broadcastTo S1024x64 (shapeCast S1x64 bv shapeCasts_S1x64_S1x64) broadcasts_S1x64_S1024x64) (ix2 i j)
      = (∑ c : Fin 64, A (ix2 i c) * W (ix2 j c)) + bv (ix2 (0 : Fin 1) j) := by
  rw [addf_apply, shapeCast_self, matmul_gate_apply, bias_apply]

/-- The encoder's output: the rectified affine image. -/
theorem pay1_apply (v0 : Vec Ideal S1024x275 .f32) (v1 : Vec Ideal S275x64 .f32) (v4 : Vec Ideal S1x64 .f32)
    (i : Fin 1024) (j : Fin 64) :
    k0_pay1 (F := Ideal) v0 v1 v4 (ix2 i j)
      = max ((∑ c : Fin 275, v0 (ix2 i c) * v1 (ix2 c j)) + v4 (ix2 (0 : Fin 1) j)) 0 := by
  unfold k0_pay1
  refine (maximumf_apply _ _ _).trans ?_
  rw [addf_apply, broadcast_apply, shapeCast_self, matmul_enc_apply, bias_apply]
  show max _ (Ideal.ofBits .f32 0x00000000#32) = _
  rw [Ideal.ofBits_zero_f32]

/-- The first input-side gate. -/
theorem pay2_apply (v0 : Vec Ideal S1024x275 .f32) (v1 : Vec Ideal S275x64 .f32) (v4 : Vec Ideal S1x64 .f32)
    (v11 : Vec Ideal S64x64 .f32) (v14 : Vec Ideal S1x64 .f32) (i : Fin 1024) (j : Fin 64) :
    k0_pay2 (F := Ideal) v0 v1 v4 v11 v14 (ix2 i j)
      = (∑ c : Fin 64, k0_pay1 (F := Ideal) v0 v1 v4 (ix2 i c) * v11 (ix2 j c)) + v14 (ix2 (0 : Fin 1) j) := by
  unfold k0_pay2
  exact gate_apply _ v11 v14 i j

/-- The second input-side gate. -/
theorem pay3_apply (v0 : Vec Ideal S1024x275 .f32) (v1 : Vec Ideal S275x64 .f32) (v4 : Vec Ideal S1x64 .f32)
    (v18 : Vec Ideal S64x64 .f32) (v21 : Vec Ideal S1x64 .f32) (i : Fin 1024) (j : Fin 64) :
    k0_pay3 (F := Ideal) v0 v1 v4 v18 v21 (ix2 i j)
      = (∑ c : Fin 64, k0_pay1 (F := Ideal) v0 v1 v4 (ix2 i c) * v18 (ix2 j c)) + v21 (ix2 (0 : Fin 1) j) := by
  unfold k0_pay3
  exact gate_apply _ v18 v21 i j

/-- The third input-side gate. -/
theorem pay4_apply (v0 : Vec Ideal S1024x275 .f32) (v1 : Vec Ideal S275x64 .f32) (v4 : Vec Ideal S1x64 .f32)
    (v25 : Vec Ideal S64x64 .f32) (v28 : Vec Ideal S1x64 .f32) (i : Fin 1024) (j : Fin 64) :
    k0_pay4 (F := Ideal) v0 v1 v4 v25 v28 (ix2 i j)
      = (∑ c : Fin 64, k0_pay1 (F := Ideal) v0 v1 v4 (ix2 i c) * v25 (ix2 j c)) + v28 (ix2 (0 : Fin 1) j) := by
  unfold k0_pay4
  exact gate_apply _ v25 v28 i j

/-- The cell's update from the three input-side gates' values and the hidden-side operands: the reset and update
    gates are logistic, the candidate a hyperbolic tangent, and the new state mixes the candidate and the old state. -/
theorem pay5_apply (v10 : Vec Ideal S1024x64 .f32) (v17 v24 v31 : FVec Ideal S1024x64 .f32)
    (v32 : Vec Ideal S64x64 .f32) (v35 : Vec Ideal S1x64 .f32) (v39 : Vec Ideal S64x64 .f32) (v42 : Vec Ideal S1x64 .f32)
    (v46 : Vec Ideal S64x64 .f32) (v49 : Vec Ideal S1x64 .f32) (i : Fin 1024) (j : Fin 64) :
    k0_pay5 (F := Ideal) v10 v17 v24 v31 v32 v35 v39 v42 v46 v49 (ix2 i j)
      = (1 - Ideal.logistic (v24 (ix2 i j)
              + ((∑ c : Fin 64, v10 (ix2 i c) * v39 (ix2 j c)) + v42 (ix2 (0 : Fin 1) j))))
          * Ideal.tanh (v31 (ix2 i j)
              + Ideal.logistic (v17 (ix2 i j)
                  + ((∑ c : Fin 64, v10 (ix2 i c) * v32 (ix2 j c)) + v35 (ix2 (0 : Fin 1) j)))
                * ((∑ c : Fin 64, v10 (ix2 i c) * v46 (ix2 j c)) + v49 (ix2 (0 : Fin 1) j)))
        + Ideal.logistic (v24 (ix2 i j)
              + ((∑ c : Fin 64, v10 (ix2 i c) * v39 (ix2 j c)) + v42 (ix2 (0 : Fin 1) j)))
          * v10 (ix2 i j) := by
  unfold k0_pay5
  refine (addf_apply _ _ _).trans ?_
  simp only [addf_apply, mulf_apply, subf_apply, broadcast_apply, tanh_at, logistic_at]
  rw [matmul_gate_apply, matmul_gate_apply, matmul_gate_apply, bias_apply, bias_apply, bias_apply]
  simp only [shapeCast_self]
  show (Ideal.ofBits .f32 0x3F800000#32 - _) * _ + _ = _
  rw [Ideal.ofBits_one_f32]

/-! ## The packed block's views at a gate's rows -/

/-- Gate `g`'s entry `j` of the input-side bias sits in row `529 + g`, column `j`. -/
theorem pkBih_gate (p : Spec.Mat 819 64) (g : Fin 3) (j : Fin 64) (R : Fin 819) (hR : R.val = 529 + g.val) :
    Spec.pkBih p (Spec.gateRow g j) = p R j := by
  have hg := g.isLt
  have hj := j.isLt
  unfold Spec.pkBih
  exact congrArg₂ p (Fin.ext (by show 529 + (g.val * 64 + j.val) / 64 = R.val; omega))
    (Fin.ext (by show (g.val * 64 + j.val) % 64 = j.val; omega))

/-- Gate `g`'s entry `j` of the hidden-side bias sits in row `532 + g`, column `j`. -/
theorem pkBhh_gate (p : Spec.Mat 819 64) (g : Fin 3) (j : Fin 64) (R : Fin 819) (hR : R.val = 532 + g.val) :
    Spec.pkBhh p (Spec.gateRow g j) = p R j := by
  have hg := g.isLt
  have hj := j.isLt
  unfold Spec.pkBhh
  exact congrArg₂ p (Fin.ext (by show 532 + (g.val * 64 + j.val) / 64 = R.val; omega))
    (Fin.ext (by show (g.val * 64 + j.val) % 64 = j.val; omega))

/-- The 64 rows loaded from row `g * 64` are gate `g`'s rows of the input-side weights. -/
theorem wih_rows (x3 : Vec Ideal S819x64 .f32) (g : Fin 3) (o : Nat) (ho : o = g.val * 64)
    (inb : ∀ a, (![o, 0] : Fin 2 → Nat) a + S64x64.size a ≤ S819x64.size a) (j c : Fin 64) :
    View.ld x3 (Rect.unit (s := S819x64) ![o, 0] S64x64.size inb) (ix2 j c)
      = Spec.pkWih (Spec.cur2 x3) (Spec.gateRow g j) c :=
  ld_rows o x3 inb j c ⟨(Spec.gateRow g j).val, by have := (Spec.gateRow g j).isLt; omega⟩
    (by show g.val * 64 + j.val = o + j.val; omega)

/-- The 64 rows loaded from row `192 + g * 64` are gate `g`'s rows of the hidden-side weights. -/
theorem whh_rows (x3 : Vec Ideal S819x64 .f32) (g : Fin 3) (o : Nat) (ho : o = 192 + g.val * 64)
    (inb : ∀ a, (![o, 0] : Fin 2 → Nat) a + S64x64.size a ≤ S819x64.size a) (j c : Fin 64) :
    View.ld x3 (Rect.unit (s := S819x64) ![o, 0] S64x64.size inb) (ix2 j c)
      = Spec.pkWhh (Spec.cur2 x3) (Spec.gateRow g j) c :=
  ld_rows o x3 inb j c ⟨192 + (Spec.gateRow g j).val, by have := (Spec.gateRow g j).isLt; omega⟩
    (by show 192 + (g.val * 64 + j.val) = o + j.val; omega)

/-- The row loaded from row `529 + g` is gate `g`'s part of the input-side bias. -/
theorem bih_row (x3 : Vec Ideal S819x64 .f32) (g : Fin 3) (o : Nat) (ho : o = 529 + g.val)
    (inb : ∀ a, (![o, 0] : Fin 2 → Nat) a + S1x64.size a ≤ S819x64.size a) (j : Fin 64) :
    View.ld x3 (Rect.unit (s := S819x64) ![o, 0] S1x64.size inb) (ix2 (0 : Fin 1) j)
      = Spec.pkBih (Spec.cur2 x3) (Spec.gateRow g j) :=
  (ld_rows o x3 inb 0 j ⟨o, by have := g.isLt; omega⟩ rfl).trans
    (pkBih_gate (Spec.cur2 x3) g j ⟨o, by have := g.isLt; omega⟩ ho).symm

/-- The row loaded from row `532 + g` is gate `g`'s part of the hidden-side bias. -/
theorem bhh_row (x3 : Vec Ideal S819x64 .f32) (g : Fin 3) (o : Nat) (ho : o = 532 + g.val)
    (inb : ∀ a, (![o, 0] : Fin 2 → Nat) a + S1x64.size a ≤ S819x64.size a) (j : Fin 64) :
    View.ld x3 (Rect.unit (s := S819x64) ![o, 0] S1x64.size inb) (ix2 (0 : Fin 1) j)
      = Spec.pkBhh (Spec.cur2 x3) (Spec.gateRow g j) :=
  (ld_rows o x3 inb 0 j ⟨o, by have := g.isLt; omega⟩ rfl).trans
    (pkBhh_gate (Spec.cur2 x3) g j ⟨o, by have := g.isLt; omega⟩ ho).symm

/-! ## The encoder and the gates against the specification -/

/-- The encoder's payload on the loaded operands is the specification's encoder. -/
theorem h1v_apply (x0 : Vec Ideal S1024x275 .f32) (x3 : Vec Ideal S819x64 .f32) (i : Fin 1024) (j : Fin 64) :
    k0_pay1 (F := Ideal) (View.ld x0 rX) (View.ld x3 rP544) (View.ld x3 rP528) (ix2 i j)
      = Spec.h1 (Spec.cur2 x0) (Spec.pkEncW (Spec.cur2 x3)) (Spec.pkEncB (Spec.cur2 x3)) i j := by
  have e1 : ∀ c : Fin 275, View.ld x3 rP544 (ix2 c j) = Spec.pkEncW (Spec.cur2 x3) c j := fun c =>
    ld_rows 544 x3 inb_S819x64_S275x64_544_0 c j ⟨544 + c.val, by have := c.isLt; omega⟩ rfl
  have e2 : View.ld x3 rP528 (ix2 (0 : Fin 1) j) = Spec.pkEncB (Spec.cur2 x3) j :=
    ld_rows 528 x3 inb_S819x64_S1x64_528_0 0 j ⟨528, by omega⟩ rfl
  have es : (∑ c : Fin 275, x0 (ix2 i c) * View.ld x3 rP544 (ix2 c j))
      = ∑ c : Fin 275, x0 (ix2 i c) * Spec.pkEncW (Spec.cur2 x3) c j :=
    Finset.sum_congr rfl fun c _ => by rw [e1 c]
  rw [pay1_apply, ld_X, es, e2]
  rfl

/-- An input-side gate: the encoder's rows against the gate's rows of the input-side weights, plus its bias. -/
theorem gi_of_rows (x0 : Vec Ideal S1024x275 .f32) (x3 : Vec Ideal S819x64 .f32) (g : Fin 3)
    (W : Vec Ideal S64x64 .f32) (bv : Vec Ideal S1x64 .f32)
    (hW : ∀ j c : Fin 64, W (ix2 j c) = Spec.pkWih (Spec.cur2 x3) (Spec.gateRow g j) c)
    (hb : ∀ j : Fin 64, bv (ix2 (0 : Fin 1) j) = Spec.pkBih (Spec.cur2 x3) (Spec.gateRow g j))
    (i : Fin 1024) (j : Fin 64) :
    (∑ c : Fin 64, k0_pay1 (F := Ideal) (View.ld x0 rX) (View.ld x3 rP544) (View.ld x3 rP528) (ix2 i c) * W (ix2 j c))
        + bv (ix2 (0 : Fin 1) j)
      = Spec.gi (Spec.cur2 x0) (Spec.pkEncW (Spec.cur2 x3)) (Spec.pkEncB (Spec.cur2 x3)) (Spec.pkWih (Spec.cur2 x3))
          (Spec.pkBih (Spec.cur2 x3)) g i j := by
  have es : (∑ c : Fin 64, k0_pay1 (F := Ideal) (View.ld x0 rX) (View.ld x3 rP544) (View.ld x3 rP528) (ix2 i c) * W (ix2 j c))
      = ∑ c : Fin 64, Spec.h1 (Spec.cur2 x0) (Spec.pkEncW (Spec.cur2 x3)) (Spec.pkEncB (Spec.cur2 x3)) i c
          * Spec.pkWih (Spec.cur2 x3) (Spec.gateRow g j) c :=
    Finset.sum_congr rfl fun c _ => by rw [h1v_apply x0 x3 i c, hW j c]
  rw [es, hb j]
  rfl

/-- A hidden-side gate: the hidden state's rows against the gate's rows of the hidden-side weights, plus its bias. -/
theorem gh_of_rows (x1 : Vec Ideal S1024x64 .f32) (x3 : Vec Ideal S819x64 .f32) (g : Fin 3)
    (W : Vec Ideal S64x64 .f32) (bv : Vec Ideal S1x64 .f32)
    (hW : ∀ j c : Fin 64, W (ix2 j c) = Spec.pkWhh (Spec.cur2 x3) (Spec.gateRow g j) c)
    (hb : ∀ j : Fin 64, bv (ix2 (0 : Fin 1) j) = Spec.pkBhh (Spec.cur2 x3) (Spec.gateRow g j))
    (i : Fin 1024) (j : Fin 64) :
    (∑ c : Fin 64, x1 (ix2 i c) * W (ix2 j c)) + bv (ix2 (0 : Fin 1) j)
      = Spec.gh (Spec.cur2 x1) (Spec.pkWhh (Spec.cur2 x3)) (Spec.pkBhh (Spec.cur2 x3)) g i j := by
  have es : (∑ c : Fin 64, x1 (ix2 i c) * W (ix2 j c))
      = ∑ c : Fin 64, x1 (ix2 i c) * Spec.pkWhh (Spec.cur2 x3) (Spec.gateRow g j) c :=
    Finset.sum_congr rfl fun c _ => by rw [hW j c]
  rw [es, hb j]
  rfl

/-! ## The new hidden state -/

/-- The kernel's new hidden state, entry by entry, is the specification's. -/
theorem h2v_apply (x0 : FVec Ideal S1024x275 .f32) (x1 : FVec Ideal S1024x64 .f32) (x3 : FVec Ideal S819x64 .f32)
    (i : Fin 1024) (j : Fin 64) :
    h2v (F := Ideal) x0 x1 x3 (ix2 i j)
      = Spec.h2 (Spec.cur2 x0) (Spec.cur2 x1) (Spec.pkEncW (Spec.cur2 x3)) (Spec.pkEncB (Spec.cur2 x3))
          (Spec.pkWih (Spec.cur2 x3)) (Spec.pkWhh (Spec.cur2 x3)) (Spec.pkBih (Spec.cur2 x3)) (Spec.pkBhh (Spec.cur2 x3))
          i j := by
  unfold h2v
  rw [pay5_apply, pay2_apply, pay3_apply, pay4_apply, ld_H,
    gi_of_rows x0 x3 0 (View.ld x3 rP0) (View.ld x3 rP529)
      (wih_rows x3 0 0 rfl inb_S819x64_S64x64_0_0) (bih_row x3 0 529 rfl inb_S819x64_S1x64_529_0) i j,
    gi_of_rows x0 x3 1 (View.ld x3 rP64) (View.ld x3 rP530)
      (wih_rows x3 1 64 rfl inb_S819x64_S64x64_64_0) (bih_row x3 1 530 rfl inb_S819x64_S1x64_530_0) i j,
    gi_of_rows x0 x3 2 (View.ld x3 rP128) (View.ld x3 rP531)
      (wih_rows x3 2 128 rfl inb_S819x64_S64x64_128_0) (bih_row x3 2 531 rfl inb_S819x64_S1x64_531_0) i j,
    gh_of_rows x1 x3 0 (View.ld x3 rP192) (View.ld x3 rP532)
      (whh_rows x3 0 192 rfl inb_S819x64_S64x64_192_0) (bhh_row x3 0 532 rfl inb_S819x64_S1x64_532_0) i j,
    gh_of_rows x1 x3 1 (View.ld x3 rP256) (View.ld x3 rP533)
      (whh_rows x3 1 256 rfl inb_S819x64_S64x64_256_0) (bhh_row x3 1 533 rfl inb_S819x64_S1x64_533_0) i j,
    gh_of_rows x1 x3 2 (View.ld x3 rP320) (View.ld x3 rP534)
      (whh_rows x3 2 320 rfl inb_S819x64_S64x64_320_0) (bhh_row x3 2 534 rfl inb_S819x64_S1x64_534_0) i j]
  rfl

end Cert.KernelIdeal.Hand

end
-- ==== Proof.KPayQ.lean ====
/-
  The head's values read entry by entry: the kernel's payload for its first result, applied to the loads of the
  adjacency block and of the packed parameter block, is the specification's head over the same node features.

  The payload computes the degrees as 1 + Aᵀ·1, their inverse square roots, two graph convolutions
  d ⊙ (Aᵀ·(d ⊙ XW) + d ⊙ XW) + b (the first rectified) and the output layer Y·(Q_Wᵀ)ᵀ + q_b. Each matrix
  product is read at an index as the sum over its contracted coordinate, each broadcast as the row or column entry
  it repeats, and each load through a row range of the packed block as the block's entry at the shifted row.
-/
import proofs.«138646_g48533130445277_cont_sun_m_870_17_alg».proof.Proof.KDefs
import proofs.«138646_g48533130445277_cont_sun_m_870_17_alg».proof.Proof.Spec
import proofs.«138646_g48533130445277_cont_sun_m_870_17_alg».proof.Proof.LibDotRead
import proofs.«138646_g48533130445277_cont_sun_m_870_17_alg».proof.Proof.LibDotReadRhsT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-! ## Literals -/

/-- The word 0x3F800000 is the number one. -/
theorem ofBits_one_f32 : Ideal.ofBits .f32 0x3F800000#32 = 1 := by
  simp [Ideal.ofBits, Ideal.ieee, -EReal.coe_mul]; norm_num

/-! ## Loads through row ranges -/

/-- A load through the unit-stride rectangle of n rows from row off and the first m columns, read at (r, k), is
    the array's entry at row off + r, column k. -/
theorem ld_rows_apply {N C n m : Nat} (x : (⟨2, ![N, C]⟩ : Shape).Idx → EReal) (off : Nat)
    (inb : ∀ a, (![off, 0] : Fin 2 → Nat) a + (![n, m] : Fin 2 → Nat) a ≤ (⟨2, ![N, C]⟩ : Shape).size a)
    (r : Fin n) (k : Fin m) (R : Fin N) (K : Fin C) (hR : R.val = off + r.val) (hK : K.val = k.val) :
    View.ld (Val := Elt Ideal) (e' := .f32) x (Rect.unit (s := ⟨2, ![N, C]⟩) ![off, 0] ![n, m] inb) (ix2 r k) = x (ix2 R K) := by
  show x _ = x _
  refine congrArg x (funext fun a => Fin.ext ?_)
  match a with
  | ⟨0, _⟩ => show off + 1 * r.val = R.val; omega
  | ⟨1, _⟩ => show 0 + 1 * k.val = K.val; omega

/-- The first convolution's weights: rows 384 to 447 of the packed block. -/
theorem ld_g1W (x3 : FVec Ideal S819x64 .f32) (k c : Fin 64) :
    View.ld (Val := Elt Ideal) (e' := .f32) x3 rP384 (ix2 k c) = Spec.pkG1W (Spec.cur2 x3) k c :=
  ld_rows_apply x3 384 inb_S819x64_S64x64_384_0 k c _ _ rfl rfl

/-- The second convolution's weights: rows 448 to 511. -/
theorem ld_g2W (x3 : FVec Ideal S819x64 .f32) (k c : Fin 64) :
    View.ld (Val := Elt Ideal) (e' := .f32) x3 rP448 (ix2 k c) = Spec.pkG2W (Spec.cur2 x3) k c :=
  ld_rows_apply x3 448 inb_S819x64_S64x64_448_0 k c _ _ rfl rfl

/-- The output layer's weights, stored transposed: rows 512 to 527. -/
theorem ld_qW (x3 : FVec Ideal S819x64 .f32) (a : Fin 16) (k : Fin 64) :
    View.ld (Val := Elt Ideal) (e' := .f32) x3 rP512 (ix2 a k) = Spec.pkQW (Spec.cur2 x3) k a :=
  ld_rows_apply x3 512 inb_S819x64_S16x64_512_0 a k _ _ rfl rfl

/-- The first convolution's bias: row 535. -/
theorem ld_g1b (x3 : FVec Ideal S819x64 .f32) (c : Fin 64) :
    View.ld (Val := Elt Ideal) (e' := .f32) x3 rP535 (ix2 (0 : Fin 1) c) = Spec.pkG1b (Spec.cur2 x3) c :=
  ld_rows_apply x3 535 inb_S819x64_S1x64_535_0 0 c _ _ rfl rfl

/-- The second convolution's bias: row 536. -/
theorem ld_g2b (x3 : FVec Ideal S819x64 .f32) (c : Fin 64) :
    View.ld (Val := Elt Ideal) (e' := .f32) x3 rP536 (ix2 (0 : Fin 1) c) = Spec.pkG2b (Spec.cur2 x3) c :=
  ld_rows_apply x3 536 inb_S819x64_S1x64_536_0 0 c _ _ rfl rfl

/-- The output layer's bias: the first sixteen entries of row 537. -/
theorem ld_qb (x3 : FVec Ideal S819x64 .f32) (a : Fin 16) :
    View.ld (Val := Elt Ideal) (e' := .f32) x3 rP537 (ix2 (0 : Fin 1) a) = Spec.pkQb (Spec.cur2 x3) a :=
  ld_rows_apply x3 537 inb_S819x64_S1x16_537_0 0 a _ _ rfl rfl

/-- The adjacency block is loaded whole. -/
theorem ld_adj (x2 : FVec Ideal S1024x1024 .f32) : View.ld (Val := Elt Ideal) (e' := .f32) x2 rA = x2 :=
  View.ld_unit_zero (Val := Elt Ideal) (e := .f32) (S := S1024x1024) (funext fun a => by match a with | ⟨0, _⟩ => rfl | ⟨1, _⟩ => rfl) _ x2

/-! ## Broadcasts -/

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four matrix products at an index -/

/-- Aᵀ·u for a column u: the sum over the rows of A. -/
theorem matmul_deg_apply (A : FVec Ideal S1024x1024 .f32) (B : FVec Ideal S1024x1 .f32) (a : Fin 1024) (b : Fin 1) :
    matmul dot_S1024x1024_S1024x1_S1024x1_0_0_1_1_n_n none A B (constant S1024x1 .f32 0x00000000#32) (ix2 a b)
      = ∑ c : Fin 1024, A (ix2 c a) * B (ix2 c b) :=
  (Ideal.matmul_constant_zero_apply dot_S1024x1024_S1024x1_S1024x1_0_0_1_1_n_n none A B (ix2 a b)).trans
    (Cert.DotRead.sum_contr_lhsT (m := 1024) (k := 1024) (n := 1) _ A B a b)

/-- Aᵀ·U for node features U: the sum over the rows of A. -/
theorem matmul_agg_apply (A : FVec Ideal S1024x1024 .f32) (B : FVec Ideal S1024x64 .f32) (a : Fin 1024) (b : Fin 64) :
    matmul dot_S1024x1024_S1024x64_S1024x64_0_0_1_1_n_n none A B (constant S1024x64 .f32 0x00000000#32) (ix2 a b)
      = ∑ c : Fin 1024, A (ix2 c a) * B (ix2 c b) :=
  (Ideal.matmul_constant_zero_apply dot_S1024x1024_S1024x64_S1024x64_0_0_1_1_n_n none A B (ix2 a b)).trans
    (Cert.DotRead.sum_contr_lhsT (m := 1024) (k := 1024) (n := 64) _ A B a b)

/-- X·W: the sum over the features. -/
theorem matmul_xw_apply (A : FVec Ideal S1024x64 .f32) (B : FVec Ideal S64x64 .f32) (a : Fin 1024) (b : Fin 64) :
    matmul dot_S1024x64_S64x64_S1024x64_1_0_0_1_n_n none A B (constant S1024x64 .f32 0x00000000#32) (ix2 a b)
      = ∑ c : Fin 64, A (ix2 a c) * B (ix2 c b) :=
  (Ideal.matmul_constant_zero_apply dot_S1024x64_S64x64_S1024x64_1_0_0_1_n_n none A B (ix2 a b)).trans
    (Cert.DotRead.sum_contr_plain (m := 1024) (k := 64) (n := 64) _ A B a b)

/-- Y·Qᵀ for Q stored by rows: the sum over the features. -/
theorem matmul_q_apply (A : FVec Ideal S1024x64 .f32) (B : FVec Ideal S16x64 .f32) (a : Fin 1024) (b : Fin 16) :
    matmul dot_S1024x64_S16x64_S1024x16_1_1_0_0_n_n none A B (constant S1024x16 .f32 0x00000000#32) (ix2 a b)
      = ∑ c : Fin 64, A (ix2 a c) * B (ix2 b c) :=
  (Ideal.matmul_constant_zero_apply dot_S1024x64_S16x64_S1024x16_1_1_0_0_n_n none A B (ix2 a b)).trans
    (Cert.DotReadRhsT.sum_contr_rhsT (m := 1024) (k := 64) (n := 16) _ A B a b)

/-! ## The degrees -/

/-- The degree payload at node j: one plus the sum of column j of the adjacency block. -/
theorem pay6_apply (A : FVec Ideal S1024x1024 .f32) (j : Fin 1024) :
    k0_pay6 (F := Ideal) A (ix2 j (0 : Fin 1)) = Spec.deg (Spec.cur2 A) j := by
  show Ideal.ofBits .f32 0x3F800000#32
      + matmul dot_S1024x1024_S1024x1_S1024x1_0_0_1_1_n_n none A (broadcast S1024x1 (Ideal.ofBits .f32 0x3F800000#32))
          (constant (F := Ideal) S1024x1 .f32 0x00000000#32) (ix2 j (0 : Fin 1))
      = 1 + ∑ i : Fin 1024, A (ix2 i j) * 1
  rw [matmul_deg_apply, ofBits_one_f32]
  rfl

/-! ## One graph convolution -/

/-- One graph convolution as the payload spells it: with d the inverse square roots of the degrees as a column,
    d ⊙ (Aᵀ·(d ⊙ XW) + d ⊙ XW) + b, the bias row repeated down the nodes. -/
def convK (X : FVec Ideal S1024x64 .f32) (A : FVec Ideal S1024x1024 .f32) (dv : FVec Ideal S1024x1 .f32)
    (W : FVec Ideal S64x64 .f32) (b : FVec Ideal S1x64 .f32) : FVec Ideal S1024x64 .f32 :=
  addf
    (mulf (broadcastTo S1024x64 dv broadcasts_S1024x1_S1024x64)
      (addf
        (matmul dot_S1024x1024_S1024x64_S1024x64_0_0_1_1_n_n none A
          (mulf (broadcastTo S1024x64 dv broadcasts_S1024x1_S1024x64)
            (matmul dot_S1024x64_S64x64_S1024x64_1_0_0_1_n_n none X (shapeCast S64x64 W shapeCasts_S64x64_S64x64)
              (constant (F := Ideal) S1024x64 .f32 0x00000000#32)))
          (constant (F := Ideal) S1024x64 .f32 0x00000000#32))
        (mulf (broadcastTo S1024x64 dv broadcasts_S1024x1_S1024x64)
          (matmul dot_S1024x64_S64x64_S1024x64_1_0_0_1_n_n none X (shapeCast S64x64 W shapeCasts_S64x64_S64x64)
            (constant (F := Ideal) S1024x64 .f32 0x00000000#32)))))
    (broadcastTo S1024x64 (shapeCast S1x64 b shapeCasts_S1x64_S1x64) broadcasts_S1x64_S1024x64)

/-- The convolution at node j, feature c. -/
theorem convK_apply (X : FVec Ideal S1024x64 .f32) (A : FVec Ideal S1024x1024 .f32) (dv : FVec Ideal S1024x1 .f32)
    (W : FVec Ideal S64x64 .f32) (b : FVec Ideal S1x64 .f32) (j : Fin 1024) (c : Fin 64) :
    convK X A dv W b (ix2 j c)
      = dv (ix2 j (0 : Fin 1))
          * ((∑ i : Fin 1024, A (ix2 i j) * (dv (ix2 i (0 : Fin 1)) * ∑ k : Fin 64, X (ix2 i k) * W (ix2 k c)))
            + dv (ix2 j (0 : Fin 1)) * ∑ k : Fin 64, X (ix2 j k) * W (ix2 k c))
        + b (ix2 (0 : Fin 1) c) := by
  unfold convK
  simp only [shapeCast_self]
  simp only [addf_apply, mulf_apply, matmul_agg_apply, matmul_xw_apply, broadcastTo_a1_ab_apply,
    broadcastTo_1b_ab_apply]

/-- The convolution is the specification's, once its operands are the specification's entry by entry. -/
theorem convK_eq_conv (X : FVec Ideal S1024x64 .f32) (A : FVec Ideal S1024x1024 .f32) (dv : FVec Ideal S1024x1 .f32)
    (W : FVec Ideal S64x64 .f32) (b : FVec Ideal S1x64 .f32)
    (adj : Spec.Mat 1024 1024) (Xs : Spec.Mat 1024 64) (Ws : Spec.Mat 64 64) (bs : Spec.Vc 64)
    (hA : ∀ (i j : Fin 1024), A (ix2 i j) = adj i j)
    (hdv : ∀ j : Fin 1024, dv (ix2 j (0 : Fin 1)) = Spec.dinv adj j)
    (hX : ∀ (i : Fin 1024) (k : Fin 64), X (ix2 i k) = Xs i k)
    (hW : ∀ (k c : Fin 64), W (ix2 k c) = Ws k c)
    (hb : ∀ c : Fin 64, b (ix2 (0 : Fin 1) c) = bs c) (j : Fin 1024) (c : Fin 64) :
    convK X A dv W b (ix2 j c) = Spec.conv adj Xs Ws bs j c := by
  rw [convK_apply]
  unfold Spec.conv
  simp only [hA, hdv, hX, hW, hb]

/-! ## The head -/

/-- The head's payload is the output layer over the second convolution of the rectified first. -/
theorem pay7_eq (H : FVec Ideal S1024x64 .f32) (A : FVec Ideal S1024x1024 .f32) (v70 : FVec Ideal S1024x1 .f32)
    (W1 : FVec Ideal S64x64 .f32) (b1 : FVec Ideal S1x64 .f32) (W2 : FVec Ideal S64x64 .f32) (b2 : FVec Ideal S1x64 .f32)
    (QW : FVec Ideal S16x64 .f32) (qb : FVec Ideal S1x16 .f32) :
    k0_pay7 (F := Ideal) H A v70 W1 b1 W2 b2 QW qb
      = addf
          (matmul dot_S1024x64_S16x64_S1024x16_1_1_0_0_n_n none
            (convK (maximumf (convK H A (rsqrt v70) W1 b1) (broadcast S1024x64 (Ideal.ofBits .f32 0x00000000#32))) A
              (rsqrt v70) W2 b2)
            (shapeCast S16x64 QW shapeCasts_S16x64_S16x64) (constant (F := Ideal) S1024x16 .f32 0x00000000#32))
          (broadcastTo S1024x16 (shapeCast S1x16 qb shapeCasts_S1x16_S1x16) broadcasts_S1x16_S1024x16) := by
  unfold k0_pay7 convK
  rfl

/-- The head's values at node i, action a: the specification's head over the same node features. -/
theorem qvOf_apply (H : FVec Ideal S1024x64 .f32) (x2 : FVec Ideal S1024x1024 .f32) (x3 : FVec Ideal S819x64 .f32)
    (i : Fin 1024) (a : Fin 16) :
    qvOf (F := Ideal) H x2 x3 (ix2 i a)
      = Spec.qOf (Spec.cur2 x2) (Spec.pkG1W (Spec.cur2 x3)) (Spec.pkG1b (Spec.cur2 x3)) (Spec.pkG2W (Spec.cur2 x3))
          (Spec.pkG2b (Spec.cur2 x3)) (Spec.pkQW (Spec.cur2 x3)) (Spec.pkQb (Spec.cur2 x3)) (Spec.cur2 H) i a := by
  have hdv : ∀ j : Fin 1024,
      rsqrt (k0_pay6 (F := Ideal) x2) (ix2 j (0 : Fin 1)) = Spec.dinv (Spec.cur2 x2) j := fun j => by
    show Ideal.rsqrt (k0_pay6 (F := Ideal) x2 (ix2 j (0 : Fin 1))) = _
    rw [pay6_apply]
    rfl
  unfold qvOf
  rw [ld_adj, pay7_eq, addf_apply, matmul_q_apply, shapeCast_self, shapeCast_self, broadcastTo_1b_ab_apply, ld_qb]
  unfold Spec.qOf
  refine congrArg (· + _) (Finset.sum_congr rfl fun k _ => ?_)
  rw [ld_qW]
  refine congrArg (· * _) ?_
  unfold Spec.h4
  refine convK_eq_conv _ _ _ _ _ (Spec.cur2 x2) _ _ _ (fun _ _ => rfl) hdv (fun p q => ?_)
    (fun p q => ld_g2W x3 p q) (fun q => ld_g2b x3 q) i k
  rw [maximumf_apply, broadcast_apply]
  unfold Spec.h3
  refine congrArg₂ max ?_ Ideal.ofBits_zero_f32
  exact convK_eq_conv _ _ _ _ _ (Spec.cur2 x2) _ _ _ (fun _ _ => rfl) hdv (fun _ _ => rfl)
    (fun p q => ld_g1W x3 p q) (fun q => ld_g1b x3 q) p q

end Cert.KernelIdeal.Hand

end
-- ==== Proof.RefGru.lean ====
/-
  The reference's encoder and GRU cell read entry by entry: each stage of the program, evaluated at a coordinate of
  its result, is the corresponding function of the specification.

  A matrix product read at (a, b) is the sum over the contracted coordinate; a bias spread over the rows reads the
  bias at the column; the column slice at offset 64 g of a [1024, 192] array reads column 64 g + j; and the
  program's 1 / (1 + exp (-v)) is the logistic function by definition.
-/
import proofs.«138646_g48533130445277_cont_sun_m_870_17_alg».proof.Proof.RefStages
import proofs.«138646_g48533130445277_cont_sun_m_870_17_alg».proof.Proof.Spec
import proofs.«138646_g48533130445277_cont_sun_m_870_17_alg».proof.Proof.LibDotRead
import Idealize.ShloMosaic.Lib.ValueLayout
import Idealize.ShloMosaic.Lib.IdealHost

noncomputable section

open scoped BigOperators

namespace Cert.ReferenceIdeal.Hand

open Cert.ReferenceIdeal
open Idealize.ShloMosaic Idealize.ShloMosaic.ValueIdx
open Cert.ReferenceIdeal.Facts₀ Cert.ReferenceIdeal.Facts

/-! ## Single operations at a coordinate -/

/-- A plain matrix product at (a, b): the sum over the contracted coordinate c of A (a, c) * B (c, b). -/
theorem dot_plain_apply {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (F := Ideal) (⟨[1], [0], [0], [1], [], [], w⟩ : DotDims ⟨2, ![m, k]⟩ ⟨2, ![k, n]⟩ ⟨2, ![m, n]⟩) none A B (ix2 a b)
      = ∑ c : Fin k, A (ix2 a c) * B (ix2 c b) :=
  (Ideal.dotGeneral_apply _ _ _ _ _ _).trans (Cert.DotRead.sum_contr_plain w A B a b)

/-- A vector of length m spread over the rows of an [n, m] array reads, at (i, j), its j-th entry. -/
theorem rowBias_apply {n m : Nat} (h1 : (⟨1, ![m]⟩ : Shape).BroadcastsInDim ⟨2, ![1, m]⟩ ![1])
    (h2 : (⟨2, ![1, m]⟩ : Shape).BroadcastsInDim ⟨2, ![n, m]⟩ ![0, 1])
    (b : FVec Ideal ⟨1, ![m]⟩ .f32) (i : Fin n) (j : Fin m) :
    broadcastInDim ⟨2, ![n, m]⟩ ![0, 1] h2 (broadcastInDim ⟨2, ![1, m]⟩ ![1] h1 b) (ix2 i j) = b (ix1 j) := by
  refine (broadcastInDim_apply _ h2 _ (ix2 i j) (ix2 (0 : Fin 1) j) fun a => ?_).trans
    (broadcastInDim_apply _ h1 b (ix2 (0 : Fin 1) j) (ix1 j) fun a => ?_)
  · match a with
    | ⟨0, _⟩ => exact (if_pos rfl).symm
    | ⟨1, _⟩ =>
      show j.val = if m = 1 then 0 else j.val
      split_ifs with hm
      · subst hm; exact Fin.val_eq_zero j
      · rfl
  · match a with
    | ⟨0, _⟩ =>
      show j.val = if m = 1 then 0 else j.val
      split_ifs with hm
      · subst hm; exact Fin.val_eq_zero j
      · rfl

/-- A constant spread over [1024, 64] reads the constant. -/
theorem splat64_apply (w : BitVec 32) (i : Fin 1024) (j : Fin 64) :
    splat64 (F := Ideal) w (ix2 i j) = Ideal.ofBits .f32 w :=
  broadcastInDim_scalar_apply _ _ _

/-- The rectifier at a coordinate. -/
theorem relu_apply (v : FVec Ideal S1024x64 .f32) (i : Fin 1024) (j : Fin 64) :
    relu v (ix2 i j) = max (v (ix2 i j)) 0 := by
  show max (v (ix2 i j)) (splat64 (F := Ideal) 0x00000000#32 (ix2 i j)) = _
  rw [splat64_apply, Ideal.ofBits_zero_f32]

/-- The three column slices: slice g reads column 64 g + j. -/
theorem sl0_apply (v : FVec Ideal S1024x192 .f32) (i : Fin 1024) (j : Fin 64) :
    sl0 v (ix2 i j) = v (ix2 i (Spec.gateRow 0 j)) :=
  slice2_axis1_apply 0 v _ i j (Spec.gateRow 0 j) (by show (0 : Fin 3).val * 64 + j.val = 0 + j.val; simp)
theorem sl1_apply (v : FVec Ideal S1024x192 .f32) (i : Fin 1024) (j : Fin 64) :
    sl1 v (ix2 i j) = v (ix2 i (Spec.gateRow 1 j)) :=
  slice2_axis1_apply 64 v _ i j (Spec.gateRow 1 j) (by show (1 : Fin 3).val * 64 + j.val = 64 + j.val; simp)
theorem sl2_apply (v : FVec Ideal S1024x192 .f32) (i : Fin 1024) (j : Fin 64) :
    sl2 v (ix2 i j) = v (ix2 i (Spec.gateRow 2 j)) :=
  slice2_axis1_apply 128 v _ i j (Spec.gateRow 2 j) (by show (2 : Fin 3).val * 64 + j.val = 128 + j.val; simp)

/-- The program's 1 / (1 + exp (-v)) at a coordinate is the logistic function there. -/
theorem st_sig_apply (v : FVec Ideal S1024x64 .f32) (i : Fin 1024) (j : Fin 64) :
    st_sig v (ix2 i j) = Ideal.logistic (v (ix2 i j)) := by
  show Ideal.div (splat64 (F := Ideal) 0x3F800000#32 (ix2 i j))
      (splat64 (F := Ideal) 0x3F800000#32 (ix2 i j) + Ideal.exp (-(v (ix2 i j)))) = _
  rw [splat64_apply, Ideal.ofBits_one_f32]
  rfl

/-! ## The stages -/

/-- The encoder at (i, j). -/
theorem st_h1_apply (a0 : FVec Ideal S1024x275 .f32) (a3 : FVec Ideal S275x64 .f32) (a4 : FVec Ideal S64 .f32)
    (i : Fin 1024) (j : Fin 64) :
    st_h1 (F := Ideal) a0 a3 a4 (ix2 i j) = Spec.h1 (Spec.cur2 a0) (Spec.cur2 a3) (Spec.cur1 a4) i j := by
  unfold st_h1
  rw [relu_apply, addf_apply, rowBias_apply]
  unfold dot_S1024x275_S275x64_S1024x64_1_0_0_1_n_n
  rw [dot_plain_apply]
  rfl

/-- The gate array X · wᵀ + b at (i, r): the sum over k of X (i, k) * w (r, k), plus b r. -/
theorem st_gates_apply (X : FVec Ideal S1024x64 .f32) (w : FVec Ideal S192x64 .f32) (b : FVec Ideal S192 .f32)
    (i : Fin 1024) (r : Fin 192) :
    st_gates (F := Ideal) X w b (ix2 i r) = (∑ k : Fin 64, X (ix2 i k) * w (ix2 r k)) + b (ix1 r) := by
  unfold st_gates
  rw [addf_apply, rowBias_apply]
  unfold dot_S1024x64_S64x192_S1024x192_1_0_0_1_n_n
  rw [dot_plain_apply]
  refine congrArg (· + b (ix1 r)) (Finset.sum_congr rfl fun k _ => ?_)
  rw [transpose_ix2_apply]

/-- Gate g's pre-activation from the encoded input. -/
theorem st_gates_h1_apply (a0 : FVec Ideal S1024x275 .f32) (a3 : FVec Ideal S275x64 .f32) (a4 : FVec Ideal S64 .f32)
    (a5 : FVec Ideal S192x64 .f32) (a7 : FVec Ideal S192 .f32) (g : Fin 3) (i : Fin 1024) (j : Fin 64) :
    st_gates (F := Ideal) (st_h1 a0 a3 a4) a5 a7 (ix2 i (Spec.gateRow g j))
      = Spec.gi (Spec.cur2 a0) (Spec.cur2 a3) (Spec.cur1 a4) (Spec.cur2 a5) (Spec.cur1 a7) g i j := by
  rw [st_gates_apply]
  unfold Spec.gi
  refine congrArg (· + a7 (ix1 (Spec.gateRow g j))) (Finset.sum_congr rfl fun k _ => ?_)
  rw [st_h1_apply]

/-- Gate g's pre-activation from the hidden state. -/
theorem st_gates_h_apply (a1 : FVec Ideal S1024x64 .f32) (a6 : FVec Ideal S192x64 .f32) (a8 : FVec Ideal S192 .f32)
    (g : Fin 3) (i : Fin 1024) (j : Fin 64) :
    st_gates (F := Ideal) a1 a6 a8 (ix2 i (Spec.gateRow g j))
      = Spec.gh (Spec.cur2 a1) (Spec.cur2 a6) (Spec.cur1 a8) g i j :=
  st_gates_apply a1 a6 a8 i (Spec.gateRow g j)

/-- The GRU cell at (i, j), from the two gate arrays read at the three gates' columns. -/
theorem st_gru_apply (gi gh : FVec Ideal S1024x192 .f32) (a1 : FVec Ideal S1024x64 .f32) (i : Fin 1024) (j : Fin 64) :
    st_gru (F := Ideal) gi gh a1 (ix2 i j)
      = (1 - Ideal.logistic (gi (ix2 i (Spec.gateRow 1 j)) + gh (ix2 i (Spec.gateRow 1 j))))
          * Ideal.tanh (gi (ix2 i (Spec.gateRow 2 j))
              + Ideal.logistic (gi (ix2 i (Spec.gateRow 0 j)) + gh (ix2 i (Spec.gateRow 0 j))) * gh (ix2 i (Spec.gateRow 2 j)))
        + Ideal.logistic (gi (ix2 i (Spec.gateRow 1 j)) + gh (ix2 i (Spec.gateRow 1 j))) * a1 (ix2 i j) := by
  unfold st_gru
  rw [addf_apply, mulf_apply, mulf_apply, subf_apply, splat64_apply, Ideal.ofBits_one_f32, st_sig_apply, addf_apply,
    sl1_apply, sl1_apply]
  show _ * Ideal.tanh (addf (sl2 gi) (mulf (st_sig (addf (sl0 gi) (sl0 gh))) (sl2 gh)) (ix2 i j)) + _ = _
  rw [addf_apply, mulf_apply, st_sig_apply, addf_apply, sl0_apply, sl0_apply, sl2_apply, sl2_apply]

/-- The new hidden state at (i, j) is the specification's. -/
theorem st_h2_apply (a0 : FVec Ideal S1024x275 .f32) (a1 : FVec Ideal S1024x64 .f32) (a3 : FVec Ideal S275x64 .f32)
    (a4 : FVec Ideal S64 .f32) (a5 a6 : FVec Ideal S192x64 .f32) (a7 a8 : FVec Ideal S192 .f32)
    (i : Fin 1024) (j : Fin 64) :
    st_h2 (F := Ideal) a0 a1 a3 a4 a5 a6 a7 a8 (ix2 i j)
      = Spec.h2 (Spec.cur2 a0) (Spec.cur2 a1) (Spec.cur2 a3) (Spec.cur1 a4) (Spec.cur2 a5) (Spec.cur2 a6)
          (Spec.cur1 a7) (Spec.cur1 a8) i j := by
  unfold st_h2
  rw [st_gru_apply]
  simp only [st_gates_h1_apply]
  simp only [st_gates_h_apply]
  rfl

end Cert.ReferenceIdeal.Hand

end
-- ==== Proof.RefHead.lean ====
/-
  The reference's head read entry by entry: two graph convolutions, the first rectified, then the output layer.

  Given that one convolution stage of the program, read at a coordinate, is the specification's convolution of the
  arrays it is applied to, the rectified first convolution read through its coordinates is the specification's h3,
  the second convolution is h4, and the output layer is the matrix product with q_W plus q_b.
-/
import proofs.«138646_g48533130445277_cont_sun_m_870_17_alg».proof.Proof.RefStages
import proofs.«138646_g48533130445277_cont_sun_m_870_17_alg».proof.Proof.Spec
import proofs.«138646_g48533130445277_cont_sun_m_870_17_alg».proof.Proof.LibDotRead
import Idealize.ShloMosaic.Lib.ValueLayout
import Idealize.ShloMosaic.Lib.IdealHost

noncomputable section

open scoped BigOperators

namespace Cert.ReferenceIdeal.Hand

open Cert.ReferenceIdeal
open Idealize.ShloMosaic Idealize.ShloMosaic.ValueIdx
open Cert.ReferenceIdeal.Facts₀ Cert.ReferenceIdeal.Facts

/-! ## Single operations at a coordinate -/

/-- A plain matrix product at (a, b): the sum over the contracted coordinate c of A (a, c) * B (c, b). -/
private theorem dot_plain_apply {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (F := Ideal) (⟨[1], [0], [0], [1], [], [], w⟩ : DotDims ⟨2, ![m, k]⟩ ⟨2, ![k, n]⟩ ⟨2, ![m, n]⟩) none A B (ix2 a b)
      = ∑ c : Fin k, A (ix2 a c) * B (ix2 c b) :=
  (Ideal.dotGeneral_apply _ _ _ _ _ _).trans (Cert.DotRead.sum_contr_plain w A B a b)

/-- A vector of length m spread over the rows of an [n, m] array reads, at (i, j), its j-th entry. -/
private theorem rowBias_apply {n m : Nat} (h1 : (⟨1, ![m]⟩ : Shape).BroadcastsInDim ⟨2, ![1, m]⟩ ![1])
    (h2 : (⟨2, ![1, m]⟩ : Shape).BroadcastsInDim ⟨2, ![n, m]⟩ ![0, 1])
    (b : FVec Ideal ⟨1, ![m]⟩ .f32) (i : Fin n) (j : Fin m) :
    broadcastInDim ⟨2, ![n, m]⟩ ![0, 1] h2 (broadcastInDim ⟨2, ![1, m]⟩ ![1] h1 b) (ix2 i j) = b (ix1 j) := by
  refine (broadcastInDim_apply _ h2 _ (ix2 i j) (ix2 (0 : Fin 1) j) fun a => ?_).trans
    (broadcastInDim_apply _ h1 b (ix2 (0 : Fin 1) j) (ix1 j) fun a => ?_)
  · match a with
    | ⟨0, _⟩ => exact (if_pos rfl).symm
    | ⟨1, _⟩ =>
      show j.val = if m = 1 then 0 else j.val
      split_ifs with hm
      · subst hm; exact Fin.val_eq_zero j
      · rfl
  · match a with
    | ⟨0, _⟩ =>
      show j.val = if m = 1 then 0 else j.val
      split_ifs with hm
      · subst hm; exact Fin.val_eq_zero j
      · rfl

/-- The rectifier at a coordinate. -/
private theorem relu_apply (v : FVec Ideal S1024x64 .f32) (i : Fin 1024) (j : Fin 64) :
    relu v (ix2 i j) = max (v (ix2 i j)) 0 := by
  show max (v (ix2 i j)) (splat64 (F := Ideal) 0x00000000#32 (ix2 i j)) = _
  rw [show splat64 (F := Ideal) 0x00000000#32 (ix2 i j) = Ideal.ofBits .f32 0x00000000#32 from
    broadcastInDim_scalar_apply _ _ _, Ideal.ofBits_zero_f32]

/-! ## The head -/

/-- The rectified first convolution, read through its coordinates, is the specification's h3. -/
theorem relu_conv_cur2 (a2 : FVec Ideal S1024x1024 .f32) (X : FVec Ideal S1024x64 .f32) (a9 : FVec Ideal S64x64 .f32)
    (a10 : FVec Ideal S64 .f32)
    (hconv : ∀ (Y : FVec Ideal S1024x64 .f32) (W : FVec Ideal S64x64 .f32) (b : FVec Ideal S64 .f32) (j : Fin 1024) (c : Fin 64),
      st_conv (F := Ideal) a2 Y W b (ix2 j c) = Spec.conv (Spec.cur2 a2) (Spec.cur2 Y) (Spec.cur2 W) (Spec.cur1 b) j c) :
    Spec.cur2 (relu (st_conv (F := Ideal) a2 X a9 a10))
      = Spec.h3 (Spec.cur2 a2) (Spec.cur2 a9) (Spec.cur1 a10) (Spec.cur2 X) := by
  funext j c
  show relu (st_conv (F := Ideal) a2 X a9 a10) (ix2 j c) = _
  rw [relu_apply, hconv]
  rfl

/-- The head at (i, a) is the specification's. -/
theorem st_qOf_apply (a2 : FVec Ideal S1024x1024 .f32) (X : FVec Ideal S1024x64 .f32) (a9 : FVec Ideal S64x64 .f32)
    (a10 : FVec Ideal S64 .f32) (a11 : FVec Ideal S64x64 .f32) (a12 : FVec Ideal S64 .f32) (a13 : FVec Ideal S64x16 .f32)
    (a14 : FVec Ideal S16 .f32)
    (hconv : ∀ (Y : FVec Ideal S1024x64 .f32) (W : FVec Ideal S64x64 .f32) (b : FVec Ideal S64 .f32) (j : Fin 1024) (c : Fin 64),
      st_conv (F := Ideal) a2 Y W b (ix2 j c) = Spec.conv (Spec.cur2 a2) (Spec.cur2 Y) (Spec.cur2 W) (Spec.cur1 b) j c)
    (i : Fin 1024) (a : Fin 16) :
    st_qOf (F := Ideal) a2 X a9 a10 a11 a12 a13 a14 (ix2 i a)
      = Spec.qOf (Spec.cur2 a2) (Spec.cur2 a9) (Spec.cur1 a10) (Spec.cur2 a11) (Spec.cur1 a12) (Spec.cur2 a13) (Spec.cur1 a14)
          (Spec.cur2 X) i a := by
  unfold st_qOf
  rw [addf_apply, rowBias_apply]
  unfold dot_S1024x64_S64x16_S1024x16_1_0_0_1_n_n
  rw [dot_plain_apply]
  unfold Spec.qOf Spec.h4
  refine congrArg (· + a14 (ix1 a)) (Finset.sum_congr rfl fun k _ => ?_)
  rw [hconv, relu_conv_cur2 a2 X a9 a10 hconv]

end Cert.ReferenceIdeal.Hand

end
-- ==== Proof.EdgeIdx.lean ====
/-
  The edge list of the complete directed graph on 1024 nodes with its self-loops appended, by position.

  Edge number e < 1024 * 1024 is the pair (e / 1024, e mod 1024), source first; edge number 1024 * 1024 + k is the
  self-loop at node k. 1049600 edges in all.
-/
import Mathlib.Algebra.BigOperators.Fin

namespace Cert.EdgeIdx

/-- The position of the pair (i, j). -/
def pair (i j : Fin 1024) : Fin 1049600 := ⟨i.val * 1024 + j.val, by have := i.isLt; have := j.isLt; omega⟩
/-- The position of the self-loop at k. -/
def loop (k : Fin 1024) : Fin 1049600 := ⟨1048576 + k.val, by have := k.isLt; omega⟩
/-- Edge e's source. -/
def srcOf (e : Fin 1049600) : Fin 1024 :=
  if h : e.val < 1048576 then ⟨e.val / 1024, by omega⟩ else ⟨e.val - 1048576, by have := e.isLt; omega⟩
/-- Edge e's destination. -/
def dstOf (e : Fin 1049600) : Fin 1024 :=
  if h : e.val < 1048576 then ⟨e.val % 1024, Nat.mod_lt _ (by omega)⟩ else ⟨e.val - 1048576, by have := e.isLt; omega⟩

end Cert.EdgeIdx
-- ==== Proof.RefEdgeFacts.lean ====
/-
  What the convolutions need of the reference's edge arrays, as one proposition: read as signed words, the source and
  destination arrays hold each edge's source and destination node, and (at the extended reals) the weight array holds 1
  on an edge whose adjacency entry is nonzero and on every self-loop, 0 elsewhere.
-/
import proofs.«138646_g48533130445277_cont_sun_m_870_17_alg».proof.Proof.RefStages
import proofs.«138646_g48533130445277_cont_sun_m_870_17_alg».proof.Proof.EdgeIdx
import Idealize.ShloMosaic.Lib.ValueIdx

noncomputable section

namespace Cert.ReferenceIdeal.Hand

open Cert.ReferenceIdeal Idealize.ShloMosaic Idealize.ShloMosaic.ValueIdx Cert.EdgeIdx

/-- The edge arrays hold the edge list. -/
structure EdgeFacts : Prop where
  s_val : ∀ e : Fin 1049600, ((st_s (ix1 e) : BitVec 32)).toInt = ((srcOf e).val : Int)
  d_val : ∀ e : Fin 1049600, ((st_d (ix1 e) : BitVec 32)).toInt = ((dstOf e).val : Int)
  w_pair : ∀ (a2 : FVec Ideal S1024x1024 .f32) (i j : Fin 1024),
    (st_w (F := Ideal) a2 (ix1 (pair i j)) : EReal) = if a2 (ix2 i j) = 0 then 0 else 1
  w_loop : ∀ (a2 : FVec Ideal S1024x1024 .f32) (k : Fin 1024), (st_w (F := Ideal) a2 (ix1 (loop k)) : EReal) = 1

end Cert.ReferenceIdeal.Hand

end
-- ==== Proof.RefEdges.lean ====
/-
  The reference's edge arrays hold the edge list of the complete directed graph on 1024 nodes with its self-loops.

  The program spells the pairs' sources and destinations as the floor quotient and the remainder of the flat pair
  index e by 1024, each as the truncated operation followed by a correction where the signs of the operands differ
  and the truncated remainder is not zero. For 0 ≤ e < 2²⁰ and the divisor 1024 the correction is never taken: the
  truncated quotient and remainder of non-negative words are the quotient and remainder of their values; where the
  remainder is not zero e is positive and has the divisor's sign; where it is zero the correction asks for a nonzero
  one. The weights are 1 where the adjacency entry at (e / 1024, e mod 1024) is not zero, and 1 on every self-loop.
-/
import proofs.«138646_g48533130445277_cont_sun_m_870_17_alg».proof.Proof.RefEdgeFacts
import Idealize.ShloMosaic.Lib.ValueIdx
import Idealize.ShloMosaic.Lib.IdealHost
import Idealize.ShloMosaic.Lib.StableHlo.Predicate
import Idealize.ShloMosaic.Lib.Pipeline.Value

noncomputable section

namespace Cert.ReferenceIdeal.Hand

open Cert.ReferenceIdeal Idealize.ShloMosaic Idealize.ShloMosaic.ValueIdx Cert.EdgeIdx
open Cert.ReferenceIdeal.Facts₀ Cert.ReferenceIdeal.Facts
open Idealize.ShloMosaic.StableHlo.Predicate (toInt_ofNat_small slt_iff_toNat)

/-! ## Words: the floor quotient and the remainder by 1024 of a small non-negative word -/

/-- The sign of a word: 0, -1 or 1. -/
def sgnW (x : BitVec 32) : BitVec 32 := if x = 0 then 0 else if x.msb then -1 else 1

/-- The floor quotient of the word x by 1024 as the program spells it: the truncated quotient, less one where the
    signs differ and the truncated remainder is not zero. -/
def srcW (x : BitVec 32) : BitVec 32 :=
  Scalar.select
    (IntOp.andi (IntOp.cmpi .ne (sgnW x) (sgnW 1024#32)) (IntOp.cmpi .ne (IntOp.remsi .host x 1024#32) 0#32))
    (IntOp.subi (IntOp.divsi .host x 1024#32) 1#32) (IntOp.divsi .host x 1024#32)

/-- The divisor of the remainder: 1 in place of a zero divisor, here 1024 itself. -/
def modW : BitVec 32 := Scalar.select (IntOp.cmpi .eq 1024#32 0#32) 1#32 1024#32

/-- The remainder of the word x by 1024 as the program spells it: the truncated remainder, plus the divisor where
    their signs differ and it is not zero. -/
def dstW (x : BitVec 32) : BitVec 32 :=
  Scalar.select
    (IntOp.andi (IntOp.cmpi .ne (IntOp.cmpi .slt (IntOp.remsi .host x modW) 0#32) (IntOp.cmpi .slt modW 0#32))
      (IntOp.cmpi .ne (IntOp.remsi .host x modW) 0#32))
    (IntOp.addi (IntOp.remsi .host x modW) modW) (IntOp.remsi .host x modW)

/-- A number below 2²⁰ is its word's value. -/
theorem toNat_ofNat_small (e : ℕ) (he : e < 1048576) : (BitVec.ofNat 32 e).toNat = e := by
  rw [BitVec.toNat_ofNat]; exact Nat.mod_eq_of_lt (by omega)

/-- Such a word is not negative. -/
theorem msb_ofNat_small (e : ℕ) (he : e < 1048576) : (BitVec.ofNat 32 e).msb = false :=
  BitVec.msb_eq_false_iff_two_mul_lt.mpr (by rw [toNat_ofNat_small e he]; omega)

theorem msb_1024 : (1024#32 : BitVec 32).msb = false := by decide

theorem toNat_1024 : (1024#32 : BitVec 32).toNat = 1024 := by decide

/-- Division by 1024 meets no corner: the divisor is neither 0 nor -1. -/
theorem not_corner_1024 (x : BitVec 32) : ¬ IntOp.SDivCorner x 1024#32 := by
  intro hc
  rcases hc with hc | ⟨_, hc⟩ <;> exact absurd hc (by decide)

/-- The truncated quotient of a small non-negative word by 1024 is the quotient of the values. -/
theorem divsi_1024 (e : ℕ) (he : e < 1048576) :
    IntOp.divsi .host (BitVec.ofNat 32 e) 1024#32 = BitVec.ofNat 32 (e / 1024) := by
  apply BitVec.eq_of_toNat_eq
  rw [toNat_ofNat_small (e / 1024) (by omega)]
  simp only [IntOp.divsi, if_neg (not_corner_1024 _), BitVec.sdiv_eq, msb_ofNat_small e he, msb_1024, BitVec.udiv_eq,
    BitVec.toNat_udiv, toNat_ofNat_small e he, toNat_1024]

/-- The truncated remainder of a small non-negative word by 1024 is the remainder of the values. -/
theorem remsi_1024 (e : ℕ) (he : e < 1048576) :
    IntOp.remsi .host (BitVec.ofNat 32 e) 1024#32 = BitVec.ofNat 32 (e % 1024) := by
  apply BitVec.eq_of_toNat_eq
  rw [toNat_ofNat_small (e % 1024) (by omega)]
  simp only [IntOp.remsi, if_neg (not_corner_1024 _), BitVec.srem_eq, msb_ofNat_small e he, msb_1024,
    BitVec.toNat_umod, toNat_ofNat_small e he, toNat_1024]

theorem sgnW_1024 : sgnW 1024#32 = 1#32 := by decide

/-- A positive small word has sign 1. -/
theorem sgnW_pos (e : ℕ) (he : e < 1048576) (h0 : e ≠ 0) : sgnW (BitVec.ofNat 32 e) = 1#32 := by
  have hne : BitVec.ofNat 32 e ≠ 0 := fun h => h0 (by
    have := congrArg BitVec.toNat h
    rwa [toNat_ofNat_small e he] at this)
  unfold sgnW
  rw [if_neg hne, msb_ofNat_small e he]
  rfl

/-- THE FLOOR QUOTIENT: for 0 ≤ e < 2²⁰ the correction is not taken, and the program's word is e / 1024. -/
theorem srcW_ofNat (e : ℕ) (he : e < 1048576) : srcW (BitVec.ofNat 32 e) = BitVec.ofNat 32 (e / 1024) := by
  have hc : IntOp.andi (IntOp.cmpi .ne (sgnW (BitVec.ofNat 32 e)) (sgnW 1024#32))
      (IntOp.cmpi .ne (IntOp.remsi .host (BitVec.ofNat 32 e) 1024#32) 0#32) = 0#1 := by
    rw [remsi_1024 e he]
    by_cases hr : e % 1024 = 0
    · rw [hr]
      show _ &&& (0#1 : BitVec 1) = 0#1
      exact BitVec.and_zero
    · have h0 : e ≠ 0 := fun h => hr (by rw [h])
      rw [sgnW_pos e he h0, sgnW_1024]
      show (0#1 : BitVec 1) &&& _ = 0#1
      exact BitVec.zero_and
  unfold srcW
  rw [hc, select_zero, divsi_1024 e he]

theorem modW_eq : modW = 1024#32 := by decide

/-- THE REMAINDER: for 0 ≤ e < 2²⁰ the truncated remainder is not negative, the correction is not taken, and the
    program's word is e mod 1024. -/
theorem dstW_ofNat (e : ℕ) (he : e < 1048576) : dstW (BitVec.ofNat 32 e) = BitVec.ofNat 32 (e % 1024) := by
  have hlt : e % 1024 < 1048576 := by omega
  have hneg : IntOp.cmpi .slt (BitVec.ofNat 32 (e % 1024)) 0#32 = 0#1 :=
    eq_zero_of_ne_one fun h => by
      have := (slt_iff_toNat (by rw [toNat_ofNat_small _ hlt]; omega) (by decide)).mp h
      exact absurd this (Nat.not_lt_zero _)
  have hc : IntOp.andi
      (IntOp.cmpi .ne (IntOp.cmpi .slt (IntOp.remsi .host (BitVec.ofNat 32 e) 1024#32) 0#32) (IntOp.cmpi .slt (1024#32 : BitVec 32) 0#32))
      (IntOp.cmpi .ne (IntOp.remsi .host (BitVec.ofNat 32 e) 1024#32) 0#32) = 0#1 := by
    rw [remsi_1024 e he, hneg]
    show (0#1 : BitVec 1) &&& _ = 0#1
    exact BitVec.zero_and
  unfold dstW
  rw [modW_eq, hc, select_zero, remsi_1024 e he]

/-! ## The arrays at an index -/

/-- The pairs' sources at pair e: the program's floor quotient of the word e. -/
theorem st_src_apply (e : Fin 1048576) : st_src (ix1 e) = srcW (BitVec.ofNat 32 e.val) := rfl

/-- The pairs' destinations at pair e: the program's remainder of the word e. -/
theorem st_dst_apply (e : Fin 1048576) : st_dst (ix1 e) = dstW (BitVec.ofNat 32 e.val) := rfl

/-- The self-loops' node at k: the word k. -/
theorem st_loop_apply (k : Fin 1024) : st_loop (ix1 k) = BitVec.ofNat 32 k.val := rfl

/-! ## The two-piece concatenation of the pairs and the self-loops at an index -/

section Cat
variable {α : Type}

/-- Below 2²⁰ the concatenation reads the pairs' piece at the same position. -/
theorem cat_pair (x₁ : S1048576.Idx → α) (x₂ : S1024.Idx → α) (e : Fin 1049600) (h : e.val < 1048576) :
    concatenate S1049600 0 [⟨S1048576, x₁⟩, ⟨S1024, x₂⟩] concatenates_S1048576_S1024_S1049600_d0 (ix1 e)
      = x₁ (ix1 ⟨e.val, h⟩) :=
  concatenate_pair_apply_left (0 : Fin S1049600.rank) x₁ x₂ concatenates_S1048576_S1024_S1049600_d0 (ix1 e) rfl
    (ix1 ⟨e.val, h⟩) (fun b => by
      have hb : b = ⟨0, Nat.one_pos⟩ := Fin.ext (by have : b.val < 1 := b.isLt; show b.val = 0; omega)
      subst hb; rfl)

/-- From 2²⁰ on it reads the self-loops' piece, 2²⁰ positions earlier. -/
theorem cat_loop (x₁ : S1048576.Idx → α) (x₂ : S1024.Idx → α) (e : Fin 1049600) (h : 1048576 ≤ e.val) :
    concatenate S1049600 0 [⟨S1048576, x₁⟩, ⟨S1024, x₂⟩] concatenates_S1048576_S1024_S1049600_d0 (ix1 e)
      = x₂ (ix1 ⟨e.val - 1048576, by have := e.isLt; omega⟩) :=
  concatenate_pair_apply_right (0 : Fin S1049600.rank) x₁ x₂ concatenates_S1048576_S1024_S1049600_d0 (ix1 e) rfl rfl
    (ix1 ⟨e.val - 1048576, by have := e.isLt; omega⟩)
    (fun b hb => absurd (Fin.ext (by have : b.val < 1 := b.isLt; show b.val = 0; omega)) hb)
    (by show e.val - 1048576 + 1048576 = e.val; omega)

end Cat

/-! ## Sources and destinations -/

/-- Every edge's source word, read signed, is the edge's source node. -/
theorem s_val (e : Fin 1049600) : ((st_s (ix1 e) : BitVec 32)).toInt = ((srcOf e).val : Int) := by
  by_cases h : e.val < 1048576
  · have hs : st_s (ix1 e) = BitVec.ofNat 32 (e.val / 1024) :=
      (cat_pair st_src st_loop e h).trans ((st_src_apply ⟨e.val, h⟩).trans (srcW_ofNat e.val h))
    rw [hs, toInt_ofNat_small _ (by omega)]
    unfold srcOf
    rw [dif_pos h]
  · have hs : st_s (ix1 e) = BitVec.ofNat 32 (e.val - 1048576) :=
      (cat_loop st_src st_loop e (by omega)).trans (st_loop_apply _)
    rw [hs, toInt_ofNat_small _ (by have := e.isLt; omega)]
    unfold srcOf
    rw [dif_neg h]

/-- Every edge's destination word, read signed, is the edge's destination node. -/
theorem d_val (e : Fin 1049600) : ((st_d (ix1 e) : BitVec 32)).toInt = ((dstOf e).val : Int) := by
  by_cases h : e.val < 1048576
  · have hs : st_d (ix1 e) = BitVec.ofNat 32 (e.val % 1024) :=
      (cat_pair st_dst st_loop e h).trans ((st_dst_apply ⟨e.val, h⟩).trans (dstW_ofNat e.val h))
    rw [hs, toInt_ofNat_small _ (by omega)]
    unfold dstOf
    rw [dif_pos h]
  · have hs : st_d (ix1 e) = BitVec.ofNat 32 (e.val - 1048576) :=
      (cat_loop st_dst st_loop e (by omega)).trans (st_loop_apply _)
    rw [hs, toInt_ofNat_small _ (by have := e.isLt; omega)]
    unfold dstOf
    rw [dif_neg h]

/-! ## Weights, at the extended reals -/

/-- The comparison "differs from zero" as a bit. -/
theorem cmp_une_zero (x : EReal) : Ideal.cmp .une x 0 = if x = 0 then 0#1 else 1#1 := by
  by_cases hx : x = 0
  · rw [if_pos hx, hx]; simp [Ideal.cmp]
  · rw [if_neg hx]; simp [Ideal.cmp, hx]

/-- A pair's weight: the adjacency array flattened row by row is read at (i, j); the weight is 1 where that entry
    differs from zero and 0 where it is zero. -/
theorem st_ew_apply (a2 : FVec Ideal S1024x1024 .f32) (i j : Fin 1024) (h : i.val * 1024 + j.val < 1048576) :
    (st_ew (F := Ideal) a2 (ix1 ⟨i.val * 1024 + j.val, h⟩) : EReal) = if a2 (ix2 i j) = 0 then 0 else 1 := by
  have hread : shapeCast S1048576 a2 shapeCasts_S1024x1024_S1048576 (ix1 ⟨i.val * 1024 + j.val, h⟩) = a2 (ix2 i j) :=
    shapeCast_apply a2 shapeCasts_S1024x1024_S1048576 _ (ix2 i j)
      (by rw [Shape.rowMajor_val_two, Shape.rowMajor_val_one]; rfl)
  show Scalar.select
      (Ideal.cmp .une (shapeCast S1048576 a2 shapeCasts_S1024x1024_S1048576 (ix1 ⟨i.val * 1024 + j.val, h⟩))
        (Ideal.ofBits .f32 0x00000000#32))
      (Ideal.ofBits .f32 0x3F800000#32) (Ideal.ofBits .f32 0x00000000#32) = _
  rw [hread, Ideal.ofBits_zero_f32, Ideal.ofBits_one_f32, cmp_une_zero]
  by_cases hx : a2 (ix2 i j) = 0
  · rw [if_pos hx, if_pos hx, select_zero]
  · rw [if_neg hx, if_neg hx, select_one]

/-- The weight of the pair (i, j). -/
theorem w_pair (a2 : FVec Ideal S1024x1024 .f32) (i j : Fin 1024) :
    (st_w (F := Ideal) a2 (ix1 (pair i j)) : EReal) = if a2 (ix2 i j) = 0 then 0 else 1 :=
  (cat_pair (st_ew (F := Ideal) a2) _ (pair i j) (by show i.val * 1024 + j.val < 1048576; have := i.isLt; have := j.isLt; omega)).trans (st_ew_apply a2 i j _)

/-- The weight of a self-loop. -/
theorem w_loop (a2 : FVec Ideal S1024x1024 .f32) (k : Fin 1024) : (st_w (F := Ideal) a2 (ix1 (loop k)) : EReal) = 1 :=
  (cat_loop (st_ew (F := Ideal) a2) _ (loop k) (Nat.le_add_right _ _)).trans Ideal.ofBits_one_f32

/-- The edge arrays hold the edge list. -/
theorem edgeFacts : EdgeFacts := ⟨s_val, d_val, w_pair, w_loop⟩

end Cert.ReferenceIdeal.Hand

end
-- ==== Proof.LibScatterRead.lean ====
/- An accumulating host scatter read at one element (extended reals, exact sums).

   `stablehlo.scatter` with an `add` body whose start indices are an [E, 1] column of words — what a
   segment sum (`jax.ops.segment_sum`, `.at[ids].add`) lowers to — adds update row `e` into operand row `idx[e]`.
   Read at row `r`: the operand's element plus the sum of the update elements of the rows `e` whose start word,
   read signed, is `r`; a start outside the operand meets no row and is dropped. Two layouts: rows of width `C`
   ([R, C] operand, [E, C] updates; width 1 gives the column form), and scalars ([R] operand, [E] updates). -/
import Idealize.ShloMosaic.PureOps.Ideal
import Idealize.ShloMosaic.Lib.ValueIdx

noncomputable section

namespace Cert.ScatterRead

open Idealize.ShloMosaic Idealize.ShloMosaic.ValueIdx

/-! ## Rows -/

/-- The row layout's dimension numbers: window axis 1 of the updates, operand axis 0 inserted and scattered. -/
private abbrev rowsDims {R C E : Nat} (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ :=
  { updateWindowDims := [1], insertedWindowDims := [0], scatterDimsToOperandDims := [0], indexVectorDim := 1, wf := wf }

/-- The start-index position an update index reads: its row, on the index vector's only component. -/
private theorem rows_siIdx {R C E : Nat} (wf : ScatterDims.WF ⟨2, ![R, C]⟩ ⟨2, ![E, 1]⟩ ⟨2, ![E, C]⟩ [1] [0] [0] 1)
    (e : Fin E) (k' : Fin C) :
    (rowsDims wf).siIdx (ix2 e k') ⟨0, Nat.zero_lt_one⟩ = ix2 e 0 := by
  funext b; match b with | ⟨0, _⟩ => rfl | ⟨1, _⟩ => rfl

/-- The window start on the operand's row axis: that word, read signed. -/
private theorem rows_start0 {R C E w : Nat} (wf : ScatterDims.WF ⟨2, ![R, C]⟩ ⟨2, ![E, 1]⟩ ⟨2, ![E, C]⟩ [1] [0] [0] 1)
    (idx : IVec ⟨2, ![E, 1]⟩ w) (e : Fin E) (k' : Fin C) :
    (rowsDims wf).start (ix2 e k') idx 0 = (idx (ix2 e 0)).toInt := by
  rw [← rows_siIdx wf e k']; rfl

/-- Update element (e, k') lands on operand element (r, k) exactly when row e's start word, read signed, is r and k' = k. -/
private theorem rows_resultIdx_iff {R C E w : Nat} (wf : ScatterDims.WF ⟨2, ![R, C]⟩ ⟨2, ![E, 1]⟩ ⟨2, ![E, C]⟩ [1] [0] [0] 1)
    (idx : IVec ⟨2, ![E, 1]⟩ w) (e : Fin E) (k' : Fin C) (r : Fin R) (k : Fin C) :
    (rowsDims wf).resultIdx? (ix2 e k') idx = some (ix2 r k) ↔ (idx (ix2 e 0)).toInt = (r.val : Int) ∧ k' = k := by
  have s0 := rows_start0 wf idx e k'
  have w0 : (rowsDims wf).window (ix2 e k') 0 = 0 := rfl
  have s1 : (rowsDims wf).start (ix2 e k') idx 1 = 0 := rfl
  have w1 : (rowsDims wf).window (ix2 e k') 1 = k'.val := rfl
  unfold ScatterDims.resultIdx?
  split
  · rename_i h
    have h0 := h 0
    rw [s0, w0] at h0
    constructor
    · intro hh
      have hh := Option.some.inj hh
      have e0 := congrArg Fin.val (congrFun hh 0)
      have e1 := congrArg Fin.val (congrFun hh 1)
      change ((rowsDims wf).start (ix2 e k') idx 0 + ((rowsDims wf).window (ix2 e k') 0 : Nat)).toNat = r.val at e0
      change ((rowsDims wf).start (ix2 e k') idx 1 + ((rowsDims wf).window (ix2 e k') 1 : Nat)).toNat = k.val at e1
      rw [s0, w0] at e0
      rw [s1, w1] at e1
      exact ⟨by omega, Fin.ext (by omega)⟩
    · rintro ⟨hr, hk⟩
      congr 1
      funext a
      match a with
      | ⟨0, _⟩ =>
        apply Fin.ext
        change ((rowsDims wf).start (ix2 e k') idx 0 + ((rowsDims wf).window (ix2 e k') 0 : Nat)).toNat = r.val
        rw [s0, w0]; omega
      | ⟨1, _⟩ =>
        apply Fin.ext
        change ((rowsDims wf).start (ix2 e k') idx 1 + ((rowsDims wf).window (ix2 e k') 1 : Nat)).toNat = k.val
        rw [s1, w1, hk]; omega
  · rename_i h
    constructor
    · intro hh; exact absurd hh (by simp)
    · rintro ⟨hr, hk⟩
      exfalso; apply h
      intro a
      match a with
      | ⟨0, _⟩ =>
        change 0 ≤ (rowsDims wf).start (ix2 e k') idx 0 + ((rowsDims wf).window (ix2 e k') 0 : Nat) ∧
          (rowsDims wf).start (ix2 e k') idx 0 + ((rowsDims wf).window (ix2 e k') 0 : Nat) < (R : Int)
        rw [s0, w0]; have := r.isLt; omega
      | ⟨1, _⟩ =>
        change 0 ≤ (rowsDims wf).start (ix2 e k') idx 1 + ((rowsDims wf).window (ix2 e k') 1 : Nat) ∧
          (rowsDims wf).start (ix2 e k') idx 1 + ((rowsDims wf).window (ix2 e k') 1 : Nat) < (C : Int)
        rw [s1, w1]; have := k'.isLt; omega

/-- Rows: operand [R, C], start indices [E, 1], updates [E, C]; update row `e` lands on operand row `idx[e, 0]`. -/
theorem scatterAdd_rows_apply {R C E w : Nat}
    (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w) (upd : (⟨2, ![E, C]⟩ : Shape).Idx → EReal)
    (r : Fin R) (k : Fin C) :
    Ideal.hostScatterAdd
        ({ updateWindowDims := [1], insertedWindowDims := [0], scatterDimsToOperandDims := [0], indexVectorDim := 1, wf := wf } :
          ScatterDims ⟨2, ![R, C]⟩ ⟨2, ![E, 1]⟩ ⟨2, ![E, C]⟩) x idx upd (ix2 r k)
      = x (ix2 r k) + ∑ e ∈ Finset.univ.filter (fun e : Fin E => (idx (ix2 e 0)).toInt = (r.val : Int)), upd (ix2 e k) := by
  change x (ix2 r k) + ∑ j ∈ Finset.univ.filter (fun j => (rowsDims wf).resultIdx? j idx = some (ix2 r k)), upd j = _
  congr 1
  rw [Finset.sum_filter, sum_idx2, Finset.sum_filter]
  refine Finset.sum_congr rfl fun e _ => ?_
  simp only [rows_resultIdx_iff]
  by_cases hr : (idx (ix2 e 0)).toInt = (r.val : Int)
  · simp only [hr, true_and, if_true]
    exact (Finset.sum_ite_eq' Finset.univ k fun b => upd (ix2 e b)).trans (if_pos (Finset.mem_univ k))
  · simp only [hr, false_and, if_false, Finset.sum_const_zero]

/-! ## Scalars -/

/-- The scalar layout's dimension numbers: no window axis, operand axis 0 inserted and scattered. -/
private abbrev vecDims {R E : Nat} (wf : ScatterDims.WF ⟨1, ![R]⟩ ⟨2, ![E, 1]⟩ ⟨1, ![E]⟩ [] [0] [0] 1) :
    ScatterDims ⟨1, ![R]⟩ ⟨2, ![E, 1]⟩ ⟨1, ![E]⟩ :=
  { updateWindowDims := [], insertedWindowDims := [0], scatterDimsToOperandDims := [0], indexVectorDim := 1, wf := wf }

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The start-index position a scalar update reads: its own position, on the index vector's only component. -/
private theorem vec_siIdx {R E : Nat} (wf : ScatterDims.WF ⟨1, ![R]⟩ ⟨2, ![E, 1]⟩ ⟨1, ![E]⟩ [] [0] [0] 1) (e : Fin E) :
    (vecDims wf).siIdx (ix1 e) ⟨0, Nat.zero_lt_one⟩ = ix2 e 0 := by
  funext b; match b with | ⟨0, _⟩ => rfl | ⟨1, _⟩ => rfl

/-- The window start on the operand's axis: that word, read signed. -/
private theorem vec_start0 {R E w : Nat} (wf : ScatterDims.WF ⟨1, ![R]⟩ ⟨2, ![E, 1]⟩ ⟨1, ![E]⟩ [] [0] [0] 1)
    (idx : IVec ⟨2, ![E, 1]⟩ w) (e : Fin E) :
    (vecDims wf).start (ix1 e) idx 0 = (idx (ix2 e 0)).toInt := by
  rw [← vec_siIdx wf e]; rfl

/-- Update element e lands on operand element r exactly when its start word, read signed, is r. -/
private theorem vec_resultIdx_iff {R E w : Nat} (wf : ScatterDims.WF ⟨1, ![R]⟩ ⟨2, ![E, 1]⟩ ⟨1, ![E]⟩ [] [0] [0] 1)
    (idx : IVec ⟨2, ![E, 1]⟩ w) (e : Fin E) (r : Fin R) :
    (vecDims wf).resultIdx? (ix1 e) idx = some (ix1 r) ↔ (idx (ix2 e 0)).toInt = (r.val : Int) := by
  have s0 := vec_start0 wf idx e
  have w0 : (vecDims wf).window (ix1 e) 0 = 0 := rfl
  unfold ScatterDims.resultIdx?
  split
  · rename_i h
    have h0 := h 0
    rw [s0, w0] at h0
    constructor
    · intro hh
      have hh := Option.some.inj hh
      have e0 := congrArg Fin.val (congrFun hh 0)
      change ((vecDims wf).start (ix1 e) idx 0 + ((vecDims wf).window (ix1 e) 0 : Nat)).toNat = r.val at e0
      rw [s0, w0] at e0
      omega
    · intro hr
      congr 1
      funext a
      match a with
      | ⟨0, _⟩ =>
        apply Fin.ext
        change ((vecDims wf).start (ix1 e) idx 0 + ((vecDims wf).window (ix1 e) 0 : Nat)).toNat = r.val
        rw [s0, w0]; omega
  · rename_i h
    constructor
    · intro hh; exact absurd hh (by simp)
    · intro hr
      exfalso; apply h
      intro a
      match a with
      | ⟨0, _⟩ =>
        change 0 ≤ (vecDims wf).start (ix1 e) idx 0 + ((vecDims wf).window (ix1 e) 0 : Nat) ∧
          (vecDims wf).start (ix1 e) idx 0 + ((vecDims wf).window (ix1 e) 0 : Nat) < (R : Int)
        rw [s0, w0]; have := r.isLt; omega

/-- Scalars: operand [R], start indices [E, 1], updates [E]; update `e` lands on operand element `idx[e, 0]`. -/
theorem scatterAdd_vec_apply {R E w : Nat}
    (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal)
    (r : Fin R) :
    Ideal.hostScatterAdd
        ({ updateWindowDims := [], insertedWindowDims := [0], scatterDimsToOperandDims := [0], indexVectorDim := 1, wf := wf } :
          ScatterDims ⟨1, ![R]⟩ ⟨2, ![E, 1]⟩ ⟨1, ![E]⟩) x idx upd (ix1 r)
      = x (ix1 r) + ∑ e ∈ Finset.univ.filter (fun e : Fin E => (idx (ix2 e 0)).toInt = (r.val : Int)), upd (ix1 e) := by
  change x (ix1 r) + ∑ j ∈ Finset.univ.filter (fun j => (vecDims wf).resultIdx? j idx = some (ix1 r)), upd j = _
  congr 1
  rw [Finset.sum_filter, sum_idx1, Finset.sum_filter]
  refine Finset.sum_congr rfl fun e _ => ?_
  simp only [vec_resultIdx_iff]

end Cert.ScatterRead

end
-- ==== Proof.LibSumLemmas.lean ====
/- Finite sums with values in a commutative additive monoid (the extended reals in use): a one-hot
   contraction reads one term, a sum over blocks whose terms vanish past a bound is the sum up to
   the bound, a left fold of additions from zero is the sum, and a sum over the pairs selected by a
   condition on the first coordinate and a fixed second coordinate is a sum over first coordinates. -/
import Idealize.ShloMosaic.Lib.ValueIdx
import Idealize.ShloMosaic.PureOps.Ideal.Laws
import Mathlib.Algebra.BigOperators.Fin
import Mathlib.Logic.Equiv.Fin.Basic

noncomputable section

open scoped BigOperators

namespace Cert.SumLemmas

open Idealize.ShloMosaic Idealize.ShloMosaic.ValueIdx

/-! ## The one-hot word -/

/-- The equality test of two words as a one-bit word. -/
theorem cmpi_eq_of_eq {w : Nat} {x y : BitVec w} (h : x = y) : IntOp.cmpi .eq x y = 1#1 := by
  simp [IntOp.cmpi, h]

theorem cmpi_eq_of_ne {w : Nat} {x y : BitVec w} (h : x ≠ y) : IntOp.cmpi .eq x y = 0#1 := by
  have hb : (x == y) = false := by simpa using h
  simp [IntOp.cmpi, hb]

/-- The equality test, widened to 32 bits and converted to an extended real, is the indicator of
    equality. -/
theorem oneHot_word (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [cmpi_eq_of_eq h, if_pos h]
    have : ((1#1 : BitVec 1).setWidth 32).toInt = 1 := by decide
    rw [this]; simp
  · rw [cmpi_eq_of_ne h, if_neg h]
    have : ((0#1 : BitVec 1).setWidth 32).toInt = 0 := by decide
    rw [this]; simp

/-- A natural number below `2 ^ 32` as a word equals a word exactly when it is the word's value. -/
theorem ofNat_eq_iff {k : Nat} (hk : k < 2 ^ 32) (s : BitVec 32) : BitVec.ofNat 32 k = s ↔ k = s.toNat := by
  constructor
  · intro h; rw [← h, BitVec.toNat_ofNat, Nat.mod_eq_of_lt hk]
  · intro h; apply BitVec.eq_of_toNat_eq; rw [BitVec.toNat_ofNat, Nat.mod_eq_of_lt hk, h]

/-! ## One-hot contractions -/

/-- An indicator times a value is the value where the condition holds, zero elsewhere. -/
theorem ite_one_zero_mul (c : Prop) [Decidable c] (x : EReal) : (if c then (1 : EReal) else 0) * x = if c then x else 0 := by
  split <;> simp

/-- A one-hot contraction reads one term. -/
theorem sum_oneHot_mul {ι : Type*} [Fintype ι] [DecidableEq ι] (a : ι) (f : ι → EReal) :
    ∑ k, (if k = a then (1 : EReal) else 0) * f k = f a := by
  simp only [ite_one_zero_mul, Finset.sum_ite_eq', Finset.mem_univ, if_true]

/-- A one-hot contraction whose hot position is given as a word: it reads the term at the word's
    value when that is an index, and is zero when it is not. -/
theorem sum_oneHot_word_mul {n : Nat} (hn : n ≤ 2 ^ 32) (s : BitVec 32) (f : Fin n → EReal) :
    ∑ k : Fin n, (if BitVec.ofNat 32 k.val = s then (1 : EReal) else 0) * f k
      = if h : s.toNat < n then f ⟨s.toNat, h⟩ else 0 := by
  have hk : ∀ k : Fin n, (BitVec.ofNat 32 k.val = s) ↔ k.val = s.toNat := fun k =>
    ofNat_eq_iff (lt_of_lt_of_le k.isLt hn) s
  by_cases h : s.toNat < n
  · rw [dif_pos h]
    have : ∀ k : Fin n, (if BitVec.ofNat 32 k.val = s then (1 : EReal) else 0) = if k = ⟨s.toNat, h⟩ then 1 else 0 := by
      intro k
      by_cases hks : k.val = s.toNat
      · rw [if_pos ((hk k).2 hks), if_pos (Fin.ext hks)]
      · rw [if_neg (fun e => hks ((hk k).1 e)), if_neg (fun e => hks (congrArg Fin.val e))]
    simp only [this]
    exact sum_oneHot_mul _ f
  · rw [dif_neg h]
    apply Finset.sum_eq_zero
    intro k _
    rw [if_neg (fun e => h (by rw [← (hk k).1 e]; exact k.isLt)), zero_mul]

/-! ## A sum over blocks with a vanishing tail -/

/-- A sum over `nb` blocks of `bs` terms of a function on `Fin N`, `N = nb * bs`, that vanishes from `m` on
    is the sum over `Fin m`. The term of block `t` at place `r` is the one at `bs * t + r`. -/
theorem sum_blocks {M : Type*} [AddCommMonoid M] {nb bs m N : Nat} (hN : nb * bs = N) (hm : m ≤ N) (g : Fin N → M)
    (hz : ∀ i : Fin N, m ≤ i.val → g i = 0) (idx : Fin nb → Fin bs → Fin N)
    (hidx : ∀ t r, (idx t r).val = bs * t.val + r.val) :
    ∑ t : Fin nb, ∑ r : Fin bs, g (idx t r) = ∑ e : Fin m, g (Fin.castLE hm e) := by
  subst hN
  have h1 : ∑ t : Fin nb, ∑ r : Fin bs, g (idx t r) = ∑ i : Fin (nb * bs), g i := by
    rw [← Fintype.sum_prod_type' (f := fun t r => g (idx t r))]
    rw [← Equiv.sum_comp (finProdFinEquiv (m := nb) (n := bs)) g]
    refine Finset.sum_congr rfl fun p _ => congrArg g (Fin.ext ?_)
    rw [hidx]; simp [finProdFinEquiv, Nat.add_comm]
  rw [h1]
  -- both sides as sums over ranges of naturals
  let g' : ℕ → M := fun i => if h : i < nb * bs then g ⟨i, h⟩ else 0
  have h2 : ∑ i : Fin (nb * bs), g i = ∑ i ∈ Finset.range (nb * bs), g' i := by
    rw [← Fin.sum_univ_eq_sum_range g' (nb * bs)]
    refine Finset.sum_congr rfl fun i _ => ?_
    show g i = if h : i.val < nb * bs then g ⟨i.val, h⟩ else 0
    rw [dif_pos i.isLt]
  have h3 : ∑ e : Fin m, g (Fin.castLE hm e) = ∑ i ∈ Finset.range m, g' i := by
    rw [← Fin.sum_univ_eq_sum_range g' m]
    refine Finset.sum_congr rfl fun e _ => ?_
    show g (Fin.castLE hm e) = if h : e.val < nb * bs then g ⟨e.val, h⟩ else 0
    rw [dif_pos (lt_of_lt_of_le e.isLt hm)]; rfl
  rw [h2, h3]
  symm
  apply Finset.sum_subset (Finset.range_subset_range.2 hm)
  intro i hi hni
  have hi' : i < nb * bs := Finset.mem_range.1 hi
  have hmi : m ≤ i := Nat.le_of_not_lt (fun h => hni (Finset.mem_range.2 h))
  show (if h : i < nb * bs then g ⟨i, h⟩ else 0) = 0
  rw [dif_pos hi']; exact hz _ hmi

/-! ## A left fold of additions from zero -/

/-- The left fold of additions from zero along the indices in order is the sum. -/
theorem foldl_finRange_add {M : Type*} [AddCommMonoid M] {n : Nat} (f : Fin n → M) :
    (List.finRange n).foldl (fun acc t => acc + f t) 0 = ∑ t, f t := by
  rw [Fin.sum_univ_def, List.sum_eq_foldl, List.foldl_map]

/-- The same along the naturals below `n`. -/
theorem foldl_range_add {M : Type*} [AddCommMonoid M] (n : Nat) (f : ℕ → M) :
    (List.range n).foldl (fun acc t => acc + f t) 0 = ∑ t ∈ Finset.range n, f t := by
  induction n with
  | zero => simp
  | succ k ih => rw [List.range_succ, List.foldl_append, ih, Finset.sum_range_succ]; rfl

/-- The recursion that adds one term per step from zero is the sum over the steps taken. -/
theorem rec_add_eq_sum {M : Type*} [AddCommMonoid M] (f : ℕ → M) (n : Nat) :
    (Nat.rec (0 : M) (fun k acc => acc + f k) n : M) = ∑ t ∈ Finset.range n, f t := by
  induction n with
  | zero => simp
  | succ k ih => rw [Finset.sum_range_succ, ← ih]

/-- A sum of functions read at a point is the sum of the values there. -/
theorem sum_fn_apply {ι κ : Type*} {M : Type*} [AddCommMonoid M] (s : Finset ι) (f : ι → κ → M) (x : κ) :
    (∑ t ∈ s, f t) x = ∑ t ∈ s, f t x := Finset.sum_apply x s f

/-! ## A filtered sum over pairs -/

/-- A sum over the rank-2 indices whose first coordinate satisfies `P` and whose second coordinate is `c`
    is the sum, over the first coordinates, of the terms at `(e, c)` where `P e` holds. -/
theorem sum_filter_idx2 {M : Type*} [AddCommMonoid M] {n0 n1 : Nat} (Q : (⟨2, ![n0, n1]⟩ : Shape).Idx → Prop) [DecidablePred Q]
    (P : Fin n0 → Prop) [DecidablePred P] (c : Fin n1) (hQ : ∀ e c', Q (ix2 e c') ↔ P e ∧ c' = c)
    (u : (⟨2, ![n0, n1]⟩ : Shape).Idx → M) :
    ∑ j ∈ Finset.univ.filter Q, u j = ∑ e : Fin n0, if P e then u (ix2 e c) else 0 := by
  rw [Finset.sum_filter, sum_idx2]
  refine Finset.sum_congr rfl fun e _ => ?_
  by_cases hP : P e
  · rw [if_pos hP, Finset.sum_eq_single c]
    · rw [if_pos ((hQ e c).2 ⟨hP, rfl⟩)]
    · intro b _ hb; rw [if_neg (fun h => hb ((hQ e b).1 h).2)]
    · intro h; exact absurd (Finset.mem_univ c) h
  · rw [if_neg hP]
    apply Finset.sum_eq_zero
    intro b _; rw [if_neg (fun h => hP ((hQ e b).1 h).1)]

end Cert.SumLemmas

end
-- ==== Proof.MathLemmas.lean ====
/-
  The pure mathematics behind the graph-convolution equivalence.

  Edges: how the sources and destinations of the pairs and the self-loops read, and how a sum over the edges with a
  given destination splits into a sum over the sources plus the self-loop's term.

  Extended reals: a nonnegative real factor distributes over finite sums; the normalised convolution's algebra; the
  degrees are real numbers at least 1, where the inverse root is the reciprocal of the root.
-/
import proofs.«138646_g48533130445277_cont_sun_m_870_17_alg».proof.Proof.EdgeIdx
import Idealize.ShloMosaic.PureOps.Ideal
import Mathlib.Data.EReal.Basic
import Mathlib.Data.EReal.Operations
import Mathlib.Data.EReal.Inv
import Mathlib.Algebra.BigOperators.Fin
import Mathlib.Algebra.BigOperators.Group.Finset.Basic

open Cert.EdgeIdx
open Idealize.ShloMosaic

namespace Cert.MathLemmas

/-! ### Sources and destinations -/

theorem pair_val (i j : Fin 1024) : (pair i j).val = i.val * 1024 + j.val := rfl

theorem loop_val (k : Fin 1024) : (loop k).val = 1048576 + k.val := rfl

theorem pair_lt (i j : Fin 1024) : (pair i j).val < 1048576 := by
  have hi := i.isLt
  have hj := j.isLt
  rw [pair_val]
  omega

theorem loop_not_lt (k : Fin 1024) : ¬ (loop k).val < 1048576 := by
  rw [loop_val]
  omega

theorem srcOf_pair (i j : Fin 1024) : srcOf (pair i j) = i := by
  have hj := j.isLt
  unfold srcOf
  rw [dif_pos (pair_lt i j)]
  apply Fin.ext
  simp only [pair_val]
  omega

theorem dstOf_pair (i j : Fin 1024) : dstOf (pair i j) = j := by
  have hj := j.isLt
  unfold dstOf
  rw [dif_pos (pair_lt i j)]
  apply Fin.ext
  simp only [pair_val]
  omega

theorem srcOf_loop (k : Fin 1024) : srcOf (loop k) = k := by
  unfold srcOf
  rw [dif_neg (loop_not_lt k)]
  apply Fin.ext
  simp only [loop_val]
  omega

theorem dstOf_loop (k : Fin 1024) : dstOf (loop k) = k := by
  unfold dstOf
  rw [dif_neg (loop_not_lt k)]
  apply Fin.ext
  simp only [loop_val]
  omega

/-- Below 1024 * 1024 an edge is the pair of its source and its destination. -/
theorem pair_srcOf_dstOf (e : Fin 1049600) (h : e.val < 1048576) : pair (srcOf e) (dstOf e) = e := by
  apply Fin.ext
  rw [pair_val]
  unfold srcOf dstOf
  rw [dif_pos h, dif_pos h]
  simp only
  omega

/-- From 1024 * 1024 on an edge is the self-loop at its destination. -/
theorem loop_dstOf (e : Fin 1049600) (h : ¬ e.val < 1048576) : loop (dstOf e) = e := by
  apply Fin.ext
  rw [loop_val]
  unfold dstOf
  rw [dif_neg h]
  simp only
  omega

/-! ### Summing over the edges into one node -/

/-- The edges into j are the self-loop at j and the pairs (i, j). -/
theorem filter_dst_eq (j : Fin 1024) :
    Finset.univ.filter (fun e : Fin 1049600 => dstOf e = j)
      = insert (loop j) (Finset.univ.image (fun i : Fin 1024 => pair i j)) := by
  ext e
  simp only [Finset.mem_filter, Finset.mem_univ, true_and, Finset.mem_insert, Finset.mem_image]
  constructor
  · intro h
    by_cases hlt : e.val < 1048576
    · right
      refine ⟨srcOf e, ?_⟩
      rw [← h]
      exact pair_srcOf_dstOf e hlt
    · left
      rw [← h]
      exact (loop_dstOf e hlt).symm
  · rintro (rfl | ⟨i, rfl⟩)
    · exact dstOf_loop j
    · exact dstOf_pair i j

theorem loop_not_mem_pairs (j : Fin 1024) :
    loop j ∉ Finset.univ.image (fun i : Fin 1024 => pair i j) := by
  intro h
  rcases Finset.mem_image.mp h with ⟨i, _, hi⟩
  exact loop_not_lt j (hi ▸ pair_lt i j)

theorem pair_left_injective (j : Fin 1024) : Function.Injective (fun i : Fin 1024 => pair i j) := by
  intro i i' h
  have := congrArg srcOf h
  simpa only [srcOf_pair] using this

theorem sum_by_dst {M : Type*} [AddCommMonoid M] (f : Fin 1049600 → M) (j : Fin 1024) :
    ∑ e ∈ Finset.univ.filter (fun e : Fin 1049600 => dstOf e = j), f e
      = (∑ i : Fin 1024, f (pair i j)) + f (loop j) := by
  rw [filter_dst_eq, Finset.sum_insert (loop_not_mem_pairs j),
    Finset.sum_image (fun a _ b _ h => pair_left_injective j h), add_comm]

theorem filter_dst_int (j : Fin 1024) :
    (Finset.univ.filter fun e : Fin 1049600 => (((dstOf e).val : Int)) = (j.val : Int))
      = Finset.univ.filter fun e => dstOf e = j := by
  refine Finset.filter_congr (fun e _ => ?_)
  constructor
  · intro h
    exact Fin.ext (by omega)
  · intro h
    rw [h]

/-! ### A nonnegative real factor distributes over a finite sum of extended reals -/

theorem coe_mul_sum_of_nonneg {ι : Type*} (s : Finset ι) (r : ℝ) (hr : 0 ≤ r) (f : ι → EReal) :
    (r : EReal) * ∑ i ∈ s, f i = ∑ i ∈ s, (r : EReal) * f i := by
  classical
  induction s using Finset.induction_on with
  | empty => simp only [Finset.sum_empty, mul_zero]
  | insert a s ha ih =>
    rw [Finset.sum_insert ha, Finset.sum_insert ha,
      EReal.left_distrib_of_nonneg_of_ne_top (EReal.coe_nonneg.mpr hr) (EReal.coe_ne_top r), ih]

/-! ### The normalised convolution's algebra -/

/-- Scaling the aggregated messages and the self term by the destination's nonnegative real inverse-root degree gives
    the sum of the features weighted by the symmetric normalisation. -/
theorem conv_algebra (D : Fin 1024 → ℝ) (hD : ∀ j, 0 ≤ D j) (A : Fin 1024 → Fin 1024 → EReal)
    (xw : Fin 1024 → EReal) (j : Fin 1024) :
    (D j : EReal) * ((∑ i, A i j * ((D i : EReal) * xw i)) + (D j : EReal) * xw j)
      = (∑ i, xw i * (((D i : EReal) * (D j : EReal)) * A i j))
        + xw j * (((D j : EReal) * (D j : EReal)) * 1) := by
  rw [EReal.left_distrib_of_nonneg_of_ne_top (EReal.coe_nonneg.mpr (hD j)) (EReal.coe_ne_top (D j)),
    coe_mul_sum_of_nonneg _ _ (hD j), mul_one]
  congr 1
  · refine Finset.sum_congr rfl (fun i _ => ?_)
    ac_rfl
  · ac_rfl

/-! ### The degrees are real and at least 1 -/

/-- A finite sum of zeros and ones is a natural number. -/
theorem sum_zero_one_nat {ι : Type*} (s : Finset ι) (g : ι → EReal) (hg : ∀ i ∈ s, g i = 0 ∨ g i = 1) :
    ∃ n : ℕ, ∑ i ∈ s, g i = ((n : ℝ) : EReal) := by
  classical
  induction s using Finset.induction_on with
  | empty => exact ⟨0, by rw [Finset.sum_empty, Nat.cast_zero, EReal.coe_zero]⟩
  | insert a s ha ih =>
    obtain ⟨n, hn⟩ := ih (fun i hi => hg i (Finset.mem_insert_of_mem hi))
    rcases hg a (Finset.mem_insert_self a s) with h0 | h1
    · exact ⟨n, by rw [Finset.sum_insert ha, h0, zero_add, hn]⟩
    · refine ⟨n + 1, ?_⟩
      rw [Finset.sum_insert ha, h1, hn, Nat.cast_add, Nat.cast_one, EReal.coe_add, EReal.coe_one, add_comm]

theorem deg_real (A : Fin 1024 → Fin 1024 → EReal) (hA : ∀ i j, A i j = 0 ∨ A i j = 1) (j : Fin 1024) :
    ∃ n : ℕ, (1 : EReal) + ∑ i : Fin 1024, A i j * 1 = ((1 + n : ℝ) : EReal) := by
  obtain ⟨n, hn⟩ := sum_zero_one_nat Finset.univ (fun i => A i j) (fun i _ => hA i j)
  refine ⟨n, ?_⟩
  simp only [mul_one]
  rw [hn, EReal.coe_add, EReal.coe_one]

/-- At a real number at least 1 the inverse root is the reciprocal of the root, a nonnegative real. -/
theorem rsqrt_eq_div_sqrt (x : ℝ) (hx : 1 ≤ x) :
    Idealize.ShloMosaic.Ideal.rsqrt (x : EReal)
        = Idealize.ShloMosaic.Ideal.div 1 (Idealize.ShloMosaic.Ideal.sqrt (x : EReal))
      ∧ Idealize.ShloMosaic.Ideal.rsqrt (x : EReal) = (((Real.sqrt x)⁻¹ : ℝ) : EReal)
      ∧ 0 ≤ (Real.sqrt x)⁻¹
      ∧ (0 : EReal) < (x : EReal) := by
  have hx0 : 0 < x := lt_of_lt_of_le one_pos hx
  have hnl : ¬ x < 0 := not_lt.mpr hx0.le
  have hne : x ≠ 0 := hx0.ne'
  have hs : Real.sqrt x ≠ 0 := Real.sqrt_ne_zero'.mpr hx0
  have hr : Idealize.ShloMosaic.Ideal.rsqrt (x : EReal) = (((Real.sqrt x)⁻¹ : ℝ) : EReal) := by
    rw [Idealize.ShloMosaic.Ideal.rsqrt_coe, if_neg hnl, if_neg hne]
  refine ⟨?_, hr, inv_nonneg.mpr (Real.sqrt_nonneg x), EReal.coe_pos.mpr hx0⟩
  rw [hr, Idealize.ShloMosaic.Ideal.sqrt_coe, if_neg hnl, Idealize.ShloMosaic.Ideal.div_coe hs, one_mul, one_div]

/-! ### An indicator of a zero-or-one value is the value -/

theorem ite_ne_zero_eq {x : EReal} [Decidable (x = 0)] (h : x = 0 ∨ x = 1) :
    (if x = 0 then (0 : EReal) else 1) = x := by
  rcases h with h | h
  · rw [if_pos h, h]
  · rw [if_neg (by rw [h]; exact one_ne_zero), h]

end Cert.MathLemmas
-- ==== Proof.RefDinv.lean ====
/-
  The reference's degrees and their inverse square roots over the explicit edge list.

  The edge list holds every ordered pair (i, j) of the 1024 nodes, source first, then the 1024 self-loops. With the
  adjacency entries 0 or 1, the weight of the pair (i, j) is the entry A[i, j] and the weight of a self-loop is 1. So
  the weights summed by destination give deg j = 1 + sum_i A[i, j], a real number at least 1, and the reference's
  select takes 1 / sqrt (deg j), the inverse square root. Also here: the index columns read at an edge, and a gather
  at a one-column array of start indices read at an index (single elements of a vector, whole rows of a matrix).
-/
import proofs.«138646_g48533130445277_cont_sun_m_870_17_alg».proof.Proof.RefEdgeFacts
import proofs.«138646_g48533130445277_cont_sun_m_870_17_alg».proof.Proof.Spec
import proofs.«138646_g48533130445277_cont_sun_m_870_17_alg».proof.Proof.LibScatterRead
import proofs.«138646_g48533130445277_cont_sun_m_870_17_alg».proof.Proof.LibDotRead
import proofs.«138646_g48533130445277_cont_sun_m_870_17_alg».proof.Proof.LibSumLemmas
import proofs.«138646_g48533130445277_cont_sun_m_870_17_alg».proof.Proof.MathLemmas
import Idealize.ShloMosaic.Lib.IdealHost
import Idealize.ShloMosaic.Lib.Pipeline.Value
import Idealize.ShloMosaic.PureOps.Reduce

set_option maxHeartbeats 400000

noncomputable section

open scoped BigOperators

namespace Cert.ReferenceIdeal.Hand

open Cert.ReferenceIdeal Cert.ReferenceIdeal.Facts₀ Cert.ReferenceIdeal.Facts
open Idealize.ShloMosaic Idealize.ShloMosaic.ValueIdx Cert.EdgeIdx

attribute [local irreducible] st_s st_d st_w st_ew st_src st_dst st_loop Ideal.ofBits

/-! ## Index arrays read at an edge -/

/-- A one-column array reads the edge-indexed array it was made from. -/
theorem st_col_apply {w : Nat} (v : IVec S1049600 w) (e : Fin 1049600) : st_col v (ix2 e 0) = v (ix1 e) := by
  unfold st_col
  refine broadcastInDim_apply _ _ _ (ix2 e 0) (ix1 e) (fun a => ?_)
  match a with
  | ⟨0, _⟩ => rfl

/-- An index that is not negative is its own normalisation. -/
theorem st_wrap_apply_of_nonneg (v : IVec S1049600 32) (e : Fin 1049600) (h : 0 ≤ (v (ix1 e)).toInt) :
    st_wrap v (ix1 e) = v (ix1 e) := by
  have h0 : (0#32 : BitVec 32).toInt = 0 := by decide
  have hs : (v (ix1 e)).slt 0#32 = false := by
    unfold BitVec.slt; rw [h0]; exact decide_eq_false (not_lt.mpr h)
  have hc : IntOp.cmpi .slt (v (ix1 e)) 0#32 = 0#1 := by
    show BitVec.ofBool ((v (ix1 e)).slt 0#32) = 0#1
    rw [hs]; rfl
  show Scalar.select (IntOp.cmpi .slt (v (ix1 e)) 0#32) (IntOp.addi (v (ix1 e)) 1024#32) (v (ix1 e)) = v (ix1 e)
  rw [hc]; exact select_zero _ _

/-- The normalised destination column holds each edge's destination. -/
theorem col_wrap_d (hE : EdgeFacts) (e : Fin 1049600) :
    ((st_col (st_wrap st_d) (ix2 e 0) : BitVec 32)).toInt = ((dstOf e).val : Int) := by
  rw [st_col_apply, st_wrap_apply_of_nonneg _ _ (by rw [hE.d_val]; exact Int.natCast_nonneg _), hE.d_val]

/-- The normalised source column holds each edge's source. -/
theorem col_wrap_s (hE : EdgeFacts) (e : Fin 1049600) :
    ((st_col (st_wrap st_s) (ix2 e 0) : BitVec 32)).toInt = ((srcOf e).val : Int) := by
  rw [st_col_apply, st_wrap_apply_of_nonneg _ _ (by rw [hE.s_val]; exact Int.natCast_nonneg _), hE.s_val]

/-- The destination column holds each edge's destination. -/
theorem col_d (hE : EdgeFacts) (e : Fin 1049600) :
    ((st_col st_d (ix2 e 0) : BitVec 32)).toInt = ((dstOf e).val : Int) := by
  rw [st_col_apply, hE.d_val]

/-! ## A gather at a one-column array of start indices

Result row e reads the operand at the start word of row e, read signed and clamped into the operand's rows. -/

/-- The dimension numbers of a gather of single elements of a rank-1 operand. -/
abbrev colDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of single elements read at e. -/
theorem gather_col_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (colDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (colDims N E wf).start (ix1 e) idx 0 + (colDims N E wf).batchCoord (ix1 e) 0 + (colDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N E wf).startIndexMap from List.mem_singleton.mpr rfl)]
  have hsi : (colDims N E wf).siIdx (ix1 e) ⟨List.idxOf (0 : Fin 1) (colDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a gather of whole rows of a rank-2 operand. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at (e, c). -/
theorem gather_row_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowDims N C E wf).start (ix2 e c) idx 0 + (rowDims N C E wf).batchCoord (ix2 e c) 0
      + (rowDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1
      + (rowDims N C E wf).offCoord (ix2 e c) 1 = c.val
    have h1 : (1 : Fin 2) ∉ (rowDims N C E wf).startIndexMap := by
      intro h; exact Nat.one_ne_zero (congrArg Fin.val (List.mem_singleton.mp h))
    have hk : (1 : Fin 2) ∈ (rowDims N C E wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## Degrees and their inverse square roots -/

/-- A float constant spread over the nodes reads the constant. -/
theorem splatN_apply (w : BitVec 32) (j : Fin 1024) : splatN (F := Ideal) w (ix1 j) = Ideal.ofBits .f32 w := rfl

/-- With entries 0 or 1 the weight of the pair (i, j) is the adjacency entry. -/
theorem w_pair_adj (hE : EdgeFacts) (a2 : FVec Ideal S1024x1024 .f32) (hadj : Cert.Spec.Adj01 (Cert.Spec.cur2 a2))
    (i j : Fin 1024) : (st_w (F := Ideal) a2 (ix1 (pair i j)) : EReal) = a2 (ix2 i j) :=
  (hE.w_pair a2 i j).trans (Cert.MathLemmas.ite_ne_zero_eq (hadj i j))

/-- The edges whose normalised destination word is j are the edges with destination j. -/
theorem filter_wrap_d (hE : EdgeFacts) (j : Fin 1024) :
    (Finset.univ.filter (fun e : Fin 1049600 => ((st_col (st_wrap st_d) (ix2 e 0) : BitVec 32)).toInt = (j.val : Int)))
      = Finset.univ.filter (fun e => dstOf e = j) := by
  refine Eq.trans ?_ (Cert.MathLemmas.filter_dst_int j)
  exact Finset.filter_congr (fun e _ => by rw [col_wrap_d hE e])

/-- The edges whose destination word is j are the edges with destination j. -/
theorem filter_d (hE : EdgeFacts) (j : Fin 1024) :
    (Finset.univ.filter (fun e : Fin 1049600 => ((st_col st_d (ix2 e 0) : BitVec 32)).toInt = (j.val : Int)))
      = Finset.univ.filter (fun e => dstOf e = j) := by
  refine Eq.trans ?_ (Cert.MathLemmas.filter_dst_int j)
  exact Finset.filter_congr (fun e _ => by rw [col_d hE e])

/-! ## The scatter-adds of the program -/

/-- The scalar scatter-add read at node j: the operand's element plus the updates of the edges whose start word is j. -/
theorem scatter_vec_read (x : FVec Ideal S1024 .f32) (idx : IVec S1049600x1 32) (upd : FVec Ideal S1049600 .f32)
    (j : Fin 1024) :
    Host.scatterAdd scatter_S1024_S1049600x1_S1049600_n_0_0_1 x idx upd (ix1 j)
      = x (ix1 j) + ∑ e ∈ Finset.univ.filter (fun e : Fin 1049600 =>
            ((idx (ix2 e 0) : BitVec 32)).toInt = (j.val : Int)), upd (ix1 e) :=
  Cert.ScatterRead.scatterAdd_vec_apply scatter_S1024_S1049600x1_S1049600_n_0_0_1_wf x idx upd j

/-- The degrees are the scatter-add of the weights at the normalised destinations. -/
theorem st_deg_unfold (a2 : FVec Ideal S1024x1024 .f32) :
    st_deg (F := Ideal) a2
      = Host.scatterAdd scatter_S1024_S1049600x1_S1049600_n_0_0_1 (splatN (F := Ideal) 0x00000000#32)
          (st_col (st_wrap st_d)) (st_w (F := Ideal) a2) := rfl

/-- The scatter-add of the weights read at node j: zero plus the weights of the edges into j. -/
theorem st_deg_read (a2 : FVec Ideal S1024x1024 .f32) (j : Fin 1024) :
    st_deg (F := Ideal) a2 (ix1 j)
      = splatN (F := Ideal) 0x00000000#32 (ix1 j)
        + ∑ e ∈ Finset.univ.filter (fun e : Fin 1049600 =>
            ((st_col (st_wrap st_d) (ix2 e 0) : BitVec 32)).toInt = (j.val : Int)), st_w (F := Ideal) a2 (ix1 e) := by
  rw [st_deg_unfold]
  exact scatter_vec_read _ _ _ j

attribute [local irreducible] st_deg

/-- The in-degree with the self-loop. -/
theorem st_deg_apply (hE : EdgeFacts) (a2 : FVec Ideal S1024x1024 .f32) (hadj : Cert.Spec.Adj01 (Cert.Spec.cur2 a2))
    (j : Fin 1024) : st_deg (F := Ideal) a2 (ix1 j) = Cert.Spec.deg (Cert.Spec.cur2 a2) j := by
  refine (st_deg_read a2 j).trans ?_
  rw [filter_wrap_d hE j, Cert.MathLemmas.sum_by_dst, splatN_apply, Ideal.ofBits_zero_f32, zero_add, hE.w_loop a2 j]
  unfold Cert.Spec.deg
  refine (add_comm _ _).trans ?_
  refine congrArg (fun t : EReal => 1 + t) ?_
  refine Finset.sum_congr rfl (fun i _ => ?_)
  rw [w_pair_adj hE a2 hadj i j, mul_one]

/-- The inverse square root of the degree is a real number that is not negative. -/
theorem dinv_real (a2 : FVec Ideal S1024x1024 .f32) (hadj : Cert.Spec.Adj01 (Cert.Spec.cur2 a2)) (j : Fin 1024) :
    ∃ d : ℝ, 0 ≤ d ∧ Cert.Spec.dinv (Cert.Spec.cur2 a2) j = (d : EReal) := by
  obtain ⟨n, hn⟩ := Cert.MathLemmas.deg_real (Cert.Spec.cur2 a2) hadj j
  have hx : (1 : ℝ) ≤ 1 + (n : ℝ) := le_add_of_nonneg_right (Nat.cast_nonneg n)
  obtain ⟨_, h2, h3, _⟩ := Cert.MathLemmas.rsqrt_eq_div_sqrt (1 + (n : ℝ)) hx
  refine ⟨(Real.sqrt (1 + (n : ℝ)))⁻¹, h3, ?_⟩
  have hdeg : Cert.Spec.deg (Cert.Spec.cur2 a2) j = ((1 + (n : ℝ) : ℝ) : EReal) := hn
  unfold Cert.Spec.dinv
  rw [hdeg]; exact h2

/-- The inverse square roots of an array of degrees, as the program spells them: 1 / sqrt d where d is positive,
    0 elsewhere. -/
def dinvG (dg : FVec Ideal S1024 .f32) : FVec Ideal S1024 .f32 :=
  select (cmpf .ogt dg (splatN 0x00000000#32))
    (Host.divf (splatN 0x3F800000#32) (Host.sqrt dg))
    (broadcastInDim S1024 ![] bcast_S_S1024 (id (constant S_ .f32 0x00000000#32)))

/-- At a degree that is a real number at least 1 it is the inverse square root. -/
theorem dinvG_apply (dg : FVec Ideal S1024 .f32) (j : Fin 1024) (x : ℝ) (hx : 1 ≤ x) (hd : dg (ix1 j) = (x : EReal)) :
    dinvG dg (ix1 j) = Ideal.rsqrt (x : EReal) := by
  obtain ⟨h1, _, _, h4⟩ := Cert.MathLemmas.rsqrt_eq_div_sqrt x hx
  have hc : Ideal.cmp .ogt ((x : ℝ) : EReal) 0 = 1#1 := by
    show BitVec.ofBool (decide ((0 : EReal) < (x : EReal))) = 1#1
    rw [decide_eq_true h4]; rfl
  have hread : dinvG dg (ix1 j)
      = Scalar.select (Ideal.cmp .ogt (dg (ix1 j)) (splatN (F := Ideal) 0x00000000#32 (ix1 j)))
          (Ideal.div (splatN (F := Ideal) 0x3F800000#32 (ix1 j)) (Ideal.sqrt (dg (ix1 j))))
          (splatN (F := Ideal) 0x00000000#32 (ix1 j)) := rfl
  rw [hread, splatN_apply, splatN_apply, hd, Ideal.ofBits_zero_f32, hc, select_one, Ideal.ofBits_one_f32]
  exact h1.symm

/-- The reference's inverse square roots are those of its degrees. -/
theorem st_dinv_unfold (a2 : FVec Ideal S1024x1024 .f32) :
    st_dinv (F := Ideal) a2 = dinvG (st_deg (F := Ideal) a2) := rfl

/-- The inverse square roots of the degrees. -/
theorem st_dinv_apply (hE : EdgeFacts) (a2 : FVec Ideal S1024x1024 .f32) (hadj : Cert.Spec.Adj01 (Cert.Spec.cur2 a2))
    (j : Fin 1024) : st_dinv (F := Ideal) a2 (ix1 j) = Cert.Spec.dinv (Cert.Spec.cur2 a2) j := by
  obtain ⟨n, hn⟩ := Cert.MathLemmas.deg_real (Cert.Spec.cur2 a2) hadj j
  have hx : (1 : ℝ) ≤ 1 + (n : ℝ) := le_add_of_nonneg_right (Nat.cast_nonneg n)
  have hdeg : Cert.Spec.deg (Cert.Spec.cur2 a2) j = ((1 + (n : ℝ) : ℝ) : EReal) := hn
  have hd : st_deg (F := Ideal) a2 (ix1 j) = ((1 + (n : ℝ) : ℝ) : EReal) := (st_deg_apply hE a2 hadj j).trans hdeg
  rw [st_dinv_unfold]
  refine (dinvG_apply _ j _ hx hd).trans ?_
  unfold Cert.Spec.dinv
  rw [hdeg]

attribute [local irreducible] st_dinv

end Cert.ReferenceIdeal.Hand

end
-- ==== Proof.RefConv.lean ====
/-
  The reference's graph convolution over the explicit edge list equals the dense formula.

  The edge list holds every ordered pair (i, j) of the 1024 nodes, source first, then the 1024 self-loops. With the
  adjacency entries 0 or 1, the weight of the pair (i, j) is the entry A[i, j] and the weight of a self-loop is 1; the edge
  normaliser of e is dinv (src e) * dinv (dst e) * weight e; and the messages (X W)[src e, c] * norm e summed by destination
  give
    sum_i (X W)[i, c] * (dinv i * dinv j * A[i, j]) + (X W)[j, c] * (dinv j * dinv j),
  which is dinv j * (sum_i A[i, j] * (dinv i * (X W)[i, c]) + dinv j * (X W)[j, c]) because dinv j is a real number that is
  not negative, and such a factor distributes over a sum of extended reals.

  The reading is done once over GENERIC edge arrays (any source and destination columns that hold the edge list as signed
  words, any weights that are the adjacency entries on the pairs and 1 on the self-loops, any vector of inverse-root
  degrees); the program's arrays are then one instance.
-/
import proofs.«138646_g48533130445277_cont_sun_m_870_17_alg».proof.Proof.RefDinv

set_option maxHeartbeats 400000

noncomputable section

open scoped BigOperators

namespace Cert.ReferenceIdeal.Hand

open Cert.ReferenceIdeal Cert.ReferenceIdeal.Facts₀ Cert.ReferenceIdeal.Facts
open Idealize.ShloMosaic Idealize.ShloMosaic.ValueIdx Cert.EdgeIdx

/-! ## The convolution over generic edge arrays

The stages below are the program's own operations with the edge arrays as parameters: the normalised source column cs, the
normalised destination column cdw, the destination column cd, the weights w, and the inverse-root degrees dv. -/

/-- jnp.take of the rows of xw at the start column cs (rows out of range would be filled with the not-a-number pattern). -/
def takeG (xw : FVec Ideal S1024x64 .f32) (cs : IVec S1049600x1 32) : FVec Ideal S1049600x64 .f32 :=
  select
    (broadcastInDim S1049600x64 ![0] bcast_S1049600_S1049600x64_0
      (Host.reduce IntOp.andi
        (andi (cmpi .sge cs (broadcastInDim S1049600x1 ![] bcast_S_S1049600x1 (constantI S_ 32 0#32)))
          (cmpi .sle cs
            (broadcastInDim S1049600x1 ![0, 1] bcast_S1x1_S1049600x1_0_1 (broadcastInDim S1x1 ![1] bcast_S1_S1x1_1 (constantI S1 32 1023#32)))))
        (constantI S_ 1 1#1) reducesTo_S1049600x1_S1049600_d1 h_S_))
    (Host.gather gather_S1024x64_S1049600x1_S1049600x64_1_0_n_n_0_1_164 xw cs)
    (broadcastInDim S1049600x64 ![] bcast_S_S1049600x64 (constant S_ .f32 0x7FC00000#32))

/-- The edge normalisers dv[src] * dv[dst] * w. -/
def normG (dv : FVec Ideal S1024 .f32) (cs cdw : IVec S1049600x1 32) (w : FVec Ideal S1049600 .f32) : FVec Ideal S1049600 .f32 :=
  mulf (mulf (Host.gather gather_S1024_S1049600x1_S1049600_n_0_n_n_0_1_1 dv cs)
      (Host.gather gather_S1024_S1049600x1_S1049600_n_0_n_n_0_1_1 dv cdw)) w

/-- The messages xw[src] * norm. -/
def msgG (dv : FVec Ideal S1024 .f32) (cs cdw : IVec S1049600x1 32) (w : FVec Ideal S1049600 .f32) (xw : FVec Ideal S1024x64 .f32) :
    FVec Ideal S1049600x64 .f32 :=
  mulf (takeG xw cs)
    (broadcastInDim S1049600x64 ![0, 1] bcast_S1049600x1_S1049600x64_0_1
      (broadcastInDim S1049600x1 ![0] bcast_S1049600_S1049600x1_0 (normG dv cs cdw w)))

/-- The messages summed by destination, plus the bias. -/
def convG (dv : FVec Ideal S1024 .f32) (cs cdw cd : IVec S1049600x1 32) (w : FVec Ideal S1049600 .f32) (xw : FVec Ideal S1024x64 .f32)
    (b : FVec Ideal S64 .f32) : FVec Ideal S1024x64 .f32 :=
  addf (Host.scatterAdd scatter_S1024x64_S1049600x1_S1049600x64_1_0_0_1 (splat64 0x00000000#32) cd (msgG dv cs cdw w xw))
    (broadcastInDim S1024x64 ![0, 1] bcast_S1x64_S1024x64_0_1 (broadcastInDim S1x64 ![1] bcast_S64_S1x64_1 b))

section Generic

variable (dv : FVec Ideal S1024 .f32) (cs cdw cd : IVec S1049600x1 32) (w : FVec Ideal S1049600 .f32)
  (xw : FVec Ideal S1024x64 .f32) (b : FVec Ideal S64 .f32)
  (D : Fin 1024 → EReal) (A : Fin 1024 → Fin 1024 → EReal)

/-- An edge-indexed array as a one-column array, at any element type. -/
theorem col_apply {α : Type} (v : S1049600.Idx → α) (e : Fin 1049600) :
    broadcastInDim S1049600x1 ![0] bcast_S1049600_S1049600x1_0 v (ix2 e 0) = v (ix1 e) := by
  refine broadcastInDim_apply _ _ _ (ix2 e 0) (ix1 e) (fun a => ?_)
  match a with
  | ⟨0, _⟩ => rfl

/-- A one-column array spread along 64 columns. -/
theorem spread_col_apply {α : Type} (v : S1049600x1.Idx → α) (e : Fin 1049600) (c : Fin 64) :
    broadcastInDim S1049600x64 ![0, 1] bcast_S1049600x1_S1049600x64_0_1 v (ix2 e c) = v (ix2 e 0) := by
  refine broadcastInDim_apply _ _ _ (ix2 e c) (ix2 e 0) (fun a => ?_)
  match a with
  | ⟨0, _⟩ => rfl
  | ⟨1, _⟩ => rfl

/-- An edge-indexed array spread along 64 columns. -/
theorem spread_edge_apply {α : Type} (v : S1049600.Idx → α) (e : Fin 1049600) (c : Fin 64) :
    broadcastInDim S1049600x64 ![0] bcast_S1049600_S1049600x64_0 v (ix2 e c) = v (ix1 e) := by
  refine broadcastInDim_apply _ _ _ (ix2 e c) (ix1 e) (fun a => ?_)
  match a with
  | ⟨0, _⟩ => rfl

/-- The bias row spread down the rows. -/
theorem bias_apply (j : Fin 1024) (c : Fin 64) :
    broadcastInDim S1024x64 ![0, 1] bcast_S1x64_S1024x64_0_1 (broadcastInDim S1x64 ![1] bcast_S64_S1x64_1 b) (ix2 j c)
      = b (ix1 c) := by
  refine (broadcastInDim_apply _ _ _ (ix2 j c) (ix2 (0 : Fin 1) c) (fun a => ?_)).trans ?_
  · match a with
    | ⟨0, _⟩ => rfl
    | ⟨1, _⟩ => rfl
  · refine broadcastInDim_apply _ _ _ (ix2 (0 : Fin 1) c) (ix1 c) (fun a => ?_)
    match a with
    | ⟨0, _⟩ => rfl

/-- The element gather at an edge whose start word holds the node k. -/
theorem gather_node_apply (idx : IVec S1049600x1 32) (e : Fin 1049600) (k : Fin 1024)
    (hk : ((idx (ix2 e 0) : BitVec 32)).toInt = (k.val : Int)) :
    Host.gather gather_S1024_S1049600x1_S1049600_n_0_n_n_0_1_1 dv idx (ix1 e) = dv (ix1 k) := by
  have hN : 0 < 1024 := by decide
  unfold gather_S1024_S1049600x1_S1049600_n_0_n_n_0_1_1
  refine (gather_col_apply hN _ dv idx e).trans (congrArg (fun t : Fin 1024 => dv (ix1 t)) (Fin.ext ?_))
  show min ((idx (ix2 e 0) : BitVec 32)).toInt.toNat (1024 - 1) = k.val
  rw [hk]; have := k.isLt; omega

/-- The row gather at an edge whose start word holds the node k. -/
theorem gather_noderow_apply (idx : IVec S1049600x1 32) (e : Fin 1049600) (c : Fin 64)
    (k : Fin 1024) (hk : ((idx (ix2 e 0) : BitVec 32)).toInt = (k.val : Int)) :
    Host.gather gather_S1024x64_S1049600x1_S1049600x64_1_0_n_n_0_1_164 xw idx (ix2 e c) = xw (ix2 k c) := by
  have hN : 0 < 1024 := by decide
  unfold gather_S1024x64_S1049600x1_S1049600x64_1_0_n_n_0_1_164
  refine (gather_row_apply hN _ xw idx e c).trans (congrArg (fun t : Fin 1024 => xw (ix2 t c)) (Fin.ext ?_))
  show min ((idx (ix2 e 0) : BitVec 32)).toInt.toNat (1024 - 1) = k.val
  rw [hk]; have := k.isLt; omega

/-- The rows scatter-add read at (j, c). -/
theorem scatter_rows_read (x : FVec Ideal S1024x64 .f32) (idx : IVec S1049600x1 32) (upd : FVec Ideal S1049600x64 .f32)
    (j : Fin 1024) (c : Fin 64) :
    Host.scatterAdd scatter_S1024x64_S1049600x1_S1049600x64_1_0_0_1 x idx upd (ix2 j c)
      = x (ix2 j c) + ∑ e ∈ Finset.univ.filter (fun e : Fin 1049600 =>
            ((idx (ix2 e 0) : BitVec 32)).toInt = (j.val : Int)), upd (ix2 e c) :=
  Cert.ScatterRead.scatterAdd_rows_apply scatter_S1024x64_S1049600x1_S1049600x64_1_0_0_1_wf x idx upd j c

/-- The edge normaliser. -/
theorem normG_apply (hdv : ∀ j, dv (ix1 j) = D j)
    (hcs : ∀ e : Fin 1049600, ((cs (ix2 e 0) : BitVec 32)).toInt = ((srcOf e).val : Int))
    (hcdw : ∀ e : Fin 1049600, ((cdw (ix2 e 0) : BitVec 32)).toInt = ((dstOf e).val : Int))
    (e : Fin 1049600) :
    normG dv cs cdw w (ix1 e) = D (srcOf e) * D (dstOf e) * w (ix1 e) := by
  show Host.gather gather_S1024_S1049600x1_S1049600_n_0_n_n_0_1_1 dv cs (ix1 e)
      * Host.gather gather_S1024_S1049600x1_S1049600_n_0_n_n_0_1_1 dv cdw (ix1 e) * w (ix1 e) = _
  rw [gather_node_apply dv cs e (srcOf e) (hcs e), gather_node_apply dv cdw e (dstOf e) (hcdw e), hdv, hdv]

/-- A word that is not negative passes the test against zero. -/
theorem sge_zero_of_nonneg (x : BitVec 32) (h : 0 ≤ x.toInt) : IntOp.cmpi .sge x 0#32 = 1#1 := by
  refine IntOp.cmpi_sge.mpr ?_
  have h0 : (0#32 : BitVec 32).toInt = 0 := by decide
  rw [h0]; exact h

/-- A word at most 1023 passes the test against 1023. -/
theorem sle_1023_of_le (x : BitVec 32) (h : x.toInt ≤ 1023) : IntOp.cmpi .sle x 1023#32 = 1#1 := by
  refine IntOp.cmpi_sle.mpr ?_
  have h0 : (1023#32 : BitVec 32).toInt = 1023 := by decide
  rw [h0]; exact h

/-- A left fold by `and` from 1 over bits that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    have h1 : IntOp.andi 1#1 1#1 = 1#1 := by decide
    rw [List.foldl_cons]
    refine foldl_andi_one f l _ ?_ (fun n hn => h n (List.mem_cons.mpr (Or.inr hn)))
    rw [hi, h a (List.mem_cons.mpr (Or.inl rfl)), h1]

/-- A conjunction along the one-element column axis of a mask that is 1 everywhere is 1. -/
theorem reduce_and_one (m : IVec S1049600x1 1) (hm : ∀ i, m i = 1#1) (j : S1049600.Idx) :
    Host.reduce IntOp.andi m (constantI S_ 1 1#1) reducesTo_S1049600x1_S1049600_d1 h_S_ j = 1#1 := by
  rw [Host.reduce_eq_foldl]
  exact foldl_andi_one m _ _ rfl (fun n _ => hm n)

/-- jnp.take of the rows at the sources: every source is in range, so the row is the gathered one. -/
theorem takeG_apply (hcs : ∀ e : Fin 1049600, ((cs (ix2 e 0) : BitVec 32)).toInt = ((srcOf e).val : Int))
    (e : Fin 1049600) (c : Fin 64) :
    takeG xw cs (ix2 e c) = xw (ix2 (srcOf e) c) := by
  have hmask : ∀ i : S1049600x1.Idx,
      (andi (cmpi .sge cs (broadcastInDim S1049600x1 ![] bcast_S_S1049600x1 (constantI S_ 32 0#32)))
          (cmpi .sle cs
            (broadcastInDim S1049600x1 ![0, 1] bcast_S1x1_S1049600x1_0_1
              (broadcastInDim S1x1 ![1] bcast_S1_S1x1_1 (constantI S1 32 1023#32))))) i = 1#1 := by
    intro i
    obtain ⟨e', k, rfl⟩ : ∃ (e' : Fin 1049600) (k : Fin 1), i = ix2 e' k := ⟨i 0, i 1, eq_ix2 i⟩
    obtain rfl : k = 0 := Subsingleton.elim _ _
    have hv := hcs e'
    have hge : IntOp.cmpi .sge (cs (ix2 e' 0)) 0#32 = 1#1 :=
      sge_zero_of_nonneg _ (by rw [hv]; exact Int.natCast_nonneg _)
    have hle : IntOp.cmpi .sle (cs (ix2 e' 0)) 1023#32 = 1#1 :=
      sle_1023_of_le _ (by rw [hv]; have := (srcOf e').isLt; omega)
    show IntOp.andi (IntOp.cmpi .sge (cs (ix2 e' 0)) 0#32) (IntOp.cmpi .sle (cs (ix2 e' 0)) 1023#32) = 1#1
    rw [hge, hle]; decide
  unfold takeG
  rw [select_apply, spread_edge_apply, reduce_and_one _ hmask, select_one]
  exact gather_noderow_apply xw cs e c (srcOf e) (hcs e)

/-- The message of edge e at column c. -/
theorem msgG_apply (hdv : ∀ j, dv (ix1 j) = D j)
    (hcs : ∀ e : Fin 1049600, ((cs (ix2 e 0) : BitVec 32)).toInt = ((srcOf e).val : Int))
    (hcdw : ∀ e : Fin 1049600, ((cdw (ix2 e 0) : BitVec 32)).toInt = ((dstOf e).val : Int))
    (e : Fin 1049600) (c : Fin 64) :
    msgG dv cs cdw w xw (ix2 e c) = xw (ix2 (srcOf e) c) * (D (srcOf e) * D (dstOf e) * w (ix1 e)) := by
  unfold msgG
  rw [mulf_apply, takeG_apply cs xw hcs e c, spread_col_apply, col_apply, normG_apply dv cs cdw w D hdv hcs hcdw e]

/-- The convolution over the edge list, read at (j, c): the pairs into j, the self-loop at j, the bias. -/
theorem convG_apply (hdv : ∀ j, dv (ix1 j) = D j)
    (hcs : ∀ e : Fin 1049600, ((cs (ix2 e 0) : BitVec 32)).toInt = ((srcOf e).val : Int))
    (hcdw : ∀ e : Fin 1049600, ((cdw (ix2 e 0) : BitVec 32)).toInt = ((dstOf e).val : Int))
    (hcd : ∀ e : Fin 1049600, ((cd (ix2 e 0) : BitVec 32)).toInt = ((dstOf e).val : Int))
    (hwp : ∀ i j : Fin 1024, w (ix1 (pair i j)) = A i j) (hwl : ∀ k : Fin 1024, w (ix1 (loop k)) = 1)
    (j : Fin 1024) (c : Fin 64) :
    convG dv cs cdw cd w xw b (ix2 j c)
      = ((∑ i : Fin 1024, xw (ix2 i c) * (D i * D j * A i j)) + xw (ix2 j c) * (D j * D j * 1)) + b (ix1 c) := by
  have hf : (Finset.univ.filter (fun e : Fin 1049600 => ((cd (ix2 e 0) : BitVec 32)).toInt = (j.val : Int)))
      = Finset.univ.filter (fun e => dstOf e = j) := by
    refine Eq.trans ?_ (Cert.MathLemmas.filter_dst_int j)
    exact Finset.filter_congr (fun e _ => by rw [hcd e])
  have hz : splat64 (F := Ideal) 0x00000000#32 (ix2 j c) = 0 := Ideal.ofBits_zero_f32
  unfold convG
  rw [addf_apply, scatter_rows_read, bias_apply, hf, Cert.MathLemmas.sum_by_dst, hz, zero_add]
  rw [msgG_apply dv cs cdw w xw D hdv hcs hcdw (loop j) c, Cert.MathLemmas.srcOf_loop, Cert.MathLemmas.dstOf_loop, hwl j]
  refine congrArg (fun t : EReal => (t + xw (ix2 j c) * (D j * D j * 1)) + b (ix1 c)) ?_
  refine Finset.sum_congr rfl (fun i _ => ?_)
  rw [msgG_apply dv cs cdw w xw D hdv hcs hcdw (pair i j) c, Cert.MathLemmas.srcOf_pair, Cert.MathLemmas.dstOf_pair, hwp i j]

end Generic

/-! ## The program's convolution -/

/-- The product of X and W at (i, c). -/
theorem xw_apply (X : FVec Ideal S1024x64 .f32) (W : FVec Ideal S64x64 .f32) (i : Fin 1024) (c : Fin 64) :
    Host.dotGeneral dot_S1024x64_S64x64_S1024x64_1_0_0_1_n_n none X W (ix2 i c) = ∑ k : Fin 64, X (ix2 i k) * W (ix2 k c) := by
  refine (Ideal.dotGeneral_apply _ none .single X W (ix2 i c)).trans ?_
  unfold dot_S1024x64_S64x64_S1024x64_1_0_0_1_n_n
  exact Cert.DotRead.sum_contr_plain dot_S1024x64_S64x64_S1024x64_1_0_0_1_n_n_wf X W i c

/-- The program's convolution is the generic one at the program's edge arrays. -/
theorem st_conv_eq (a2 : FVec Ideal S1024x1024 .f32) (X : FVec Ideal S1024x64 .f32) (W : FVec Ideal S64x64 .f32)
    (b : FVec Ideal S64 .f32) :
    st_conv (F := Ideal) a2 X W b
      = convG (st_dinv (F := Ideal) a2) (st_col (st_wrap st_s)) (st_col (st_wrap st_d)) (st_col st_d) (st_w (F := Ideal) a2)
          (Host.dotGeneral dot_S1024x64_S64x64_S1024x64_1_0_0_1_n_n none X W) b := by
  unfold st_conv convG msgG st_take takeG st_norm normG
  rfl

/-- One graph convolution: the edge-list form is the dense form when the adjacency entries are 0 or 1. -/
theorem st_conv_apply (hE : EdgeFacts) (a2 : FVec Ideal S1024x1024 .f32) (hadj : Cert.Spec.Adj01 (Cert.Spec.cur2 a2))
    (X : FVec Ideal S1024x64 .f32) (W : FVec Ideal S64x64 .f32) (b : FVec Ideal S64 .f32) (j : Fin 1024) (c : Fin 64) :
    st_conv (F := Ideal) a2 X W b (ix2 j c)
      = Cert.Spec.conv (Cert.Spec.cur2 a2) (Cert.Spec.cur2 X) (Cert.Spec.cur2 W) (Cert.Spec.cur1 b) j c := by
  choose D hD0 hD using dinv_real a2 hadj
  rw [st_conv_eq a2 X W b]
  rw [convG_apply (st_dinv (F := Ideal) a2) (st_col (st_wrap st_s)) (st_col (st_wrap st_d)) (st_col st_d) (st_w (F := Ideal) a2)
    (Host.dotGeneral dot_S1024x64_S64x64_S1024x64_1_0_0_1_n_n none X W) b (fun j => ((D j : ℝ) : EReal)) (Cert.Spec.cur2 a2)
    (fun j => (st_dinv_apply hE a2 hadj j).trans (hD j)) (col_wrap_s hE) (col_wrap_d hE) (col_d hE)
    (w_pair_adj hE a2 hadj) (hE.w_loop a2) j c]
  unfold Cert.Spec.conv
  simp only [hD, xw_apply]
  exact congrArg (fun t : EReal => t + b (ix1 c))
    (Cert.MathLemmas.conv_algebra D hD0 (Cert.Spec.cur2 a2) (fun i => ∑ k : Fin 64, X (ix2 i k) * W (ix2 k c)) j).symm

end Cert.ReferenceIdeal.Hand

end
-- ==== Proof.Bridge.lean ====
/-
  The two programs meet at the mathematics: the kernel's result entries and the reference's result entries are the
  same functions of the argument arrays' entries.

  Kernel side: the body's payloads read at an index are the curried formulas over the views of the packed parameter
  block, and each view of the packed block is the argument it was packed from. Reference side: the stages read at an
  index are the same formulas, the graph convolutions under the hypothesis that every adjacency entry is 0 or 1.
-/
import proofs.«138646_g48533130445277_cont_sun_m_870_17_alg».proof.Proof.KPacked
import proofs.«138646_g48533130445277_cont_sun_m_870_17_alg».proof.Proof.KPayH2
import proofs.«138646_g48533130445277_cont_sun_m_870_17_alg».proof.Proof.KPayQ
import proofs.«138646_g48533130445277_cont_sun_m_870_17_alg».proof.Proof.RefGru
import proofs.«138646_g48533130445277_cont_sun_m_870_17_alg».proof.Proof.RefHead
import proofs.«138646_g48533130445277_cont_sun_m_870_17_alg».proof.Proof.RefEdges
import proofs.«138646_g48533130445277_cont_sun_m_870_17_alg».proof.Proof.RefConv

noncomputable section

namespace Cert.Proof.Bridge

open Idealize.ShloMosaic Idealize.ShloMosaic.TcCoe Idealize.ShloMosaic.ValueIdx Idealize.SL.Sem
open Cert.Spec

/-! ## The kernel's results -/

section Kernel
open Cert.KernelIdeal Cert.KernelIdeal.Hand

variable (m : (ℓ : Loc nD τ sig) → Buf (Elt Ideal) ℓ) (c : Dev nD)

/-- The kernel's new hidden state, entry by entry, over the argument arrays. -/
theorem k_h2 (i : Fin 1024) (j : Fin 64) :
    h2v (F := Ideal) (m ((c.tc : Thread nD τ).loc main_arg0)) (m ((c.tc : Thread nD τ).loc main_arg1)) (V m c main_v10) (ix2 i j)
      = Spec.h2 (cur2 (m ((c.tc : Thread nD τ).loc main_arg0))) (cur2 (m ((c.tc : Thread nD τ).loc main_arg1)))
          (cur2 (m ((c.tc : Thread nD τ).loc main_arg3))) (cur1 (m ((c.tc : Thread nD τ).loc main_arg4)))
          (cur2 (m ((c.tc : Thread nD τ).loc main_arg5))) (cur2 (m ((c.tc : Thread nD τ).loc main_arg6)))
          (cur1 (m ((c.tc : Thread nD τ).loc main_arg7))) (cur1 (m ((c.tc : Thread nD τ).loc main_arg8))) i j := by
  rw [h2v_apply, pk_encW m c, pk_encB m c, pk_wih m c, pk_whh m c, pk_bih m c, pk_bhh m c]

/-- The kernel's head values, entry by entry, over the argument arrays. -/
theorem k_q (i : Fin 1024) (a : Fin 16) :
    qv (F := Ideal) (m ((c.tc : Thread nD τ).loc main_arg0)) (m ((c.tc : Thread nD τ).loc main_arg1))
        (m ((c.tc : Thread nD τ).loc main_arg2)) (V m c main_v10) (ix2 i a)
      = Spec.q (cur2 (m ((c.tc : Thread nD τ).loc main_arg0))) (cur2 (m ((c.tc : Thread nD τ).loc main_arg1)))
          (cur2 (m ((c.tc : Thread nD τ).loc main_arg2)))
          (cur2 (m ((c.tc : Thread nD τ).loc main_arg3))) (cur1 (m ((c.tc : Thread nD τ).loc main_arg4)))
          (cur2 (m ((c.tc : Thread nD τ).loc main_arg5))) (cur2 (m ((c.tc : Thread nD τ).loc main_arg6)))
          (cur1 (m ((c.tc : Thread nD τ).loc main_arg7))) (cur1 (m ((c.tc : Thread nD τ).loc main_arg8)))
          (cur2 (m ((c.tc : Thread nD τ).loc main_arg9))) (cur1 (m ((c.tc : Thread nD τ).loc main_arg10)))
          (cur2 (m ((c.tc : Thread nD τ).loc main_arg11))) (cur1 (m ((c.tc : Thread nD τ).loc main_arg12)))
          (cur2 (m ((c.tc : Thread nD τ).loc main_arg13))) (cur1 (m ((c.tc : Thread nD τ).loc main_arg14))) i a := by
  unfold qv Spec.q
  rw [qvOf_apply, pk_g1W m c, pk_g1b m c, pk_g2W m c, pk_g2b m c, pk_qW m c, pk_qb m c]
  congr 1
  funext i' j'
  exact k_h2 m c i' j'

end Kernel

/-! ## The reference's results -/

section Reference
open Cert.ReferenceIdeal Cert.ReferenceIdeal.Hand

variable (a0 : FVec Ideal S1024x275 .f32) (a1 : FVec Ideal S1024x64 .f32) (a2 : FVec Ideal S1024x1024 .f32)
  (a3 : FVec Ideal S275x64 .f32) (a4 : FVec Ideal S64 .f32) (a5 a6 : FVec Ideal S192x64 .f32) (a7 a8 : FVec Ideal S192 .f32)
  (a9 : FVec Ideal S64x64 .f32) (a10 : FVec Ideal S64 .f32) (a11 : FVec Ideal S64x64 .f32) (a12 : FVec Ideal S64 .f32)
  (a13 : FVec Ideal S64x16 .f32) (a14 : FVec Ideal S16 .f32)

/-- The reference's head values, entry by entry, when every adjacency entry is 0 or 1. -/
theorem r_q (hadj : Adj01 (cur2 a2)) (i : Fin 1024) (a : Fin 16) :
    st_qOf (F := Ideal) a2 (st_h2 (F := Ideal) a0 a1 a3 a4 a5 a6 a7 a8) a9 a10 a11 a12 a13 a14 (ix2 i a)
      = Spec.q (cur2 a0) (cur2 a1) (cur2 a2) (cur2 a3) (cur1 a4) (cur2 a5) (cur2 a6) (cur1 a7) (cur1 a8)
          (cur2 a9) (cur1 a10) (cur2 a11) (cur1 a12) (cur2 a13) (cur1 a14) i a := by
  rw [st_qOf_apply a2 _ a9 a10 a11 a12 a13 a14 (fun Y W b j c => st_conv_apply edgeFacts a2 hadj Y W b j c)]
  unfold Spec.q
  congr 1
  funext i' j'
  exact st_h2_apply a0 a1 a3 a4 a5 a6 a7 a8 i' j'

end Reference

end Cert.Proof.Bridge

end
-- ==== Proof.lean ====
/-
  The certificate: a fused graph-agent step (a linear encoder with a rectifier, a GRU cell, two graph convolutions over a
  dense adjacency matrix, a linear head) computed by one kernel from a packed parameter block, against its reference,
  which spells the convolutions over the explicit list of all 1024 x 1024 ordered pairs plus the self-loops, with gathers
  and segment sums.

  The two agree entry by entry over the extended reals when every adjacency entry is 0 or 1: then the reference's edge
  weight (1 where the entry is nonzero) is the entry itself, its in-degree count is the column sum, the degree is a real
  number at least 1 (so the guarded 1 / sqrt is the inverse square root), and the segment sum over the edges into node j
  regroups as the column sum over sources plus the self-loop; the only law used beyond commutativity and associativity is
  that a nonnegative REAL factor (the inverse-root degree) distributes over a sum of extended reals.

  The frames: each program runs to its end, faults nowhere and leaves its fifteen argument arrays as launched. The
  kernel's frame is the pipeline's: thirteen host operations build the packed block, then one gridless region whose body
  loads whole blocks and row ranges and stores each result once, whole. The reference's is its run: 272 host operations in
  order, each result buffer at the composition of the operations that made it.
-/
import proofs.«138646_g48533130445277_cont_sun_m_870_17_alg».proof.Defs
import proofs.«138646_g48533130445277_cont_sun_m_870_17_alg».proof.Proof.Gen.Kernel
import proofs.«138646_g48533130445277_cont_sun_m_870_17_alg».proof.Proof.Gen.KernelIdeal
import proofs.«138646_g48533130445277_cont_sun_m_870_17_alg».proof.Proof.Gen.ReferenceIdeal
import proofs.«138646_g48533130445277_cont_sun_m_870_17_alg».proof.Proof.Gen.Pre_finite_inputs
import proofs.«138646_g48533130445277_cont_sun_m_870_17_alg».proof.Proof.KFrame
import proofs.«138646_g48533130445277_cont_sun_m_870_17_alg».proof.Proof.KFrameBits
import proofs.«138646_g48533130445277_cont_sun_m_870_17_alg».proof.Proof.RefVals
import proofs.«138646_g48533130445277_cont_sun_m_870_17_alg».proof.Proof.PreAdj
import proofs.«138646_g48533130445277_cont_sun_m_870_17_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments. -/
theorem frame_k : Cert.frame_Kernel := fun m ρ _ => Cert.Kernel.Hand.frame m ρ

/-- The idealized kernel runs and keeps its arguments. -/
theorem frame_ki : Cert.frame_KernelIdeal := fun m ρ _ => Cert.KernelIdeal.Hand.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- From memories that agree on the arguments, with every adjacency entry 0 or 1 (the precondition's last conjunct), both
    idealized programs end with the same two result arrays: each entry of either is the same formula of the arguments' entries. -/
theorem algebraic : Cert.algebraic_KernelIdeal_ReferenceIdeal := by
  intro m ρ m' ρ' hpre hagree
  refine ⟨fun c => Cert.KernelIdeal.Hand.qv (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Hand.V m c Cert.KernelIdeal.main_v10),
    fun c => Cert.KernelIdeal.Hand.h2v (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.Hand.V m c Cert.KernelIdeal.main_v10),
    Cert.KernelIdeal.Hand.run_vals m ρ, ?_⟩
  refine (θ_run Cert.ReferenceIdeal.defs _ _).mono (fun _ h c => ⟨(h c).1.trans ?_, (h c).2.1.trans ?_, (h c).2.2⟩)
    (Cert.ReferenceIdeal.Hand.run (F := Ideal) m' ρ')
  · have hadj := Cert.Proof.PreAdj.adj01_of_pre m hpre c
    obtain ⟨e0, e1, e2, e3, e4, e5, e6, e7, e8, e9, e10, e11, e12, e13, e14⟩ := hagree c
    rw [e0, e1, e2, e3, e4, e5, e6, e7, e8, e9, e10, e11, e12, e13, e14]
    funext idx
    obtain ⟨i, a, rfl⟩ : ∃ (i : Fin 1024) (a : Fin 16), idx = ix2 i a := ⟨idx 0, idx 1, eq_ix2 idx⟩
    exact (Cert.Proof.Bridge.r_q _ _ _ _ _ _ _ _ _ _ _ _ _ _ _ hadj i a).trans (Cert.Proof.Bridge.k_q m c i a).symm
  · obtain ⟨e0, e1, e2, e3, e4, e5, e6, e7, e8, e9, e10, e11, e12, e13, e14⟩ := hagree c
    rw [e0, e1, e3, e4, e5, e6, e7, e8]
    funext idx
    obtain ⟨i, j, rfl⟩ : ∃ (i : Fin 1024) (j : Fin 64), idx = ix2 i j := ⟨idx 0, idx 1, eq_ix2 idx⟩
    exact (Cert.ReferenceIdeal.Hand.st_h2_apply _ _ _ _ _ _ _ _ i j).trans (Cert.Proof.Bridge.k_h2 m c i j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
